-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S64x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1x64x64 : Shape := ⟨5, ![16, 512, 1, 64, 64]⟩
abbrev S16x512x2 : Shape := ⟨3, ![16, 512, 2]⟩
abbrev S_ : Shape := ⟨0, ![]⟩

class Facts : Prop where
  bcast_S_S16x512x1x64x64 : S_.BroadcastsInDim S16x512x1x64x64 (![] : Fin 0 → Fin S16x512x1x64x64.rank)
  reducesTo_S16x512x1x64x64_S_d0_1_2_3_4 : S16x512x1x64x64.ReducesTo [0, 1, 2, 3, 4] S_
  h_S_ : 0 < S_.numel
  bcast_S_S16x512x2 : S_.BroadcastsInDim S16x512x2 (![] : Fin 0 → Fin S16x512x2.rank)
  reducesTo_S16x512x2_S_d0_1_2 : S16x512x2.ReducesTo [0, 1, 2] S_

variable [Facts]

def fn {F : FTy → Type} [FloatOps F] (main_arg0 : FVec F S16x512x1x64x64 .f32) (main_arg1 : IVec S16x512x2 32) : IVec S_ 1 :=
  let main_v0 : FVec F S16x512x1x64x64 .f32 := Host.absf main_arg0
  let main_cst : FVec F S_ .f32 := constant S_ .f32 0x7F800000#32
  let main_v1 : FVec F S16x512x1x64x64 .f32 := broadcastInDim S16x512x1x64x64 ![] bcast_S_S16x512x1x64x64 main_cst
  let main_v2 : IVec S16x512x1x64x64 1 := cmpf .olt main_v0 main_v1
  let main_c : IVec S_ 1 := constantI S_ 1 1#1
  let main_v3 : IVec S_ 1 := (fun x v => Host.reduce IntOp.andi x v reducesTo_S16x512x1x64x64_S_d0_1_2_3_4 h_S_) main_v2 main_c
  let main_c_0 : IVec S_ 32 := constantI S_ 32 0#32
  let main_v4 : IVec S16x512x2 32 := broadcastInDim S16x512x2 ![] bcast_S_S16x512x2 main_c_0
  let main_v5 : IVec S16x512x2 1 := cmpi .sge main_arg1 main_v4
  let main_c_1 : IVec S_ 1 := constantI S_ 1 1#1
  let main_v6 : IVec S_ 1 := (fun x v => Host.reduce IntOp.andi x v reducesTo_S16x512x2_S_d0_1_2 h_S_) main_v5 main_c_1
  let main_v7 : IVec S_ 1 := andi main_v3 main_v6
  main_v7
-- ==== Kernel.lean ====
abbrev S16x512x1x64x64 : Shape := ⟨5, ![16, 512, 1, 64, 64]⟩
abbrev S16x512x2 : Shape := ⟨3, ![16, 512, 2]⟩
abbrev S16x512x64x64 : Shape := ⟨4, ![16, 512, 64, 64]⟩
abbrev S16x512x1 : Shape := ⟨3, ![16, 512, 1]⟩
abbrev S16x512 : Shape := ⟨2, ![16, 512]⟩
abbrev S16x1x512x512 : Shape := ⟨4, ![16, 1, 512, 512]⟩
abbrev S1x32x64x64 : Shape := ⟨4, ![1, 32, 64, 64]⟩
abbrev S1x1x512x512 : Shape := ⟨4, ![1, 1, 512, 512]⟩
abbrev S512x512 : Shape := ⟨2, ![512, 512]⟩
abbrev S512x2048 : Shape := ⟨2, ![512, 2048]⟩
abbrev S2048x512 : Shape := ⟨2, ![2048, 512]⟩
abbrev S512x32 : Shape := ⟨2, ![512, 32]⟩
abbrev S32x512 : Shape := ⟨2, ![32, 512]⟩
abbrev S512x1 : Shape := ⟨2, ![512, 1]⟩
abbrev S1x64 : Shape := ⟨2, ![1, 64]⟩
abbrev S64x1 : Shape := ⟨2, ![64, 1]⟩
abbrev S1x512 : Shape := ⟨2, ![1, 512]⟩
abbrev S1x1 : Shape := ⟨2, ![1, 1]⟩
abbrev S512x64 : Shape := ⟨2, ![512, 64]⟩
abbrev S512x128 : Shape := ⟨2, ![512, 128]⟩
abbrev S512 : Shape := ⟨1, ![512]⟩
abbrev S512x2 : Shape := ⟨2, ![512, 2]⟩
abbrev S64x512 : Shape := ⟨2, ![64, 512]⟩
abbrev S1x1x64x64 : Shape := ⟨4, ![1, 1, 64, 64]⟩
abbrev S64x64 : Shape := ⟨2, ![64, 64]⟩
abbrev S2x512 : Shape := ⟨2, ![2, 512]⟩

abbrev nBuf : Space → Nat
  | .hbm => 6
  | .vmem => 10
  | .smem => 2
  | _ => 0

abbrev bufTy : (tb : Table) → Fin (tcTables nBuf tb) → BufTy
  | .hbm, ⟨0, _⟩ => ⟨S16x512x1x64x64, .f32⟩
  | .hbm, ⟨1, _⟩ => ⟨S16x512x2, .i32⟩
  | .hbm, ⟨2, _⟩ => ⟨S16x512x64x64, .f32⟩
  | .hbm, ⟨3, _⟩ => ⟨S16x512x1, .i32⟩
  | .hbm, ⟨4, _⟩ => ⟨S16x512x1, .i32⟩
  | .hbm, ⟨5, _⟩ => ⟨S16x1x512x512, .f32⟩
  | .local _ .vmem, ⟨0, _⟩ => ⟨S1x32x64x64, .f32⟩
  | .local _ .vmem, ⟨1, _⟩ => ⟨S1x32x64x64, .f32⟩
  | .local _ .vmem, ⟨2, _⟩ => ⟨S1x1x512x512, .f32⟩
  | .local _ .vmem, ⟨3, _⟩ => ⟨S1x1x512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S2048x512, .bf16⟩
  | .local _ .vmem, ⟨8, _⟩ => ⟨S512x32, .bf16⟩
  | .local _ .vmem, ⟨9, _⟩ => ⟨S32x512, .bf16⟩
  | .local _ .smem, ⟨0, _⟩ => ⟨S16x512, .i32⟩
  | .local _ .smem, ⟨1, _⟩ => ⟨S16x512, .i32⟩
  | _, _ => ⟨S16x512x1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v3 : Ref sig .tc := ⟨.hbm, 4, rfl⟩
abbrev main_v5 : Ref sig .tc := ⟨.hbm, 5, rfl⟩
abbrev main_v2 : Ref sig .tc := ⟨.smem, 0, rfl⟩
abbrev main_v4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 16], ![false, false]⟩

abbrev pre0 : Pipeline.Prefetch sig := ⟨2, ![main_v2.idx, main_v4.idx], fun | 0 => main_v2.names | 1 => main_v4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32_1 : BitVec 32) : Fin 2 → Nat :=
  let arg0 : BitVec 32 := BitVec.ofNat 32 (i 0).val
  let v9 : Index := Scalar.indexCast arg0
  let arg1 : BitVec 32 := BitVec.ofNat 32 (i 1).val
  let c32_i32 : BitVec 32 := 32#32
  let v7 : BitVec 32 := Scalar.muli arg1 c32_i32
  let v8 : BitVec 32 := Scalar.addi v7 c0_i32_1
  let v10 : Index := Scalar.indexCast v8
  ![v9.toNat, v10.toNat]
def k0_off2 (i : grid0.Coords) (c0_i32_3 : BitVec 32) : Fin 2 → Nat :=
  let arg0 : BitVec 32 := BitVec.ofNat 32 (i 0).val
  let v18 : Index := Scalar.indexCast arg0
  let arg1 : BitVec 32 := BitVec.ofNat 32 (i 1).val
  let c32_i32 : BitVec 32 := 32#32
  let v7 : BitVec 32 := Scalar.muli arg1 c32_i32
  let v16 : BitVec 32 := Scalar.addi v7 c0_i32_3
  let c1_i32 : BitVec 32 := 1#32
  let v17 : BitVec 32 := Scalar.addi v16 c1_i32
  let v19 : Index := Scalar.indexCast v17
  ![v18.toNat, v19.toNat]
def k0_cond2 (i : grid0.Coords) : BitVec 1 :=
  let arg1 : BitVec 32 := BitVec.ofNat 32 (i 1).val
  let c15_i32 : BitVec 32 := 15#32
  let v1560 : BitVec 1 := Scalar.cmpi .eq arg1 c15_i32
  let v1561 : BitVec 32 := Scalar.extui v1560
  let c0_i32_451 : BitVec 32 := 0#32
  let v1562 : BitVec 1 := Scalar.cmpi .ne v1561 c0_i32_451
  v1562

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S16x512x1x64x64_S16x512x64x64 : S16x512x1x64x64.ShapeCasts S16x512x64x64
  slices_S16x512x2_S16x512x1_0_0_0 : S16x512x2.Slices ![0, 0, 0] S16x512x1
  shapeCasts_S16x512x1_S16x512 : S16x512x1.ShapeCasts S16x512
  slices_S16x512x2_S16x512x1_0_0_1 : S16x512x2.Slices ![0, 0, 1] S16x512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x1_d0_w32 : S512x1.Iotas .tc 32 [0]
  iota_S1x64_d1_w32 : S1x64.Iotas .tc 32 [1]
  iota_S64x1_d0_w32 : S64x1.Iotas .tc 32 [0]
  iota_S1x512_d1_w32 : S1x512.Iotas .tc 32 [1]
  numel1_S1x1 : S1x1.numel = 1
  broadcasts_S512x1_S512x64 : S512x1.Broadcasts S512x64
  broadcasts_S1x64_S512x64 : S1x64.Broadcasts S512x64
  natLt_1_32 : 1 < 32
  bitsLt_bf16_f32 : FTy.bits .bf16 < FTy.bits .f32
  concatenates_S512x64_S512x64_S512x128_d1 : Shape.Concatenates [S512x64, S512x64] S512x128 1
  inb_S512x2048_S512x128_0_0 : ∀ a, (![0, 0] : Fin 2 → Nat) a + S512x128.size a ≤ S512x2048.size a
  h_S512x128 : 0 < S512x128.numel
  shapeCasts_S512x128_S512x128 : S512x128.ShapeCasts S512x128
  packedbf16_S512x2048_S512x128_0_0 : (Rect.unit (s := S512x2048) ![0, 0] S512x128.size inb_S512x2048_S512x128_0_0).PackedRows (EltTy.packing .bf16)
  reduces_S512x64_S512 : S512x64.Reduces [1] S512
  shapeCasts_S512_S512x1 : S512.ShapeCasts S512x1
  concatenates_S512x1_S512x1_S512x2_d1 : Shape.Concatenates [S512x1, S512x1] S512x2 1
  inb_S512x32_S512x2_0_0 : ∀ a, (![0, 0] : Fin 2 → Nat) a + S512x2.size a ≤ S512x32.size a
  h_S512x2 : 0 < S512x2.numel
  shapeCasts_S512x2_S512x2 : S512x2.ShapeCasts S512x2
  packedbf16_S512x32_S512x2_0_0 : (Rect.unit (s := S512x32) ![0, 0] S512x2.size inb_S512x32_S512x2_0_0).PackedRows (EltTy.packing .bf16)
  broadcasts_S1x512_S64x512 : S1x512.Broadcasts S64x512
  broadcasts_S64x1_S64x512 : S64x1.Broadcasts S64x512
  inb_S1x32x64x64_S1x1x64x64_0_0_0_0 : ∀ a, (![0, 0, 0, 0] : Fin 4 → Nat) a + S1x1x64x64.size a ≤ S1x32x64x64.size a
  h_S1x1x64x64 : 0 < S1x1x64x64.numel
  shapeCasts_S1x1x64x64_S64x64 : S1x1x64x64.ShapeCasts S64x64
  inb_S1x32x64x64_S1x1x64x64_0_1_0_0 : ∀ a, (![0, 1, 0, 0] : Fin 4 → Nat) a + S1x1x64x64.size a ≤ S1x32x64x64.size a
  inb_S2048x512_S64x512_0_0 : ∀ a, (![0, 0] : Fin 2 → Nat) a + S64x512.size a ≤ S2048x512.size a
  h_S64x512 : 0 < S64x512.numel
  shapeCasts_S64x512_S64x512 : S64x512.ShapeCasts S64x512
  packedbf16_S2048x512_S64x512_0_0 : (Rect.unit (s := S2048x512) ![0, 0] S64x512.size inb_S2048x512_S64x512_0_0).PackedRows (EltTy.packing .bf16)
  inb_S2048x512_S64x512_64_0 : ∀ a, (![64, 0] : Fin 2 → Nat) a + S64x512.size a ≤ S2048x512.size a
  packedbf16_S2048x512_S64x512_64_0 : (Rect.unit (s := S2048x512) ![64, 0] S64x512.size inb_S2048x512_S64x512_64_0).PackedRows (EltTy.packing .bf16)
  reduces_S64x512_S512 : S64x512.Reduces [0] S512
  shapeCasts_S512_S1x512 : S512.ShapeCasts S1x512
  inb_S32x512_S1x512_0_0 : ∀ a, (![0, 0] : Fin 2 → Nat) a + S1x512.size a ≤ S32x512.size a
  h_S1x512 : 0 < S1x512.numel
  shapeCasts_S1x512_S1x512 : S1x512.ShapeCasts S1x512
  inb_S32x512_S2x512_0_0 : ∀ a, (![0, 0] : Fin 2 → Nat) a + S2x512.size a ≤ S32x512.size a
  h_S2x512 : 0 < S2x512.numel
  slices_S2x512_S1x512_0_0 : S2x512.Slices ![0, 0] S1x512
  packedbf16_S32x512_S2x512_0_0 : (Rect.unit (s := S32x512) ![0, 0] S2x512.size inb_S32x512_S2x512_0_0).PackedRows (EltTy.packing .bf16)
  inb_S32x512_S1x512_1_0 : ∀ a, (![1, 0] : Fin 2 → Nat) a + S1x512.size a ≤ S32x512.size a
  slices_S2x512_S1x512_1_0 : S2x512.Slices ![1, 0] S1x512
  inb_S512x2048_S512x128_0_128 : ∀ a, (![0, 128] : Fin 2 → Nat) a + S512x128.size a ≤ S512x2048.size a
  packedbf16_S512x2048_S512x128_0_128 : (Rect.unit (s := S512x2048) ![0, 128] S512x128.size inb_S512x2048_S512x128_0_128).PackedRows (EltTy.packing .bf16)
  inb_S512x32_S512x2_0_2 : ∀ a, (![0, 2] : Fin 2 → Nat) a + S512x2.size a ≤ S512x32.size a
  packedbf16_S512x32_S512x2_0_2 : (Rect.unit (s := S512x32) ![0, 2] S512x2.size inb_S512x32_S512x2_0_2).PackedRows (EltTy.packing .bf16)
  inb_S1x32x64x64_S1x1x64x64_0_2_0_0 : ∀ a, (![0, 2, 0, 0] : Fin 4 → Nat) a + S1x1x64x64.size a ≤ S1x32x64x64.size a
  inb_S1x32x64x64_S1x1x64x64_0_3_0_0 : ∀ a, (![0, 3, 0, 0] : Fin 4 → Nat) a + S1x1x64x64.size a ≤ S1x32x64x64.size a
  inb_S2048x512_S64x512_128_0 : ∀ a, (![128, 0] : Fin 2 → Nat) a + S64x512.size a ≤ S2048x512.size a
  packedbf16_S2048x512_S64x512_128_0 : (Rect.unit (s := S2048x512) ![128, 0] S64x512.size inb_S2048x512_S64x512_128_0).PackedRows (EltTy.packing .bf16)
  inb_S2048x512_S64x512_192_0 : ∀ a, (![192, 0] : Fin 2 → Nat) a + S64x512.size a ≤ S2048x512.size a
  packedbf16_S2048x512_S64x512_192_0 : (Rect.unit (s := S2048x512) ![192, 0] S64x512.size inb_S2048x512_S64x512_192_0).PackedRows (EltTy.packing .bf16)
  inb_S32x512_S1x512_2_0 : ∀ a, (![2, 0] : Fin 2 → Nat) a + S1x512.size a ≤ S32x512.size a
  inb_S32x512_S2x512_2_0 : ∀ a, (![2, 0] : Fin 2 → Nat) a + S2x512.size a ≤ S32x512.size a
  packedbf16_S32x512_S2x512_2_0 : (Rect.unit (s := S32x512) ![2, 0] S2x512.size inb_S32x512_S2x512_2_0).PackedRows (EltTy.packing .bf16)
  inb_S32x512_S1x512_3_0 : ∀ a, (![3, 0] : Fin 2 → Nat) a + S1x512.size a ≤ S32x512.size a
  inb_S512x2048_S512x128_0_256 : ∀ a, (![0, 256] : Fin 2 → Nat) a + S512x128.size a ≤ S512x2048.size a
  packedbf16_S512x2048_S512x128_0_256 : (Rect.unit (s := S512x2048) ![0, 256] S512x128.size inb_S512x2048_S512x128_0_256).PackedRows (EltTy.packing .bf16)
  inb_S512x32_S512x2_0_4 : ∀ a, (![0, 4] : Fin 2 → Nat) a + S512x2.size a ≤ S512x32.size a
  packedbf16_S512x32_S512x2_0_4 : (Rect.unit (s := S512x32) ![0, 4] S512x2.size inb_S512x32_S512x2_0_4).PackedRows (EltTy.packing .bf16)
  inb_S1x32x64x64_S1x1x64x64_0_4_0_0 : ∀ a, (![0, 4, 0, 0] : Fin 4 → Nat) a + S1x1x64x64.size a ≤ S1x32x64x64.size a
  inb_S1x32x64x64_S1x1x64x64_0_5_0_0 : ∀ a, (![0, 5, 0, 0] : Fin 4 → Nat) a + S1x1x64x64.size a ≤ S1x32x64x64.size a
  inb_S2048x512_S64x512_256_0 : ∀ a, (![256, 0] : Fin 2 → Nat) a + S64x512.size a ≤ S2048x512.size a
  packedbf16_S2048x512_S64x512_256_0 : (Rect.unit (s := S2048x512) ![256, 0] S64x512.size inb_S2048x512_S64x512_256_0).PackedRows (EltTy.packing .bf16)
  inb_S2048x512_S64x512_320_0 : ∀ a, (![320, 0] : Fin 2 → Nat) a + S64x512.size a ≤ S2048x512.size a
  packedbf16_S2048x512_S64x512_320_0 : (Rect.unit (s := S2048x512) ![320, 0] S64x512.size inb_S2048x512_S64x512_320_0).PackedRows (EltTy.packing .bf16)
  inb_S32x512_S1x512_4_0 : ∀ a, (![4, 0] : Fin 2 → Nat) a + S1x512.size a ≤ S32x512.size a
  inb_S32x512_S2x512_4_0 : ∀ a, (![4, 0] : Fin 2 → Nat) a + S2x512.size a ≤ S32x512.size a
  packedbf16_S32x512_S2x512_4_0 : (Rect.unit (s := S32x512) ![4, 0] S2x512.size inb_S32x512_S2x512_4_0).PackedRows (EltTy.packing .bf16)
  inb_S32x512_S1x512_5_0 : ∀ a, (![5, 0] : Fin 2 → Nat) a + S1x512.size a ≤ S32x512.size a
  inb_S512x2048_S512x128_0_384 : ∀ a, (![0, 384] : Fin 2 → Nat) a + S512x128.size a ≤ S512x2048.size a
  packedbf16_S512x2048_S512x128_0_384 : (Rect.unit (s := S512x2048) ![0, 384] S512x128.size inb_S512x2048_S512x128_0_384).PackedRows (EltTy.packing .bf16)
  inb_S512x32_S512x2_0_6 : ∀ a, (![0, 6] : Fin 2 → Nat) a + S512x2.size a ≤ S512x32.size a
  packedbf16_S512x32_S512x2_0_6 : (Rect.unit (s := S512x32) ![0, 6] S512x2.size inb_S512x32_S512x2_0_6).PackedRows (EltTy.packing .bf16)
  inb_S1x32x64x64_S1x1x64x64_0_6_0_0 : ∀ a, (![0, 6, 0, 0] : Fin 4 → Nat) a + S1x1x64x64.size a ≤ S1x32x64x64.size a
  inb_S1x32x64x64_S1x1x64x64_0_7_0_0 : ∀ a, (![0, 7, 0, 0] : Fin 4 → Nat) a + S1x1x64x64.size a ≤ S1x32x64x64.size a
  inb_S2048x512_S64x512_384_0 : ∀ a, (![384, 0] : Fin 2 → Nat) a + S64x512.size a ≤ S2048x512.size a
  packedbf16_S2048x512_S64x512_384_0 : (Rect.unit (s := S2048x512) ![384, 0] S64x512.size inb_S2048x512_S64x512_384_0).PackedRows (EltTy.packing .bf16)
  inb_S2048x512_S64x512_448_0 : ∀ a, (![448, 0] : Fin 2 → Nat) a + S64x512.size a ≤ S2048x512.size a
  packedbf16_S2048x512_S64x512_448_0 : (Rect.unit (s := S2048x512) ![448, 0] S64x512.size inb_S2048x512_S64x512_448_0).PackedRows (EltTy.packing .bf16)
  inb_S32x512_S1x512_6_0 : ∀ a, (![6, 0] : Fin 2 → Nat) a + S1x512.size a ≤ S32x512.size a
  inb_S32x512_S2x512_6_0 : ∀ a, (![6, 0] : Fin 2 → Nat) a + S2x512.size a ≤ S32x512.size a
  packedbf16_S32x512_S2x512_6_0 : (Rect.unit (s := S32x512) ![6, 0] S2x512.size inb_S32x512_S2x512_6_0).PackedRows (EltTy.packing .bf16)
  inb_S32x512_S1x512_7_0 : ∀ a, (![7, 0] : Fin 2 → Nat) a + S1x512.size a ≤ S32x512.size a
  inb_S512x2048_S512x128_0_512 : ∀ a, (![0, 512] : Fin 2 → Nat) a + S512x128.size a ≤ S512x2048.size a
  packedbf16_S512x2048_S512x128_0_512 : (Rect.unit (s := S512x2048) ![0, 512] S512x128.size inb_S512x2048_S512x128_0_512).PackedRows (EltTy.packing .bf16)
  inb_S512x32_S512x2_0_8 : ∀ a, (![0, 8] : Fin 2 → Nat) a + S512x2.size a ≤ S512x32.size a
  packedbf16_S512x32_S512x2_0_8 : (Rect.unit (s := S512x32) ![0, 8] S512x2.size inb_S512x32_S512x2_0_8).PackedRows (EltTy.packing .bf16)
  inb_S1x32x64x64_S1x1x64x64_0_8_0_0 : ∀ a, (![0, 8, 0, 0] : Fin 4 → Nat) a + S1x1x64x64.size a ≤ S1x32x64x64.size a
  inb_S1x32x64x64_S1x1x64x64_0_9_0_0 : ∀ a, (![0, 9, 0, 0] : Fin 4 → Nat) a + S1x1x64x64.size a ≤ S1x32x64x64.size a
  inb_S2048x512_S64x512_512_0 : ∀ a, (![512, 0] : Fin 2 → Nat) a + S64x512.size a ≤ S2048x512.size a
  packedbf16_S2048x512_S64x512_512_0 : (Rect.unit (s := S2048x512) ![512, 0] S64x512.size inb_S2048x512_S64x512_512_0).PackedRows (EltTy.packing .bf16)
  inb_S2048x512_S64x512_576_0 : ∀ a, (![576, 0] : Fin 2 → Nat) a + S64x512.size a ≤ S2048x512.size a
  packedbf16_S2048x512_S64x512_576_0 : (Rect.unit (s := S2048x512) ![576, 0] S64x512.size inb_S2048x512_S64x512_576_0).PackedRows (EltTy.packing .bf16)
  inb_S32x512_S1x512_8_0 : ∀ a, (![8, 0] : Fin 2 → Nat) a + S1x512.size a ≤ S32x512.size a
  inb_S32x512_S2x512_8_0 : ∀ a, (![8, 0] : Fin 2 → Nat) a + S2x512.size a ≤ S32x512.size a
  packedbf16_S32x512_S2x512_8_0 : (Rect.unit (s := S32x512) ![8, 0] S2x512.size inb_S32x512_S2x512_8_0).PackedRows (EltTy.packing .bf16)
  inb_S32x512_S1x512_9_0 : ∀ a, (![9, 0] : Fin 2 → Nat) a + S1x512.size a ≤ S32x512.size a
  inb_S512x2048_S512x128_0_640 : ∀ a, (![0, 640] : Fin 2 → Nat) a + S512x128.size a ≤ S512x2048.size a
  packedbf16_S512x2048_S512x128_0_640 : (Rect.unit (s := S512x2048) ![0, 640] S512x128.size inb_S512x2048_S512x128_0_640).PackedRows (EltTy.packing .bf16)
  inb_S512x32_S512x2_0_10 : ∀ a, (![0, 10] : Fin 2 → Nat) a + S512x2.size a ≤ S512x32.size a
  packedbf16_S512x32_S512x2_0_10 : (Rect.unit (s := S512x32) ![0, 10] S512x2.size inb_S512x32_S512x2_0_10).PackedRows (EltTy.packing .bf16)
  inb_S1x32x64x64_S1x1x64x64_0_10_0_0 : ∀ a, (![0, 10, 0, 0] : Fin 4 → Nat) a + S1x1x64x64.size a ≤ S1x32x64x64.size a
  inb_S1x32x64x64_S1x1x64x64_0_11_0_0 : ∀ a, (![0, 11, 0, 0] : Fin 4 → Nat) a + S1x1x64x64.size a ≤ S1x32x64x64.size a
  inb_S2048x512_S64x512_640_0 : ∀ a, (![640, 0] : Fin 2 → Nat) a + S64x512.size a ≤ S2048x512.size a
  packedbf16_S2048x512_S64x512_640_0 : (Rect.unit (s := S2048x512) ![640, 0] S64x512.size inb_S2048x512_S64x512_640_0).PackedRows (EltTy.packing .bf16)
  inb_S2048x512_S64x512_704_0 : ∀ a, (![704, 0] : Fin 2 → Nat) a + S64x512.size a ≤ S2048x512.size a
  packedbf16_S2048x512_S64x512_704_0 : (Rect.unit (s := S2048x512) ![704, 0] S64x512.size inb_S2048x512_S64x512_704_0).PackedRows (EltTy.packing .bf16)
  inb_S32x512_S1x512_10_0 : ∀ a, (![10, 0] : Fin 2 → Nat) a + S1x512.size a ≤ S32x512.size a
  inb_S32x512_S2x512_10_0 : ∀ a, (![10, 0] : Fin 2 → Nat) a + S2x512.size a ≤ S32x512.size a
  packedbf16_S32x512_S2x512_10_0 : (Rect.unit (s := S32x512) ![10, 0] S2x512.size inb_S32x512_S2x512_10_0).PackedRows (EltTy.packing .bf16)
  inb_S32x512_S1x512_11_0 : ∀ a, (![11, 0] : Fin 2 → Nat) a + S1x512.size a ≤ S32x512.size a
  inb_S512x2048_S512x128_0_768 : ∀ a, (![0, 768] : Fin 2 → Nat) a + S512x128.size a ≤ S512x2048.size a
  packedbf16_S512x2048_S512x128_0_768 : (Rect.unit (s := S512x2048) ![0, 768] S512x128.size inb_S512x2048_S512x128_0_768).PackedRows (EltTy.packing .bf16)
  inb_S512x32_S512x2_0_12 : ∀ a, (![0, 12] : Fin 2 → Nat) a + S512x2.size a ≤ S512x32.size a
  packedbf16_S512x32_S512x2_0_12 : (Rect.unit (s := S512x32) ![0, 12] S512x2.size inb_S512x32_S512x2_0_12).PackedRows (EltTy.packing .bf16)
  inb_S1x32x64x64_S1x1x64x64_0_12_0_0 : ∀ a, (![0, 12, 0, 0] : Fin 4 → Nat) a + S1x1x64x64.size a ≤ S1x32x64x64.size a
  inb_S1x32x64x64_S1x1x64x64_0_13_0_0 : ∀ a, (![0, 13, 0, 0] : Fin 4 → Nat) a + S1x1x64x64.size a ≤ S1x32x64x64.size a
  inb_S2048x512_S64x512_768_0 : ∀ a, (![768, 0] : Fin 2 → Nat) a + S64x512.size a ≤ S2048x512.size a
  packedbf16_S2048x512_S64x512_768_0 : (Rect.unit (s := S2048x512) ![768, 0] S64x512.size inb_S2048x512_S64x512_768_0).PackedRows (EltTy.packing .bf16)
  inb_S2048x512_S64x512_832_0 : ∀ a, (![832, 0] : Fin 2 → Nat) a + S64x512.size a ≤ S2048x512.size a
  packedbf16_S2048x512_S64x512_832_0 : (Rect.unit (s := S2048x512) ![832, 0] S64x512.size inb_S2048x512_S64x512_832_0).PackedRows (EltTy.packing .bf16)
  inb_S32x512_S1x512_12_0 : ∀ a, (![12, 0] : Fin 2 → Nat) a + S1x512.size a ≤ S32x512.size a
  inb_S32x512_S2x512_12_0 : ∀ a, (![12, 0] : Fin 2 → Nat) a + S2x512.size a ≤ S32x512.size a
  packedbf16_S32x512_S2x512_12_0 : (Rect.unit (s := S32x512) ![12, 0] S2x512.size inb_S32x512_S2x512_12_0).PackedRows (EltTy.packing .bf16)
  inb_S32x512_S1x512_13_0 : ∀ a, (![13, 0] : Fin 2 → Nat) a + S1x512.size a ≤ S32x512.size a
  inb_S512x2048_S512x128_0_896 : ∀ a, (![0, 896] : Fin 2 → Nat) a + S512x128.size a ≤ S512x2048.size a
  packedbf16_S512x2048_S512x128_0_896 : (Rect.unit (s := S512x2048) ![0, 896] S512x128.size inb_S512x2048_S512x128_0_896).PackedRows (EltTy.packing .bf16)
  inb_S512x32_S512x2_0_14 : ∀ a, (![0, 14] : Fin 2 → Nat) a + S512x2.size a ≤ S512x32.size a
  packedbf16_S512x32_S512x2_0_14 : (Rect.unit (s := S512x32) ![0, 14] S512x2.size inb_S512x32_S512x2_0_14).PackedRows (EltTy.packing .bf16)
  inb_S1x32x64x64_S1x1x64x64_0_14_0_0 : ∀ a, (![0, 14, 0, 0] : Fin 4 → Nat) a + S1x1x64x64.size a ≤ S1x32x64x64.size a
  inb_S1x32x64x64_S1x1x64x64_0_15_0_0 : ∀ a, (![0, 15, 0, 0] : Fin 4 → Nat) a + S1x1x64x64.size a ≤ S1x32x64x64.size a
  inb_S2048x512_S64x512_896_0 : ∀ a, (![896, 0] : Fin 2 → Nat) a + S64x512.size a ≤ S2048x512.size a
  packedbf16_S2048x512_S64x512_896_0 : (Rect.unit (s := S2048x512) ![896, 0] S64x512.size inb_S2048x512_S64x512_896_0).PackedRows (EltTy.packing .bf16)
  inb_S2048x512_S64x512_960_0 : ∀ a, (![960, 0] : Fin 2 → Nat) a + S64x512.size a ≤ S2048x512.size a
  packedbf16_S2048x512_S64x512_960_0 : (Rect.unit (s := S2048x512) ![960, 0] S64x512.size inb_S2048x512_S64x512_960_0).PackedRows (EltTy.packing .bf16)
  inb_S32x512_S1x512_14_0 : ∀ a, (![14, 0] : Fin 2 → Nat) a + S1x512.size a ≤ S32x512.size a
  inb_S32x512_S2x512_14_0 : ∀ a, (![14, 0] : Fin 2 → Nat) a + S2x512.size a ≤ S32x512.size a
  packedbf16_S32x512_S2x512_14_0 : (Rect.unit (s := S32x512) ![14, 0] S2x512.size inb_S32x512_S2x512_14_0).PackedRows (EltTy.packing .bf16)
  inb_S32x512_S1x512_15_0 : ∀ a, (![15, 0] : Fin 2 → Nat) a + S1x512.size a ≤ S32x512.size a
  inb_S512x2048_S512x128_0_1024 : ∀ a, (![0, 1024] : Fin 2 → Nat) a + S512x128.size a ≤ S512x2048.size a
  packedbf16_S512x2048_S512x128_0_1024 : (Rect.unit (s := S512x2048) ![0, 1024] S512x128.size inb_S512x2048_S512x128_0_1024).PackedRows (EltTy.packing .bf16)
  inb_S512x32_S512x2_0_16 : ∀ a, (![0, 16] : Fin 2 → Nat) a + S512x2.size a ≤ S512x32.size a
  packedbf16_S512x32_S512x2_0_16 : (Rect.unit (s := S512x32) ![0, 16] S512x2.size inb_S512x32_S512x2_0_16).PackedRows (EltTy.packing .bf16)
  inb_S1x32x64x64_S1x1x64x64_0_16_0_0 : ∀ a, (![0, 16, 0, 0] : Fin 4 → Nat) a + S1x1x64x64.size a ≤ S1x32x64x64.size a
  inb_S1x32x64x64_S1x1x64x64_0_17_0_0 : ∀ a, (![0, 17, 0, 0] : Fin 4 → Nat) a + S1x1x64x64.size a ≤ S1x32x64x64.size a
  inb_S2048x512_S64x512_1024_0 : ∀ a, (![1024, 0] : Fin 2 → Nat) a + S64x512.size a ≤ S2048x512.size a
  packedbf16_S2048x512_S64x512_1024_0 : (Rect.unit (s := S2048x512) ![1024, 0] S64x512.size inb_S2048x512_S64x512_1024_0).PackedRows (EltTy.packing .bf16)
  inb_S2048x512_S64x512_1088_0 : ∀ a, (![1088, 0] : Fin 2 → Nat) a + S64x512.size a ≤ S2048x512.size a
  packedbf16_S2048x512_S64x512_1088_0 : (Rect.unit (s := S2048x512) ![1088, 0] S64x512.size inb_S2048x512_S64x512_1088_0).PackedRows (EltTy.packing .bf16)
  inb_S32x512_S1x512_16_0 : ∀ a, (![16, 0] : Fin 2 → Nat) a + S1x512.size a ≤ S32x512.size a
  inb_S32x512_S2x512_16_0 : ∀ a, (![16, 0] : Fin 2 → Nat) a + S2x512.size a ≤ S32x512.size a
  packedbf16_S32x512_S2x512_16_0 : (Rect.unit (s := S32x512) ![16, 0] S2x512.size inb_S32x512_S2x512_16_0).PackedRows (EltTy.packing .bf16)
  inb_S32x512_S1x512_17_0 : ∀ a, (![17, 0] : Fin 2 → Nat) a + S1x512.size a ≤ S32x512.size a
  inb_S512x2048_S512x128_0_1152 : ∀ a, (![0, 1152] : Fin 2 → Nat) a + S512x128.size a ≤ S512x2048.size a
  packedbf16_S512x2048_S512x128_0_1152 : (Rect.unit (s := S512x2048) ![0, 1152] S512x128.size inb_S512x2048_S512x128_0_1152).PackedRows (EltTy.packing .bf16)
  inb_S512x32_S512x2_0_18 : ∀ a, (![0, 18] : Fin 2 → Nat) a + S512x2.size a ≤ S512x32.size a
  packedbf16_S512x32_S512x2_0_18 : (Rect.unit (s := S512x32) ![0, 18] S512x2.size inb_S512x32_S512x2_0_18).PackedRows (EltTy.packing .bf16)
  inb_S1x32x64x64_S1x1x64x64_0_18_0_0 : ∀ a, (![0, 18, 0, 0] : Fin 4 → Nat) a + S1x1x64x64.size a ≤ S1x32x64x64.size a
  inb_S1x32x64x64_S1x1x64x64_0_19_0_0 : ∀ a, (![0, 19, 0, 0] : Fin 4 → Nat) a + S1x1x64x64.size a ≤ S1x32x64x64.size a
  inb_S2048x512_S64x512_1152_0 : ∀ a, (![1152, 0] : Fin 2 → Nat) a + S64x512.size a ≤ S2048x512.size a
  packedbf16_S2048x512_S64x512_1152_0 : (Rect.unit (s := S2048x512) ![1152, 0] S64x512.size inb_S2048x512_S64x512_1152_0).PackedRows (EltTy.packing .bf16)
  inb_S2048x512_S64x512_1216_0 : ∀ a, (![1216, 0] : Fin 2 → Nat) a + S64x512.size a ≤ S2048x512.size a
  packedbf16_S2048x512_S64x512_1216_0 : (Rect.unit (s := S2048x512) ![1216, 0] S64x512.size inb_S2048x512_S64x512_1216_0).PackedRows (EltTy.packing .bf16)
  inb_S32x512_S1x512_18_0 : ∀ a, (![18, 0] : Fin 2 → Nat) a + S1x512.size a ≤ S32x512.size a
  inb_S32x512_S2x512_18_0 : ∀ a, (![18, 0] : Fin 2 → Nat) a + S2x512.size a ≤ S32x512.size a
  packedbf16_S32x512_S2x512_18_0 : (Rect.unit (s := S32x512) ![18, 0] S2x512.size inb_S32x512_S2x512_18_0).PackedRows (EltTy.packing .bf16)
  inb_S32x512_S1x512_19_0 : ∀ a, (![19, 0] : Fin 2 → Nat) a + S1x512.size a ≤ S32x512.size a
  inb_S512x2048_S512x128_0_1280 : ∀ a, (![0, 1280] : Fin 2 → Nat) a + S512x128.size a ≤ S512x2048.size a
  packedbf16_S512x2048_S512x128_0_1280 : (Rect.unit (s := S512x2048) ![0, 1280] S512x128.size inb_S512x2048_S512x128_0_1280).PackedRows (EltTy.packing .bf16)
  inb_S512x32_S512x2_0_20 : ∀ a, (![0, 20] : Fin 2 → Nat) a + S512x2.size a ≤ S512x32.size a
  packedbf16_S512x32_S512x2_0_20 : (Rect.unit (s := S512x32) ![0, 20] S512x2.size inb_S512x32_S512x2_0_20).PackedRows (EltTy.packing .bf16)
  inb_S1x32x64x64_S1x1x64x64_0_20_0_0 : ∀ a, (![0, 20, 0, 0] : Fin 4 → Nat) a + S1x1x64x64.size a ≤ S1x32x64x64.size a
  inb_S1x32x64x64_S1x1x64x64_0_21_0_0 : ∀ a, (![0, 21, 0, 0] : Fin 4 → Nat) a + S1x1x64x64.size a ≤ S1x32x64x64.size a
  inb_S2048x512_S64x512_1280_0 : ∀ a, (![1280, 0] : Fin 2 → Nat) a + S64x512.size a ≤ S2048x512.size a
  packedbf16_S2048x512_S64x512_1280_0 : (Rect.unit (s := S2048x512) ![1280, 0] S64x512.size inb_S2048x512_S64x512_1280_0).PackedRows (EltTy.packing .bf16)
  inb_S2048x512_S64x512_1344_0 : ∀ a, (![1344, 0] : Fin 2 → Nat) a + S64x512.size a ≤ S2048x512.size a
  packedbf16_S2048x512_S64x512_1344_0 : (Rect.unit (s := S2048x512) ![1344, 0] S64x512.size inb_S2048x512_S64x512_1344_0).PackedRows (EltTy.packing .bf16)
  inb_S32x512_S1x512_20_0 : ∀ a, (![20, 0] : Fin 2 → Nat) a + S1x512.size a ≤ S32x512.size a
  inb_S32x512_S2x512_20_0 : ∀ a, (![20, 0] : Fin 2 → Nat) a + S2x512.size a ≤ S32x512.size a
  packedbf16_S32x512_S2x512_20_0 : (Rect.unit (s := S32x512) ![20, 0] S2x512.size inb_S32x512_S2x512_20_0).PackedRows (EltTy.packing .bf16)
  inb_S32x512_S1x512_21_0 : ∀ a, (![21, 0] : Fin 2 → Nat) a + S1x512.size a ≤ S32x512.size a
  inb_S512x2048_S512x128_0_1408 : ∀ a, (![0, 1408] : Fin 2 → Nat) a + S512x128.size a ≤ S512x2048.size a
  packedbf16_S512x2048_S512x128_0_1408 : (Rect.unit (s := S512x2048) ![0, 1408] S512x128.size inb_S512x2048_S512x128_0_1408).PackedRows (EltTy.packing .bf16)
  inb_S512x32_S512x2_0_22 : ∀ a, (![0, 22] : Fin 2 → Nat) a + S512x2.size a ≤ S512x32.size a
  packedbf16_S512x32_S512x2_0_22 : (Rect.unit (s := S512x32) ![0, 22] S512x2.size inb_S512x32_S512x2_0_22).PackedRows (EltTy.packing .bf16)
  inb_S1x32x64x64_S1x1x64x64_0_22_0_0 : ∀ a, (![0, 22, 0, 0] : Fin 4 → Nat) a + S1x1x64x64.size a ≤ S1x32x64x64.size a
  inb_S1x32x64x64_S1x1x64x64_0_23_0_0 : ∀ a, (![0, 23, 0, 0] : Fin 4 → Nat) a + S1x1x64x64.size a ≤ S1x32x64x64.size a
  inb_S2048x512_S64x512_1408_0 : ∀ a, (![1408, 0] : Fin 2 → Nat) a + S64x512.size a ≤ S2048x512.size a
  packedbf16_S2048x512_S64x512_1408_0 : (Rect.unit (s := S2048x512) ![1408, 0] S64x512.size inb_S2048x512_S64x512_1408_0).PackedRows (EltTy.packing .bf16)
  inb_S2048x512_S64x512_1472_0 : ∀ a, (![1472, 0] : Fin 2 → Nat) a + S64x512.size a ≤ S2048x512.size a
  packedbf16_S2048x512_S64x512_1472_0 : (Rect.unit (s := S2048x512) ![1472, 0] S64x512.size inb_S2048x512_S64x512_1472_0).PackedRows (EltTy.packing .bf16)
  inb_S32x512_S1x512_22_0 : ∀ a, (![22, 0] : Fin 2 → Nat) a + S1x512.size a ≤ S32x512.size a
  inb_S32x512_S2x512_22_0 : ∀ a, (![22, 0] : Fin 2 → Nat) a + S2x512.size a ≤ S32x512.size a
  packedbf16_S32x512_S2x512_22_0 : (Rect.unit (s := S32x512) ![22, 0] S2x512.size inb_S32x512_S2x512_22_0).PackedRows (EltTy.packing .bf16)
  inb_S32x512_S1x512_23_0 : ∀ a, (![23, 0] : Fin 2 → Nat) a + S1x512.size a ≤ S32x512.size a
  inb_S512x2048_S512x128_0_1536 : ∀ a, (![0, 1536] : Fin 2 → Nat) a + S512x128.size a ≤ S512x2048.size a
  packedbf16_S512x2048_S512x128_0_1536 : (Rect.unit (s := S512x2048) ![0, 1536] S512x128.size inb_S512x2048_S512x128_0_1536).PackedRows (EltTy.packing .bf16)
  inb_S512x32_S512x2_0_24 : ∀ a, (![0, 24] : Fin 2 → Nat) a + S512x2.size a ≤ S512x32.size a
  packedbf16_S512x32_S512x2_0_24 : (Rect.unit (s := S512x32) ![0, 24] S512x2.size inb_S512x32_S512x2_0_24).PackedRows (EltTy.packing .bf16)
  inb_S1x32x64x64_S1x1x64x64_0_24_0_0 : ∀ a, (![0, 24, 0, 0] : Fin 4 → Nat) a + S1x1x64x64.size a ≤ S1x32x64x64.size a
  inb_S1x32x64x64_S1x1x64x64_0_25_0_0 : ∀ a, (![0, 25, 0, 0] : Fin 4 → Nat) a + S1x1x64x64.size a ≤ S1x32x64x64.size a
  inb_S2048x512_S64x512_1536_0 : ∀ a, (![1536, 0] : Fin 2 → Nat) a + S64x512.size a ≤ S2048x512.size a
  packedbf16_S2048x512_S64x512_1536_0 : (Rect.unit (s := S2048x512) ![1536, 0] S64x512.size inb_S2048x512_S64x512_1536_0).PackedRows (EltTy.packing .bf16)
  inb_S2048x512_S64x512_1600_0 : ∀ a, (![1600, 0] : Fin 2 → Nat) a + S64x512.size a ≤ S2048x512.size a
  packedbf16_S2048x512_S64x512_1600_0 : (Rect.unit (s := S2048x512) ![1600, 0] S64x512.size inb_S2048x512_S64x512_1600_0).PackedRows (EltTy.packing .bf16)
  inb_S32x512_S1x512_24_0 : ∀ a, (![24, 0] : Fin 2 → Nat) a + S1x512.size a ≤ S32x512.size a
  inb_S32x512_S2x512_24_0 : ∀ a, (![24, 0] : Fin 2 → Nat) a + S2x512.size a ≤ S32x512.size a
  packedbf16_S32x512_S2x512_24_0 : (Rect.unit (s := S32x512) ![24, 0] S2x512.size inb_S32x512_S2x512_24_0).PackedRows (EltTy.packing .bf16)
  inb_S32x512_S1x512_25_0 : ∀ a, (![25, 0] : Fin 2 → Nat) a + S1x512.size a ≤ S32x512.size a
  inb_S512x2048_S512x128_0_1664 : ∀ a, (![0, 1664] : Fin 2 → Nat) a + S512x128.size a ≤ S512x2048.size a
  packedbf16_S512x2048_S512x128_0_1664 : (Rect.unit (s := S512x2048) ![0, 1664] S512x128.size inb_S512x2048_S512x128_0_1664).PackedRows (EltTy.packing .bf16)
  inb_S512x32_S512x2_0_26 : ∀ a, (![0, 26] : Fin 2 → Nat) a + S512x2.size a ≤ S512x32.size a
  packedbf16_S512x32_S512x2_0_26 : (Rect.unit (s := S512x32) ![0, 26] S512x2.size inb_S512x32_S512x2_0_26).PackedRows (EltTy.packing .bf16)
  inb_S1x32x64x64_S1x1x64x64_0_26_0_0 : ∀ a, (![0, 26, 0, 0] : Fin 4 → Nat) a + S1x1x64x64.size a ≤ S1x32x64x64.size a
  inb_S1x32x64x64_S1x1x64x64_0_27_0_0 : ∀ a, (![0, 27, 0, 0] : Fin 4 → Nat) a + S1x1x64x64.size a ≤ S1x32x64x64.size a
  inb_S2048x512_S64x512_1664_0 : ∀ a, (![1664, 0] : Fin 2 → Nat) a + S64x512.size a ≤ S2048x512.size a
  packedbf16_S2048x512_S64x512_1664_0 : (Rect.unit (s := S2048x512) ![1664, 0] S64x512.size inb_S2048x512_S64x512_1664_0).PackedRows (EltTy.packing .bf16)
  inb_S2048x512_S64x512_1728_0 : ∀ a, (![1728, 0] : Fin 2 → Nat) a + S64x512.size a ≤ S2048x512.size a
  packedbf16_S2048x512_S64x512_1728_0 : (Rect.unit (s := S2048x512) ![1728, 0] S64x512.size inb_S2048x512_S64x512_1728_0).PackedRows (EltTy.packing .bf16)
  inb_S32x512_S1x512_26_0 : ∀ a, (![26, 0] : Fin 2 → Nat) a + S1x512.size a ≤ S32x512.size a
  inb_S32x512_S2x512_26_0 : ∀ a, (![26, 0] : Fin 2 → Nat) a + S2x512.size a ≤ S32x512.size a
  packedbf16_S32x512_S2x512_26_0 : (Rect.unit (s := S32x512) ![26, 0] S2x512.size inb_S32x512_S2x512_26_0).PackedRows (EltTy.packing .bf16)
  inb_S32x512_S1x512_27_0 : ∀ a, (![27, 0] : Fin 2 → Nat) a + S1x512.size a ≤ S32x512.size a
  inb_S512x2048_S512x128_0_1792 : ∀ a, (![0, 1792] : Fin 2 → Nat) a + S512x128.size a ≤ S512x2048.size a
  packedbf16_S512x2048_S512x128_0_1792 : (Rect.unit (s := S512x2048) ![0, 1792] S512x128.size inb_S512x2048_S512x128_0_1792).PackedRows (EltTy.packing .bf16)
  inb_S512x32_S512x2_0_28 : ∀ a, (![0, 28] : Fin 2 → Nat) a + S512x2.size a ≤ S512x32.size a
  packedbf16_S512x32_S512x2_0_28 : (Rect.unit (s := S512x32) ![0, 28] S512x2.size inb_S512x32_S512x2_0_28).PackedRows (EltTy.packing .bf16)
  inb_S1x32x64x64_S1x1x64x64_0_28_0_0 : ∀ a, (![0, 28, 0, 0] : Fin 4 → Nat) a + S1x1x64x64.size a ≤ S1x32x64x64.size a
  inb_S1x32x64x64_S1x1x64x64_0_29_0_0 : ∀ a, (![0, 29, 0, 0] : Fin 4 → Nat) a + S1x1x64x64.size a ≤ S1x32x64x64.size a
  inb_S2048x512_S64x512_1792_0 : ∀ a, (![1792, 0] : Fin 2 → Nat) a + S64x512.size a ≤ S2048x512.size a
  packedbf16_S2048x512_S64x512_1792_0 : (Rect.unit (s := S2048x512) ![1792, 0] S64x512.size inb_S2048x512_S64x512_1792_0).PackedRows (EltTy.packing .bf16)
  inb_S2048x512_S64x512_1856_0 : ∀ a, (![1856, 0] : Fin 2 → Nat) a + S64x512.size a ≤ S2048x512.size a
  packedbf16_S2048x512_S64x512_1856_0 : (Rect.unit (s := S2048x512) ![1856, 0] S64x512.size inb_S2048x512_S64x512_1856_0).PackedRows (EltTy.packing .bf16)
  inb_S32x512_S1x512_28_0 : ∀ a, (![28, 0] : Fin 2 → Nat) a + S1x512.size a ≤ S32x512.size a
  inb_S32x512_S2x512_28_0 : ∀ a, (![28, 0] : Fin 2 → Nat) a + S2x512.size a ≤ S32x512.size a
  packedbf16_S32x512_S2x512_28_0 : (Rect.unit (s := S32x512) ![28, 0] S2x512.size inb_S32x512_S2x512_28_0).PackedRows (EltTy.packing .bf16)
  inb_S32x512_S1x512_29_0 : ∀ a, (![29, 0] : Fin 2 → Nat) a + S1x512.size a ≤ S32x512.size a
  inb_S512x2048_S512x128_0_1920 : ∀ a, (![0, 1920] : Fin 2 → Nat) a + S512x128.size a ≤ S512x2048.size a
  packedbf16_S512x2048_S512x128_0_1920 : (Rect.unit (s := S512x2048) ![0, 1920] S512x128.size inb_S512x2048_S512x128_0_1920).PackedRows (EltTy.packing .bf16)
  inb_S512x32_S512x2_0_30 : ∀ a, (![0, 30] : Fin 2 → Nat) a + S512x2.size a ≤ S512x32.size a
  packedbf16_S512x32_S512x2_0_30 : (Rect.unit (s := S512x32) ![0, 30] S512x2.size inb_S512x32_S512x2_0_30).PackedRows (EltTy.packing .bf16)
  inb_S1x32x64x64_S1x1x64x64_0_30_0_0 : ∀ a, (![0, 30, 0, 0] : Fin 4 → Nat) a + S1x1x64x64.size a ≤ S1x32x64x64.size a
  inb_S1x32x64x64_S1x1x64x64_0_31_0_0 : ∀ a, (![0, 31, 0, 0] : Fin 4 → Nat) a + S1x1x64x64.size a ≤ S1x32x64x64.size a
  inb_S2048x512_S64x512_1920_0 : ∀ a, (![1920, 0] : Fin 2 → Nat) a + S64x512.size a ≤ S2048x512.size a
  packedbf16_S2048x512_S64x512_1920_0 : (Rect.unit (s := S2048x512) ![1920, 0] S64x512.size inb_S2048x512_S64x512_1920_0).PackedRows (EltTy.packing .bf16)
  inb_S2048x512_S64x512_1984_0 : ∀ a, (![1984, 0] : Fin 2 → Nat) a + S64x512.size a ≤ S2048x512.size a
  packedbf16_S2048x512_S64x512_1984_0 : (Rect.unit (s := S2048x512) ![1984, 0] S64x512.size inb_S2048x512_S64x512_1984_0).PackedRows (EltTy.packing .bf16)
  inb_S32x512_S1x512_30_0 : ∀ a, (![30, 0] : Fin 2 → Nat) a + S1x512.size a ≤ S32x512.size a
  inb_S32x512_S2x512_30_0 : ∀ a, (![30, 0] : Fin 2 → Nat) a + S2x512.size a ≤ S32x512.size a
  packedbf16_S32x512_S2x512_30_0 : (Rect.unit (s := S32x512) ![30, 0] S2x512.size inb_S32x512_S2x512_30_0).PackedRows (EltTy.packing .bf16)
  inb_S32x512_S1x512_31_0 : ∀ a, (![31, 0] : Fin 2 → Nat) a + S1x512.size a ≤ S32x512.size a
  inb_S512x2048_S512x2048_0_0 : ∀ a, (![0, 0] : Fin 2 → Nat) a + S512x2048.size a ≤ S512x2048.size a
  h_S512x2048 : 0 < S512x2048.numel
  inb_S2048x512_S2048x512_0_0 : ∀ a, (![0, 0] : Fin 2 → Nat) a + S2048x512.size a ≤ S2048x512.size a
  h_S2048x512 : 0 < S2048x512.numel
  inb_S512x32_S512x32_0_0 : ∀ a, (![0, 0] : Fin 2 → Nat) a + S512x32.size a ≤ S512x32.size a
  h_S512x32 : 0 < S512x32.numel
  inb_S32x512_S32x512_0_0 : ∀ a, (![0, 0] : Fin 2 → Nat) a + S32x512.size a ≤ S32x512.size a
  h_S32x512 : 0 < S32x512.numel
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  dot_S64x64_S64x512_S64x512_1_0_0_1_n_n_wf : DotDims.WF S64x64 S64x512 S64x512 [1] [0] [0] [1] [] []
  dot_S512x2048_S2048x512_S512x512_1_0_0_1_n_n_wf : DotDims.WF S512x2048 S2048x512 S512x512 [1] [0] [0] [1] [] []
  dot_S512x32_S32x512_S512x512_1_0_0_1_n_n_wf : DotDims.WF S512x32 S32x512 S512x512 [1] [0] [0] [1] [] []
  hrank0 : 0 < grid0.rank
  k0_off1_inb : ∀ i : grid0.Coords, ∀ (r : Fin 16), ∀ a, (k0_off1 i (BitVec.ofNat 32 (2 * r.val))) a + S1x1.size a ≤ S16x512.size a
  k0_off2_inb : ∀ i : grid0.Coords, ∀ (r : Fin 16), ∀ a, (k0_off2 i (BitVec.ofNat 32 (2 * r.val))) a + S1x1.size a ≤ S16x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x64.size a ≤ S16x512x64x64.size a
  hwx0_0 : ∀ i : grid0.Coords, EltTy.bits .f32 = 32 ∨ (Rect.block (s := S16x512x64x64) S1x32x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x1x512x512.size a
  hwx0_1 : ∀ i : grid0.Coords, EltTy.bits .f32 = 32 ∨ (Rect.block (s := S16x1x512x512) S1x1x512x512.size (cc0_transform_1 i) (hinb0_1 i)).WholeWords (EltTy.packing .f32)

variable [Facts₀]

def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x32_S32x512_S512x512_1_0_0_1_n_n : DotDims S512x32 S32x512 S512x512 where
  lhsContracting := [1]
  rhsContracting := [0]
  lhsNonContracting := [0]
  rhsNonContracting := [1]
  lhsBatch := []
  rhsBatch := []
  wf := dot_S512x32_S32x512_S512x512_1_0_0_1_n_n_wf

abbrev spec0_0 : Pipeline.WinSpec sig grid0.rank :=
  Pipeline.WinSpec.ofSpec (Memref.whole main_v0) S1x32x64x64.size reads0_0 false false 2 stage0_0 sem0_0 nbuf0_0 hstage0_0

abbrev spec0_1 : Pipeline.WinSpec sig grid0.rank :=
  Pipeline.WinSpec.ofSpec (Memref.whole main_v5) S1x1x512x512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))
abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S16x512x1x64x64 : Shape := ⟨5, ![16, 512, 1, 64, 64]⟩
abbrev S16x512x2 : Shape := ⟨3, ![16, 512, 2]⟩
abbrev S64 : Shape := ⟨1, ![64]⟩
abbrev S16x512x1 : Shape := ⟨3, ![16, 512, 1]⟩
abbrev S16x512 : Shape := ⟨2, ![16, 512]⟩
abbrev S16x512x1x1 : Shape := ⟨4, ![16, 512, 1, 1]⟩
abbrev S1x1x64x1 : Shape := ⟨4, ![1, 1, 64, 1]⟩
abbrev S16x512x64x1 : Shape := ⟨4, ![16, 512, 64, 1]⟩
abbrev S1x1x1x64 : Shape := ⟨4, ![1, 1, 1, 64]⟩
abbrev S16x512x1x64 : Shape := ⟨4, ![16, 512, 1, 64]⟩
abbrev S16x512x64x64 : Shape := ⟨4, ![16, 512, 64, 64]⟩
abbrev S16 : Shape := ⟨1, ![16]⟩
abbrev S16x1x1x1 : Shape := ⟨4, ![16, 1, 1, 1]⟩
abbrev S_ : Shape := ⟨0, ![]⟩
abbrev S16x512x512 : Shape := ⟨3, ![16, 512, 512]⟩
abbrev S16x512x64x64x1 : Shape := ⟨5, ![16, 512, 64, 64, 1]⟩
abbrev S16x512x64x64x3 : Shape := ⟨5, ![16, 512, 64, 64, 3]⟩
abbrev S16x1x512x512 : Shape := ⟨4, ![16, 1, 512, 512]⟩

abbrev nBuf : Space → Nat
  | .hbm => 86
  | .vmem => 0
  | .smem => 0
  | _ => 0

abbrev bufTy : (tb : Table) → Fin (tcTables nBuf tb) → BufTy
  | .hbm, ⟨0, _⟩ => ⟨S16x512x1x64x64, .f32⟩
  | .hbm, ⟨1, _⟩ => ⟨S16x512x2, .i32⟩
  | .hbm, ⟨2, _⟩ => ⟨S64, .i32⟩
  | .hbm, ⟨3, _⟩ => ⟨S16x512x1, .i32⟩
  | .hbm, ⟨4, _⟩ => ⟨S16x512, .i32⟩
  | .hbm, ⟨5, _⟩ => ⟨S16x512x1x1, .i32⟩
  | .hbm, ⟨6, _⟩ => ⟨S1x1x64x1, .i32⟩
  | .hbm, ⟨7, _⟩ => ⟨S16x512x64x1, .i32⟩
  | .hbm, ⟨8, _⟩ => ⟨S16x512x64x1, .i32⟩
  | .hbm, ⟨9, _⟩ => ⟨S16x512x64x1, .i32⟩
  | .hbm, ⟨10, _⟩ => ⟨S16x512x1, .i32⟩
  | .hbm, ⟨11, _⟩ => ⟨S16x512, .i32⟩
  | .hbm, ⟨12, _⟩ => ⟨S16x512x1x1, .i32⟩
  | .hbm, ⟨13, _⟩ => ⟨S1x1x1x64, .i32⟩
  | .hbm, ⟨14, _⟩ => ⟨S16x512x1x64, .i32⟩
  | .hbm, ⟨15, _⟩ => ⟨S16x512x1x64, .i32⟩
  | .hbm, ⟨16, _⟩ => ⟨S16x512x1x64, .i32⟩
  | .hbm, ⟨17, _⟩ => ⟨S16x512x64x64, .i32⟩
  | .hbm, ⟨18, _⟩ => ⟨S16x512x64x64, .i32⟩
  | .hbm, ⟨19, _⟩ => ⟨S16, .i32⟩
  | .hbm, ⟨20, _⟩ => ⟨S16x1x1x1, .i32⟩
  | .hbm, ⟨21, _⟩ => ⟨S16x512x64x64, .i32⟩
  | .hbm, ⟨22, _⟩ => ⟨S16x512x64x64, .f32⟩
  | .hbm, ⟨23, _⟩ => ⟨S_, .f32⟩
  | .hbm, ⟨24, _⟩ => ⟨S16x512x512, .f32⟩
  | .hbm, ⟨25, _⟩ => ⟨S_, .i32⟩
  | .hbm, ⟨26, _⟩ => ⟨S16x512x64x64, .i32⟩
  | .hbm, ⟨27, _⟩ => ⟨S16x512x64x64, .i1⟩
  | .hbm, ⟨28, _⟩ => ⟨S_, .i32⟩
  | .hbm, ⟨29, _⟩ => ⟨S16x512x64x64, .i32⟩
  | .hbm, ⟨30, _⟩ => ⟨S16x512x64x64, .i32⟩
  | .hbm, ⟨31, _⟩ => ⟨S16x512x64x64, .i32⟩
  | .hbm, ⟨32, _⟩ => ⟨S_, .i32⟩
  | .hbm, ⟨33, _⟩ => ⟨S16x512x64x64, .i32⟩
  | .hbm, ⟨34, _⟩ => ⟨S16x512x64x64, .i1⟩
  | .hbm, ⟨35, _⟩ => ⟨S_, .i32⟩
  | .hbm, ⟨36, _⟩ => ⟨S16x512x64x64, .i32⟩
  | .hbm, ⟨37, _⟩ => ⟨S16x512x64x64, .i32⟩
  | .hbm, ⟨38, _⟩ => ⟨S16x512x64x64, .i32⟩
  | .hbm, ⟨39, _⟩ => ⟨S_, .i32⟩
  | .hbm, ⟨40, _⟩ => ⟨S16x512x64x64, .i32⟩
  | .hbm, ⟨41, _⟩ => ⟨S16x512x64x64, .i1⟩
  | .hbm, ⟨42, _⟩ => ⟨S_, .i32⟩
  | .hbm, ⟨43, _⟩ => ⟨S16x512x64x64, .i32⟩
  | .hbm, ⟨44, _⟩ => ⟨S16x512x64x64, .i32⟩
  | .hbm, ⟨45, _⟩ => ⟨S16x512x64x64, .i32⟩
  | .hbm, ⟨46, _⟩ => ⟨S16x512x64x64x1, .i32⟩
  | .hbm, ⟨47, _⟩ => ⟨S16x512x64x64x1, .i32⟩
  | .hbm, ⟨48, _⟩ => ⟨S16x512x64x64x1, .i32⟩
  | .hbm, ⟨49, _⟩ => ⟨S16x512x64x64x3, .i32⟩
  | .hbm, ⟨50, _⟩ => ⟨S16x512x512, .f32⟩
  | .hbm, ⟨51, _⟩ => ⟨S_, .f32⟩
  | .hbm, ⟨52, _⟩ => ⟨S16x512x512, .f32⟩
  | .hbm, ⟨53, _⟩ => ⟨S_, .f32⟩
  | .hbm, ⟨54, _⟩ => ⟨S16x512x64x64, .f32⟩
  | .hbm, ⟨55, _⟩ => ⟨S_, .i32⟩
  | .hbm, ⟨56, _⟩ => ⟨S16x512x64x64, .i32⟩
  | .hbm, ⟨57, _⟩ => ⟨S16x512x64x64, .i1⟩
  | .hbm, ⟨58, _⟩ => ⟨S_, .i32⟩
  | .hbm, ⟨59, _⟩ => ⟨S16x512x64x64, .i32⟩
  | .hbm, ⟨60, _⟩ => ⟨S16x512x64x64, .i32⟩
  | .hbm, ⟨61, _⟩ => ⟨S16x512x64x64, .i32⟩
  | .hbm, ⟨62, _⟩ => ⟨S_, .i32⟩
  | .hbm, ⟨63, _⟩ => ⟨S16x512x64x64, .i32⟩
  | .hbm, ⟨64, _⟩ => ⟨S16x512x64x64, .i1⟩
  | .hbm, ⟨65, _⟩ => ⟨S_, .i32⟩
  | .hbm, ⟨66, _⟩ => ⟨S16x512x64x64, .i32⟩
  | .hbm, ⟨67, _⟩ => ⟨S16x512x64x64, .i32⟩
  | .hbm, ⟨68, _⟩ => ⟨S16x512x64x64, .i32⟩
  | .hbm, ⟨69, _⟩ => ⟨S_, .i32⟩
  | .hbm, ⟨70, _⟩ => ⟨S16x512x64x64, .i32⟩
  | .hbm, ⟨71, _⟩ => ⟨S16x512x64x64, .i1⟩
  | .hbm, ⟨72, _⟩ => ⟨S_, .i32⟩
  | .hbm, ⟨73, _⟩ => ⟨S16x512x64x64, .i32⟩
  | .hbm, ⟨74, _⟩ => ⟨S16x512x64x64, .i32⟩
  | .hbm, ⟨75, _⟩ => ⟨S16x512x64x64, .i32⟩
  | .hbm, ⟨76, _⟩ => ⟨S16x512x64x64x1, .i32⟩
  | .hbm, ⟨77, _⟩ => ⟨S16x512x64x64x1, .i32⟩
  | .hbm, ⟨78, _⟩ => ⟨S16x512x64x64x1, .i32⟩
  | .hbm, ⟨79, _⟩ => ⟨S16x512x64x64x3, .i32⟩
  | .hbm, ⟨80, _⟩ => ⟨S16x512x512, .f32⟩
  | .hbm, ⟨81, _⟩ => ⟨S_, .f32⟩
  | .hbm, ⟨82, _⟩ => ⟨S16x512x512, .f32⟩
  | .hbm, ⟨83, _⟩ => ⟨S16x512x512, .f32⟩
  | .hbm, ⟨84, _⟩ => ⟨S16x512x512, .f32⟩
  | .hbm, ⟨85, _⟩ => ⟨S16x1x512x512, .f32⟩
  | _, _ => ⟨S16x512x1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_c : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_1 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_3 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_c_7 : Ref sig .tc := ⟨.hbm, 55, rfl⟩
abbrev main_v44 : Ref sig .tc := ⟨.hbm, 56, rfl⟩
abbrev main_v45 : Ref sig .tc := ⟨.hbm, 57, rfl⟩
abbrev main_c_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_9 : Ref sig .tc := ⟨.hbm, 62, rfl⟩
abbrev main_v49 : Ref sig .tc := ⟨.hbm, 63, rfl⟩
abbrev main_v50 : Ref sig .tc := ⟨.hbm, 64, rfl⟩
abbrev main_c_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_11 : Ref sig .tc := ⟨.hbm, 69, rfl⟩
abbrev main_v54 : Ref sig .tc := ⟨.hbm, 70, rfl⟩
abbrev main_v55 : Ref sig .tc := ⟨.hbm, 71, rfl⟩
abbrev main_c_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]

class Facts₀ : Prop where
  slices_S16x512x2_S16x512x1_0_0_0 : S16x512x2.Slices ![0, 0, 0] S16x512x1
  shapeCasts_S16x512x1_S16x512 : S16x512x1.ShapeCasts S16x512
  bcast_S16x512_S16x512x1x1_0_1 : S16x512.BroadcastsInDim S16x512x1x1 (![0, 1] : Fin 2 → Fin S16x512x1x1.rank)
  bcast_S64_S1x1x64x1_2 : S64.BroadcastsInDim S1x1x64x1 (![2] : Fin 1 → Fin S1x1x64x1.rank)
  bcast_S16x512x1x1_S16x512x64x1_0_1_2_3 : S16x512x1x1.BroadcastsInDim S16x512x64x1 (![0, 1, 2, 3] : Fin 4 → Fin S16x512x64x1.rank)
  bcast_S1x1x64x1_S16x512x64x1_0_1_2_3 : S1x1x64x1.BroadcastsInDim S16x512x64x1 (![0, 1, 2, 3] : Fin 4 → Fin S16x512x64x1.rank)
  slices_S16x512x2_S16x512x1_0_0_1 : S16x512x2.Slices ![0, 0, 1] S16x512x1
  bcast_S64_S1x1x1x64_3 : S64.BroadcastsInDim S1x1x1x64 (![3] : Fin 1 → Fin S1x1x1x64.rank)
  bcast_S16x512x1x1_S16x512x1x64_0_1_2_3 : S16x512x1x1.BroadcastsInDim S16x512x1x64 (![0, 1, 2, 3] : Fin 4 → Fin S16x512x1x64.rank)
  bcast_S1x1x1x64_S16x512x1x64_0_1_2_3 : S1x1x1x64.BroadcastsInDim S16x512x1x64 (![0, 1, 2, 3] : Fin 4 → Fin S16x512x1x64.rank)
  bcast_S16x512x64x1_S16x512x64x64_0_1_2_3 : S16x512x64x1.BroadcastsInDim S16x512x64x64 (![0, 1, 2, 3] : Fin 4 → Fin S16x512x64x64.rank)
  bcast_S16x512x1x64_S16x512x64x64_0_1_2_3 : S16x512x1x64.BroadcastsInDim S16x512x64x64 (![0, 1, 2, 3] : Fin 4 → Fin S16x512x64x64.rank)
  bcast_S16_S16x1x1x1_0 : S16.BroadcastsInDim S16x1x1x1 (![0] : Fin 1 → Fin S16x1x1x1.rank)
  bcast_S16x1x1x1_S16x512x64x64_0_1_2_3 : S16x1x1x1.BroadcastsInDim S16x512x64x64 (![0, 1, 2, 3] : Fin 4 → Fin S16x512x64x64.rank)
  shapeCasts_S16x512x1x64x64_S16x512x64x64 : S16x512x1x64x64.ShapeCasts S16x512x64x64
  bcast_S_S16x512x512 : S_.BroadcastsInDim S16x512x512 (![] : Fin 0 → Fin S16x512x512.rank)
  bcast_S_S16x512x64x64 : S_.BroadcastsInDim S16x512x64x64 (![] : Fin 0 → Fin S16x512x64x64.rank)
  bcast_S16x512x64x64_S16x512x64x64x1_0_1_2_3 : S16x512x64x64.BroadcastsInDim S16x512x64x64x1 (![0, 1, 2, 3] : Fin 4 → Fin S16x512x64x64x1.rank)
  concatenates_S16x512x64x64x1_S16x512x64x64x1_S16x512x64x64x1_S16x512x64x64x3_d4 : Shape.Concatenates [S16x512x64x64x1, S16x512x64x64x1, S16x512x64x64x1] S16x512x64x64x3 4
  bcast_S16x512x512_S16x1x512x512_0_2_3 : S16x512x512.BroadcastsInDim S16x1x512x512 (![0, 2, 3] : Fin 3 → Fin S16x1x512x512.rank)
  scatter_S16x512x512_S16x512x64x64x3_S16x512x64x64_n_012_012_4_wf : ScatterDims.WF S16x512x512 S16x512x64x64x3 S16x512x64x64 [] [0, 1, 2] [0, 1, 2] 4

variable [Facts₀]

def scatter_S16x512x512_S16x512x64x64x3_S16x512x64x64_n_012_012_4 : ScatterDims S16x512x512 S16x512x64x64x3 S16x512x64x64 where
  updateWindowDims := []
  insertedWindowDims := [0, 1, 2]
  scatterDimsToOperandDims := [0, 1, 2]
  indexVectorDim := 4
  wf := scatter_S16x512x512_S16x512x64x64x3_S16x512x64x64_n_012_012_4_wf

class Facts : Prop extends Facts₀ where

variable [Facts]
-- ==== Proof.K.Common.lean ====
/-
  The frame of the patch-placement kernel, part 1: what its three control cases share.

  The kernel runs on a 16 x 16 grid (batch b, group k of 32 patches). Two integer tables (the patches' row and
  column corners) are prefetched; window 0 stages the 32 patches of the group, window 1 is the batch's 512 x 512
  canvas, written back when the batch changes. Two scratch accumulators (placed values, overlap counts) are carried
  from point to point: reset at k = 0, added to at every k, read out into the canvas at k = 15. The other four
  scratch buffers (the row one-hots, the column-placed patches, the two coverage masks) are rewritten whole at
  every point before they are read.
  Here: the arrays as the region finds them after the host lines that split the coordinate table, the tables'
  contents, a window's block at a point, the two branch conditions in closed form over the grid, where the canvas
  window is idle, and the memrefs the body is called with.
-/
import proofs.«425958_j53352083751494_3_alg».proof.Proof.Gen.Kernel.Launch
import proofs.«425958_j53352083751494_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: after the host lines that reshape the patches and split the
    coordinate table into its two columns. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host line writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The two corner tables -/

/-- The tables' contents when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No window's index map reads a table: the pipeline's side condition is empty. -/
abbrev adm : (pcfg0 (F := F)).Adm := ⟨tbl m, trivial⟩
abbrev cfgM : Pipeline.Cfg sig Λ₀ := cfg0 (adm m)

abbrev tbM0_0 : Memref sig .tc .smem S16x512 .i32 := Memref.whole main_v2
abbrev htbM0_0 : tbM0_0.IsWhole := Memref.isWhole_whole _
abbrev tbM0_1 : Memref sig .tc .smem S16x512 .i32 := Memref.whole main_v4
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables the region lends the body. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The patch window's staging buffer holds the group's block at every point. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c)⟩) h

/-! ## The two branch conditions -/

/-- "This is the group's first point" (k = 0), as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin grid0.N, cond0_0 (grid0.coords t) ↔ t.val % 16 = 0 :=
  (by decide +kernel : ∀ t : Fin grid0.N, cond0_0 (grid0.coords t) ↔ t.val % 16 = 0)

/-- "This is the batch's last point" (k = 15). -/
abbrev cond0_1 (i : grid0.Coords) : Prop := k0_cond2 i = 1#1
theorem hcond0_1 : ∀ t : Fin grid0.N, cond0_1 (grid0.coords t) ↔ t.val % 16 = 15 :=
  (by decide +kernel : ∀ t : Fin grid0.N, cond0_1 (grid0.coords t) ↔ t.val % 16 = 15)

/-! ## Where the canvas window is idle and where it is written back -/

theorem idleAt0_1 : ∀ t : Fin grid0.N, ¬ t.val % 16 = 15 → idle0 1 (grid0.coords t) = true := by decide +kernel
theorem liveAt0_1 : ∀ t : Fin grid0.N, t.val % 16 = 15 → idle0 1 (grid0.coords t) = false := by decide +kernel
theorem noFlush0_1 : ∀ t : Fin grid0.N, ¬ t.val % 16 = 15 → Pipeline.Window.flushOf grid0 true cc0_transform_1 t = false := by decide +kernel

/-! ## The memrefs the body is called with -/

abbrev VO0_1 : View sig .tc .vmem S1x1x512x512 .f32 := (Memref.whole cc0_stg1_0 : Memref sig .tc .vmem S1x1x512x512 .f32).view
abbrev ms0_0 (t : Fin (cfgM m).N) : Memref sig .tc .vmem S1x32x64x64 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x1x512x512 .f32 := spec0_1.stage ((cfgM m).slots t 1)
abbrev hs0_1 (t : Fin (cfgM m).N) : (ms0_1 m t).IsWhole := hstage0_1 (((cfgM m).slots t 1).cast nbuf0_1)
/-- The scratch operands: the two accumulators, then the four buffers rewritten at every point. -/
abbrev scM0_0 : Memref sig .tc .vmem S512x512 .f32 := Memref.whole cc0_scratch0
abbrev scM0_1 : Memref sig .tc .vmem S512x512 .f32 := Memref.whole cc0_scratch1
abbrev scM0_2 : Memref sig .tc .vmem S512x2048 .bf16 := Memref.whole cc0_scratch2
abbrev scM0_3 : Memref sig .tc .vmem S2048x512 .bf16 := Memref.whole cc0_scratch3
abbrev scM0_4 : Memref sig .tc .vmem S512x32 .bf16 := Memref.whole cc0_scratch4
abbrev scM0_5 : Memref sig .tc .vmem S32x512 .bf16 := Memref.whole cc0_scratch5
abbrev VS0_0 : View sig .tc .vmem S512x512 .f32 := scM0_0.view
abbrev VS0_1 : View sig .tc .vmem S512x512 .f32 := scM0_1.view

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The kernel body at point `t`, on what the pipeline calls it with. -/
abbrev bodyAt0 (a : (pcfg0 (F := F)).Adm) (t : Fin (cfg0 a).N) : Prog (TpuEff nD τ sig (Elt F) Λ₀ .tc) PUnit :=
  cc0__kernel (grid0.coords t) (Memref.whole main_v2) (Memref.isWhole_whole _) (Memref.whole main_v4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.Kernel.Hand

end
-- ==== Proof.K.RunA.lean ====
/-
  The frame of the patch-placement kernel, part 2A: the whole body run once, symbolically, at a point of
  the batch's first group (k = 0): both accumulators are reset before they are added to, so what they held does not matter.
  The run's witness is what the stores leave: the pieces written into each accumulator, each a
  payload over the table words and the patch block read at this point.
-/
import proofs.«425958_j53352083751494_3_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_A (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : cond0_0 i) (hc1 : ¬cond0_1 i)
    (x0 : Vec F S1x32x64x64 .f32) (xt0 : TbBuf0 (F := F) c tbM0_0) (xt1 : TbBuf0 (F := F) c tbM0_1) (xw : Vec F S32x512 .bf16) :
    Σ' (LS0 : List (View.Piece (Elt F) S512x512 .f32)), { LS1 : List (View.Piece (Elt F) S512x512 .f32) //
      ∀ (xi1 : Vec F S1x1x512x512 .f32) (E : Set ℕ) (K : PUnit → sProp 𝕄),
        iprop(owns (c : Thread nD τ) arg4 fullShare x0 ∗ owns (c : Thread nD τ) arg5 fullShare xi1 ∗ tbPt0 c tbM0_0 xt0 ∗ tbPt0 c tbM0_1 xt1
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xw
            ∗ (iprop(owns (c : Thread nD τ) arg4 fullShare x0 ∗ owns (c : Thread nD τ) arg5 fullShare xi1 ∗ tbPt0 c tbM0_0 xt0 ∗ tbPt0 c tbM0_1 xt1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ g, arg8.view.loc (c : Thread nD τ) ↦[arg8.view.set]{fullShare} g) ∗ (∃ g, arg9.view.loc (c : Thread nD τ) ↦[arg9.view.set]{fullShare} g)
                ∗ (∃ g, arg10.view.loc (c : Thread nD τ) ↦[arg10.view.set]{fullShare} g) ∗ (∃ g, arg11.view.loc (c : Thread nD τ) ↦[arg11.view.set]{fullShare} g)) -∗ K ⟨⟩))
          ⊢ wp frame (wpE (defs₀ (F := F)) Variants.none c none) E (cc0__kernel i tbM0_0 htbM0_0 tbM0_1 htbM0_1 arg4 harg4 arg5 harg5 arg6 harg6 arg7 harg7 arg8 harg8 arg9 harg9 arg10 harg10 arg11 harg11) K } := by
  refine ⟨?_, ?_, fun xi1 E K => ?run⟩
  case run =>
    rw [cc0__kernel_eq_skeleton]; unfold cc0__kernel_skel
    unfold owns
    iintro ⟨⟨%f0, %hf0, H0⟩, ⟨%f1, %hf1, H1⟩, HT0, HT1, ⟨%ds0, %fs0, -, HS0⟩, ⟨%ds1, %fs1, -, HS1⟩, ⟨%d8, %f8, -, H8⟩, ⟨%d9, %f9, -, H9⟩, ⟨%d10, %f10, -, H10⟩, ⟨%f11, %hf11, H11⟩, Hk⟩
    obtain rfl := harg4.eq_unread hf0; obtain rfl := harg5.eq_unread hf1; obtain rfl := harg11.eq_unread hf11
    sl_exec_parts (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [HT0]; · iexact HT0
    isplitl [HT1]; · iexact HT1
    isplitl [HS0]; · iexists _; iexact HS0
    isplitl [HS1]; · iexists _; iexact HS1
    isplitl [H8]; · iexists _; iexact H8
    isplitl [H9]; · iexists _; iexact H9
    isplitl [H10]; · iexists _; iexact H10
    iexists _; iexact H11

end Cert.Kernel.Hand

end
-- ==== Proof.K.RunB.lean ====
/-
  The frame of the patch-placement kernel, part 2B: the whole body run once, symbolically, at a point of
  a middle group (0 < k < 15): the accumulators are read at what the point before left and added to; the canvas block is not touched.
  The run's witness is what the stores leave: the pieces written into each accumulator, each a
  payload over the table words and the patch block read at this point and the accumulators' previous contents.
-/
import proofs.«425958_j53352083751494_3_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_B (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) :
    Σ' (LS0 : List (View.Piece (Elt F) S512x512 .f32)), { LS1 : List (View.Piece (Elt F) S512x512 .f32) //
      ∀ (xi1 : Vec F S1x1x512x512 .f32) (E : Set ℕ) (K : PUnit → sProp 𝕄),
        iprop(owns (c : Thread nD τ) arg4 fullShare x0 ∗ owns (c : Thread nD τ) arg5 fullShare xi1 ∗ tbPt0 c tbM0_0 xt0 ∗ tbPt0 c tbM0_1 xt1
            ∗ owns (c : Thread nD τ) arg6 fullShare xs0 ∗ owns (c : Thread nD τ) arg7 fullShare xs1
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xw
            ∗ (iprop(owns (c : Thread nD τ) arg4 fullShare x0 ∗ owns (c : Thread nD τ) arg5 fullShare xi1 ∗ tbPt0 c tbM0_0 xt0 ∗ tbPt0 c tbM0_1 xt1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ g, arg8.view.loc (c : Thread nD τ) ↦[arg8.view.set]{fullShare} g) ∗ (∃ g, arg9.view.loc (c : Thread nD τ) ↦[arg9.view.set]{fullShare} g)
                ∗ (∃ g, arg10.view.loc (c : Thread nD τ) ↦[arg10.view.set]{fullShare} g) ∗ (∃ g, arg11.view.loc (c : Thread nD τ) ↦[arg11.view.set]{fullShare} g)) -∗ K ⟨⟩))
          ⊢ wp frame (wpE (defs₀ (F := F)) Variants.none c none) E (cc0__kernel i tbM0_0 htbM0_0 tbM0_1 htbM0_1 arg4 harg4 arg5 harg5 arg6 harg6 arg7 harg7 arg8 harg8 arg9 harg9 arg10 harg10 arg11 harg11) K } := by
  refine ⟨?_, ?_, fun xi1 E K => ?run⟩
  case run =>
    rw [cc0__kernel_eq_skeleton]; unfold cc0__kernel_skel
    unfold owns
    iintro ⟨⟨%f0, %hf0, H0⟩, ⟨%f1, %hf1, H1⟩, HT0, HT1, ⟨%fs0, %hfs0, HS0⟩, ⟨%fs1, %hfs1, HS1⟩, ⟨%d8, %f8, -, H8⟩, ⟨%d9, %f9, -, H9⟩, ⟨%d10, %f10, -, H10⟩, ⟨%f11, %hf11, H11⟩, Hk⟩
    obtain rfl := harg4.eq_unread hf0; obtain rfl := harg5.eq_unread hf1; obtain rfl := harg6.eq_unread hfs0; obtain rfl := harg7.eq_unread hfs1; obtain rfl := harg11.eq_unread hf11
    sl_exec_parts (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [HT0]; · iexact HT0
    isplitl [HT1]; · iexact HT1
    isplitl [HS0]; · iexists _; iexact HS0
    isplitl [HS1]; · iexists _; iexact HS1
    isplitl [H8]; · iexists _; iexact H8
    isplitl [H9]; · iexists _; iexact H9
    isplitl [H10]; · iexists _; iexact H10
    iexists _; iexact H11

end Cert.Kernel.Hand

end
-- ==== Proof.K.RunC.lean ====
/-
  The frame of the patch-placement kernel, part 2C: the whole body run once, symbolically, at a point of
  the batch's last group (k = 15): the accumulators are added to and then read out, placed / max(count, 1), into the canvas block.
  The run's witness is what the stores leave: the pieces written into each accumulator and into the canvas block, each a
  payload over the table words and the patch block read at this point and the accumulators' previous contents.
-/
import proofs.«425958_j53352083751494_3_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_C (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) :
    Σ' (L1 : List (View.Piece (Elt F) S1x1x512x512 .f32)), Σ' (LS0 : List (View.Piece (Elt F) S512x512 .f32)), { LS1 : List (View.Piece (Elt F) S512x512 .f32) //
      ∀ (E : Set ℕ) (K : PUnit → sProp 𝕄),
        iprop(owns (c : Thread nD τ) arg4 fullShare x0 ∗ (∃ d, owns (c : Thread nD τ) arg5 fullShare d) ∗ tbPt0 c tbM0_0 xt0 ∗ tbPt0 c tbM0_1 xt1
            ∗ owns (c : Thread nD τ) arg6 fullShare xs0 ∗ owns (c : Thread nD τ) arg7 fullShare xs1
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xw
            ∗ (iprop(owns (c : Thread nD τ) arg4 fullShare x0 ∗ (∃ f, arg5.view.loc (c : Thread nD τ) ↦[arg5.view.set]{fullShare} arg5.view.writes (Elt F) f L1) ∗ tbPt0 c tbM0_0 xt0 ∗ tbPt0 c tbM0_1 xt1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ g, arg8.view.loc (c : Thread nD τ) ↦[arg8.view.set]{fullShare} g) ∗ (∃ g, arg9.view.loc (c : Thread nD τ) ↦[arg9.view.set]{fullShare} g)
                ∗ (∃ g, arg10.view.loc (c : Thread nD τ) ↦[arg10.view.set]{fullShare} g) ∗ (∃ g, arg11.view.loc (c : Thread nD τ) ↦[arg11.view.set]{fullShare} g)) -∗ K ⟨⟩))
          ⊢ wp frame (wpE (defs₀ (F := F)) Variants.none c none) E (cc0__kernel i tbM0_0 htbM0_0 tbM0_1 htbM0_1 arg4 harg4 arg5 harg5 arg6 harg6 arg7 harg7 arg8 harg8 arg9 harg9 arg10 harg10 arg11 harg11) K } := by
  refine ⟨?_, ?_, ?_, fun E K => ?run⟩
  case run =>
    rw [cc0__kernel_eq_skeleton]; unfold cc0__kernel_skel
    unfold owns
    iintro ⟨⟨%f0, %hf0, H0⟩, ⟨%d1, %f1, -, H1⟩, HT0, HT1, ⟨%fs0, %hfs0, HS0⟩, ⟨%fs1, %hfs1, HS1⟩, ⟨%d8, %f8, -, H8⟩, ⟨%d9, %f9, -, H9⟩, ⟨%d10, %f10, -, H10⟩, ⟨%f11, %hf11, H11⟩, Hk⟩
    obtain rfl := harg4.eq_unread hf0; obtain rfl := harg6.eq_unread hfs0; obtain rfl := harg7.eq_unread hfs1; obtain rfl := harg11.eq_unread hf11
    sl_exec_parts (disch := first | sl_exact hc0 | sl_exact hc1)
    sl_step
    iapply Hk
    isplitl [H0]
    · iexists _; isplitr; · ipureintro; exact harg4.read_unread _
      iexact H0
    isplitl [H1]; · iexists _; iexact H1
    isplitl [HT0]; · iexact HT0
    isplitl [HT1]; · iexact HT1
    isplitl [HS0]; · iexists _; iexact HS0
    isplitl [HS1]; · iexists _; iexact HS1
    isplitl [H8]; · iexists _; iexact H8
    isplitl [H9]; · iexists _; iexact H9
    isplitl [H10]; · iexists _; iexact H10
    iexists _; iexact H11

end Cert.Kernel.Hand

end
-- ==== Proof.K.Indep.lean ====
/-
  The frame of the patch-placement kernel: what a grid point leaves in the accumulators (and, at a batch's last group,
  in the canvas block) does not depend on what the column-mask scratch held when the point began.

  The body writes that scratch only by storing one row into a two-row block: the block is read back as the earlier
  stores left it, the row is put at its place in it, and the block is written. Every one of the sixteen blocks (rows
  2j, 2j+1) gets row 0 and then row 1, so nothing of what the block held survives; the scratch is then read whole,
  once, for the count contribution. Each store lists a new piece over the older ones. A list of pieces is read at an
  index through the first piece that holds it, so the older piece of a block, the only one that still mentions the
  scratch's contents at entry, lies under the newer piece of the same block and is never seen.
-/
import proofs.«425958_j53352083751494_3_alg».proof.Proof.K.RunA
import proofs.«425958_j53352083751494_3_alg».proof.Proof.K.RunB
import proofs.«425958_j53352083751494_3_alg».proof.Proof.K.RunC

set_option maxRecDepth 16384

noncomputable section

namespace Cert.Kernel.Hand

open Cert.Kernel Cert.Kernel.Gen
open Idealize.ShloMosaic Idealize.ShloMosaic.TcCoe Idealize.ShloMosaic.Tactic

/-! ## A block written row by row keeps nothing -/

section Rows

variable {α : Type}

/-- A block whose every index lies in the second slice written or in the first keeps nothing of what it held. -/
theorem updateSlice_updateSlice_of_cover {s u : Shape} (old old' : s.Idx → α) (a b : u.Idx → α)
    (st0 st1 : Fin s.rank → Nat) (h0 : s.Slices st0 u) (h1 : s.Slices st1 u)
    (hcov : ∀ i : s.Idx, (∀ x : Fin s.rank, st1 x ≤ (i x).val ∧ (i x).val < st1 x + u.size (x.cast h1.1.symm))
      ∨ (∀ x : Fin s.rank, st0 x ≤ (i x).val ∧ (i x).val < st0 x + u.size (x.cast h0.1.symm))) :
    updateSlice (updateSlice old a st0 h0) b st1 h1 = updateSlice (updateSlice old' a st0 h0) b st1 h1 := by
  funext i
  unfold updateSlice
  by_cases c1 : ∀ x : Fin s.rank, st1 x ≤ (i x).val ∧ (i x).val < st1 x + u.size (x.cast h1.1.symm)
  · rw [dif_pos c1, dif_pos c1]
  · have c0 := (hcov i).resolve_left c1
    rw [dif_neg c1, dif_neg c1, dif_pos c0, dif_pos c0]

/-- A two-row block written at row 0 and then at row 1 does not depend on what it held. -/
theorem updateSlice_two_rows {n : Nat} (old old' : (⟨2, ![2, n]⟩ : Shape).Idx → α) (a b : (⟨2, ![1, n]⟩ : Shape).Idx → α)
    (h0 : (⟨2, ![2, n]⟩ : Shape).Slices ![0, 0] ⟨2, ![1, n]⟩) (h1 : (⟨2, ![2, n]⟩ : Shape).Slices ![1, 0] ⟨2, ![1, n]⟩) :
    updateSlice (updateSlice old a ![0, 0] h0) b ![1, 0] h1 = updateSlice (updateSlice old' a ![0, 0] h0) b ![1, 0] h1 := by
  refine updateSlice_updateSlice_of_cover old old' a b _ _ h0 h1 fun i => ?_
  have hi0 : (i 0).val < 2 := (i 0).isLt
  have hi1 : (i 1).val < n := (i 1).isLt
  by_cases hz : (i 0).val = 0
  · right
    intro x
    fin_cases x
    · exact ⟨Nat.zero_le _, by show (i 0).val < 0 + 1; omega⟩
    · exact ⟨Nat.zero_le _, by show (i 1).val < 0 + n; omega⟩
  · left
    intro x
    fin_cases x
    · exact ⟨by show 1 ≤ (i 0).val; omega, by show (i 0).val < 1 + 1; omega⟩
    · exact ⟨Nat.zero_le _, by show (i 1).val < 0 + n; omega⟩

end Rows

section Canon

variable {sig : RefSig} {κ : Kind} {sp : Space} {s : Shape} {e : EltTy} {Val : EltTy → Type} [∀ e, Nonempty (Val e)]

/-- A write under a later write through the same rectangle is not seen. -/
theorem canon_cons_cons_same (r : Rect s) (w w0 : r.shape.Idx → Val e) (L : List (View.Piece Val s e)) :
    View.canon (⟨r, w⟩ :: ⟨r, w0⟩ :: L) = View.canon (⟨r, w⟩ :: L) := by
  funext y
  by_cases hy : y ∈ r.set
  · obtain ⟨x, rfl⟩ : ∃ x, r.emb x = y := r.exists_idx_of_mem hy
    rw [View.canon_cons_emb, View.canon_cons_emb]
  · rw [View.canon_cons_of_not_mem ⟨r, w⟩ _ hy, View.canon_cons_of_not_mem ⟨r, w0⟩ _ hy, View.canon_cons_of_not_mem ⟨r, w⟩ _ hy]

/-- Loads through one box of two lists of writes that leave the same contents read the same. -/
theorem readCov_congr_canon (v : View sig κ sp s e) (L L' : List (View.Piece Val s e)) (B : LoadRect s)
    (h : View.canon L = View.canon L') : v.readCov L B = v.readCov L' B := by
  rw [View.readCov_eq_canon', View.readCov_eq_canon', h]

/-- One two-row block of a rank-two buffer, stored at row 0 and then at row 1 (each store a blend into the block as it
    reads after the stores before it): what the two stores leave over earlier writes depends on the earlier writes only
    through what THEY leave, and not at all on what the block held. -/
theorem canon_two_rows_step {m n : Nat} (v : View sig κ sp (⟨2, ![m, n]⟩ : Shape) e) (off : Fin 2 → Nat)
    (inb : ∀ x, off x + (⟨2, ![2, n]⟩ : Shape).size x ≤ (⟨2, ![m, n]⟩ : Shape).size x)
    (h0 : (⟨2, ![2, n]⟩ : Shape).Slices ![0, 0] ⟨2, ![1, n]⟩) (h1 : (⟨2, ![2, n]⟩ : Shape).Slices ![1, 0] ⟨2, ![1, n]⟩)
    (a b : (⟨2, ![1, n]⟩ : Shape).Idx → Val e) (old old' : (⟨2, ![2, n]⟩ : Shape).Idx → Val e)
    (L L' : List (View.Piece Val (⟨2, ![m, n]⟩ : Shape) e)) (hL : View.canon L = View.canon L') :
    View.canon ((⟨Rect.unit (s := (⟨2, ![m, n]⟩ : Shape)) off (⟨2, ![2, n]⟩ : Shape).size inb,
          updateSlice (v.readCov ((⟨Rect.unit (s := (⟨2, ![m, n]⟩ : Shape)) off (⟨2, ![2, n]⟩ : Shape).size inb, updateSlice old a ![0, 0] h0⟩ : View.Piece Val _ e) :: L)
            (Rect.unit (s := (⟨2, ![m, n]⟩ : Shape)) off (⟨2, ![2, n]⟩ : Shape).size inb).toLoadRect) b ![1, 0] h1⟩ : View.Piece Val _ e)
        :: ⟨Rect.unit (s := (⟨2, ![m, n]⟩ : Shape)) off (⟨2, ![2, n]⟩ : Shape).size inb, updateSlice old a ![0, 0] h0⟩ :: L)
      = View.canon ((⟨Rect.unit (s := (⟨2, ![m, n]⟩ : Shape)) off (⟨2, ![2, n]⟩ : Shape).size inb,
          updateSlice (v.readCov ((⟨Rect.unit (s := (⟨2, ![m, n]⟩ : Shape)) off (⟨2, ![2, n]⟩ : Shape).size inb, updateSlice old' a ![0, 0] h0⟩ : View.Piece Val _ e) :: L')
            (Rect.unit (s := (⟨2, ![m, n]⟩ : Shape)) off (⟨2, ![2, n]⟩ : Shape).size inb).toLoadRect) b ![1, 0] h1⟩ : View.Piece Val _ e)
        :: ⟨Rect.unit (s := (⟨2, ![m, n]⟩ : Shape)) off (⟨2, ![2, n]⟩ : Shape).size inb, updateSlice old' a ![0, 0] h0⟩ :: L') := by
  rw [View.readCov_cons_toLoadRect, View.readCov_cons_toLoadRect, canon_cons_cons_same, canon_cons_cons_same,
    updateSlice_two_rows old old' a b h0 h1, View.canon_cons, View.canon_cons, hL]

end Canon

/-! ## The three control cases -/

variable {F : FTy → Type} [FloatOps F]

/-- Case A: what the point's one whole read of the column-mask scratch returns, after the sixteen blocks' thirty-two row
    stores, does not depend on what the scratch held when the point began. -/
theorem scratchA_indep (c : Dev nD) (i : grid0.Coords) (arg11 : Memref sig .tc .vmem S32x512 .bf16) (harg11 : arg11.IsWhole)
    (xt1 : TbBuf0 (F := F) c tbM0_1) (xw xw' : Vec F S32x512 .bf16) :
    kernelRun0_A.sl.v1553 c i arg11 harg11 xt1 xw = kernelRun0_A.sl.v1553 c i arg11 harg11 xt1 xw' := by
  refine readCov_congr_canon _ _ _ _ ?_
  iterate 16 refine canon_two_rows_step _ _ _ _ _ _ _ _ _ _ _ ?_
  rfl

/-- So the count contribution of the point (the product of the row masks with the column masks read from the scratch)
    does not depend on it either. -/
theorem countA_indep (c : Dev nD) (i : grid0.Coords) (arg10 : Memref sig .tc .vmem S512x32 .bf16)
    (arg11 : Memref sig .tc .vmem S32x512 .bf16) (harg11 : arg11.IsWhole)
    (xt0 : TbBuf0 (F := F) c tbM0_0) (xt1 : TbBuf0 (F := F) c tbM0_1) (xw xw' : Vec F S32x512 .bf16) :
    kernelRun0_A.sl.r_126 c i arg10 arg11 harg11 xt0 xt1 xw = kernelRun0_A.sl.r_126 c i arg10 arg11 harg11 xt0 xt1 xw' := by
  unfold kernelRun0_A.sl.r_126
  rw [scratchA_indep c i arg11 harg11 xt1 xw xw']

/-- Case B: what the point's one whole read of the column-mask scratch returns, after the sixteen blocks' thirty-two row
    stores, does not depend on what the scratch held when the point began. -/
theorem scratchB_indep (c : Dev nD) (i : grid0.Coords) (arg11 : Memref sig .tc .vmem S32x512 .bf16) (harg11 : arg11.IsWhole)
    (xt1 : TbBuf0 (F := F) c tbM0_1) (xw xw' : Vec F S32x512 .bf16) :
    kernelRun0_B.sl.v1553 c i arg11 harg11 xt1 xw = kernelRun0_B.sl.v1553 c i arg11 harg11 xt1 xw' := by
  refine readCov_congr_canon _ _ _ _ ?_
  iterate 16 refine canon_two_rows_step _ _ _ _ _ _ _ _ _ _ _ ?_
  rfl

/-- So the count contribution of the point (the product of the row masks with the column masks read from the scratch)
    does not depend on it either. -/
theorem countB_indep (c : Dev nD) (i : grid0.Coords) (arg10 : Memref sig .tc .vmem S512x32 .bf16)
    (arg11 : Memref sig .tc .vmem S32x512 .bf16) (harg11 : arg11.IsWhole)
    (xt0 : TbBuf0 (F := F) c tbM0_0) (xt1 : TbBuf0 (F := F) c tbM0_1) (xw xw' : Vec F S32x512 .bf16) :
    kernelRun0_B.sl.r_126 c i arg10 arg11 harg11 xt0 xt1 xw = kernelRun0_B.sl.r_126 c i arg10 arg11 harg11 xt0 xt1 xw' := by
  unfold kernelRun0_B.sl.r_126
  rw [scratchB_indep c i arg11 harg11 xt1 xw xw']

/-- Case C: what the point's one whole read of the column-mask scratch returns, after the sixteen blocks' thirty-two row
    stores, does not depend on what the scratch held when the point began. -/
theorem scratchC_indep (c : Dev nD) (i : grid0.Coords) (arg11 : Memref sig .tc .vmem S32x512 .bf16) (harg11 : arg11.IsWhole)
    (xt1 : TbBuf0 (F := F) c tbM0_1) (xw xw' : Vec F S32x512 .bf16) :
    kernelRun0_C.sl.v1553 c i arg11 harg11 xt1 xw = kernelRun0_C.sl.v1553 c i arg11 harg11 xt1 xw' := by
  refine readCov_congr_canon _ _ _ _ ?_
  iterate 16 refine canon_two_rows_step _ _ _ _ _ _ _ _ _ _ _ ?_
  rfl

/-- So the count contribution of the point (the product of the row masks with the column masks read from the scratch)
    does not depend on it either. -/
theorem countC_indep (c : Dev nD) (i : grid0.Coords) (arg10 : Memref sig .tc .vmem S512x32 .bf16)
    (arg11 : Memref sig .tc .vmem S32x512 .bf16) (harg11 : arg11.IsWhole)
    (xt0 : TbBuf0 (F := F) c tbM0_0) (xt1 : TbBuf0 (F := F) c tbM0_1) (xw xw' : Vec F S32x512 .bf16) :
    kernelRun0_C.sl.r_126 c i arg10 arg11 harg11 xt0 xt1 xw = kernelRun0_C.sl.r_126 c i arg10 arg11 harg11 xt0 xt1 xw' := by
  unfold kernelRun0_C.sl.r_126
  rw [scratchC_indep c i arg11 harg11 xt1 xw xw']

/-- First group of a batch: the value pieces never mention the scratch; the count piece does only through the count
    contribution. -/
theorem runA_pieces_indep (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : cond0_0 i) (hc1 : ¬cond0_1 i)
    (x0 : Vec F S1x32x64x64 .f32) (xt0 : TbBuf0 (F := F) c tbM0_0) (xt1 : TbBuf0 (F := F) c tbM0_1) (xw xw' : Vec F S32x512 .bf16) :
    (kernelRun0_A c i arg4 harg4 arg5 harg5 arg6 harg6 arg7 harg7 arg8 harg8 arg9 harg9 arg10 harg10 arg11 harg11 hc0 hc1 x0 xt0 xt1 xw).1 = (kernelRun0_A c i arg4 harg4 arg5 harg5 arg6 harg6 arg7 harg7 arg8 harg8 arg9 harg9 arg10 harg10 arg11 harg11 hc0 hc1 x0 xt0 xt1 xw').1
      ∧ (kernelRun0_A c i arg4 harg4 arg5 harg5 arg6 harg6 arg7 harg7 arg8 harg8 arg9 harg9 arg10 harg10 arg11 harg11 hc0 hc1 x0 xt0 xt1 xw).2.1 = (kernelRun0_A c i arg4 harg4 arg5 harg5 arg6 harg6 arg7 harg7 arg8 harg8 arg9 harg9 arg10 harg10 arg11 harg11 hc0 hc1 x0 xt0 xt1 xw').2.1 := by
  have h := countA_indep c i arg10 arg11 harg11 xt0 xt1 xw xw'
  unfold kernelRun0_A
  dsimp only
  refine ⟨rfl, ?_⟩
  rw [h]

/-- A middle group: likewise. -/
theorem runB_pieces_indep (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw xw' : Vec F S32x512 .bf16) :
    (kernelRun0_B c i arg4 harg4 arg5 harg5 arg6 harg6 arg7 harg7 arg8 harg8 arg9 harg9 arg10 harg10 arg11 harg11 hc0 hc1 x0 xt0 xt1 xs0 xs1 xw).1 = (kernelRun0_B c i arg4 harg4 arg5 harg5 arg6 harg6 arg7 harg7 arg8 harg8 arg9 harg9 arg10 harg10 arg11 harg11 hc0 hc1 x0 xt0 xt1 xs0 xs1 xw').1
      ∧ (kernelRun0_B c i arg4 harg4 arg5 harg5 arg6 harg6 arg7 harg7 arg8 harg8 arg9 harg9 arg10 harg10 arg11 harg11 hc0 hc1 x0 xt0 xt1 xs0 xs1 xw).2.1 = (kernelRun0_B c i arg4 harg4 arg5 harg5 arg6 harg6 arg7 harg7 arg8 harg8 arg9 harg9 arg10 harg10 arg11 harg11 hc0 hc1 x0 xt0 xt1 xs0 xs1 xw').2.1 := by
  have h := countB_indep c i arg10 arg11 harg11 xt0 xt1 xw xw'
  unfold kernelRun0_B
  dsimp only
  refine ⟨rfl, ?_⟩
  rw [h]

/-- Last group of a batch: the count piece as before; the canvas block is the placed values over the counts read back
    through that one piece, so it follows the count piece. -/
theorem runC_pieces_indep (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw xw' : Vec F S32x512 .bf16) :
    (kernelRun0_C c i arg4 harg4 arg5 harg5 arg6 harg6 arg7 harg7 arg8 harg8 arg9 harg9 arg10 harg10 arg11 harg11 hc0 hc1 x0 xt0 xt1 xs0 xs1 xw).1 = (kernelRun0_C c i arg4 harg4 arg5 harg5 arg6 harg6 arg7 harg7 arg8 harg8 arg9 harg9 arg10 harg10 arg11 harg11 hc0 hc1 x0 xt0 xt1 xs0 xs1 xw').1
      ∧ (kernelRun0_C c i arg4 harg4 arg5 harg5 arg6 harg6 arg7 harg7 arg8 harg8 arg9 harg9 arg10 harg10 arg11 harg11 hc0 hc1 x0 xt0 xt1 xs0 xs1 xw).2.1 = (kernelRun0_C c i arg4 harg4 arg5 harg5 arg6 harg6 arg7 harg7 arg8 harg8 arg9 harg9 arg10 harg10 arg11 harg11 hc0 hc1 x0 xt0 xt1 xs0 xs1 xw').2.1
      ∧ (kernelRun0_C c i arg4 harg4 arg5 harg5 arg6 harg6 arg7 harg7 arg8 harg8 arg9 harg9 arg10 harg10 arg11 harg11 hc0 hc1 x0 xt0 xt1 xs0 xs1 xw).2.2.1 = (kernelRun0_C c i arg4 harg4 arg5 harg5 arg6 harg6 arg7 harg7 arg8 harg8 arg9 harg9 arg10 harg10 arg11 harg11 hc0 hc1 x0 xt0 xt1 xs0 xs1 xw').2.2.1 := by
  have h := countC_indep c i arg10 arg11 harg11 xt0 xt1 xw xw'
  have hH : kernelRun0_C.sl.HS1_1 c i arg7 harg7 arg10 arg11 harg11 xt0 xt1 xs1 xw
      = kernelRun0_C.sl.HS1_1 c i arg7 harg7 arg10 arg11 harg11 xt0 xt1 xs1 xw' := by
    unfold kernelRun0_C.sl.HS1_1
    rw [h]
  have hv : kernelRun0_C.sl.v1564 c i arg7 harg7 arg10 arg11 harg11 xt0 xt1 xs1 xw
      = kernelRun0_C.sl.v1564 c i arg7 harg7 arg10 arg11 harg11 xt0 xt1 xs1 xw' := by
    unfold kernelRun0_C.sl.v1564
    rw [hH]
  unfold kernelRun0_C
  dsimp only
  refine ⟨?_, rfl, hH⟩
  rw [hv]

end Cert.Kernel.Hand

end
-- ==== Proof.K.Frame.lean ====
/-
  The frame of the patch-placement kernel, part 3: what the accumulators and the canvas block hold point by point,
  the pipeline's proof data, the body obligation at a generic point, and the run.

  The accumulators after point n are defined by recursion on n through the three cases' runs: reset-and-add at
  k = 0, add at 0 < k < 15, add-and-read-out at k = 15 (k = n mod 16). The invariant carries them between points;
  the canvas window is handed back untouched at the points that store nothing into it and holds the read-out at
  k = 15, the point at which the pipeline writes the batch's block back.
-/
import proofs.«425958_j53352083751494_3_alg».proof.Proof.K.RunA
import proofs.«425958_j53352083751494_3_alg».proof.Proof.K.RunB
import proofs.«425958_j53352083751494_3_alg».proof.Proof.K.RunC
import proofs.«425958_j53352083751494_3_alg».proof.Proof.K.Indep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces a point of case A leaves in accumulator 0 cover it. -/
theorem scover0_A_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : cond0_0 i) (hc1 : ¬cond0_1 i)
    (x0 : Vec F S1x32x64x64 .f32) (xt0 : TbBuf0 (F := F) c tbM0_0) (xt1 : TbBuf0 (F := F) c tbM0_1) (xw : Vec F S32x512 .bf16) (y : S512x512.Idx) :
    ∃ pc ∈ (kernelRun0_A c i arg4 harg4 arg5 harg5 arg6 harg6 arg7 harg7 arg8 harg8 arg9 harg9 arg10 harg10 arg11 harg11 hc0 hc1 x0 xt0 xt1 xw).1, y ∈ pc.1.set :=
  View.cover_of_tiledL (kernelRun0_A c i arg4 harg4 arg5 harg5 arg6 harg6 arg7 harg7 arg8 harg8 arg9 harg9 arg10 harg10 arg11 harg11 hc0 hc1 x0 xt0 xt1 xw).1 S512x512.size (by sl_kernel_rfl) y

/-- What a point of case A leaves in accumulator 0: its pieces read back. -/
def sout0_A_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : cond0_0 i) (hc1 : ¬cond0_1 i)
    (x0 : Vec F S1x32x64x64 .f32) (xt0 : TbBuf0 (F := F) c tbM0_0) (xt1 : TbBuf0 (F := F) c tbM0_1) (xw : Vec F S32x512 .bf16) : Vec F S512x512 .f32 :=
  VS0_0.read (Elt F) (VS0_0.writes (Elt F) VS0_0.junk (kernelRun0_A c i arg4 harg4 arg5 harg5 arg6 harg6 arg7 harg7 arg8 harg8 arg9 harg9 arg10 harg10 arg11 harg11 hc0 hc1 x0 xt0 xt1 xw).1)

/-- The pieces a point of case A leaves in accumulator 1 cover it. -/
theorem scover0_A_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : cond0_0 i) (hc1 : ¬cond0_1 i)
    (x0 : Vec F S1x32x64x64 .f32) (xt0 : TbBuf0 (F := F) c tbM0_0) (xt1 : TbBuf0 (F := F) c tbM0_1) (xw : Vec F S32x512 .bf16) (y : S512x512.Idx) :
    ∃ pc ∈ (kernelRun0_A c i arg4 harg4 arg5 harg5 arg6 harg6 arg7 harg7 arg8 harg8 arg9 harg9 arg10 harg10 arg11 harg11 hc0 hc1 x0 xt0 xt1 xw).2.1, y ∈ pc.1.set :=
  View.cover_of_tiledL (kernelRun0_A c i arg4 harg4 arg5 harg5 arg6 harg6 arg7 harg7 arg8 harg8 arg9 harg9 arg10 harg10 arg11 harg11 hc0 hc1 x0 xt0 xt1 xw).2.1 S512x512.size (by sl_kernel_rfl) y

/-- What a point of case A leaves in accumulator 1: its pieces read back. -/
def sout0_A_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : cond0_0 i) (hc1 : ¬cond0_1 i)
    (x0 : Vec F S1x32x64x64 .f32) (xt0 : TbBuf0 (F := F) c tbM0_0) (xt1 : TbBuf0 (F := F) c tbM0_1) (xw : Vec F S32x512 .bf16) : Vec F S512x512 .f32 :=
  VS0_1.read (Elt F) (VS0_1.writes (Elt F) VS0_1.junk (kernelRun0_A c i arg4 harg4 arg5 harg5 arg6 harg6 arg7 harg7 arg8 harg8 arg9 harg9 arg10 harg10 arg11 harg11 hc0 hc1 x0 xt0 xt1 xw).2.1)

/-- The pieces a point of case B leaves in accumulator 0 cover it. -/
theorem scover0_B_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) (y : S512x512.Idx) :
    ∃ pc ∈ (kernelRun0_B c i arg4 harg4 arg5 harg5 arg6 harg6 arg7 harg7 arg8 harg8 arg9 harg9 arg10 harg10 arg11 harg11 hc0 hc1 x0 xt0 xt1 xs0 xs1 xw).1, y ∈ pc.1.set :=
  View.cover_of_tiledL (kernelRun0_B c i arg4 harg4 arg5 harg5 arg6 harg6 arg7 harg7 arg8 harg8 arg9 harg9 arg10 harg10 arg11 harg11 hc0 hc1 x0 xt0 xt1 xs0 xs1 xw).1 S512x512.size (by sl_kernel_rfl) y

/-- What a point of case B leaves in accumulator 0: its pieces read back. -/
def sout0_B_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) : Vec F S512x512 .f32 :=
  VS0_0.read (Elt F) (VS0_0.writes (Elt F) VS0_0.junk (kernelRun0_B c i arg4 harg4 arg5 harg5 arg6 harg6 arg7 harg7 arg8 harg8 arg9 harg9 arg10 harg10 arg11 harg11 hc0 hc1 x0 xt0 xt1 xs0 xs1 xw).1)

/-- The pieces a point of case B leaves in accumulator 1 cover it. -/
theorem scover0_B_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) (y : S512x512.Idx) :
    ∃ pc ∈ (kernelRun0_B c i arg4 harg4 arg5 harg5 arg6 harg6 arg7 harg7 arg8 harg8 arg9 harg9 arg10 harg10 arg11 harg11 hc0 hc1 x0 xt0 xt1 xs0 xs1 xw).2.1, y ∈ pc.1.set :=
  View.cover_of_tiledL (kernelRun0_B c i arg4 harg4 arg5 harg5 arg6 harg6 arg7 harg7 arg8 harg8 arg9 harg9 arg10 harg10 arg11 harg11 hc0 hc1 x0 xt0 xt1 xs0 xs1 xw).2.1 S512x512.size (by sl_kernel_rfl) y

/-- What a point of case B leaves in accumulator 1: its pieces read back. -/
def sout0_B_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) : Vec F S512x512 .f32 :=
  VS0_1.read (Elt F) (VS0_1.writes (Elt F) VS0_1.junk (kernelRun0_B c i arg4 harg4 arg5 harg5 arg6 harg6 arg7 harg7 arg8 harg8 arg9 harg9 arg10 harg10 arg11 harg11 hc0 hc1 x0 xt0 xt1 xs0 xs1 xw).2.1)

/-- The pieces a point of case C leaves in accumulator 0 cover it. -/
theorem scover0_C_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) (y : S512x512.Idx) :
    ∃ pc ∈ (kernelRun0_C c i arg4 harg4 arg5 harg5 arg6 harg6 arg7 harg7 arg8 harg8 arg9 harg9 arg10 harg10 arg11 harg11 hc0 hc1 x0 xt0 xt1 xs0 xs1 xw).2.1, y ∈ pc.1.set :=
  View.cover_of_tiledL (kernelRun0_C c i arg4 harg4 arg5 harg5 arg6 harg6 arg7 harg7 arg8 harg8 arg9 harg9 arg10 harg10 arg11 harg11 hc0 hc1 x0 xt0 xt1 xs0 xs1 xw).2.1 S512x512.size (by sl_kernel_rfl) y

/-- What a point of case C leaves in accumulator 0: its pieces read back. -/
def sout0_C_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) : Vec F S512x512 .f32 :=
  VS0_0.read (Elt F) (VS0_0.writes (Elt F) VS0_0.junk (kernelRun0_C c i arg4 harg4 arg5 harg5 arg6 harg6 arg7 harg7 arg8 harg8 arg9 harg9 arg10 harg10 arg11 harg11 hc0 hc1 x0 xt0 xt1 xs0 xs1 xw).2.1)

/-- The pieces a point of case C leaves in accumulator 1 cover it. -/
theorem scover0_C_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) (y : S512x512.Idx) :
    ∃ pc ∈ (kernelRun0_C c i arg4 harg4 arg5 harg5 arg6 harg6 arg7 harg7 arg8 harg8 arg9 harg9 arg10 harg10 arg11 harg11 hc0 hc1 x0 xt0 xt1 xs0 xs1 xw).2.2.1, y ∈ pc.1.set :=
  View.cover_of_tiledL (kernelRun0_C c i arg4 harg4 arg5 harg5 arg6 harg6 arg7 harg7 arg8 harg8 arg9 harg9 arg10 harg10 arg11 harg11 hc0 hc1 x0 xt0 xt1 xs0 xs1 xw).2.2.1 S512x512.size (by sl_kernel_rfl) y

/-- What a point of case C leaves in accumulator 1: its pieces read back. -/
def sout0_C_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) : Vec F S512x512 .f32 :=
  VS0_1.read (Elt F) (VS0_1.writes (Elt F) VS0_1.junk (kernelRun0_C c i arg4 harg4 arg5 harg5 arg6 harg6 arg7 harg7 arg8 harg8 arg9 harg9 arg10 harg10 arg11 harg11 hc0 hc1 x0 xt0 xt1 xs0 xs1 xw).2.2.1)

/-- The canvas block a point of case C leaves: one store of the whole block. -/
theorem cover0_C_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) (y : S1x1x512x512.Idx) :
    ∃ pc ∈ (kernelRun0_C c i arg4 harg4 arg5 harg5 arg6 harg6 arg7 harg7 arg8 harg8 arg9 harg9 arg10 harg10 arg11 harg11 hc0 hc1 x0 xt0 xt1 xs0 xs1 xw).1, y ∈ pc.1.set :=
  View.cover_of_tiledL (kernelRun0_C c i arg4 harg4 arg5 harg5 arg6 harg6 arg7 harg7 arg8 harg8 arg9 harg9 arg10 harg10 arg11 harg11 hc0 hc1 x0 xt0 xt1 xs0 xs1 xw).1 S1x1x512x512.size (by sl_kernel_rfl) y

def out0_C_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) : Vec F S1x1x512x512 .f32 :=
  VO0_1.read (Elt F) (VO0_1.writes (Elt F) VO0_1.junk (kernelRun0_C c i arg4 harg4 arg5 harg5 arg6 harg6 arg7 harg7 arg8 harg8 arg9 harg9 arg10 harg10 arg11 harg11 hc0 hc1 x0 xt0 xt1 xs0 xs1 xw).1)

/-- At a point that stores nothing into the canvas block the proof data name a placeholder nothing consults. -/
def outIdle : Vec F S1x1x512x512 .f32 := VO0_1.read (Elt F) VO0_1.junk

/-- The column-mask scratch is rewritten whole at every point before it is read; the accumulation below is stated at this
    placeholder for what it held, and the body's result is shown not to depend on it. -/
def wIdle : Vec F S32x512 .bf16 := scM0_5.view.read (Elt F) scM0_5.view.junk

/-! ## What the canvas block and the two accumulators hold after each point -/

/-- THE ACCUMULATION: after the body at position `n`, the canvas block's staging buffer and the two accumulators,
    by the case the position is in (k = n mod 16), the accumulators read at what position `n - 1` left. -/
def outsAt0 (c : Dev nD) : (n : ℕ) → n < (cfgM m).N → Vec F S1x1x512x512 .f32 × Vec F S512x512 .f32 × Vec F S512x512 .f32
  | 0, hn => (outIdle, sout0_A_0 c (grid0.coords ⟨0, hn⟩) (ms0_0 m ⟨0, hn⟩) (hs0_0 m ⟨0, hn⟩) (ms0_1 m ⟨0, hn⟩) (hs0_1 m ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => absurd ((hcond0_1 ⟨0, hn⟩).mp h) (show ¬ (0 % 16 = 15) from by decide)) (iblk m c 0 ⟨0, hn⟩) (tbl m 0) (tbl m 1) wIdle, sout0_A_1 c (grid0.coords ⟨0, hn⟩) (ms0_0 m ⟨0, hn⟩) (hs0_0 m ⟨0, hn⟩) (ms0_1 m ⟨0, hn⟩) (hs0_1 m ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => absurd ((hcond0_1 ⟨0, hn⟩).mp h) (show ¬ (0 % 16 = 15) from by decide)) (iblk m c 0 ⟨0, hn⟩) (tbl m 0) (tbl m 1) wIdle)
  | n + 1, hn =>
    if h0 : (n + 1) % 16 = 0 then
      if h1 : (n + 1) % 16 = 15 then
        False.elim (by omega)
      else
        (outIdle, sout0_A_0 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (tbl m 0) (tbl m 1) wIdle, sout0_A_1 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (tbl m 0) (tbl m 1) wIdle)
    else
      if h1 : (n + 1) % 16 = 15 then
        (out0_C_1 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (tbl m 0) (tbl m 1) (outsAt0 c n (Nat.lt_of_succ_lt hn)).2.1 (outsAt0 c n (Nat.lt_of_succ_lt hn)).2.2 wIdle, sout0_C_0 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (tbl m 0) (tbl m 1) (outsAt0 c n (Nat.lt_of_succ_lt hn)).2.1 (outsAt0 c n (Nat.lt_of_succ_lt hn)).2.2 wIdle, sout0_C_1 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (tbl m 0) (tbl m 1) (outsAt0 c n (Nat.lt_of_succ_lt hn)).2.1 (outsAt0 c n (Nat.lt_of_succ_lt hn)).2.2 wIdle)
      else
        (outIdle, sout0_B_0 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (tbl m 0) (tbl m 1) (outsAt0 c n (Nat.lt_of_succ_lt hn)).2.1 (outsAt0 c n (Nat.lt_of_succ_lt hn)).2.2 wIdle, sout0_B_1 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (tbl m 0) (tbl m 1) (outsAt0 c n (Nat.lt_of_succ_lt hn)).2.1 (outsAt0 c n (Nat.lt_of_succ_lt hn)).2.2 wIdle)

theorem outsAt0_A (c : Dev nD) (t : Fin (cfgM m).N) (h0 : t.val % 16 = 0) (h1 : ¬t.val % 16 = 15) :
    outsAt0 m c t.val t.isLt = (outIdle, sout0_A_0 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (tbl m 0) (tbl m 1) wIdle, sout0_A_1 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (tbl m 0) (tbl m 1) wIdle) := by
  obtain ⟨n, hn⟩ := t
  cases n with
  | zero => exact rfl
  | succ n => exact (dif_pos h0).trans ((dif_neg h1).trans rfl)

theorem outsAt0_B (c : Dev nD) (t : Fin (cfgM m).N) (h0 : ¬t.val % 16 = 0) (h1 : ¬t.val % 16 = 15) :
    outsAt0 m c t.val t.isLt = (outIdle, sout0_B_0 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle, sout0_B_1 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin (cfgM m).N) (h0 : ¬t.val % 16 = 0) (h1 : t.val % 16 = 15) :
    outsAt0 m c t.val t.isLt = (out0_C_1 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle, sout0_C_0 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle, sout0_C_1 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch buffers at anything; afterwards the
    two accumulators at what the point before left, the four rewritten buffers at anything; the generator register
    at some state throughout. The tables' halves ride beside it. -/
def PhiS (c : Dev nD) : (n : ℕ) → n ≤ (cfgM m).N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2 ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ (cfgM m).N) (hz : n = 0) : PhiS m c n h = Pipeline.ΦA spec0 c := by
  subst hz; rfl

theorem PhiS_succ (c : Dev nD) (n : ℕ) (hn : n < (cfgM m).N) :
    PhiS m c (n + 1) hn = iprop(iprop(owns (c : Thread nD τ) scM0_0 fullShare (outsAt0 m c n hn).2.1 ∗ owns (c : Thread nD τ) scM0_1 fullShare (outsAt0 m c n hn).2.2 ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

theorem PhiS_pos (c : Dev nD) (n : ℕ) (h : n ≤ (cfgM m).N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2 ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => (outsAt0 m c t.val t.isLt).1
  Φ t := iprop(PhiS m c t.val (Nat.le_of_lt_succ t.isLt) ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem Phi_castSucc (c : Dev nD) (t : Fin (cfgM m).N) :
    (dats m 0 c).Φ t.castSucc = iprop(PhiS m c t.val (Nat.le_of_lt t.isLt) ∗ Pipeline.ΦT pre0 (tbl m) c) := by
  dsimp only [dats]; simp only [Fin.coe_castSucc]

theorem after0_0 (c : Dev nD) (t : Fin (cfgM m).N) : (dats m 0 c).after 0 t = iblk m c 0 t := by dsimp only [dats]; rfl
theorem after0_1 (c : Dev nD) (t : Fin (cfgM m).N) : (dats m 0 c).after 1 t = (outsAt0 m c t.val t.isLt).1 := by dsimp only [dats]; rfl

theorem before0_0 (c : Dev nD) (t : Fin (cfgM m).N) (d) : (dats m 0 c).before 0 t d = iblk m c 0 t :=
  before0_0_of m (dats m 0 c) (A_eq m c 0) (after0_0 m c) t d

/-! ## The body obligation, at a generic point -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t)

set_option maxHeartbeats 16000000 in
/-- The body at any point: the patch window holds the group's block; the position's residue mod 16 says which case
    it is in; the invariant hands the body the accumulators at what the point before left (at anything before the
    first point) and takes them back at this point's contents; the tables' halves pass through; the canvas block is
    handed back as found where the case stores nothing into it. -/
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0]
  rw [show (dats m 0 c).owesAt () t.succ = (dats m 0 c).owesAt () t.castSucc from rfl]
  rw [show (dats m 0 c).Φ t.succ = iprop(PhiS m c (t.val + 1) t.isLt ∗ Pipeline.ΦT pre0 (tbl m) c) from rfl, PhiS_succ]
  have hN : t.val < 256 := lt_of_lt_of_eq t.isLt (show (cfgM m).N = 256 from N_0)
  by_cases h0 : t.val % 16 = 0
  · by_cases h1 : t.val % 16 = 15
    · exfalso; omega
    · rw [show (dats m 0 c).leavesExact 0 t = owns (c : Thread nD τ) (ms0_0 m t) fullShare ((dats m 0 c).after 0 t) from by
        unfold Dat.leavesExact; rfl, after0_0]
      rw [Dat.leavesExact_idle (dats m 0 c) 1 t (idleAt0_1 t h1) (noFlush0_1 t h1)]
      rw [outsAt0_A m c t h0 h1]
      unfold sout0_A_0 sout0_A_1; (try dsimp only)
      have hIA := runA_pieces_indep c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (tbl m 0) (tbl m 1)
      by_cases hz : t.val = 0
      ·
        rw [Phi_castSucc m c t, PhiS_zero m c _ _ hz, PhiA0_eq, PhiT0_eq]
        iintro ⟨⟨⟨⟨HS0, HS1, H8, H9, H10, ⟨%dw, H11⟩⟩, Hg⟩, ⟨HT0, HT1⟩⟩, Ho, ⟨%d0, H0⟩, ⟨%d1, H1⟩⟩
        iapply ((kernelRun0_A c (grid0.coords t) _ _ _ _ _ _ _ _ _ _ _ _ _ _ _ _ ((hcond0_0 t).mpr h0) (fun h => h1 ((hcond0_1 t).mp h)) (iblk m c 0 t) (tbl m 0) (tbl m 1) dw).2.2 _ Set.univ _)
        isplitl [H0]; · iexact H0
        isplitl [H1]; · iexact H1
        isplitl [HT0]; · iexact HT0
        isplitl [HT1]; · iexact HT1
        isplitl [HS0]; · iexact HS0
        isplitl [HS1]; · iexact HS1
        isplitl [H8]; · iexact H8
        isplitl [H9]; · iexact H9
        isplitl [H10]; · iexact H10
        isplitl [H11]; · iexact H11
        iintro ⟨H0, H1, HT0, HT1, ⟨%es0, HS0⟩, ⟨%es1, HS1⟩, ⟨%g8, H8⟩, ⟨%g9, H9⟩, ⟨%g10, H10⟩, ⟨%g11, H11⟩⟩
        isplitl [HS0 HS1 H8 H9 H10 H11 Hg HT0 HT1]
        · isplitl [HS0 HS1 H8 H9 H10 H11 Hg]
          · isplitr [Hg]
            · isplitl [HS0]
              · unfold owns; iexists _; isplitr
                swap; · iexact HS0
                ipureintro; exact (View.read_writes_of_cover _ _ _ _ _ (scover0_A_0 c _ _ _ _ _ _ _ _ _ _ _ _ _ _ _ _ _ _ _ _ _ _ _)).trans (congrArg (fun L => VS0_0.read (Elt F) (VS0_0.writes (Elt F) VS0_0.junk L)) (hIA dw wIdle).1)
              isplitl [HS1]
              · unfold owns; iexists _; isplitr
                swap; · iexact HS1
                ipureintro; exact (View.read_writes_of_cover _ _ _ _ _ (scover0_A_1 c _ _ _ _ _ _ _ _ _ _ _ _ _ _ _ _ _ _ _ _ _ _ _)).trans (congrArg (fun L => VS0_1.read (Elt F) (VS0_1.writes (Elt F) VS0_1.junk L)) (hIA dw wIdle).2)
              isplitl [H8]; · iexists _; unfold owns; iexists _; isplitr; swap; (· iexact H8); ipureintro; rfl
              isplitl [H9]; · iexists _; unfold owns; iexists _; isplitr; swap; (· iexact H9); ipureintro; rfl
              isplitl [H10]; · iexists _; unfold owns; iexists _; isplitr; swap; (· iexact H10); ipureintro; rfl
              iexists _; unfold owns; iexists _; isplitr; swap; (· iexact H11); ipureintro; rfl
            iexact Hg
          isplitl [HT0]; · iexact HT0
          iexact HT1
        isplitl [Ho]; · iexact Ho
        isplitl [H0]; · iexact H0
        iexists _; iexact H1
      ·
        rw [Phi_castSucc m c t, PhiS_pos m c _ _ hz, PhiT0_eq]
        iintro ⟨⟨⟨⟨HS0, HS1, H8, H9, H10, ⟨%dw, H11⟩⟩, Hg⟩, ⟨HT0, HT1⟩⟩, Ho, ⟨%d0, H0⟩, ⟨%d1, H1⟩⟩
        iapply ((kernelRun0_A c (grid0.coords t) _ _ _ _ _ _ _ _ _ _ _ _ _ _ _ _ ((hcond0_0 t).mpr h0) (fun h => h1 ((hcond0_1 t).mp h)) (iblk m c 0 t) (tbl m 0) (tbl m 1) dw).2.2 _ Set.univ _)
        isplitl [H0]; · iexact H0
        isplitl [H1]; · iexact H1
        isplitl [HT0]; · iexact HT0
        isplitl [HT1]; · iexact HT1
        isplitl [HS0]; · iexists _; iexact HS0
        isplitl [HS1]; · iexists _; iexact HS1
        isplitl [H8]; · iexact H8
        isplitl [H9]; · iexact H9
        isplitl [H10]; · iexact H10
        isplitl [H11]; · iexact H11
        iintro ⟨H0, H1, HT0, HT1, ⟨%es0, HS0⟩, ⟨%es1, HS1⟩, ⟨%g8, H8⟩, ⟨%g9, H9⟩, ⟨%g10, H10⟩, ⟨%g11, H11⟩⟩
        isplitl [HS0 HS1 H8 H9 H10 H11 Hg HT0 HT1]
        · isplitl [HS0 HS1 H8 H9 H10 H11 Hg]
          · isplitr [Hg]
            · isplitl [HS0]
              · unfold owns; iexists _; isplitr
                swap; · iexact HS0
                ipureintro; exact (View.read_writes_of_cover _ _ _ _ _ (scover0_A_0 c _ _ _ _ _ _ _ _ _ _ _ _ _ _ _ _ _ _ _ _ _ _ _)).trans (congrArg (fun L => VS0_0.read (Elt F) (VS0_0.writes (Elt F) VS0_0.junk L)) (hIA dw wIdle).1)
              isplitl [HS1]
              · unfold owns; iexists _; isplitr
                swap; · iexact HS1
                ipureintro; exact (View.read_writes_of_cover _ _ _ _ _ (scover0_A_1 c _ _ _ _ _ _ _ _ _ _ _ _ _ _ _ _ _ _ _ _ _ _ _)).trans (congrArg (fun L => VS0_1.read (Elt F) (VS0_1.writes (Elt F) VS0_1.junk L)) (hIA dw wIdle).2)
              isplitl [H8]; · iexists _; unfold owns; iexists _; isplitr; swap; (· iexact H8); ipureintro; rfl
              isplitl [H9]; · iexists _; unfold owns; iexists _; isplitr; swap; (· iexact H9); ipureintro; rfl
              isplitl [H10]; · iexists _; unfold owns; iexists _; isplitr; swap; (· iexact H10); ipureintro; rfl
              iexists _; unfold owns; iexists _; isplitr; swap; (· iexact H11); ipureintro; rfl
            iexact Hg
          isplitl [HT0]; · iexact HT0
          iexact HT1
        isplitl [Ho]; · iexact Ho
        isplitl [H0]; · iexact H0
        iexists _; iexact H1
  · by_cases h1 : t.val % 16 = 15
    · rw [show (dats m 0 c).leavesExact 0 t = owns (c : Thread nD τ) (ms0_0 m t) fullShare ((dats m 0 c).after 0 t) from by
        unfold Dat.leavesExact; rfl, after0_0]
      rw [show (dats m 0 c).leavesExact 1 t = owns (c : Thread nD τ) (ms0_1 m t) fullShare ((dats m 0 c).after 1 t) from (by
        unfold Dat.leavesExact; rw [show (cfgM m).idle 1 ((cfgM m).grid.coords t) = false from liveAt0_1 t h1]; rfl), after0_1]
      rw [outsAt0_C m c t h0 h1]
      unfold out0_C_1 sout0_C_0 sout0_C_1; (try dsimp only)
      have hIC := runC_pieces_indep c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2
      by_cases hz : t.val = 0
      · exfalso; omega
      ·
        rw [Phi_castSucc m c t, PhiS_pos m c _ _ hz, PhiT0_eq]
        iintro ⟨⟨⟨⟨HS0, HS1, H8, H9, H10, ⟨%dw, H11⟩⟩, Hg⟩, ⟨HT0, HT1⟩⟩, Ho, ⟨%d0, H0⟩, ⟨%d1, H1⟩⟩
        iapply ((kernelRun0_C c (grid0.coords t) _ _ _ _ _ _ _ _ _ _ _ _ _ _ _ _ (fun h => h0 ((hcond0_0 t).mp h)) ((hcond0_1 t).mpr h1) (iblk m c 0 t) (tbl m 0) (tbl m 1) _ _ dw).2.2.2 Set.univ _)
        isplitl [H0]; · iexact H0
        isplitl [H1]; · iexists _; iexact H1
        isplitl [HT0]; · iexact HT0
        isplitl [HT1]; · iexact HT1
        isplitl [HS0]; · iexact HS0
        isplitl [HS1]; · iexact HS1
        isplitl [H8]; · iexact H8
        isplitl [H9]; · iexact H9
        isplitl [H10]; · iexact H10
        isplitl [H11]; · iexact H11
        iintro ⟨H0, ⟨%e1, H1⟩, HT0, HT1, ⟨%es0, HS0⟩, ⟨%es1, HS1⟩, ⟨%g8, H8⟩, ⟨%g9, H9⟩, ⟨%g10, H10⟩, ⟨%g11, H11⟩⟩
        isplitl [HS0 HS1 H8 H9 H10 H11 Hg HT0 HT1]
        · isplitl [HS0 HS1 H8 H9 H10 H11 Hg]
          · isplitr [Hg]
            · isplitl [HS0]
              · unfold owns; iexists _; isplitr
                swap; · iexact HS0
                ipureintro; exact (View.read_writes_of_cover _ _ _ _ _ (scover0_C_0 c _ _ _ _ _ _ _ _ _ _ _ _ _ _ _ _ _ _ _ _ _ _ _ _ _)).trans (congrArg (fun L => VS0_0.read (Elt F) (VS0_0.writes (Elt F) VS0_0.junk L)) (hIC dw wIdle).2.1)
              isplitl [HS1]
              · unfold owns; iexists _; isplitr
                swap; · iexact HS1
                ipureintro; exact (View.read_writes_of_cover _ _ _ _ _ (scover0_C_1 c _ _ _ _ _ _ _ _ _ _ _ _ _ _ _ _ _ _ _ _ _ _ _ _ _)).trans (congrArg (fun L => VS0_1.read (Elt F) (VS0_1.writes (Elt F) VS0_1.junk L)) (hIC dw wIdle).2.2)
              isplitl [H8]; · iexists _; unfold owns; iexists _; isplitr; swap; (· iexact H8); ipureintro; rfl
              isplitl [H9]; · iexists _; unfold owns; iexists _; isplitr; swap; (· iexact H9); ipureintro; rfl
              isplitl [H10]; · iexists _; unfold owns; iexists _; isplitr; swap; (· iexact H10); ipureintro; rfl
              iexists _; unfold owns; iexists _; isplitr; swap; (· iexact H11); ipureintro; rfl
            iexact Hg
          isplitl [HT0]; · iexact HT0
          iexact HT1
        isplitl [Ho]; · iexact Ho
        isplitl [H0]; · iexact H0
        unfold owns; iexists _; isplitr
        swap; · iexact H1
        ipureintro; exact (View.read_writes_of_cover _ _ _ _ _ (cover0_C_1 c _ _ _ _ _ _ _ _ _ _ _ _ _ _ _ _ _ _ _ _ _ _ _ _ _)).trans (congrArg (fun L => VO0_1.read (Elt F) (VO0_1.writes (Elt F) VO0_1.junk L)) (hIC dw wIdle).1)
    · rw [show (dats m 0 c).leavesExact 0 t = owns (c : Thread nD τ) (ms0_0 m t) fullShare ((dats m 0 c).after 0 t) from by
        unfold Dat.leavesExact; rfl, after0_0]
      rw [Dat.leavesExact_idle (dats m 0 c) 1 t (idleAt0_1 t h1) (noFlush0_1 t h1)]
      rw [outsAt0_B m c t h0 h1]
      unfold sout0_B_0 sout0_B_1; (try dsimp only)
      have hIB := runB_pieces_indep c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2
      by_cases hz : t.val = 0
      · exfalso; omega
      ·
        rw [Phi_castSucc m c t, PhiS_pos m c _ _ hz, PhiT0_eq]
        iintro ⟨⟨⟨⟨HS0, HS1, H8, H9, H10, ⟨%dw, H11⟩⟩, Hg⟩, ⟨HT0, HT1⟩⟩, Ho, ⟨%d0, H0⟩, ⟨%d1, H1⟩⟩
        iapply ((kernelRun0_B c (grid0.coords t) _ _ _ _ _ _ _ _ _ _ _ _ _ _ _ _ (fun h => h0 ((hcond0_0 t).mp h)) (fun h => h1 ((hcond0_1 t).mp h)) (iblk m c 0 t) (tbl m 0) (tbl m 1) _ _ dw).2.2 _ Set.univ _)
        isplitl [H0]; · iexact H0
        isplitl [H1]; · iexact H1
        isplitl [HT0]; · iexact HT0
        isplitl [HT1]; · iexact HT1
        isplitl [HS0]; · iexact HS0
        isplitl [HS1]; · iexact HS1
        isplitl [H8]; · iexact H8
        isplitl [H9]; · iexact H9
        isplitl [H10]; · iexact H10
        isplitl [H11]; · iexact H11
        iintro ⟨H0, H1, HT0, HT1, ⟨%es0, HS0⟩, ⟨%es1, HS1⟩, ⟨%g8, H8⟩, ⟨%g9, H9⟩, ⟨%g10, H10⟩, ⟨%g11, H11⟩⟩
        isplitl [HS0 HS1 H8 H9 H10 H11 Hg HT0 HT1]
        · isplitl [HS0 HS1 H8 H9 H10 H11 Hg]
          · isplitr [Hg]
            · isplitl [HS0]
              · unfold owns; iexists _; isplitr
                swap; · iexact HS0
                ipureintro; exact (View.read_writes_of_cover _ _ _ _ _ (scover0_B_0 c _ _ _ _ _ _ _ _ _ _ _ _ _ _ _ _ _ _ _ _ _ _ _ _ _)).trans (congrArg (fun L => VS0_0.read (Elt F) (VS0_0.writes (Elt F) VS0_0.junk L)) (hIB dw wIdle).1)
              isplitl [HS1]
              · unfold owns; iexists _; isplitr
                swap; · iexact HS1
                ipureintro; exact (View.read_writes_of_cover _ _ _ _ _ (scover0_B_1 c _ _ _ _ _ _ _ _ _ _ _ _ _ _ _ _ _ _ _ _ _ _ _ _ _)).trans (congrArg (fun L => VS0_1.read (Elt F) (VS0_1.writes (Elt F) VS0_1.junk L)) (hIB dw wIdle).2)
              isplitl [H8]; · iexists _; unfold owns; iexists _; isplitr; swap; (· iexact H8); ipureintro; rfl
              isplitl [H9]; · iexists _; unfold owns; iexists _; isplitr; swap; (· iexact H9); ipureintro; rfl
              isplitl [H10]; · iexists _; unfold owns; iexists _; isplitr; swap; (· iexact H10); ipureintro; rfl
              iexists _; unfold owns; iexists _; isplitr; swap; (· iexact H11); ipureintro; rfl
            iexact Hg
          isplitl [HT0]; · iexact HT0
          iexact HT1
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(Pipeline.ΦA spec0 c ∗ Pipeline.ΦT pre0 (tbl m) c) ⊢ (dats m 0 c).Φ 0 := by
  rw [show (dats m 0 c).Φ 0 = iprop(PhiS m c 0 (Nat.zero_le _) ∗ Pipeline.ΦT pre0 (tbl m) c) from rfl, PhiS_zero m c 0 _ rfl]
  try exact Idealize.SL.BI.Entails.refl _

/-- After the last point the invariant gives the class's back: the accumulators' named contents are forgotten, the
    tables' halves let go. -/
theorem hout (c : Dev nD) : (dats m 0 c).Φ (Fin.last (cfgM m).N) ⊢ Pipeline.ΦA spec0 c := by
  rw [show (dats m 0 c).Φ (Fin.last (cfgM m).N) = iprop(PhiS m c (Fin.last (cfgM m).N).val (Nat.le_of_lt_succ (Fin.last (cfgM m).N).isLt) ∗ Pipeline.ΦT pre0 (tbl m) c) from rfl,
    PhiS_pos m c _ _ (by rw [Fin.val_last]; have : (cfgM m).N = 256 := N_0; omega), PhiA0_eq]
  iintro ⟨⟨⟨HS0, HS1, H8, H9, H10, H11⟩, Hg⟩, -⟩
  isplitr [Hg]
  · isplitl [HS0]; · iexists _; iexact HS0
    isplitl [HS1]; · iexists _; iexact HS1
    isplitl [H8]; · iexact H8
    isplitl [H9]; · iexact H9
    isplitl [H10]; · iexact H10
    iexact H11
  iexact Hg

/-! ## The run and the frame -/

set_option backward.isDefEq.respectTransparency.types false in
theorem run_main : θ_run defs (onTc (τ := τ) (main (F := F))) (s₀ m ρ) (Pipeline.FramePost (Pipeline.pin pcfgs fun _ => adm m) (dats m) 0 (V m)) :=
  Pipeline.θ_run_frameP_track pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

/-- The frame: every weakly fair execution ends, nothing faults, the two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Common.lean ====
/-
  The frame of the patch-placement kernel, part 1: what its three control cases share.

  The kernel runs on a 16 x 16 grid (batch b, group k of 32 patches). Two integer tables (the patches' row and
  column corners) are prefetched; window 0 stages the 32 patches of the group, window 1 is the batch's 512 x 512
  canvas, written back when the batch changes. Two scratch accumulators (placed values, overlap counts) are carried
  from point to point: reset at k = 0, added to at every k, read out into the canvas at k = 15. The other four
  scratch buffers (the row one-hots, the column-placed patches, the two coverage masks) are rewritten whole at
  every point before they are read.
  Here: the arrays as the region finds them after the host lines that split the coordinate table, the tables'
  contents, a window's block at a point, the two branch conditions in closed form over the grid, where the canvas
  window is idle, and the memrefs the body is called with.
-/
import proofs.«425958_j53352083751494_3_alg».proof.Proof.Gen.KernelIdeal.Launch
import proofs.«425958_j53352083751494_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: after the host lines that reshape the patches and split the
    coordinate table into its two columns. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host line writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The two corner tables -/

/-- The tables' contents when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- No window's index map reads a table: the pipeline's side condition is empty. -/
abbrev adm : (pcfg0 (F := F)).Adm := ⟨tbl m, trivial⟩
abbrev cfgM : Pipeline.Cfg sig Λ₀ := cfg0 (adm m)

abbrev tbM0_0 : Memref sig .tc .smem S16x512 .i32 := Memref.whole main_v2
abbrev htbM0_0 : tbM0_0.IsWhole := Memref.isWhole_whole _
abbrev tbM0_1 : Memref sig .tc .smem S16x512 .i32 := Memref.whole main_v4
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables the region lends the body. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The patch window's staging buffer holds the group's block at every point. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c)⟩) h

/-! ## The two branch conditions -/

/-- "This is the group's first point" (k = 0), as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin grid0.N, cond0_0 (grid0.coords t) ↔ t.val % 16 = 0 :=
  (by decide +kernel : ∀ t : Fin grid0.N, cond0_0 (grid0.coords t) ↔ t.val % 16 = 0)

/-- "This is the batch's last point" (k = 15). -/
abbrev cond0_1 (i : grid0.Coords) : Prop := k0_cond2 i = 1#1
theorem hcond0_1 : ∀ t : Fin grid0.N, cond0_1 (grid0.coords t) ↔ t.val % 16 = 15 :=
  (by decide +kernel : ∀ t : Fin grid0.N, cond0_1 (grid0.coords t) ↔ t.val % 16 = 15)

/-! ## Where the canvas window is idle and where it is written back -/

theorem idleAt0_1 : ∀ t : Fin grid0.N, ¬ t.val % 16 = 15 → idle0 1 (grid0.coords t) = true := by decide +kernel
theorem liveAt0_1 : ∀ t : Fin grid0.N, t.val % 16 = 15 → idle0 1 (grid0.coords t) = false := by decide +kernel
theorem noFlush0_1 : ∀ t : Fin grid0.N, ¬ t.val % 16 = 15 → Pipeline.Window.flushOf grid0 true cc0_transform_1 t = false := by decide +kernel

/-! ## The memrefs the body is called with -/

abbrev VO0_1 : View sig .tc .vmem S1x1x512x512 .f32 := (Memref.whole cc0_stg1_0 : Memref sig .tc .vmem S1x1x512x512 .f32).view
abbrev ms0_0 (t : Fin (cfgM m).N) : Memref sig .tc .vmem S1x32x64x64 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x1x512x512 .f32 := spec0_1.stage ((cfgM m).slots t 1)
abbrev hs0_1 (t : Fin (cfgM m).N) : (ms0_1 m t).IsWhole := hstage0_1 (((cfgM m).slots t 1).cast nbuf0_1)
/-- The scratch operands: the two accumulators, then the four buffers rewritten at every point. -/
abbrev scM0_0 : Memref sig .tc .vmem S512x512 .f32 := Memref.whole cc0_scratch0
abbrev scM0_1 : Memref sig .tc .vmem S512x512 .f32 := Memref.whole cc0_scratch1
abbrev scM0_2 : Memref sig .tc .vmem S512x2048 .bf16 := Memref.whole cc0_scratch2
abbrev scM0_3 : Memref sig .tc .vmem S2048x512 .bf16 := Memref.whole cc0_scratch3
abbrev scM0_4 : Memref sig .tc .vmem S512x32 .bf16 := Memref.whole cc0_scratch4
abbrev scM0_5 : Memref sig .tc .vmem S32x512 .bf16 := Memref.whole cc0_scratch5
abbrev VS0_0 : View sig .tc .vmem S512x512 .f32 := scM0_0.view
abbrev VS0_1 : View sig .tc .vmem S512x512 .f32 := scM0_1.view

/-- The class invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The kernel body at point `t`, on what the pipeline calls it with. -/
abbrev bodyAt0 (a : (pcfg0 (F := F)).Adm) (t : Fin (cfg0 a).N) : Prog (TpuEff nD τ sig (Elt F) Λ₀ .tc) PUnit :=
  cc0__kernel (grid0.coords t) (Memref.whole main_v2) (Memref.isWhole_whole _) (Memref.whole main_v4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.KernelIdeal.Hand

end
-- ==== Proof.KI.RunA.lean ====
/-
  The frame of the patch-placement kernel, part 2A: the whole body run once, symbolically, at a point of
  the batch's first group (k = 0): both accumulators are reset before they are added to, so what they held does not matter.
  The run's witness is what the stores leave: the pieces written into each accumulator, each a
  payload over the table words and the patch block read at this point.
-/
import proofs.«425958_j53352083751494_3_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_A (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : cond0_0 i) (hc1 : ¬cond0_1 i)
    (x0 : Vec F S1x32x64x64 .f32) (xt0 : TbBuf0 (F := F) c tbM0_0) (xt1 : TbBuf0 (F := F) c tbM0_1) (xw : Vec F S32x512 .bf16) :
    Σ' (LS0 : List (View.Piece (Elt F) S512x512 .f32)), { LS1 : List (View.Piece (Elt F) S512x512 .f32) //
      ∀ (xi1 : Vec F S1x1x512x512 .f32) (E : Set ℕ) (K : PUnit → sProp 𝕄),
        iprop(owns (c : Thread nD τ) arg4 fullShare x0 ∗ owns (c : Thread nD τ) arg5 fullShare xi1 ∗ tbPt0 c tbM0_0 xt0 ∗ tbPt0 c tbM0_1 xt1
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xw
            ∗ (iprop(owns (c : Thread nD τ) arg4 fullShare x0 ∗ owns (c : Thread nD τ) arg5 fullShare xi1 ∗ tbPt0 c tbM0_0 xt0 ∗ tbPt0 c tbM0_1 xt1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ g, arg8.view.loc (c : Thread nD τ) ↦[arg8.view.set]{fullShare} g) ∗ (∃ g, arg9.view.loc (c : Thread nD τ) ↦[arg9.view.set]{fullShare} g)
                ∗ (∃ g, arg10.view.loc (c : Thread nD τ) ↦[arg10.view.set]{fullShare} g) ∗ (∃ g, arg11.view.loc (c : Thread nD τ) ↦[arg11.view.set]{fullShare} g)) -∗ K ⟨⟩))
          ⊢ wp frame (wpE (defs₀ (F := F)) Variants.none c none) E (cc0__kernel i tbM0_0 htbM0_0 tbM0_1 htbM0_1 arg4 harg4 arg5 harg5 arg6 harg6 arg7 harg7 arg8 harg8 arg9 harg9 arg10 harg10 arg11 harg11) K } := by
  refine ⟨?_, ?_, fun xi1 E K => ?run⟩
  case run =>
    rw [cc0__kernel_eq_skeleton]; unfold cc0__kernel_skel
    unfold owns
    iintro ⟨⟨%f0, %hf0, H0⟩, ⟨%f1, %hf1, H1⟩, HT0, HT1, ⟨%ds0, %fs0, -, HS0⟩, ⟨%ds1, %fs1, -, HS1⟩, ⟨%d8, %f8, -, H8⟩, ⟨%d9, %f9, -, H9⟩, ⟨%d10, %f10, -, H10⟩, ⟨%f11, %hf11, H11⟩, Hk⟩
    obtain rfl := harg4.eq_unread hf0; obtain rfl := harg5.eq_unread hf1; obtain rfl := harg11.eq_unread hf11
    sl_exec_parts (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [HT0]; · iexact HT0
    isplitl [HT1]; · iexact HT1
    isplitl [HS0]; · iexists _; iexact HS0
    isplitl [HS1]; · iexists _; iexact HS1
    isplitl [H8]; · iexists _; iexact H8
    isplitl [H9]; · iexists _; iexact H9
    isplitl [H10]; · iexists _; iexact H10
    iexists _; iexact H11

end Cert.KernelIdeal.Hand

end
-- ==== Proof.KI.RunB.lean ====
/-
  The frame of the patch-placement kernel, part 2B: the whole body run once, symbolically, at a point of
  a middle group (0 < k < 15): the accumulators are read at what the point before left and added to; the canvas block is not touched.
  The run's witness is what the stores leave: the pieces written into each accumulator, each a
  payload over the table words and the patch block read at this point and the accumulators' previous contents.
-/
import proofs.«425958_j53352083751494_3_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_B (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) :
    Σ' (LS0 : List (View.Piece (Elt F) S512x512 .f32)), { LS1 : List (View.Piece (Elt F) S512x512 .f32) //
      ∀ (xi1 : Vec F S1x1x512x512 .f32) (E : Set ℕ) (K : PUnit → sProp 𝕄),
        iprop(owns (c : Thread nD τ) arg4 fullShare x0 ∗ owns (c : Thread nD τ) arg5 fullShare xi1 ∗ tbPt0 c tbM0_0 xt0 ∗ tbPt0 c tbM0_1 xt1
            ∗ owns (c : Thread nD τ) arg6 fullShare xs0 ∗ owns (c : Thread nD τ) arg7 fullShare xs1
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xw
            ∗ (iprop(owns (c : Thread nD τ) arg4 fullShare x0 ∗ owns (c : Thread nD τ) arg5 fullShare xi1 ∗ tbPt0 c tbM0_0 xt0 ∗ tbPt0 c tbM0_1 xt1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ g, arg8.view.loc (c : Thread nD τ) ↦[arg8.view.set]{fullShare} g) ∗ (∃ g, arg9.view.loc (c : Thread nD τ) ↦[arg9.view.set]{fullShare} g)
                ∗ (∃ g, arg10.view.loc (c : Thread nD τ) ↦[arg10.view.set]{fullShare} g) ∗ (∃ g, arg11.view.loc (c : Thread nD τ) ↦[arg11.view.set]{fullShare} g)) -∗ K ⟨⟩))
          ⊢ wp frame (wpE (defs₀ (F := F)) Variants.none c none) E (cc0__kernel i tbM0_0 htbM0_0 tbM0_1 htbM0_1 arg4 harg4 arg5 harg5 arg6 harg6 arg7 harg7 arg8 harg8 arg9 harg9 arg10 harg10 arg11 harg11) K } := by
  refine ⟨?_, ?_, fun xi1 E K => ?run⟩
  case run =>
    rw [cc0__kernel_eq_skeleton]; unfold cc0__kernel_skel
    unfold owns
    iintro ⟨⟨%f0, %hf0, H0⟩, ⟨%f1, %hf1, H1⟩, HT0, HT1, ⟨%fs0, %hfs0, HS0⟩, ⟨%fs1, %hfs1, HS1⟩, ⟨%d8, %f8, -, H8⟩, ⟨%d9, %f9, -, H9⟩, ⟨%d10, %f10, -, H10⟩, ⟨%f11, %hf11, H11⟩, Hk⟩
    obtain rfl := harg4.eq_unread hf0; obtain rfl := harg5.eq_unread hf1; obtain rfl := harg6.eq_unread hfs0; obtain rfl := harg7.eq_unread hfs1; obtain rfl := harg11.eq_unread hf11
    sl_exec_parts (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [HT0]; · iexact HT0
    isplitl [HT1]; · iexact HT1
    isplitl [HS0]; · iexists _; iexact HS0
    isplitl [HS1]; · iexists _; iexact HS1
    isplitl [H8]; · iexists _; iexact H8
    isplitl [H9]; · iexists _; iexact H9
    isplitl [H10]; · iexists _; iexact H10
    iexists _; iexact H11

end Cert.KernelIdeal.Hand

end
-- ==== Proof.KI.RunC.lean ====
/-
  The frame of the patch-placement kernel, part 2C: the whole body run once, symbolically, at a point of
  the batch's last group (k = 15): the accumulators are added to and then read out, placed / max(count, 1), into the canvas block.
  The run's witness is what the stores leave: the pieces written into each accumulator and into the canvas block, each a
  payload over the table words and the patch block read at this point and the accumulators' previous contents.
-/
import proofs.«425958_j53352083751494_3_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def kernelRun0_C (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) :
    Σ' (L1 : List (View.Piece (Elt F) S1x1x512x512 .f32)), Σ' (LS0 : List (View.Piece (Elt F) S512x512 .f32)), { LS1 : List (View.Piece (Elt F) S512x512 .f32) //
      ∀ (E : Set ℕ) (K : PUnit → sProp 𝕄),
        iprop(owns (c : Thread nD τ) arg4 fullShare x0 ∗ (∃ d, owns (c : Thread nD τ) arg5 fullShare d) ∗ tbPt0 c tbM0_0 xt0 ∗ tbPt0 c tbM0_1 xt1
            ∗ owns (c : Thread nD τ) arg6 fullShare xs0 ∗ owns (c : Thread nD τ) arg7 fullShare xs1
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xw
            ∗ (iprop(owns (c : Thread nD τ) arg4 fullShare x0 ∗ (∃ f, arg5.view.loc (c : Thread nD τ) ↦[arg5.view.set]{fullShare} arg5.view.writes (Elt F) f L1) ∗ tbPt0 c tbM0_0 xt0 ∗ tbPt0 c tbM0_1 xt1
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ g, arg8.view.loc (c : Thread nD τ) ↦[arg8.view.set]{fullShare} g) ∗ (∃ g, arg9.view.loc (c : Thread nD τ) ↦[arg9.view.set]{fullShare} g)
                ∗ (∃ g, arg10.view.loc (c : Thread nD τ) ↦[arg10.view.set]{fullShare} g) ∗ (∃ g, arg11.view.loc (c : Thread nD τ) ↦[arg11.view.set]{fullShare} g)) -∗ K ⟨⟩))
          ⊢ wp frame (wpE (defs₀ (F := F)) Variants.none c none) E (cc0__kernel i tbM0_0 htbM0_0 tbM0_1 htbM0_1 arg4 harg4 arg5 harg5 arg6 harg6 arg7 harg7 arg8 harg8 arg9 harg9 arg10 harg10 arg11 harg11) K } := by
  refine ⟨?_, ?_, ?_, fun E K => ?run⟩
  case run =>
    rw [cc0__kernel_eq_skeleton]; unfold cc0__kernel_skel
    unfold owns
    iintro ⟨⟨%f0, %hf0, H0⟩, ⟨%d1, %f1, -, H1⟩, HT0, HT1, ⟨%fs0, %hfs0, HS0⟩, ⟨%fs1, %hfs1, HS1⟩, ⟨%d8, %f8, -, H8⟩, ⟨%d9, %f9, -, H9⟩, ⟨%d10, %f10, -, H10⟩, ⟨%f11, %hf11, H11⟩, Hk⟩
    obtain rfl := harg4.eq_unread hf0; obtain rfl := harg6.eq_unread hfs0; obtain rfl := harg7.eq_unread hfs1; obtain rfl := harg11.eq_unread hf11
    sl_exec_parts (disch := first | sl_exact hc0 | sl_exact hc1)
    sl_step
    iapply Hk
    isplitl [H0]
    · iexists _; isplitr; · ipureintro; exact harg4.read_unread _
      iexact H0
    isplitl [H1]; · iexists _; iexact H1
    isplitl [HT0]; · iexact HT0
    isplitl [HT1]; · iexact HT1
    isplitl [HS0]; · iexists _; iexact HS0
    isplitl [HS1]; · iexists _; iexact HS1
    isplitl [H8]; · iexists _; iexact H8
    isplitl [H9]; · iexists _; iexact H9
    isplitl [H10]; · iexists _; iexact H10
    iexists _; iexact H11

end Cert.KernelIdeal.Hand

end
-- ==== Proof.KI.Indep.lean ====
/-
  The frame of the patch-placement kernel: what a grid point leaves in the accumulators (and, at a batch's last group,
  in the canvas block) does not depend on what the column-mask scratch held when the point began.

  The body writes that scratch only by storing one row into a two-row block: the block is read back as the earlier
  stores left it, the row is put at its place in it, and the block is written. Every one of the sixteen blocks (rows
  2j, 2j+1) gets row 0 and then row 1, so nothing of what the block held survives; the scratch is then read whole,
  once, for the count contribution. Each store lists a new piece over the older ones. A list of pieces is read at an
  index through the first piece that holds it, so the older piece of a block, the only one that still mentions the
  scratch's contents at entry, lies under the newer piece of the same block and is never seen.
-/
import proofs.«425958_j53352083751494_3_alg».proof.Proof.KI.RunA
import proofs.«425958_j53352083751494_3_alg».proof.Proof.KI.RunB
import proofs.«425958_j53352083751494_3_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic

/-! ## A block written row by row keeps nothing -/

section Rows

variable {α : Type}

/-- A block whose every index lies in the second slice written or in the first keeps nothing of what it held. -/
theorem updateSlice_updateSlice_of_cover {s u : Shape} (old old' : s.Idx → α) (a b : u.Idx → α)
    (st0 st1 : Fin s.rank → Nat) (h0 : s.Slices st0 u) (h1 : s.Slices st1 u)
    (hcov : ∀ i : s.Idx, (∀ x : Fin s.rank, st1 x ≤ (i x).val ∧ (i x).val < st1 x + u.size (x.cast h1.1.symm))
      ∨ (∀ x : Fin s.rank, st0 x ≤ (i x).val ∧ (i x).val < st0 x + u.size (x.cast h0.1.symm))) :
    updateSlice (updateSlice old a st0 h0) b st1 h1 = updateSlice (updateSlice old' a st0 h0) b st1 h1 := by
  funext i
  unfold updateSlice
  by_cases c1 : ∀ x : Fin s.rank, st1 x ≤ (i x).val ∧ (i x).val < st1 x + u.size (x.cast h1.1.symm)
  · rw [dif_pos c1, dif_pos c1]
  · have c0 := (hcov i).resolve_left c1
    rw [dif_neg c1, dif_neg c1, dif_pos c0, dif_pos c0]

/-- A two-row block written at row 0 and then at row 1 does not depend on what it held. -/
theorem updateSlice_two_rows {n : Nat} (old old' : (⟨2, ![2, n]⟩ : Shape).Idx → α) (a b : (⟨2, ![1, n]⟩ : Shape).Idx → α)
    (h0 : (⟨2, ![2, n]⟩ : Shape).Slices ![0, 0] ⟨2, ![1, n]⟩) (h1 : (⟨2, ![2, n]⟩ : Shape).Slices ![1, 0] ⟨2, ![1, n]⟩) :
    updateSlice (updateSlice old a ![0, 0] h0) b ![1, 0] h1 = updateSlice (updateSlice old' a ![0, 0] h0) b ![1, 0] h1 := by
  refine updateSlice_updateSlice_of_cover old old' a b _ _ h0 h1 fun i => ?_
  have hi0 : (i 0).val < 2 := (i 0).isLt
  have hi1 : (i 1).val < n := (i 1).isLt
  by_cases hz : (i 0).val = 0
  · right
    intro x
    fin_cases x
    · exact ⟨Nat.zero_le _, by show (i 0).val < 0 + 1; omega⟩
    · exact ⟨Nat.zero_le _, by show (i 1).val < 0 + n; omega⟩
  · left
    intro x
    fin_cases x
    · exact ⟨by show 1 ≤ (i 0).val; omega, by show (i 0).val < 1 + 1; omega⟩
    · exact ⟨Nat.zero_le _, by show (i 1).val < 0 + n; omega⟩

end Rows

section Canon

variable {sig : RefSig} {κ : Kind} {sp : Space} {s : Shape} {e : EltTy} {Val : EltTy → Type} [∀ e, Nonempty (Val e)]

/-- A write under a later write through the same rectangle is not seen. -/
theorem canon_cons_cons_same (r : Rect s) (w w0 : r.shape.Idx → Val e) (L : List (View.Piece Val s e)) :
    View.canon (⟨r, w⟩ :: ⟨r, w0⟩ :: L) = View.canon (⟨r, w⟩ :: L) := by
  funext y
  by_cases hy : y ∈ r.set
  · obtain ⟨x, rfl⟩ : ∃ x, r.emb x = y := r.exists_idx_of_mem hy
    rw [View.canon_cons_emb, View.canon_cons_emb]
  · rw [View.canon_cons_of_not_mem ⟨r, w⟩ _ hy, View.canon_cons_of_not_mem ⟨r, w0⟩ _ hy, View.canon_cons_of_not_mem ⟨r, w⟩ _ hy]

/-- Loads through one box of two lists of writes that leave the same contents read the same. -/
theorem readCov_congr_canon (v : View sig κ sp s e) (L L' : List (View.Piece Val s e)) (B : LoadRect s)
    (h : View.canon L = View.canon L') : v.readCov L B = v.readCov L' B := by
  rw [View.readCov_eq_canon', View.readCov_eq_canon', h]

/-- One two-row block of a rank-two buffer, stored at row 0 and then at row 1 (each store a blend into the block as it
    reads after the stores before it): what the two stores leave over earlier writes depends on the earlier writes only
    through what THEY leave, and not at all on what the block held. -/
theorem canon_two_rows_step {m n : Nat} (v : View sig κ sp (⟨2, ![m, n]⟩ : Shape) e) (off : Fin 2 → Nat)
    (inb : ∀ x, off x + (⟨2, ![2, n]⟩ : Shape).size x ≤ (⟨2, ![m, n]⟩ : Shape).size x)
    (h0 : (⟨2, ![2, n]⟩ : Shape).Slices ![0, 0] ⟨2, ![1, n]⟩) (h1 : (⟨2, ![2, n]⟩ : Shape).Slices ![1, 0] ⟨2, ![1, n]⟩)
    (a b : (⟨2, ![1, n]⟩ : Shape).Idx → Val e) (old old' : (⟨2, ![2, n]⟩ : Shape).Idx → Val e)
    (L L' : List (View.Piece Val (⟨2, ![m, n]⟩ : Shape) e)) (hL : View.canon L = View.canon L') :
    View.canon ((⟨Rect.unit (s := (⟨2, ![m, n]⟩ : Shape)) off (⟨2, ![2, n]⟩ : Shape).size inb,
          updateSlice (v.readCov ((⟨Rect.unit (s := (⟨2, ![m, n]⟩ : Shape)) off (⟨2, ![2, n]⟩ : Shape).size inb, updateSlice old a ![0, 0] h0⟩ : View.Piece Val _ e) :: L)
            (Rect.unit (s := (⟨2, ![m, n]⟩ : Shape)) off (⟨2, ![2, n]⟩ : Shape).size inb).toLoadRect) b ![1, 0] h1⟩ : View.Piece Val _ e)
        :: ⟨Rect.unit (s := (⟨2, ![m, n]⟩ : Shape)) off (⟨2, ![2, n]⟩ : Shape).size inb, updateSlice old a ![0, 0] h0⟩ :: L)
      = View.canon ((⟨Rect.unit (s := (⟨2, ![m, n]⟩ : Shape)) off (⟨2, ![2, n]⟩ : Shape).size inb,
          updateSlice (v.readCov ((⟨Rect.unit (s := (⟨2, ![m, n]⟩ : Shape)) off (⟨2, ![2, n]⟩ : Shape).size inb, updateSlice old' a ![0, 0] h0⟩ : View.Piece Val _ e) :: L')
            (Rect.unit (s := (⟨2, ![m, n]⟩ : Shape)) off (⟨2, ![2, n]⟩ : Shape).size inb).toLoadRect) b ![1, 0] h1⟩ : View.Piece Val _ e)
        :: ⟨Rect.unit (s := (⟨2, ![m, n]⟩ : Shape)) off (⟨2, ![2, n]⟩ : Shape).size inb, updateSlice old' a ![0, 0] h0⟩ :: L') := by
  rw [View.readCov_cons_toLoadRect, View.readCov_cons_toLoadRect, canon_cons_cons_same, canon_cons_cons_same,
    updateSlice_two_rows old old' a b h0 h1, View.canon_cons, View.canon_cons, hL]

end Canon

/-! ## The three control cases -/

variable {F : FTy → Type} [FloatOps F]

/-- Case A: what the point's one whole read of the column-mask scratch returns, after the sixteen blocks' thirty-two row
    stores, does not depend on what the scratch held when the point began. -/
theorem scratchA_indep (c : Dev nD) (i : grid0.Coords) (arg11 : Memref sig .tc .vmem S32x512 .bf16) (harg11 : arg11.IsWhole)
    (xt1 : TbBuf0 (F := F) c tbM0_1) (xw xw' : Vec F S32x512 .bf16) :
    kernelRun0_A.sl.v1553 c i arg11 harg11 xt1 xw = kernelRun0_A.sl.v1553 c i arg11 harg11 xt1 xw' := by
  refine readCov_congr_canon _ _ _ _ ?_
  iterate 16 refine canon_two_rows_step _ _ _ _ _ _ _ _ _ _ _ ?_
  rfl

/-- So the count contribution of the point (the product of the row masks with the column masks read from the scratch)
    does not depend on it either. -/
theorem countA_indep (c : Dev nD) (i : grid0.Coords) (arg10 : Memref sig .tc .vmem S512x32 .bf16)
    (arg11 : Memref sig .tc .vmem S32x512 .bf16) (harg11 : arg11.IsWhole)
    (xt0 : TbBuf0 (F := F) c tbM0_0) (xt1 : TbBuf0 (F := F) c tbM0_1) (xw xw' : Vec F S32x512 .bf16) :
    kernelRun0_A.sl.r_142 c i arg10 arg11 harg11 xt0 xt1 xw = kernelRun0_A.sl.r_142 c i arg10 arg11 harg11 xt0 xt1 xw' :=
  congrArg (k0_pay213 _) (scratchA_indep c i arg11 harg11 xt1 xw xw')

/-- Case B: what the point's one whole read of the column-mask scratch returns, after the sixteen blocks' thirty-two row
    stores, does not depend on what the scratch held when the point began. -/
theorem scratchB_indep (c : Dev nD) (i : grid0.Coords) (arg11 : Memref sig .tc .vmem S32x512 .bf16) (harg11 : arg11.IsWhole)
    (xt1 : TbBuf0 (F := F) c tbM0_1) (xw xw' : Vec F S32x512 .bf16) :
    kernelRun0_B.sl.v1553 c i arg11 harg11 xt1 xw = kernelRun0_B.sl.v1553 c i arg11 harg11 xt1 xw' := by
  refine readCov_congr_canon _ _ _ _ ?_
  iterate 16 refine canon_two_rows_step _ _ _ _ _ _ _ _ _ _ _ ?_
  rfl

/-- So the count contribution of the point (the product of the row masks with the column masks read from the scratch)
    does not depend on it either. -/
theorem countB_indep (c : Dev nD) (i : grid0.Coords) (arg10 : Memref sig .tc .vmem S512x32 .bf16)
    (arg11 : Memref sig .tc .vmem S32x512 .bf16) (harg11 : arg11.IsWhole)
    (xt0 : TbBuf0 (F := F) c tbM0_0) (xt1 : TbBuf0 (F := F) c tbM0_1) (xw xw' : Vec F S32x512 .bf16) :
    kernelRun0_B.sl.r_142 c i arg10 arg11 harg11 xt0 xt1 xw = kernelRun0_B.sl.r_142 c i arg10 arg11 harg11 xt0 xt1 xw' :=
  congrArg (k0_pay213 _) (scratchB_indep c i arg11 harg11 xt1 xw xw')

/-- Case C: what the point's one whole read of the column-mask scratch returns, after the sixteen blocks' thirty-two row
    stores, does not depend on what the scratch held when the point began. -/
theorem scratchC_indep (c : Dev nD) (i : grid0.Coords) (arg11 : Memref sig .tc .vmem S32x512 .bf16) (harg11 : arg11.IsWhole)
    (xt1 : TbBuf0 (F := F) c tbM0_1) (xw xw' : Vec F S32x512 .bf16) :
    kernelRun0_C.sl.v1553 c i arg11 harg11 xt1 xw = kernelRun0_C.sl.v1553 c i arg11 harg11 xt1 xw' := by
  refine readCov_congr_canon _ _ _ _ ?_
  iterate 16 refine canon_two_rows_step _ _ _ _ _ _ _ _ _ _ _ ?_
  rfl

/-- So the count contribution of the point (the product of the row masks with the column masks read from the scratch)
    does not depend on it either. -/
theorem countC_indep (c : Dev nD) (i : grid0.Coords) (arg10 : Memref sig .tc .vmem S512x32 .bf16)
    (arg11 : Memref sig .tc .vmem S32x512 .bf16) (harg11 : arg11.IsWhole)
    (xt0 : TbBuf0 (F := F) c tbM0_0) (xt1 : TbBuf0 (F := F) c tbM0_1) (xw xw' : Vec F S32x512 .bf16) :
    kernelRun0_C.sl.r_142 c i arg10 arg11 harg11 xt0 xt1 xw = kernelRun0_C.sl.r_142 c i arg10 arg11 harg11 xt0 xt1 xw' :=
  congrArg (k0_pay213 _) (scratchC_indep c i arg11 harg11 xt1 xw xw')

/-- First group of a batch: the value pieces never mention the scratch; the count piece does only through the count
    contribution. -/
theorem runA_pieces_indep (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : cond0_0 i) (hc1 : ¬cond0_1 i)
    (x0 : Vec F S1x32x64x64 .f32) (xt0 : TbBuf0 (F := F) c tbM0_0) (xt1 : TbBuf0 (F := F) c tbM0_1) (xw xw' : Vec F S32x512 .bf16) :
    (kernelRun0_A c i arg4 harg4 arg5 harg5 arg6 harg6 arg7 harg7 arg8 harg8 arg9 harg9 arg10 harg10 arg11 harg11 hc0 hc1 x0 xt0 xt1 xw).1 = (kernelRun0_A c i arg4 harg4 arg5 harg5 arg6 harg6 arg7 harg7 arg8 harg8 arg9 harg9 arg10 harg10 arg11 harg11 hc0 hc1 x0 xt0 xt1 xw').1
      ∧ (kernelRun0_A c i arg4 harg4 arg5 harg5 arg6 harg6 arg7 harg7 arg8 harg8 arg9 harg9 arg10 harg10 arg11 harg11 hc0 hc1 x0 xt0 xt1 xw).2.1 = (kernelRun0_A c i arg4 harg4 arg5 harg5 arg6 harg6 arg7 harg7 arg8 harg8 arg9 harg9 arg10 harg10 arg11 harg11 hc0 hc1 x0 xt0 xt1 xw').2.1 := by
  have h := countA_indep c i arg10 arg11 harg11 xt0 xt1 xw xw'
  unfold kernelRun0_A
  dsimp only
  refine ⟨rfl, ?_⟩
  rw [h]

/-- A middle group: likewise. -/
theorem runB_pieces_indep (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw xw' : Vec F S32x512 .bf16) :
    (kernelRun0_B c i arg4 harg4 arg5 harg5 arg6 harg6 arg7 harg7 arg8 harg8 arg9 harg9 arg10 harg10 arg11 harg11 hc0 hc1 x0 xt0 xt1 xs0 xs1 xw).1 = (kernelRun0_B c i arg4 harg4 arg5 harg5 arg6 harg6 arg7 harg7 arg8 harg8 arg9 harg9 arg10 harg10 arg11 harg11 hc0 hc1 x0 xt0 xt1 xs0 xs1 xw').1
      ∧ (kernelRun0_B c i arg4 harg4 arg5 harg5 arg6 harg6 arg7 harg7 arg8 harg8 arg9 harg9 arg10 harg10 arg11 harg11 hc0 hc1 x0 xt0 xt1 xs0 xs1 xw).2.1 = (kernelRun0_B c i arg4 harg4 arg5 harg5 arg6 harg6 arg7 harg7 arg8 harg8 arg9 harg9 arg10 harg10 arg11 harg11 hc0 hc1 x0 xt0 xt1 xs0 xs1 xw').2.1 := by
  have h := countB_indep c i arg10 arg11 harg11 xt0 xt1 xw xw'
  unfold kernelRun0_B
  dsimp only
  refine ⟨rfl, ?_⟩
  rw [h]

/-- Last group of a batch: the count piece as before; the canvas block is the placed values over the counts read back
    through that one piece, so it follows the count piece. -/
theorem runC_pieces_indep (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw xw' : Vec F S32x512 .bf16) :
    (kernelRun0_C c i arg4 harg4 arg5 harg5 arg6 harg6 arg7 harg7 arg8 harg8 arg9 harg9 arg10 harg10 arg11 harg11 hc0 hc1 x0 xt0 xt1 xs0 xs1 xw).1 = (kernelRun0_C c i arg4 harg4 arg5 harg5 arg6 harg6 arg7 harg7 arg8 harg8 arg9 harg9 arg10 harg10 arg11 harg11 hc0 hc1 x0 xt0 xt1 xs0 xs1 xw').1
      ∧ (kernelRun0_C c i arg4 harg4 arg5 harg5 arg6 harg6 arg7 harg7 arg8 harg8 arg9 harg9 arg10 harg10 arg11 harg11 hc0 hc1 x0 xt0 xt1 xs0 xs1 xw).2.1 = (kernelRun0_C c i arg4 harg4 arg5 harg5 arg6 harg6 arg7 harg7 arg8 harg8 arg9 harg9 arg10 harg10 arg11 harg11 hc0 hc1 x0 xt0 xt1 xs0 xs1 xw').2.1
      ∧ (kernelRun0_C c i arg4 harg4 arg5 harg5 arg6 harg6 arg7 harg7 arg8 harg8 arg9 harg9 arg10 harg10 arg11 harg11 hc0 hc1 x0 xt0 xt1 xs0 xs1 xw).2.2.1 = (kernelRun0_C c i arg4 harg4 arg5 harg5 arg6 harg6 arg7 harg7 arg8 harg8 arg9 harg9 arg10 harg10 arg11 harg11 hc0 hc1 x0 xt0 xt1 xs0 xs1 xw').2.2.1 := by
  have h := countC_indep c i arg10 arg11 harg11 xt0 xt1 xw xw'
  have hH : kernelRun0_C.sl.HS1_1 c i arg7 harg7 arg10 arg11 harg11 xt0 xt1 xs1 xw
      = kernelRun0_C.sl.HS1_1 c i arg7 harg7 arg10 arg11 harg11 xt0 xt1 xs1 xw' := by
    unfold kernelRun0_C.sl.HS1_1
    rw [h]
  have hv : kernelRun0_C.sl.v1564 c i arg7 harg7 arg10 arg11 harg11 xt0 xt1 xs1 xw
      = kernelRun0_C.sl.v1564 c i arg7 harg7 arg10 arg11 harg11 xt0 xt1 xs1 xw' := by
    unfold kernelRun0_C.sl.v1564
    rw [hH]
  unfold kernelRun0_C
  dsimp only
  refine ⟨?_, rfl, hH⟩
  rw [hv]

end Cert.KernelIdeal.Hand

end
-- ==== Proof.KI.Frame.lean ====
/-
  The frame of the patch-placement kernel, part 3: what the accumulators and the canvas block hold point by point,
  the pipeline's proof data, the body obligation at a generic point, and the run.

  The accumulators after point n are defined by recursion on n through the three cases' runs: reset-and-add at
  k = 0, add at 0 < k < 15, add-and-read-out at k = 15 (k = n mod 16). The invariant carries them between points;
  the canvas window is handed back untouched at the points that store nothing into it and holds the read-out at
  k = 15, the point at which the pipeline writes the batch's block back.
-/
import proofs.«425958_j53352083751494_3_alg».proof.Proof.KI.RunA
import proofs.«425958_j53352083751494_3_alg».proof.Proof.KI.RunB
import proofs.«425958_j53352083751494_3_alg».proof.Proof.KI.RunC
import proofs.«425958_j53352083751494_3_alg».proof.Proof.KI.Indep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces a point of case A leaves in accumulator 0 cover it. -/
theorem scover0_A_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : cond0_0 i) (hc1 : ¬cond0_1 i)
    (x0 : Vec F S1x32x64x64 .f32) (xt0 : TbBuf0 (F := F) c tbM0_0) (xt1 : TbBuf0 (F := F) c tbM0_1) (xw : Vec F S32x512 .bf16) (y : S512x512.Idx) :
    ∃ pc ∈ (kernelRun0_A c i arg4 harg4 arg5 harg5 arg6 harg6 arg7 harg7 arg8 harg8 arg9 harg9 arg10 harg10 arg11 harg11 hc0 hc1 x0 xt0 xt1 xw).1, y ∈ pc.1.set :=
  View.cover_of_tiledL (kernelRun0_A c i arg4 harg4 arg5 harg5 arg6 harg6 arg7 harg7 arg8 harg8 arg9 harg9 arg10 harg10 arg11 harg11 hc0 hc1 x0 xt0 xt1 xw).1 S512x512.size (by sl_kernel_rfl) y

/-- What a point of case A leaves in accumulator 0: its pieces read back. -/
def sout0_A_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : cond0_0 i) (hc1 : ¬cond0_1 i)
    (x0 : Vec F S1x32x64x64 .f32) (xt0 : TbBuf0 (F := F) c tbM0_0) (xt1 : TbBuf0 (F := F) c tbM0_1) (xw : Vec F S32x512 .bf16) : Vec F S512x512 .f32 :=
  VS0_0.read (Elt F) (VS0_0.writes (Elt F) VS0_0.junk (kernelRun0_A c i arg4 harg4 arg5 harg5 arg6 harg6 arg7 harg7 arg8 harg8 arg9 harg9 arg10 harg10 arg11 harg11 hc0 hc1 x0 xt0 xt1 xw).1)

/-- The pieces a point of case A leaves in accumulator 1 cover it. -/
theorem scover0_A_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : cond0_0 i) (hc1 : ¬cond0_1 i)
    (x0 : Vec F S1x32x64x64 .f32) (xt0 : TbBuf0 (F := F) c tbM0_0) (xt1 : TbBuf0 (F := F) c tbM0_1) (xw : Vec F S32x512 .bf16) (y : S512x512.Idx) :
    ∃ pc ∈ (kernelRun0_A c i arg4 harg4 arg5 harg5 arg6 harg6 arg7 harg7 arg8 harg8 arg9 harg9 arg10 harg10 arg11 harg11 hc0 hc1 x0 xt0 xt1 xw).2.1, y ∈ pc.1.set :=
  View.cover_of_tiledL (kernelRun0_A c i arg4 harg4 arg5 harg5 arg6 harg6 arg7 harg7 arg8 harg8 arg9 harg9 arg10 harg10 arg11 harg11 hc0 hc1 x0 xt0 xt1 xw).2.1 S512x512.size (by sl_kernel_rfl) y

/-- What a point of case A leaves in accumulator 1: its pieces read back. -/
def sout0_A_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : cond0_0 i) (hc1 : ¬cond0_1 i)
    (x0 : Vec F S1x32x64x64 .f32) (xt0 : TbBuf0 (F := F) c tbM0_0) (xt1 : TbBuf0 (F := F) c tbM0_1) (xw : Vec F S32x512 .bf16) : Vec F S512x512 .f32 :=
  VS0_1.read (Elt F) (VS0_1.writes (Elt F) VS0_1.junk (kernelRun0_A c i arg4 harg4 arg5 harg5 arg6 harg6 arg7 harg7 arg8 harg8 arg9 harg9 arg10 harg10 arg11 harg11 hc0 hc1 x0 xt0 xt1 xw).2.1)

/-- The pieces a point of case B leaves in accumulator 0 cover it. -/
theorem scover0_B_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) (y : S512x512.Idx) :
    ∃ pc ∈ (kernelRun0_B c i arg4 harg4 arg5 harg5 arg6 harg6 arg7 harg7 arg8 harg8 arg9 harg9 arg10 harg10 arg11 harg11 hc0 hc1 x0 xt0 xt1 xs0 xs1 xw).1, y ∈ pc.1.set :=
  View.cover_of_tiledL (kernelRun0_B c i arg4 harg4 arg5 harg5 arg6 harg6 arg7 harg7 arg8 harg8 arg9 harg9 arg10 harg10 arg11 harg11 hc0 hc1 x0 xt0 xt1 xs0 xs1 xw).1 S512x512.size (by sl_kernel_rfl) y

/-- What a point of case B leaves in accumulator 0: its pieces read back. -/
def sout0_B_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) : Vec F S512x512 .f32 :=
  VS0_0.read (Elt F) (VS0_0.writes (Elt F) VS0_0.junk (kernelRun0_B c i arg4 harg4 arg5 harg5 arg6 harg6 arg7 harg7 arg8 harg8 arg9 harg9 arg10 harg10 arg11 harg11 hc0 hc1 x0 xt0 xt1 xs0 xs1 xw).1)

/-- The pieces a point of case B leaves in accumulator 1 cover it. -/
theorem scover0_B_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) (y : S512x512.Idx) :
    ∃ pc ∈ (kernelRun0_B c i arg4 harg4 arg5 harg5 arg6 harg6 arg7 harg7 arg8 harg8 arg9 harg9 arg10 harg10 arg11 harg11 hc0 hc1 x0 xt0 xt1 xs0 xs1 xw).2.1, y ∈ pc.1.set :=
  View.cover_of_tiledL (kernelRun0_B c i arg4 harg4 arg5 harg5 arg6 harg6 arg7 harg7 arg8 harg8 arg9 harg9 arg10 harg10 arg11 harg11 hc0 hc1 x0 xt0 xt1 xs0 xs1 xw).2.1 S512x512.size (by sl_kernel_rfl) y

/-- What a point of case B leaves in accumulator 1: its pieces read back. -/
def sout0_B_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : ¬cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) : Vec F S512x512 .f32 :=
  VS0_1.read (Elt F) (VS0_1.writes (Elt F) VS0_1.junk (kernelRun0_B c i arg4 harg4 arg5 harg5 arg6 harg6 arg7 harg7 arg8 harg8 arg9 harg9 arg10 harg10 arg11 harg11 hc0 hc1 x0 xt0 xt1 xs0 xs1 xw).2.1)

/-- The pieces a point of case C leaves in accumulator 0 cover it. -/
theorem scover0_C_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) (y : S512x512.Idx) :
    ∃ pc ∈ (kernelRun0_C c i arg4 harg4 arg5 harg5 arg6 harg6 arg7 harg7 arg8 harg8 arg9 harg9 arg10 harg10 arg11 harg11 hc0 hc1 x0 xt0 xt1 xs0 xs1 xw).2.1, y ∈ pc.1.set :=
  View.cover_of_tiledL (kernelRun0_C c i arg4 harg4 arg5 harg5 arg6 harg6 arg7 harg7 arg8 harg8 arg9 harg9 arg10 harg10 arg11 harg11 hc0 hc1 x0 xt0 xt1 xs0 xs1 xw).2.1 S512x512.size (by sl_kernel_rfl) y

/-- What a point of case C leaves in accumulator 0: its pieces read back. -/
def sout0_C_0 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) : Vec F S512x512 .f32 :=
  VS0_0.read (Elt F) (VS0_0.writes (Elt F) VS0_0.junk (kernelRun0_C c i arg4 harg4 arg5 harg5 arg6 harg6 arg7 harg7 arg8 harg8 arg9 harg9 arg10 harg10 arg11 harg11 hc0 hc1 x0 xt0 xt1 xs0 xs1 xw).2.1)

/-- The pieces a point of case C leaves in accumulator 1 cover it. -/
theorem scover0_C_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) (y : S512x512.Idx) :
    ∃ pc ∈ (kernelRun0_C c i arg4 harg4 arg5 harg5 arg6 harg6 arg7 harg7 arg8 harg8 arg9 harg9 arg10 harg10 arg11 harg11 hc0 hc1 x0 xt0 xt1 xs0 xs1 xw).2.2.1, y ∈ pc.1.set :=
  View.cover_of_tiledL (kernelRun0_C c i arg4 harg4 arg5 harg5 arg6 harg6 arg7 harg7 arg8 harg8 arg9 harg9 arg10 harg10 arg11 harg11 hc0 hc1 x0 xt0 xt1 xs0 xs1 xw).2.2.1 S512x512.size (by sl_kernel_rfl) y

/-- What a point of case C leaves in accumulator 1: its pieces read back. -/
def sout0_C_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) : Vec F S512x512 .f32 :=
  VS0_1.read (Elt F) (VS0_1.writes (Elt F) VS0_1.junk (kernelRun0_C c i arg4 harg4 arg5 harg5 arg6 harg6 arg7 harg7 arg8 harg8 arg9 harg9 arg10 harg10 arg11 harg11 hc0 hc1 x0 xt0 xt1 xs0 xs1 xw).2.2.1)

/-- The canvas block a point of case C leaves: one store of the whole block. -/
theorem cover0_C_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) (y : S1x1x512x512.Idx) :
    ∃ pc ∈ (kernelRun0_C c i arg4 harg4 arg5 harg5 arg6 harg6 arg7 harg7 arg8 harg8 arg9 harg9 arg10 harg10 arg11 harg11 hc0 hc1 x0 xt0 xt1 xs0 xs1 xw).1, y ∈ pc.1.set :=
  View.cover_of_tiledL (kernelRun0_C c i arg4 harg4 arg5 harg5 arg6 harg6 arg7 harg7 arg8 harg8 arg9 harg9 arg10 harg10 arg11 harg11 hc0 hc1 x0 xt0 xt1 xs0 xs1 xw).1 S1x1x512x512.size (by sl_kernel_rfl) y

def out0_C_1 (c : Dev nD) (i : grid0.Coords) (arg4 : Memref sig .tc .vmem S1x32x64x64 .f32) (harg4 : arg4.IsWhole) (arg5 : Memref sig .tc .vmem S1x1x512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S512x32 .bf16) (harg10 : arg10.IsWhole) (arg11 : Memref sig .tc .vmem S32x512 .bf16) (harg11 : arg11.IsWhole) (hc0 : ¬cond0_0 i) (hc1 : cond0_1 i)
    (x0 : Vec F S1x32x64x64 .f32) (xt0 : TbBuf0 (F := F) c tbM0_0) (xt1 : TbBuf0 (F := F) c tbM0_1) (xs0 : Vec F S512x512 .f32) (xs1 : Vec F S512x512 .f32) (xw : Vec F S32x512 .bf16) : Vec F S1x1x512x512 .f32 :=
  VO0_1.read (Elt F) (VO0_1.writes (Elt F) VO0_1.junk (kernelRun0_C c i arg4 harg4 arg5 harg5 arg6 harg6 arg7 harg7 arg8 harg8 arg9 harg9 arg10 harg10 arg11 harg11 hc0 hc1 x0 xt0 xt1 xs0 xs1 xw).1)

/-- At a point that stores nothing into the canvas block the proof data name a placeholder nothing consults. -/
def outIdle : Vec F S1x1x512x512 .f32 := VO0_1.read (Elt F) VO0_1.junk

/-- The column-mask scratch is rewritten whole at every point before it is read; the accumulation below is stated at this
    placeholder for what it held, and the body's result is shown not to depend on it. -/
def wIdle : Vec F S32x512 .bf16 := scM0_5.view.read (Elt F) scM0_5.view.junk

/-! ## What the canvas block and the two accumulators hold after each point -/

/-- THE ACCUMULATION: after the body at position `n`, the canvas block's staging buffer and the two accumulators,
    by the case the position is in (k = n mod 16), the accumulators read at what position `n - 1` left. -/
def outsAt0 (c : Dev nD) : (n : ℕ) → n < (cfgM m).N → Vec F S1x1x512x512 .f32 × Vec F S512x512 .f32 × Vec F S512x512 .f32
  | 0, hn => (outIdle, sout0_A_0 c (grid0.coords ⟨0, hn⟩) (ms0_0 m ⟨0, hn⟩) (hs0_0 m ⟨0, hn⟩) (ms0_1 m ⟨0, hn⟩) (hs0_1 m ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => absurd ((hcond0_1 ⟨0, hn⟩).mp h) (show ¬ (0 % 16 = 15) from by decide)) (iblk m c 0 ⟨0, hn⟩) (tbl m 0) (tbl m 1) wIdle, sout0_A_1 c (grid0.coords ⟨0, hn⟩) (ms0_0 m ⟨0, hn⟩) (hs0_0 m ⟨0, hn⟩) (ms0_1 m ⟨0, hn⟩) (hs0_1 m ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => absurd ((hcond0_1 ⟨0, hn⟩).mp h) (show ¬ (0 % 16 = 15) from by decide)) (iblk m c 0 ⟨0, hn⟩) (tbl m 0) (tbl m 1) wIdle)
  | n + 1, hn =>
    if h0 : (n + 1) % 16 = 0 then
      if h1 : (n + 1) % 16 = 15 then
        False.elim (by omega)
      else
        (outIdle, sout0_A_0 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (tbl m 0) (tbl m 1) wIdle, sout0_A_1 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (tbl m 0) (tbl m 1) wIdle)
    else
      if h1 : (n + 1) % 16 = 15 then
        (out0_C_1 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (tbl m 0) (tbl m 1) (outsAt0 c n (Nat.lt_of_succ_lt hn)).2.1 (outsAt0 c n (Nat.lt_of_succ_lt hn)).2.2 wIdle, sout0_C_0 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (tbl m 0) (tbl m 1) (outsAt0 c n (Nat.lt_of_succ_lt hn)).2.1 (outsAt0 c n (Nat.lt_of_succ_lt hn)).2.2 wIdle, sout0_C_1 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (tbl m 0) (tbl m 1) (outsAt0 c n (Nat.lt_of_succ_lt hn)).2.1 (outsAt0 c n (Nat.lt_of_succ_lt hn)).2.2 wIdle)
      else
        (outIdle, sout0_B_0 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (tbl m 0) (tbl m 1) (outsAt0 c n (Nat.lt_of_succ_lt hn)).2.1 (outsAt0 c n (Nat.lt_of_succ_lt hn)).2.2 wIdle, sout0_B_1 c (grid0.coords ⟨n + 1, hn⟩) (ms0_0 m ⟨n + 1, hn⟩) (hs0_0 m ⟨n + 1, hn⟩) (ms0_1 m ⟨n + 1, hn⟩) (hs0_1 m ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (tbl m 0) (tbl m 1) (outsAt0 c n (Nat.lt_of_succ_lt hn)).2.1 (outsAt0 c n (Nat.lt_of_succ_lt hn)).2.2 wIdle)

theorem outsAt0_A (c : Dev nD) (t : Fin (cfgM m).N) (h0 : t.val % 16 = 0) (h1 : ¬t.val % 16 = 15) :
    outsAt0 m c t.val t.isLt = (outIdle, sout0_A_0 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (tbl m 0) (tbl m 1) wIdle, sout0_A_1 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (tbl m 0) (tbl m 1) wIdle) := by
  obtain ⟨n, hn⟩ := t
  cases n with
  | zero => exact rfl
  | succ n => exact (dif_pos h0).trans ((dif_neg h1).trans rfl)

theorem outsAt0_B (c : Dev nD) (t : Fin (cfgM m).N) (h0 : ¬t.val % 16 = 0) (h1 : ¬t.val % 16 = 15) :
    outsAt0 m c t.val t.isLt = (outIdle, sout0_B_0 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle, sout0_B_1 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin (cfgM m).N) (h0 : ¬t.val % 16 = 0) (h1 : t.val % 16 = 15) :
    outsAt0 m c t.val t.isLt = (out0_C_1 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle, sout0_C_0 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle, sout0_C_1 c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch buffers at anything; afterwards the
    two accumulators at what the point before left, the four rewritten buffers at anything; the generator register
    at some state throughout. The tables' halves ride beside it. -/
def PhiS (c : Dev nD) : (n : ℕ) → n ≤ (cfgM m).N → sProp 𝕄
  | 0, _ => Pipeline.ΦA spec0 c
  | n + 1, hn => iprop(iprop(owns (c : Thread nD τ) scM0_0 fullShare (outsAt0 m c n hn).2.1 ∗ owns (c : Thread nD τ) scM0_1 fullShare (outsAt0 m c n hn).2.2 ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ (cfgM m).N) (hz : n = 0) : PhiS m c n h = Pipeline.ΦA spec0 c := by
  subst hz; rfl

theorem PhiS_succ (c : Dev nD) (n : ℕ) (hn : n < (cfgM m).N) :
    PhiS m c (n + 1) hn = iprop(iprop(owns (c : Thread nD τ) scM0_0 fullShare (outsAt0 m c n hn).2.1 ∗ owns (c : Thread nD τ) scM0_1 fullShare (outsAt0 m c n hn).2.2 ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

theorem PhiS_pos (c : Dev nD) (n : ℕ) (h : n ≤ (cfgM m).N) (hz : n ≠ 0) :
    PhiS m c n h = iprop(iprop(owns (c : Thread nD τ) scM0_0 fullShare (outsAt0 m c (n - 1) (by omega)).2.1 ∗ owns (c : Thread nD τ) scM0_1 fullShare (outsAt0 m c (n - 1) (by omega)).2.2 ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => (outsAt0 m c t.val t.isLt).1
  Φ t := iprop(PhiS m c t.val (Nat.le_of_lt_succ t.isLt) ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem Phi_castSucc (c : Dev nD) (t : Fin (cfgM m).N) :
    (dats m 0 c).Φ t.castSucc = iprop(PhiS m c t.val (Nat.le_of_lt t.isLt) ∗ Pipeline.ΦT pre0 (tbl m) c) := by
  dsimp only [dats]; simp only [Fin.coe_castSucc]

theorem after0_0 (c : Dev nD) (t : Fin (cfgM m).N) : (dats m 0 c).after 0 t = iblk m c 0 t := by dsimp only [dats]; rfl
theorem after0_1 (c : Dev nD) (t : Fin (cfgM m).N) : (dats m 0 c).after 1 t = (outsAt0 m c t.val t.isLt).1 := by dsimp only [dats]; rfl

theorem before0_0 (c : Dev nD) (t : Fin (cfgM m).N) (d) : (dats m 0 c).before 0 t d = iblk m c 0 t :=
  before0_0_of m (dats m 0 c) (A_eq m c 0) (after0_0 m c) t d

/-! ## The body obligation, at a generic point -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t)

set_option maxHeartbeats 16000000 in
/-- The body at any point: the patch window holds the group's block; the position's residue mod 16 says which case
    it is in; the invariant hands the body the accumulators at what the point before left (at anything before the
    first point) and takes them back at this point's contents; the tables' halves pass through; the canvas block is
    handed back as found where the case stores nothing into it. -/
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0]
  rw [show (dats m 0 c).owesAt () t.succ = (dats m 0 c).owesAt () t.castSucc from rfl]
  rw [show (dats m 0 c).Φ t.succ = iprop(PhiS m c (t.val + 1) t.isLt ∗ Pipeline.ΦT pre0 (tbl m) c) from rfl, PhiS_succ]
  have hN : t.val < 256 := lt_of_lt_of_eq t.isLt (show (cfgM m).N = 256 from N_0)
  by_cases h0 : t.val % 16 = 0
  · by_cases h1 : t.val % 16 = 15
    · exfalso; omega
    · rw [show (dats m 0 c).leavesExact 0 t = owns (c : Thread nD τ) (ms0_0 m t) fullShare ((dats m 0 c).after 0 t) from by
        unfold Dat.leavesExact; rfl, after0_0]
      rw [Dat.leavesExact_idle (dats m 0 c) 1 t (idleAt0_1 t h1) (noFlush0_1 t h1)]
      rw [outsAt0_A m c t h0 h1]
      unfold sout0_A_0 sout0_A_1; (try dsimp only)
      have hIA := runA_pieces_indep c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (tbl m 0) (tbl m 1)
      by_cases hz : t.val = 0
      ·
        rw [Phi_castSucc m c t, PhiS_zero m c _ _ hz, PhiA0_eq, PhiT0_eq]
        iintro ⟨⟨⟨⟨HS0, HS1, H8, H9, H10, ⟨%dw, H11⟩⟩, Hg⟩, ⟨HT0, HT1⟩⟩, Ho, ⟨%d0, H0⟩, ⟨%d1, H1⟩⟩
        iapply ((kernelRun0_A c (grid0.coords t) _ _ _ _ _ _ _ _ _ _ _ _ _ _ _ _ ((hcond0_0 t).mpr h0) (fun h => h1 ((hcond0_1 t).mp h)) (iblk m c 0 t) (tbl m 0) (tbl m 1) dw).2.2 _ Set.univ _)
        isplitl [H0]; · iexact H0
        isplitl [H1]; · iexact H1
        isplitl [HT0]; · iexact HT0
        isplitl [HT1]; · iexact HT1
        isplitl [HS0]; · iexact HS0
        isplitl [HS1]; · iexact HS1
        isplitl [H8]; · iexact H8
        isplitl [H9]; · iexact H9
        isplitl [H10]; · iexact H10
        isplitl [H11]; · iexact H11
        iintro ⟨H0, H1, HT0, HT1, ⟨%es0, HS0⟩, ⟨%es1, HS1⟩, ⟨%g8, H8⟩, ⟨%g9, H9⟩, ⟨%g10, H10⟩, ⟨%g11, H11⟩⟩
        isplitl [HS0 HS1 H8 H9 H10 H11 Hg HT0 HT1]
        · isplitl [HS0 HS1 H8 H9 H10 H11 Hg]
          · isplitr [Hg]
            · isplitl [HS0]
              · unfold owns; iexists _; isplitr
                swap; · iexact HS0
                ipureintro; exact (View.read_writes_of_cover _ _ _ _ _ (scover0_A_0 c _ _ _ _ _ _ _ _ _ _ _ _ _ _ _ _ _ _ _ _ _ _ _)).trans (congrArg (fun L => VS0_0.read (Elt F) (VS0_0.writes (Elt F) VS0_0.junk L)) (hIA dw wIdle).1)
              isplitl [HS1]
              · unfold owns; iexists _; isplitr
                swap; · iexact HS1
                ipureintro; exact (View.read_writes_of_cover _ _ _ _ _ (scover0_A_1 c _ _ _ _ _ _ _ _ _ _ _ _ _ _ _ _ _ _ _ _ _ _ _)).trans (congrArg (fun L => VS0_1.read (Elt F) (VS0_1.writes (Elt F) VS0_1.junk L)) (hIA dw wIdle).2)
              isplitl [H8]; · iexists _; unfold owns; iexists _; isplitr; swap; (· iexact H8); ipureintro; rfl
              isplitl [H9]; · iexists _; unfold owns; iexists _; isplitr; swap; (· iexact H9); ipureintro; rfl
              isplitl [H10]; · iexists _; unfold owns; iexists _; isplitr; swap; (· iexact H10); ipureintro; rfl
              iexists _; unfold owns; iexists _; isplitr; swap; (· iexact H11); ipureintro; rfl
            iexact Hg
          isplitl [HT0]; · iexact HT0
          iexact HT1
        isplitl [Ho]; · iexact Ho
        isplitl [H0]; · iexact H0
        iexists _; iexact H1
      ·
        rw [Phi_castSucc m c t, PhiS_pos m c _ _ hz, PhiT0_eq]
        iintro ⟨⟨⟨⟨HS0, HS1, H8, H9, H10, ⟨%dw, H11⟩⟩, Hg⟩, ⟨HT0, HT1⟩⟩, Ho, ⟨%d0, H0⟩, ⟨%d1, H1⟩⟩
        iapply ((kernelRun0_A c (grid0.coords t) _ _ _ _ _ _ _ _ _ _ _ _ _ _ _ _ ((hcond0_0 t).mpr h0) (fun h => h1 ((hcond0_1 t).mp h)) (iblk m c 0 t) (tbl m 0) (tbl m 1) dw).2.2 _ Set.univ _)
        isplitl [H0]; · iexact H0
        isplitl [H1]; · iexact H1
        isplitl [HT0]; · iexact HT0
        isplitl [HT1]; · iexact HT1
        isplitl [HS0]; · iexists _; iexact HS0
        isplitl [HS1]; · iexists _; iexact HS1
        isplitl [H8]; · iexact H8
        isplitl [H9]; · iexact H9
        isplitl [H10]; · iexact H10
        isplitl [H11]; · iexact H11
        iintro ⟨H0, H1, HT0, HT1, ⟨%es0, HS0⟩, ⟨%es1, HS1⟩, ⟨%g8, H8⟩, ⟨%g9, H9⟩, ⟨%g10, H10⟩, ⟨%g11, H11⟩⟩
        isplitl [HS0 HS1 H8 H9 H10 H11 Hg HT0 HT1]
        · isplitl [HS0 HS1 H8 H9 H10 H11 Hg]
          · isplitr [Hg]
            · isplitl [HS0]
              · unfold owns; iexists _; isplitr
                swap; · iexact HS0
                ipureintro; exact (View.read_writes_of_cover _ _ _ _ _ (scover0_A_0 c _ _ _ _ _ _ _ _ _ _ _ _ _ _ _ _ _ _ _ _ _ _ _)).trans (congrArg (fun L => VS0_0.read (Elt F) (VS0_0.writes (Elt F) VS0_0.junk L)) (hIA dw wIdle).1)
              isplitl [HS1]
              · unfold owns; iexists _; isplitr
                swap; · iexact HS1
                ipureintro; exact (View.read_writes_of_cover _ _ _ _ _ (scover0_A_1 c _ _ _ _ _ _ _ _ _ _ _ _ _ _ _ _ _ _ _ _ _ _ _)).trans (congrArg (fun L => VS0_1.read (Elt F) (VS0_1.writes (Elt F) VS0_1.junk L)) (hIA dw wIdle).2)
              isplitl [H8]; · iexists _; unfold owns; iexists _; isplitr; swap; (· iexact H8); ipureintro; rfl
              isplitl [H9]; · iexists _; unfold owns; iexists _; isplitr; swap; (· iexact H9); ipureintro; rfl
              isplitl [H10]; · iexists _; unfold owns; iexists _; isplitr; swap; (· iexact H10); ipureintro; rfl
              iexists _; unfold owns; iexists _; isplitr; swap; (· iexact H11); ipureintro; rfl
            iexact Hg
          isplitl [HT0]; · iexact HT0
          iexact HT1
        isplitl [Ho]; · iexact Ho
        isplitl [H0]; · iexact H0
        iexists _; iexact H1
  · by_cases h1 : t.val % 16 = 15
    · rw [show (dats m 0 c).leavesExact 0 t = owns (c : Thread nD τ) (ms0_0 m t) fullShare ((dats m 0 c).after 0 t) from by
        unfold Dat.leavesExact; rfl, after0_0]
      rw [show (dats m 0 c).leavesExact 1 t = owns (c : Thread nD τ) (ms0_1 m t) fullShare ((dats m 0 c).after 1 t) from (by
        unfold Dat.leavesExact; rw [show (cfgM m).idle 1 ((cfgM m).grid.coords t) = false from liveAt0_1 t h1]; rfl), after0_1]
      rw [outsAt0_C m c t h0 h1]
      unfold out0_C_1 sout0_C_0 sout0_C_1; (try dsimp only)
      have hIC := runC_pieces_indep c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2
      by_cases hz : t.val = 0
      · exfalso; omega
      ·
        rw [Phi_castSucc m c t, PhiS_pos m c _ _ hz, PhiT0_eq]
        iintro ⟨⟨⟨⟨HS0, HS1, H8, H9, H10, ⟨%dw, H11⟩⟩, Hg⟩, ⟨HT0, HT1⟩⟩, Ho, ⟨%d0, H0⟩, ⟨%d1, H1⟩⟩
        iapply ((kernelRun0_C c (grid0.coords t) _ _ _ _ _ _ _ _ _ _ _ _ _ _ _ _ (fun h => h0 ((hcond0_0 t).mp h)) ((hcond0_1 t).mpr h1) (iblk m c 0 t) (tbl m 0) (tbl m 1) _ _ dw).2.2.2 Set.univ _)
        isplitl [H0]; · iexact H0
        isplitl [H1]; · iexists _; iexact H1
        isplitl [HT0]; · iexact HT0
        isplitl [HT1]; · iexact HT1
        isplitl [HS0]; · iexact HS0
        isplitl [HS1]; · iexact HS1
        isplitl [H8]; · iexact H8
        isplitl [H9]; · iexact H9
        isplitl [H10]; · iexact H10
        isplitl [H11]; · iexact H11
        iintro ⟨H0, ⟨%e1, H1⟩, HT0, HT1, ⟨%es0, HS0⟩, ⟨%es1, HS1⟩, ⟨%g8, H8⟩, ⟨%g9, H9⟩, ⟨%g10, H10⟩, ⟨%g11, H11⟩⟩
        isplitl [HS0 HS1 H8 H9 H10 H11 Hg HT0 HT1]
        · isplitl [HS0 HS1 H8 H9 H10 H11 Hg]
          · isplitr [Hg]
            · isplitl [HS0]
              · unfold owns; iexists _; isplitr
                swap; · iexact HS0
                ipureintro; exact (View.read_writes_of_cover _ _ _ _ _ (scover0_C_0 c _ _ _ _ _ _ _ _ _ _ _ _ _ _ _ _ _ _ _ _ _ _ _ _ _)).trans (congrArg (fun L => VS0_0.read (Elt F) (VS0_0.writes (Elt F) VS0_0.junk L)) (hIC dw wIdle).2.1)
              isplitl [HS1]
              · unfold owns; iexists _; isplitr
                swap; · iexact HS1
                ipureintro; exact (View.read_writes_of_cover _ _ _ _ _ (scover0_C_1 c _ _ _ _ _ _ _ _ _ _ _ _ _ _ _ _ _ _ _ _ _ _ _ _ _)).trans (congrArg (fun L => VS0_1.read (Elt F) (VS0_1.writes (Elt F) VS0_1.junk L)) (hIC dw wIdle).2.2)
              isplitl [H8]; · iexists _; unfold owns; iexists _; isplitr; swap; (· iexact H8); ipureintro; rfl
              isplitl [H9]; · iexists _; unfold owns; iexists _; isplitr; swap; (· iexact H9); ipureintro; rfl
              isplitl [H10]; · iexists _; unfold owns; iexists _; isplitr; swap; (· iexact H10); ipureintro; rfl
              iexists _; unfold owns; iexists _; isplitr; swap; (· iexact H11); ipureintro; rfl
            iexact Hg
          isplitl [HT0]; · iexact HT0
          iexact HT1
        isplitl [Ho]; · iexact Ho
        isplitl [H0]; · iexact H0
        unfold owns; iexists _; isplitr
        swap; · iexact H1
        ipureintro; exact (View.read_writes_of_cover _ _ _ _ _ (cover0_C_1 c _ _ _ _ _ _ _ _ _ _ _ _ _ _ _ _ _ _ _ _ _ _ _ _ _)).trans (congrArg (fun L => VO0_1.read (Elt F) (VO0_1.writes (Elt F) VO0_1.junk L)) (hIC dw wIdle).1)
    · rw [show (dats m 0 c).leavesExact 0 t = owns (c : Thread nD τ) (ms0_0 m t) fullShare ((dats m 0 c).after 0 t) from by
        unfold Dat.leavesExact; rfl, after0_0]
      rw [Dat.leavesExact_idle (dats m 0 c) 1 t (idleAt0_1 t h1) (noFlush0_1 t h1)]
      rw [outsAt0_B m c t h0 h1]
      unfold sout0_B_0 sout0_B_1; (try dsimp only)
      have hIB := runB_pieces_indep c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2
      by_cases hz : t.val = 0
      · exfalso; omega
      ·
        rw [Phi_castSucc m c t, PhiS_pos m c _ _ hz, PhiT0_eq]
        iintro ⟨⟨⟨⟨HS0, HS1, H8, H9, H10, ⟨%dw, H11⟩⟩, Hg⟩, ⟨HT0, HT1⟩⟩, Ho, ⟨%d0, H0⟩, ⟨%d1, H1⟩⟩
        iapply ((kernelRun0_B c (grid0.coords t) _ _ _ _ _ _ _ _ _ _ _ _ _ _ _ _ (fun h => h0 ((hcond0_0 t).mp h)) (fun h => h1 ((hcond0_1 t).mp h)) (iblk m c 0 t) (tbl m 0) (tbl m 1) _ _ dw).2.2 _ Set.univ _)
        isplitl [H0]; · iexact H0
        isplitl [H1]; · iexact H1
        isplitl [HT0]; · iexact HT0
        isplitl [HT1]; · iexact HT1
        isplitl [HS0]; · iexact HS0
        isplitl [HS1]; · iexact HS1
        isplitl [H8]; · iexact H8
        isplitl [H9]; · iexact H9
        isplitl [H10]; · iexact H10
        isplitl [H11]; · iexact H11
        iintro ⟨H0, H1, HT0, HT1, ⟨%es0, HS0⟩, ⟨%es1, HS1⟩, ⟨%g8, H8⟩, ⟨%g9, H9⟩, ⟨%g10, H10⟩, ⟨%g11, H11⟩⟩
        isplitl [HS0 HS1 H8 H9 H10 H11 Hg HT0 HT1]
        · isplitl [HS0 HS1 H8 H9 H10 H11 Hg]
          · isplitr [Hg]
            · isplitl [HS0]
              · unfold owns; iexists _; isplitr
                swap; · iexact HS0
                ipureintro; exact (View.read_writes_of_cover _ _ _ _ _ (scover0_B_0 c _ _ _ _ _ _ _ _ _ _ _ _ _ _ _ _ _ _ _ _ _ _ _ _ _)).trans (congrArg (fun L => VS0_0.read (Elt F) (VS0_0.writes (Elt F) VS0_0.junk L)) (hIB dw wIdle).1)
              isplitl [HS1]
              · unfold owns; iexists _; isplitr
                swap; · iexact HS1
                ipureintro; exact (View.read_writes_of_cover _ _ _ _ _ (scover0_B_1 c _ _ _ _ _ _ _ _ _ _ _ _ _ _ _ _ _ _ _ _ _ _ _ _ _)).trans (congrArg (fun L => VS0_1.read (Elt F) (VS0_1.writes (Elt F) VS0_1.junk L)) (hIB dw wIdle).2)
              isplitl [H8]; · iexists _; unfold owns; iexists _; isplitr; swap; (· iexact H8); ipureintro; rfl
              isplitl [H9]; · iexists _; unfold owns; iexists _; isplitr; swap; (· iexact H9); ipureintro; rfl
              isplitl [H10]; · iexists _; unfold owns; iexists _; isplitr; swap; (· iexact H10); ipureintro; rfl
              iexists _; unfold owns; iexists _; isplitr; swap; (· iexact H11); ipureintro; rfl
            iexact Hg
          isplitl [HT0]; · iexact HT0
          iexact HT1
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : iprop(Pipeline.ΦA spec0 c ∗ Pipeline.ΦT pre0 (tbl m) c) ⊢ (dats m 0 c).Φ 0 := by
  rw [show (dats m 0 c).Φ 0 = iprop(PhiS m c 0 (Nat.zero_le _) ∗ Pipeline.ΦT pre0 (tbl m) c) from rfl, PhiS_zero m c 0 _ rfl]
  try exact Idealize.SL.BI.Entails.refl _

/-- After the last point the invariant gives the class's back: the accumulators' named contents are forgotten, the
    tables' halves let go. -/
theorem hout (c : Dev nD) : (dats m 0 c).Φ (Fin.last (cfgM m).N) ⊢ Pipeline.ΦA spec0 c := by
  rw [show (dats m 0 c).Φ (Fin.last (cfgM m).N) = iprop(PhiS m c (Fin.last (cfgM m).N).val (Nat.le_of_lt_succ (Fin.last (cfgM m).N).isLt) ∗ Pipeline.ΦT pre0 (tbl m) c) from rfl,
    PhiS_pos m c _ _ (by rw [Fin.val_last]; have : (cfgM m).N = 256 := N_0; omega), PhiA0_eq]
  iintro ⟨⟨⟨HS0, HS1, H8, H9, H10, H11⟩, Hg⟩, -⟩
  isplitr [Hg]
  · isplitl [HS0]; · iexists _; iexact HS0
    isplitl [HS1]; · iexists _; iexact HS1
    isplitl [H8]; · iexact H8
    isplitl [H9]; · iexact H9
    isplitl [H10]; · iexact H10
    iexact H11
  iexact Hg

/-! ## The run and the frame -/

set_option backward.isDefEq.respectTransparency.types false in
theorem run_main : θ_run defs (onTc (τ := τ) (main (F := F))) (s₀ m ρ) (Pipeline.FramePost (Pipeline.pin pcfgs fun _ => adm m) (dats m) 0 (V m)) :=
  Pipeline.θ_run_frameP_track pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hin := hin m) (hout := hout m)

/-- The frame: every weakly fair execution ends, nothing faults, the two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Flush.lean ====
/-
  The frame of the patch-placement kernel, part 4: from the pipeline's account of the canvas array to the program's
  result.

  The canvas window (blocks [1, 1, 512, 512] of the [16, 1, 512, 512] result) is written back exactly at the last
  point of each batch (k = 15), through the block whose batch coordinate is the batch and whose other block
  coordinates are 0. Two write-backs therefore touch no common element, so after the run every element of batch b
  holds what the point 16 b + 15 left in the canvas block.
-/
import proofs.«425958_j53352083751494_3_alg».proof.Proof.KI.Frame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point of batch `b` is a point of the grid. -/
theorem lastPt_lt (b : Fin 16) : 16 * b.val + 15 < (cfgM m).N :=
  lt_of_lt_of_eq (by have := b.isLt; omega : 16 * b.val + 15 < 256) (N_0.symm : 256 = (cfgM m).N)

/-! ## Where the canvas window writes back, and through which block -/

/-- The canvas window writes its block back at the last point of every batch (and, by `noFlush0_1`, nowhere else), -/
theorem flushAt0_1 : ∀ t : Fin grid0.N, t.val % 16 = 15 → Pipeline.Window.flushOf grid0 true cc0_transform_1 t = true := by decide +kernel

/-- through the block whose batch coordinate is the point's batch -/
theorem blkIdx0_1_batch : ∀ t : Fin grid0.N, cc0_transform_1 (grid0.coords t) 0 = t.val / 16 := by decide +kernel

/-- and whose other three coordinates are 0. -/
theorem blkIdx0_1_rest : ∀ t : Fin grid0.N, cc0_transform_1 (grid0.coords t) 1 = 0 ∧ cc0_transform_1 (grid0.coords t) 2 = 0 ∧ cc0_transform_1 (grid0.coords t) 3 = 0 := by decide +kernel

/-- So the canvas window writes back exactly at the points with k = 15. -/
theorem flush_iff0_1 (t : Fin (cfgM m).N) : ((cfgM m).win 1).flush t = true ↔ t.val % 16 = 15 := by
  constructor
  · intro hf
    by_contra hn
    have h' : ((cfgM m).win 1).flush t = false := noFlush0_1 t hn
    rw [h'] at hf
    exact Bool.false_ne_true hf
  · intro h
    exact flushAt0_1 t h

/-- Two distinct points that write the canvas back are the last points of two distinct batches: their blocks differ in
    the batch coordinate, so they share no element of the array. -/
theorem disjoint0_1 (t t' : Fin (cfgM m).N) (hf : ((cfgM m).win 1).flush t = true) (hf' : ((cfgM m).win 1).flush t' = true)
    (hne : t ≠ t') : Disjoint (((cfgM m).win 1).blk t).view.set (((cfgM m).win 1).blk t').view.set := by
  refine ((cfgM m).win 1).disjoint_blk fun h => hne (Fin.ext ?_)
  have h15 := (flush_iff0_1 m t).mp hf
  have h15' := (flush_iff0_1 m t').mp hf'
  have h0 : cc0_transform_1 (grid0.coords t) 0 = cc0_transform_1 (grid0.coords t') 0 := congrFun h (0 : Fin 4)
  rw [blkIdx0_1_batch t, blkIdx0_1_batch t'] at h0
  omega

/-! ## The result array after the run -/

/-- THE RESULT, ELEMENT BY ELEMENT: after the run, element (b, 0, h, x) of the canvas array is element (0, 0, h, x) of
    the canvas block that the last point of batch b (position 16 b + 15) left. That point writes its block back, no other
    write-back meets the block, and the block's element (0, 0, h, x) sits in the array at (b, 0, h, x). -/
theorem result_eq (c : Dev nD) (b : Fin 16) (h x : Fin 512) :
    ((dats m 0 c).arrAt 1 (cfgM m).N : S16x1x512x512.Idx → Elt F .f32) (ix4 b (0 : Fin 1) h x)
      = ((outsAt0 m c (16 * b.val + 15) (lastPt_lt m b)).1 : S1x1x512x512.Idx → Elt F .f32) (ix4 (0 : Fin 1) (0 : Fin 1) h x) := by
  have hb := b.isLt
  have ht : (⟨16 * b.val + 15, lastPt_lt m b⟩ : Fin (cfgM m).N).val % 16 = 15 := by
    show (16 * b.val + 15) % 16 = 15
    omega
  have hf := (flush_iff0_1 m ⟨16 * b.val + 15, lastPt_lt m b⟩).mpr ht
  have key := (dats m 0 c).arrAt_emb_eq_flushed 1 (disjoint0_1 m) ⟨16 * b.val + 15, lastPt_lt m b⟩ hf (ix4 (0 : Fin 1) (0 : Fin 1) h x)
  have hrest := blkIdx0_1_rest ⟨16 * b.val + 15, lastPt_lt m b⟩
  have hbat : cc0_transform_1 (grid0.coords ⟨16 * b.val + 15, lastPt_lt m b⟩) 0 = b.val := by
    rw [blkIdx0_1_batch]
    show (16 * b.val + 15) / 16 = b.val
    omega
  -- the block's element (0, 0, h, x) sits in the array at (b, 0, h, x)
  have hemb : (((cfgM m).win 1).blk ⟨16 * b.val + 15, lastPt_lt m b⟩).view.emb (ix4 (0 : Fin 1) (0 : Fin 1) h x)
      = (ix4 b (0 : Fin 1) h x : S16x1x512x512.Idx) := by
    have hval : ∀ a : Fin ((cfgM m).win 1).shape.rank,
        ((((cfgM m).win 1).rect ⟨16 * b.val + 15, lastPt_lt m b⟩).emb (ix4 (0 : Fin 1) (0 : Fin 1) h x) a : ℕ)
          = ((ix4 b (0 : Fin 1) h x : S16x1x512x512.Idx) a : ℕ) := by
      intro a
      refine (Pipeline.Window.rect_emb_val ((cfgM m).win 1) ⟨16 * b.val + 15, lastPt_lt m b⟩ (ix4 (0 : Fin 1) (0 : Fin 1) h x) a).trans ?_
      rcases a with ⟨_ | _ | _ | _ | a, ha⟩
      · show cc0_transform_1 (grid0.coords ⟨16 * b.val + 15, lastPt_lt m b⟩) 0 * 1 + 0 = b.val
        rw [hbat]; omega
      · show cc0_transform_1 (grid0.coords ⟨16 * b.val + 15, lastPt_lt m b⟩) 1 * 1 + 0 = 0
        rw [hrest.1]
      · show cc0_transform_1 (grid0.coords ⟨16 * b.val + 15, lastPt_lt m b⟩) 2 * 512 + h.val = h.val
        rw [hrest.2.1]; omega
      · show cc0_transform_1 (grid0.coords ⟨16 * b.val + 15, lastPt_lt m b⟩) 3 * 512 + x.val = x.val
        rw [hrest.2.2]; omega
      · exact absurd ha (by show ¬ (_ < 4); omega)
    funext a
    exact Fin.ext (hval a)
  rw [hemb] at key
  rw [key]
  exact cast_eq _ _

/-- The run, with the result named: the result buffer ends at the pipeline's account of the canvas array, and the two
    argument arrays end as they began. -/
theorem run_result : θ_run defs (onTc (τ := τ) (main (F := F))) ⟨m, fun _ => 0, ρ⟩ (fun r => ∀ c : Dev nD,
      r.2.mem ((c.tc : Thread nD τ).loc main_v5) = (dats m 0 c).arrAt 1 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 1,
      ((h c).2 main_arg0 (by decide : main_arg0 ∈ Pipeline.restRefs sig spec0)).trans (V_main_arg0 m c),
      ((h c).2 main_arg1 (by decide : main_arg1 ∈ Pipeline.restRefs sig spec0)).trans (V_main_arg1 m c)⟩) (run_main m ρ)

end Cert.KernelIdeal.Hand

end
-- ==== Proof.KI.Stages.lean ====
/-
  The values one grid point of the patch-placement kernel computes, as compositions of the printed operations, each
  a function of the corner words and the patch it depends on — so that they can be read at an index once, whatever
  name a run gives the same composition.

  For a corner word w: the row one-hot R_w[h, i] = [h = w + i] (512 x 64) and the column one-hot C_w[j, x] = [x = w + j]
  (64 x 512), both as 0 / 1 floats; a pair of patches contributes the 512 x 128 block (R_w0 | R_w1) of the row
  placement matrix and the two columns (sum_i R_w0[h, i], sum_i R_w1[h, i]) of the row mask; one patch P (64 x 64)
  contributes the 64 x 512 block P · C_w of the column-placed matrix and the row sum_j C_w[j, x] of the column mask.
  The point then adds (row placement) · (column-placed) to the value accumulator and (row mask) · (column mask) to
  the count accumulator; the last point of a batch divides the first by max(second, 1).
-/
import proofs.«425958_j53352083751494_3_alg».proof.KernelIdeal

noncomputable section

namespace Cert.KernelIdeal.Stages

open Cert.KernelIdeal Idealize.ShloMosaic
open Cert.KernelIdeal.Facts₀ Cert.KernelIdeal.Facts

variable {F : FTy → Type} [FloatOps F] [Cert.KernelIdeal.Facts]

def iotaH : IVec S512x1 32 := iota .tc S512x1 32 [0] iota_S512x1_d0_w32
def iotaI : IVec S1x64 32 := iota .tc S1x64 32 [1] iota_S1x64_d1_w32
def iotaJ : IVec S64x1 32 := iota .tc S64x1 32 [0] iota_S64x1_d0_w32
def iotaW : IVec S1x512 32 := iota .tc S1x512 32 [1] iota_S1x512_d1_w32

/-- R_w: the row one-hot of a corner word, as floats. -/
def ohH (w : Elt F .i32) : FVec F S512x64 .f32 :=
  sitofp .f32 (extui 32 (cmpi .eq (broadcastTo S512x64 iotaH broadcasts_S512x1_S512x64)
    (broadcastTo S512x64 (addi (broadcast S1x64 w) iotaI) broadcasts_S1x64_S512x64)) natLt_1_32)

/-- C_w: the column one-hot of a corner word, as floats. -/
def ohW (w : Elt F .i32) : FVec F S64x512 .f32 :=
  sitofp .f32 (extui 32 (cmpi .eq (broadcastTo S64x512 iotaW broadcasts_S1x512_S64x512)
    (broadcastTo S64x512 (addi (broadcast S64x1 w) iotaJ) broadcasts_S64x1_S64x512)) natLt_1_32)

/-- (R_w0 | R_w1): a pair's block of the row placement matrix. -/
def aPair (w0 w1 : Elt F .i32) : FVec F S512x128 .bf16 :=
  shapeCast S512x128 (concatenate S512x128 1 [⟨S512x64, truncf .bf16 (ohH w0) bitsLt_bf16_f32⟩, ⟨S512x64, truncf .bf16 (ohH w1) bitsLt_bf16_f32⟩]
    concatenates_S512x64_S512x64_S512x128_d1) shapeCasts_S512x128_S512x128

/-- sum_i R_w[h, i]: a patch's column of the row mask. -/
def hmCol (w : Elt F .i32) : FVec F S512x1 .bf16 :=
  truncf .bf16 (shapeCast S512x1 (multiReduction .add [1] S512 (ohH w) 0x00000000#32 reduces_S512x64_S512 (.inl rfl) rfl) shapeCasts_S512_S512x1) bitsLt_bf16_f32

/-- A pair's two columns of the row mask. -/
def hmPair (w0 w1 : Elt F .i32) : FVec F S512x2 .bf16 :=
  shapeCast S512x2 (concatenate S512x2 1 [⟨S512x1, hmCol w0⟩, ⟨S512x1, hmCol w1⟩] concatenates_S512x1_S512x1_S512x2_d1) shapeCasts_S512x2_S512x2

/-- P · C_w: a patch's block of the column-placed matrix. -/
def placedW (w : Elt F .i32) (p : Vec F S1x1x64x64 .f32) : FVec F S64x512 .bf16 :=
  shapeCast S64x512 (truncf .bf16 (matmul dot_S64x64_S64x512_S64x512_1_0_0_1_n_n none
    (truncf .bf16 (shapeCast S64x64 p shapeCasts_S1x1x64x64_S64x64) bitsLt_bf16_f32) (truncf .bf16 (ohW w) bitsLt_bf16_f32)
    (constant S64x512 .f32 0x00000000#32)) bitsLt_bf16_f32) shapeCasts_S64x512_S64x512

/-- sum_j C_w[j, x]: a patch's row of the column mask. -/
def wmRow (w : Elt F .i32) : FVec F S1x512 .bf16 :=
  shapeCast S1x512 (truncf .bf16 (shapeCast S1x512 (multiReduction .add [0] S512 (ohW w) 0x00000000#32 reduces_S64x512_S512 (.inl rfl) rfl) shapeCasts_S512_S1x512) bitsLt_bf16_f32) shapeCasts_S1x512_S1x512

/-- A pair's two rows of the column mask, written one after the other into the 2 x 512 block that held `old`. -/
def wmPair (w0 w1 : Elt F .i32) (old : Vec F S2x512 .bf16) : Vec F S2x512 .bf16 :=
  updateSlice (updateSlice old (wmRow w0) ![0, 0] slices_S2x512_S1x512_0_0) (wmRow w1) ![1, 0] slices_S2x512_S1x512_1_0

/-- The value accumulator after the point: what it held plus (row placement) · (column-placed). -/
def accPlaced (a : Vec F S512x2048 .bf16) (b : Vec F S2048x512 .bf16) (acc : Vec F S512x512 .f32) : FVec F S512x512 .f32 :=
  addf acc (matmul dot_S512x2048_S2048x512_S512x512_1_0_0_1_n_n none a b (constant S512x512 .f32 0x00000000#32))

/-- The count contribution of the point: (row mask) · (column mask). -/
def cntContrib (hm : Vec F S512x32 .bf16) (wm : Vec F S32x512 .bf16) : FVec F S512x512 .f32 :=
  matmul dot_S512x32_S32x512_S512x512_1_0_0_1_n_n none hm wm (constant S512x512 .f32 0x00000000#32)

end Cert.KernelIdeal.Stages

end
-- ==== Proof.Spec.lean ====
/-
  The mathematics both programs compute, stated once over the extended reals.

  A batch element b owns K = 512 patches of 64 x 64 values; patch k has a top-left corner (ch, cw) read from the
  integer table coords[b, k, 0 / 1]. Row i of the patch lands on canvas row h exactly when ch + i = h as NATURAL
  numbers (ch read as an unsigned word: for a word below 2^31 this is the signed reading, and the sum cannot wrap),
  and likewise column j on canvas column w. A canvas cell (b, h, w) receives the sum of every patch entry landing
  on it ("placed") and the number of such entries ("count"); the result is placed / max(count, 1).
  A patch row or column that would fall at or beyond 512 lands nowhere: there is no canvas index for it.
-/
import Idealize.ShloMosaic.PureOps.Ideal
import Idealize.ShloMosaic.Lib.ValueIdx

noncomputable section

namespace Cert.Spec

open Idealize.ShloMosaic Idealize.ShloMosaic.ValueIdx

abbrev SPatch : Shape := ⟨5, ![16, 512, 1, 64, 64]⟩
abbrev SCoord : Shape := ⟨3, ![16, 512, 2]⟩
abbrev SOut : Shape := ⟨4, ![16, 1, 512, 512]⟩

/-- Offset `i` from the corner word `c` is canvas coordinate `h`. -/
def lands (c : BitVec 32) (i : Fin 64) (h : Fin 512) : Prop := c.toNat + i.val = h.val

instance (c : BitVec 32) (i : Fin 64) (h : Fin 512) : Decidable (lands c i h) := by unfold lands; infer_instance

/-- Entry (i, j) of patch k of batch b lands on cell (h, w). -/
def hit (coords : SCoord.Idx → BitVec 32) (b : Fin 16) (k : Fin 512) (i j : Fin 64) (h w : Fin 512) : Prop :=
  lands (coords (ix3 b k (0 : Fin 2))) i h ∧ lands (coords (ix3 b k (1 : Fin 2))) j w

instance (coords : SCoord.Idx → BitVec 32) (b : Fin 16) (k : Fin 512) (i j : Fin 64) (h w : Fin 512) :
    Decidable (hit coords b k i j h w) := by unfold hit; infer_instance

/-- The sum of the patch entries landing on cell (b, h, w). -/
def placed (patch : SPatch.Idx → EReal) (coords : SCoord.Idx → BitVec 32) (b : Fin 16) (h w : Fin 512) : EReal :=
  ∑ k : Fin 512, ∑ i : Fin 64, ∑ j : Fin 64,
    if hit coords b k i j h w then patch (ix5 b k (0 : Fin 1) i j) else 0

/-- How many patch entries land on cell (b, h, w). -/
def count (coords : SCoord.Idx → BitVec 32) (b : Fin 16) (h w : Fin 512) : EReal :=
  ∑ k : Fin 512, ∑ i : Fin 64, ∑ j : Fin 64, if hit coords b k i j h w then (1 : EReal) else 0

/-- The normalised canvas: placed / max(count, 1.0), the 1.0 kept as the word both programs print. -/
def G (patch : SPatch.Idx → EReal) (coords : SCoord.Idx → BitVec 32) : SOut.Idx → EReal := fun y =>
  Ideal.div (placed patch coords (y 0) (y 2) (y 3))
    (max (count coords (y 0) (y 2) (y 3)) (Ideal.ofBits .f32 0x3F800000#32))

end Cert.Spec

end
-- ==== Proof.Algebra.lean ====
/-
  Sums of landing entries, rearranged.

  A corner word below 2^31 plus an offset below 64 cannot wrap, so "the canvas coordinate, as a word, equals corner plus
  offset" says exactly that the offset lands on the coordinate. A 0/1 row factor times a row of entries weighted by 0/1
  column factors is the sum of the entries whose row and column both land; the count of landing entries of one patch is
  the product of its landing rows and its landing columns. All values are extended reals: multiplication does not
  distribute over addition there in general, so every step either cases on a 0/1 factor (0 * x = 0 and 1 * x = x for
  every x) or distributes over a sum of non-negative terms. Last, 512 patches are 16 groups of 32, patch 32 k' + g being
  member g of group k'; the first n groups are the patches below 32 n.
-/
import proofs.«425958_j53352083751494_3_alg».proof.Proof.Spec
import Mathlib.Data.EReal.Operations
import Mathlib.Data.Fintype.BigOperators
import Mathlib.Logic.Equiv.Fin.Basic
import Mathlib.Algebra.Order.BigOperators.Group.Finset

namespace Cert.Algebra

open Cert.Spec

/-- For a corner below 2^31 the word equation "coordinate = corner + offset" is the landing relation. -/
theorem eq_iff_lands (c : BitVec 32) (hc : c.toNat < 2 ^ 31) (i : Fin 64) (h : Fin 512) :
    (BitVec.ofNat 32 h.val = c + BitVec.ofNat 32 i.val) ↔ Cert.Spec.lands c i h := by
  unfold Cert.Spec.lands
  have hi := i.isLt
  have hh := h.isLt
  constructor
  · intro e
    have e' := congrArg BitVec.toNat e
    simp only [BitVec.toNat_add, BitVec.toNat_ofNat] at e'
    omega
  · intro e
    apply BitVec.eq_of_toNat_eq
    simp only [BitVec.toNat_add, BitVec.toNat_ofNat]
    omega

/-- The landing entries of each patch of a group, with the row factor outside the sum over columns. -/
theorem group_placed (ch cw : Fin 32 → BitVec 32) (P : Fin 32 → Fin 64 → Fin 64 → EReal) (h w : Fin 512) :
    (∑ g : Fin 32, ∑ i : Fin 64, (if Cert.Spec.lands (ch g) i h then (1 : EReal) else 0) *
        (∑ j : Fin 64, P g i j * (if Cert.Spec.lands (cw g) j w then (1 : EReal) else 0))) =
      ∑ g : Fin 32, ∑ i : Fin 64, ∑ j : Fin 64,
        if Cert.Spec.lands (ch g) i h ∧ Cert.Spec.lands (cw g) j w then P g i j else 0 := by
  refine Finset.sum_congr rfl fun g _ => Finset.sum_congr rfl fun i _ => ?_
  by_cases hL : Cert.Spec.lands (ch g) i h
  · -- the row lands: the factor is 1, and each column factor keeps or drops its entry
    rw [if_pos hL, one_mul]
    refine Finset.sum_congr rfl fun j _ => ?_
    by_cases hM : Cert.Spec.lands (cw g) j w
    · rw [if_pos hM, mul_one, if_pos ⟨hL, hM⟩]
    · rw [if_neg hM, mul_zero, if_neg fun hh => hM hh.2]
  · -- the row does not land: the factor is 0 and no entry of the row is counted
    rw [if_neg hL, zero_mul]
    exact (Finset.sum_eq_zero fun j _ => if_neg fun hh => hL hh.1).symm

/-- A sum of non-negative extended reals times any factor is the sum of the products. -/
theorem sum_mul_of_nonneg {ι : Type} (s : Finset ι) (a : ι → EReal) (ha : ∀ i, 0 ≤ a i) (x : EReal) :
    (∑ i ∈ s, a i) * x = ∑ i ∈ s, a i * x := by
  classical
  induction s using Finset.induction_on with
  | empty => simp
  | insert i s hi ih =>
    rw [Finset.sum_insert hi, Finset.sum_insert hi,
      EReal.right_distrib_of_nonneg (ha i) (Finset.sum_nonneg fun j _ => ha j), ih]

/-- The landing entries of one patch number (landing rows) times (landing columns). -/
theorem group_count (ch cw : Fin 32 → BitVec 32) (h w : Fin 512) :
    (∑ g : Fin 32, (∑ i : Fin 64, if Cert.Spec.lands (ch g) i h then (1 : EReal) else 0) *
        (∑ j : Fin 64, if Cert.Spec.lands (cw g) j w then (1 : EReal) else 0)) =
      ∑ g : Fin 32, ∑ i : Fin 64, ∑ j : Fin 64,
        if Cert.Spec.lands (ch g) i h ∧ Cert.Spec.lands (cw g) j w then (1 : EReal) else 0 := by
  refine Finset.sum_congr rfl fun g _ => ?_
  rw [sum_mul_of_nonneg _ _ (fun i => by split <;> simp)]
  refine Finset.sum_congr rfl fun i _ => ?_
  by_cases hL : Cert.Spec.lands (ch g) i h
  · rw [if_pos hL, one_mul]
    refine Finset.sum_congr rfl fun j _ => ?_
    by_cases hM : Cert.Spec.lands (cw g) j w
    · rw [if_pos hM, if_pos ⟨hL, hM⟩]
    · rw [if_neg hM, if_neg fun hh => hM hh.2]
  · rw [if_neg hL, zero_mul]
    exact (Finset.sum_eq_zero fun j _ => if_neg fun hh => hL hh.1).symm

/-- Patch 32 k' + g is member g of group k': summing group by group is summing over all 512 patches. -/
theorem regroup (f : Fin 512 → EReal) :
    (∑ k' : Fin 16, ∑ g : Fin 32, f ⟨32 * k'.val + g.val, by omega⟩) = ∑ k : Fin 512, f k := by
  rw [← Fintype.sum_prod_type' (f := fun (k' : Fin 16) (g : Fin 32) => f ⟨32 * k'.val + g.val, by omega⟩)]
  refine Fintype.sum_equiv (finProdFinEquiv : Fin 16 × Fin 32 ≃ Fin (16 * 32)) _ (fun k : Fin (16 * 32) => f k)
    fun x => ?_
  congr 1
  apply Fin.ext
  show 32 * x.1.val + x.2.val = x.2.val + 32 * x.1.val
  omega

/-- The first n groups are the patches below 32 n. -/
theorem regroup_upto (f : Fin 512 → EReal) (n : ℕ) (hn : n ≤ 16) :
    (∑ k' ∈ Finset.univ.filter (fun k' : Fin 16 => k'.val < n), ∑ g : Fin 32, f ⟨32 * k'.val + g.val, by omega⟩) =
      ∑ k ∈ Finset.univ.filter (fun k : Fin 512 => k.val < 32 * n), f k := by
  -- both sides are sums over everything of a function cut off to 0 beyond the bound; member g of group k' is
  -- below 32 n exactly when k' is below n
  rw [Finset.sum_filter, Finset.sum_filter, ← regroup]
  refine Finset.sum_congr rfl fun k' _ => ?_
  by_cases hk : k'.val < n
  · rw [if_pos hk]
    refine Finset.sum_congr rfl fun g _ => ?_
    have hg := g.isLt
    rw [if_pos (show 32 * k'.val + g.val < 32 * n by omega)]
  · rw [if_neg hk]
    have hz : ∀ g : Fin 32, ¬ (32 * k'.val + g.val < 32 * n) := fun g => by omega
    exact (Finset.sum_eq_zero fun g _ => if_neg (hz g)).symm

end Cert.Algebra
-- ==== Proof.KI.StagesH.lean ====
/-
  The one-hot stages of the patch-placement kernel, read at an index over the extended reals.

  For a corner word w below 2^31 the row one-hot has a 1 at (h, i) exactly when offset i of the patch lands on canvas
  row h, and 0 elsewhere: the kernel compares the word of h with the word w + i, and the two words are equal exactly
  when w + i = h as natural numbers. A pair's block lays two such one-hots side by side; a patch's column of the row
  mask is the number of its offsets landing on h; the two matrix products are plain sums of products over the
  contracted coordinate, added to the accumulator they start from.
-/
import proofs.«425958_j53352083751494_3_alg».proof.Proof.KI.Stages
import proofs.«425958_j53352083751494_3_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.StagesH

open Cert.KernelIdeal Cert.KernelIdeal.Stages Cert.Spec Idealize.ShloMosaic Idealize.ShloMosaic.ValueIdx
open Cert.KernelIdeal.Facts₀ Cert.KernelIdeal.Facts

variable [Cert.KernelIdeal.Facts]

/-- The float of the one-bit answer of a word comparison: 1 when the words are equal, 0 when they are not. -/
theorem sitofp_eq_bit (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases hab : a = b
  · subst hab
    rw [if_pos rfl]
    simp [IntOp.cmpi]
  · rw [if_neg hab]
    have hb : (a == b) = false := beq_eq_false_iff_ne.mpr hab
    simp [IntOp.cmpi, hb]

/-- The row iota, broadcast along the offsets, reads the word of the canvas row. -/
theorem rowWord_apply (h : Fin 512) (i : Fin 64) :
    broadcastTo S512x64 iotaH broadcasts_S512x1_S512x64 (ix2 h i) = BitVec.ofNat 32 h.val := by
  refine (broadcastTo_apply iotaH broadcasts_S512x1_S512x64 (ix2 h i) (ix2 h (0 : Fin 1)) fun a => ?_).trans ?_
  · match a with
    | ⟨0, _⟩ => show h.val = if (512 : Nat) = 1 then 0 else h.val; rw [if_neg (by decide)]
    | ⟨1, _⟩ => show 0 = if (1 : Nat) = 1 then 0 else i.val; rw [if_pos rfl]
  · exact iota_single_apply .tc S512x1 32 0 iota_S512x1_d0_w32 (ix2 h 0)

/-- The corner word plus the offset iota, broadcast along the rows, reads corner plus offset. -/
theorem cornerWord_apply (w : BitVec 32) (h : Fin 512) (i : Fin 64) :
    broadcastTo S512x64 (addi (broadcast S1x64 w) iotaI) broadcasts_S1x64_S512x64 (ix2 h i)
      = w + BitVec.ofNat 32 i.val := by
  refine (broadcastTo_1b_ab_apply _ broadcasts_S1x64_S512x64 h i).trans ?_
  show IntOp.addi w (iotaI (ix2 (0 : Fin 1) i)) = _
  rw [show iotaI (ix2 (0 : Fin 1) i) = BitVec.ofNat 32 i.val from
    iota_single_apply .tc S1x64 32 1 iota_S1x64_d1_w32 (ix2 0 i)]
  rfl

/-- THE ROW ONE-HOT AT (h, i): 1 when offset i of the corner lands on row h, else 0. -/
theorem ohH_apply (w : BitVec 32) (hw : w.toNat < 2 ^ 31) (h : Fin 512) (i : Fin 64) :
    ohH (F := Ideal) w (ix2 h i) = if lands w i h then (1 : EReal) else 0 := by
  have e : ohH (F := Ideal) w (ix2 h i)
      = FloatOps.sitofp (F := Ideal) .f32 ((IntOp.cmpi .eq
          (broadcastTo S512x64 iotaH broadcasts_S512x1_S512x64 (ix2 h i))
          (broadcastTo S512x64 (addi (broadcast S1x64 w) iotaI) broadcasts_S1x64_S512x64 (ix2 h i))).setWidth 32) := rfl
  rw [e, rowWord_apply, cornerWord_apply, sitofp_eq_bit]
  exact if_congr (Cert.Algebra.eq_iff_lands w hw i h) rfl rfl

/-- THE PAIR'S BLOCK AT (h, l): its left half is the first corner's one-hot, its right half the second's. -/
theorem aPair_apply (w0 w1 : BitVec 32) (hw0 : w0.toNat < 2 ^ 31) (hw1 : w1.toNat < 2 ^ 31) (h : Fin 512) (l : Fin 128) :
    aPair (F := Ideal) w0 w1 (ix2 h l)
      = if hl : l.val < 64 then (if lands w0 ⟨l.val, hl⟩ h then (1 : EReal) else 0)
        else (if lands w1 ⟨l.val - 64, by have := l.isLt; omega⟩ h then (1 : EReal) else 0) := by
  unfold aPair
  rw [shapeCast_self]
  by_cases hl : l.val < 64
  · rw [dif_pos hl]
    refine (concatenate_pair_apply_left (t := S512x128) (1 : Fin 2) _ _ concatenates_S512x64_S512x64_S512x128_d1
      (ix2 h l) rfl (ix2 h (⟨l.val, hl⟩ : Fin 64)) ?_).trans ?_
    · intro b
      match b with
      | ⟨0, _⟩ => rfl
      | ⟨1, _⟩ => rfl
    · exact ohH_apply w0 hw0 h ⟨l.val, hl⟩
  · rw [dif_neg hl]
    have hl2 : l.val - 64 < 64 := by have := l.isLt; omega
    refine (concatenate_pair_apply_right (t := S512x128) (1 : Fin 2) _ _ concatenates_S512x64_S512x64_S512x128_d1
      (ix2 h l) rfl rfl (ix2 h (⟨l.val - 64, hl2⟩ : Fin 64)) ?_ ?_).trans ?_
    · intro b hb
      match b, hb with
      | ⟨0, _⟩, _ => rfl
      | ⟨1, _⟩, hb => exact absurd rfl hb
    · show (l.val - 64) + 64 = l.val
      omega
    · exact ohH_apply w1 hw1 h ⟨l.val - 64, hl2⟩

/-- The pair's block at a column of its left half. -/
theorem aPair_apply_left (w0 w1 : BitVec 32) (hw0 : w0.toNat < 2 ^ 31) (hw1 : w1.toNat < 2 ^ 31) (h : Fin 512) (i : Fin 64) :
    aPair (F := Ideal) w0 w1 (ix2 h (⟨i.val, by have := i.isLt; omega⟩ : Fin 128))
      = if lands w0 i h then (1 : EReal) else 0 := by
  rw [aPair_apply w0 w1 hw0 hw1, dif_pos (show i.val < 64 from i.isLt)]

/-- The pair's block at a column of its right half. -/
theorem aPair_apply_right (w0 w1 : BitVec 32) (hw0 : w0.toNat < 2 ^ 31) (hw1 : w1.toNat < 2 ^ 31) (h : Fin 512) (i : Fin 64) :
    aPair (F := Ideal) w0 w1 (ix2 h (⟨64 + i.val, by have := i.isLt; omega⟩ : Fin 128))
      = if lands w1 i h then (1 : EReal) else 0 := by
  have hi := i.isLt
  rw [aPair_apply w0 w1 hw0 hw1, dif_neg (show ¬ (64 + i.val < 64) by omega)]
  have e : (⟨64 + i.val - 64, by omega⟩ : Fin 64) = i := Fin.ext (by show 64 + i.val - 64 = i.val; omega)
  rw [e]

/-- A PATCH'S COLUMN OF THE ROW MASK AT h: the number of its offsets that land on row h. -/
theorem hmCol_apply (w : BitVec 32) (hw : w.toNat < 2 ^ 31) (h : Fin 512) :
    hmCol (F := Ideal) w (ix2 h (0 : Fin 1)) = ∑ i : Fin 64, if lands w i h then (1 : EReal) else 0 := by
  unfold hmCol
  rw [truncf_apply]
  refine (shapeCast_apply (multiReduction (F := Ideal) .add [1] S512 (ohH (F := Ideal) w) 0x00000000#32 reduces_S512x64_S512
    (.inl rfl) rfl) shapeCasts_S512_S512x1 (ix2 h (0 : Fin 1)) (ix1 h) ?_).trans ?_
  · rw [Shape.rowMajor_val_one, Shape.rowMajor_val_two]
    show h.val = h.val * 1 + 0
    omega
  · refine (Ideal.multiReduction_add_single (ohH (F := Ideal) w) 0x00000000#32 reduces_S512x64_S512 (.inl rfl) rfl
      (ix1 h)).trans ?_
    show (∑ k : Fin 64, ohH (F := Ideal) w (reduces_S512x64_S512.lift (ix1 h) k)) = _
    refine Finset.sum_congr rfl fun k _ => ?_
    have hk : reduces_S512x64_S512.lift (ix1 h) k = ix2 h k := by
      funext a
      refine Fin.ext ?_
      match a with
      | ⟨0, _⟩ => rfl
      | ⟨1, _⟩ => rfl
    rw [hk]
    exact ohH_apply w hw h k

/-- THE PAIR'S TWO COLUMNS OF THE ROW MASK AT (h, g): member g's count of offsets landing on row h. -/
theorem hmPair_apply (w0 w1 : BitVec 32) (hw0 : w0.toNat < 2 ^ 31) (hw1 : w1.toNat < 2 ^ 31) (h : Fin 512) (g : Fin 2) :
    hmPair (F := Ideal) w0 w1 (ix2 h g)
      = ∑ i : Fin 64, if lands (if g = 0 then w0 else w1) i h then (1 : EReal) else 0 := by
  unfold hmPair
  rw [shapeCast_self]
  match g with
  | ⟨0, _⟩ =>
    refine (concatenate_pair_apply_left (t := S512x2) (1 : Fin 2) _ _ concatenates_S512x1_S512x1_S512x2_d1
      (ix2 h (0 : Fin 2)) rfl (ix2 h (0 : Fin 1)) ?_).trans ?_
    · intro b
      match b with
      | ⟨0, _⟩ => rfl
      | ⟨1, _⟩ => rfl
    · exact hmCol_apply w0 hw0 h
  | ⟨1, _⟩ =>
    refine (concatenate_pair_apply_right (t := S512x2) (1 : Fin 2) _ _ concatenates_S512x1_S512x1_S512x2_d1
      (ix2 h (1 : Fin 2)) rfl rfl (ix2 h (0 : Fin 1)) ?_ ?_).trans ?_
    · intro b hb
      match b, hb with
      | ⟨0, _⟩, _ => rfl
      | ⟨1, _⟩, hb => exact absurd rfl hb
    · rfl
    · exact hmCol_apply w1 hw1 h

/-- The left operand's index of the value product at result (h, x) and contracted coordinate c is (h, c). -/
theorem placedDot_lhs (h x : Fin 512) (c : Fin 2048) :
    dot_S512x2048_S2048x512_S512x512_1_0_0_1_n_n.lhsIdx (ix2 h x) ((contrEquiv1 dot_S512x2048_S2048x512_S512x512_1_0_0_1_n_n 2048 rfl rfl).symm c) = ix2 h c := by
  have c2 := contrEquiv1_symm_val dot_S512x2048_S2048x512_S512x512_1_0_0_1_n_n 2048 rfl rfl c
  funext ax
  apply Fin.ext
  match ax with
  | ⟨0, _⟩ => simp [DotDims.lhsIdx, dot_S512x2048_S2048x512_S512x512_1_0_0_1_n_n]; rfl
  | ⟨1, _⟩ => simp [DotDims.lhsIdx, dot_S512x2048_S2048x512_S512x512_1_0_0_1_n_n]; exact c2

/-- The right operand's index there is (c, x). -/
theorem placedDot_rhs (h x : Fin 512) (c : Fin 2048) :
    dot_S512x2048_S2048x512_S512x512_1_0_0_1_n_n.rhsIdx (ix2 h x) ((contrEquiv1 dot_S512x2048_S2048x512_S512x512_1_0_0_1_n_n 2048 rfl rfl).symm c) = ix2 c x := by
  have c2 := contrEquiv1_symm_val dot_S512x2048_S2048x512_S512x512_1_0_0_1_n_n 2048 rfl rfl c
  funext ax
  apply Fin.ext
  match ax with
  | ⟨0, _⟩ => simp [DotDims.rhsIdx, dot_S512x2048_S2048x512_S512x512_1_0_0_1_n_n]; exact c2
  | ⟨1, _⟩ => simp [DotDims.rhsIdx, dot_S512x2048_S2048x512_S512x512_1_0_0_1_n_n]; rfl

/-- The left operand's index of the count product at result (h, x) and contracted coordinate c is (h, c). -/
theorem countDot_lhs (h x : Fin 512) (c : Fin 32) :
    dot_S512x32_S32x512_S512x512_1_0_0_1_n_n.lhsIdx (ix2 h x) ((contrEquiv1 dot_S512x32_S32x512_S512x512_1_0_0_1_n_n 32 rfl rfl).symm c) = ix2 h c := by
  have c2 := contrEquiv1_symm_val dot_S512x32_S32x512_S512x512_1_0_0_1_n_n 32 rfl rfl c
  funext ax
  apply Fin.ext
  match ax with
  | ⟨0, _⟩ => simp [DotDims.lhsIdx, dot_S512x32_S32x512_S512x512_1_0_0_1_n_n]; rfl
  | ⟨1, _⟩ => simp [DotDims.lhsIdx, dot_S512x32_S32x512_S512x512_1_0_0_1_n_n]; exact c2

/-- The right operand's index there is (c, x). -/
theorem countDot_rhs (h x : Fin 512) (c : Fin 32) :
    dot_S512x32_S32x512_S512x512_1_0_0_1_n_n.rhsIdx (ix2 h x) ((contrEquiv1 dot_S512x32_S32x512_S512x512_1_0_0_1_n_n 32 rfl rfl).symm c) = ix2 c x := by
  have c2 := contrEquiv1_symm_val dot_S512x32_S32x512_S512x512_1_0_0_1_n_n 32 rfl rfl c
  funext ax
  apply Fin.ext
  match ax with
  | ⟨0, _⟩ => simp [DotDims.rhsIdx, dot_S512x32_S32x512_S512x512_1_0_0_1_n_n]; exact c2
  | ⟨1, _⟩ => simp [DotDims.rhsIdx, dot_S512x32_S32x512_S512x512_1_0_0_1_n_n]; rfl

/-- THE VALUE ACCUMULATOR AFTER THE POINT AT (h, x): what it held plus the sum over the 2048 contracted coordinates of
    (row placement)(h, l) times (column-placed)(l, x). -/
theorem accPlaced_apply (a : FVec Ideal S512x2048 .bf16) (b : FVec Ideal S2048x512 .bf16) (acc : FVec Ideal S512x512 .f32)
    (h x : Fin 512) :
    accPlaced (F := Ideal) a b acc (ix2 h x) = acc (ix2 h x) + ∑ l : Fin 2048, a (ix2 h l) * b (ix2 l x) := by
  unfold accPlaced
  rw [addf_apply]
  congr 1
  refine (Ideal.matmul_constant_zero_apply dot_S512x2048_S2048x512_S512x512_1_0_0_1_n_n none a b (ix2 h x)).trans ?_
  rw [← Equiv.sum_comp (contrEquiv1 dot_S512x2048_S2048x512_S512x512_1_0_0_1_n_n 2048 rfl rfl).symm]
  refine Finset.sum_congr rfl fun c _ => ?_
  rw [placedDot_lhs, placedDot_rhs]

/-- THE COUNT CONTRIBUTION OF THE POINT AT (h, x): the sum over the 32 patches of the group of (row mask)(h, g) times
    (column mask)(g, x). -/
theorem cntContrib_apply (hm : FVec Ideal S512x32 .bf16) (wm : FVec Ideal S32x512 .bf16) (h x : Fin 512) :
    cntContrib (F := Ideal) hm wm (ix2 h x) = ∑ g : Fin 32, hm (ix2 h g) * wm (ix2 g x) := by
  unfold cntContrib
  refine (Ideal.matmul_constant_zero_apply dot_S512x32_S32x512_S512x512_1_0_0_1_n_n none hm wm (ix2 h x)).trans ?_
  rw [← Equiv.sum_comp (contrEquiv1 dot_S512x32_S32x512_S512x512_1_0_0_1_n_n 32 rfl rfl).symm]
  refine Finset.sum_congr rfl fun c _ => ?_
  rw [countDot_lhs, countDot_rhs]

end Cert.KernelIdeal.StagesH

end
-- ==== Proof.KI.StagesW.lean ====
/-
  The column side of one grid point, read entry by entry over the extended reals.

  For a corner word w below 2^31 the column one-hot C_w has a 1 at (j, x) exactly when offset j from the corner lands on
  canvas column x, and 0 elsewhere. A patch P times C_w therefore has, at (i, x), the sum over j of P[i, j] weighted by
  that 0/1 factor; the column mask's row has, at x, the number of offsets j that land on x; and the two rows written one
  after the other into a 2 x 512 block leave nothing of what the block held before.
-/
import proofs.«425958_j53352083751494_3_alg».proof.Proof.KI.Stages
import proofs.«425958_j53352083751494_3_alg».proof.Proof.Algebra
import Idealize.ShloMosaic.Lib.ValueIdx
import Idealize.ShloMosaic.Lib.Affine
import Idealize.ShloMosaic.Lib.Pipeline.Value
import Idealize.ShloMosaic.PureOps.Ideal.Laws

noncomputable section

namespace Cert.KernelIdeal.StagesW

open Cert.KernelIdeal Cert.KernelIdeal.Stages Cert.Spec Idealize.ShloMosaic Idealize.ShloMosaic.ValueIdx
open Cert.KernelIdeal.Facts₀ Cert.KernelIdeal.Facts

variable [Cert.KernelIdeal.Facts]

/-! ## Words at an index -/

/-- An integer comparison at an index compares the elements. -/
theorem cmpi_apply {s : Shape} {n : Nat} (p : CmpIPredicate) (a b : IVec s n) (i : s.Idx) :
    cmpi p a b i = IntOp.cmpi p (a i) (b i) := rfl

/-- An integer sum at an index adds the elements. -/
theorem addi_apply {s : Shape} {n : Nat} (a b : IVec s n) (i : s.Idx) : addi a b i = IntOp.addi (a i) (b i) := rfl

/-- A bit widened to a word and read as a signed integer is the extended real 1 or 0. -/
theorem sitofp_bit (b : BitVec 1) :
    (FloatOps.sitofp (F := Ideal) .f32 (b.setWidth 32) : EReal) = if b = 1#1 then (1 : EReal) else 0 := by
  rcases BitVec.eq_zero_or_eq_one b with rfl | rfl
  · show (((0#1 : BitVec 1).setWidth 32).toInt : ℝ) = (_ : EReal)
    rw [if_neg (by decide)]
    have : ((0#1 : BitVec 1).setWidth 32).toInt = 0 := by decide
    rw [this]; simp
  · show (((1#1 : BitVec 1).setWidth 32).toInt : ℝ) = (_ : EReal)
    rw [if_pos rfl]
    have : ((1#1 : BitVec 1).setWidth 32).toInt = 1 := by decide
    rw [this]; simp

/-! ## The column one-hot -/

/-- C_w at (j, x): 1 when offset j from the corner lands on column x, else 0. -/
theorem ohW_apply (w : BitVec 32) (hw : w.toNat < 2 ^ 31) (j : Fin 64) (x : Fin 512) :
    ohW (F := Ideal) w (ix2 j x) = if lands w j x then (1 : EReal) else 0 := by
  unfold ohW
  rw [sitofp_apply, extui_apply, cmpi_apply,
    broadcastTo_apply iotaW _ (ix2 j x) (ix2 (0 : Fin 1) x) (fun a => by match a with | ⟨0, _⟩ => rfl | ⟨1, _⟩ => rfl),
    broadcastTo_apply (addi (broadcast S64x1 w) iotaJ) _ (ix2 j x) (ix2 j (0 : Fin 1))
      (fun a => by match a with | ⟨0, _⟩ => rfl | ⟨1, _⟩ => rfl),
    addi_apply, broadcast_apply]
  unfold iotaW iotaJ
  rw [iota_single_apply, iota_single_apply, sitofp_bit]
  exact if_congr (IntOp.cmpi_eq.trans (Cert.Algebra.eq_iff_lands w hw j x)) rfl rfl

/-! ## A patch times the column one-hot

The product contracts the patch's column index with the one-hot's row index; the four lemmas below say which coordinate
of the result index or of the contraction index each operand axis reads. -/

theorem lhs_row (i : S64x512.Idx) (q : dot_S64x64_S64x512_S64x512_1_0_0_1_n_n.contr.Idx) :
    (dot_S64x64_S64x512_S64x512_1_0_0_1_n_n.lhsIdx i q 0).val = (i 0).val := by
  unfold DotDims.lhsIdx
  rw [dif_neg (show ¬(0 : Fin S64x64.rank) ∈ dot_S64x64_S64x512_S64x512_1_0_0_1_n_n.lhsBatch from List.not_mem_nil),
    dif_pos (show (0 : Fin S64x64.rank) ∈ dot_S64x64_S64x512_S64x512_1_0_0_1_n_n.lhsNonContracting from List.mem_singleton.mpr rfl)]
  rfl

theorem lhs_col (i : S64x512.Idx) (q : dot_S64x64_S64x512_S64x512_1_0_0_1_n_n.contr.Idx) :
    (dot_S64x64_S64x512_S64x512_1_0_0_1_n_n.lhsIdx i q 1).val = (q ⟨0, Nat.one_pos⟩).val :=
  dot_S64x64_S64x512_S64x512_1_0_0_1_n_n.lhsIdx_val_of_single rfl i q

theorem rhs_row (i : S64x512.Idx) (q : dot_S64x64_S64x512_S64x512_1_0_0_1_n_n.contr.Idx) :
    (dot_S64x64_S64x512_S64x512_1_0_0_1_n_n.rhsIdx i q 0).val = (q ⟨0, Nat.one_pos⟩).val :=
  dot_S64x64_S64x512_S64x512_1_0_0_1_n_n.rhsIdx_val_of_single rfl i q

theorem rhs_col (i : S64x512.Idx) (q : dot_S64x64_S64x512_S64x512_1_0_0_1_n_n.contr.Idx) :
    (dot_S64x64_S64x512_S64x512_1_0_0_1_n_n.rhsIdx i q 1).val = (i 1).val := by
  unfold DotDims.rhsIdx
  rw [dif_neg (show ¬(1 : Fin S64x512.rank) ∈ dot_S64x64_S64x512_S64x512_1_0_0_1_n_n.rhsBatch from List.not_mem_nil),
    dif_pos (show (1 : Fin S64x512.rank) ∈ dot_S64x64_S64x512_S64x512_1_0_0_1_n_n.rhsNonContracting from List.mem_singleton.mpr rfl)]
  rfl

/-- (P · C_w) at (i, x): the sum over j of P[i, j] times the 0/1 factor "offset j lands on column x". -/
theorem placedW_apply (w : BitVec 32) (hw : w.toNat < 2 ^ 31) (p : S1x1x64x64.Idx → EReal) (i : Fin 64) (x : Fin 512) :
    placedW (F := Ideal) w p (ix2 i x)
      = ∑ j : Fin 64, p (ix4 (0 : Fin 1) (0 : Fin 1) i j) * (if lands w j x then (1 : EReal) else 0) := by
  unfold placedW
  rw [shapeCast_self, truncf_apply]
  simp only [matmul]
  rw [Ideal.matmul_constant_zero_apply, ← Equiv.sum_comp (contrEquiv1 dot_S64x64_S64x512_S64x512_1_0_0_1_n_n 64 rfl rfl).symm]
  refine Finset.sum_congr rfl fun k _ => ?_
  have hk := contrEquiv1_symm_val dot_S64x64_S64x512_S64x512_1_0_0_1_n_n 64 rfl rfl k
  have el : dot_S64x64_S64x512_S64x512_1_0_0_1_n_n.lhsIdx (ix2 i x) ((contrEquiv1 dot_S64x64_S64x512_S64x512_1_0_0_1_n_n 64 rfl rfl).symm k) = ix2 i k :=
    funext fun a => Fin.ext (by
      match a with
      | ⟨0, _⟩ => exact lhs_row _ _
      | ⟨1, _⟩ => exact (lhs_col _ _).trans hk)
  have er : dot_S64x64_S64x512_S64x512_1_0_0_1_n_n.rhsIdx (ix2 i x) ((contrEquiv1 dot_S64x64_S64x512_S64x512_1_0_0_1_n_n 64 rfl rfl).symm k) = ix2 k x :=
    funext fun a => Fin.ext (by
      match a with
      | ⟨0, _⟩ => exact (rhs_row _ _).trans hk
      | ⟨1, _⟩ => exact rhs_col _ _)
  rw [el, er, truncf_apply, truncf_apply, ohW_apply w hw k x,
    shapeCast_apply p _ (ix2 i k) (ix4 (0 : Fin 1) (0 : Fin 1) i k) (by
      rw [Shape.rowMajor_val_four, Shape.rowMajor_val_two]
      show ((0 * 1 + 0) * 64 + i.val) * 64 + k.val = i.val * 64 + k.val
      omega)]

/-! ## The column mask's row -/

/-- The column mask's row at x: how many offsets j land on column x. -/
theorem wmRow_apply (w : BitVec 32) (hw : w.toNat < 2 ^ 31) (x : Fin 512) :
    wmRow (F := Ideal) w (ix2 (0 : Fin 1) x) = ∑ j : Fin 64, if lands w j x then (1 : EReal) else 0 := by
  unfold wmRow
  rw [shapeCast_self, truncf_apply,
    shapeCast_apply _ _ (ix2 (0 : Fin 1) x) (ix1 x) (by
      rw [Shape.rowMajor_val_one, Shape.rowMajor_val_two]
      show x.val = 0 * 512 + x.val
      omega)]
  refine (Ideal.multiReduction_add_single (ohW (F := Ideal) w) 0x00000000#32 reduces_S64x512_S512 _ _ (ix1 x)).trans ?_
  refine Finset.sum_congr rfl fun k _ => ?_
  have e : reduces_S64x512_S512.lift (ix1 x) k = ix2 k x :=
    funext fun a => Fin.ext (by match a with | ⟨0, _⟩ => rfl | ⟨1, _⟩ => rfl)
  rw [e]
  exact ohW_apply w hw k x

/-! ## Two rows written into a block of two -/

/-- A 2 x 512 block with one row overwritten at row r reads, at (g, x), the new row when g is r and the block otherwise. -/
theorem updateSlice_row_apply {α : Type} (r : Nat) (old : S2x512.Idx → α) (row : S1x512.Idx → α)
    (h : S2x512.Slices ![r, 0] S1x512) (g : Fin 2) (x : Fin 512) :
    updateSlice old row ![r, 0] h (ix2 g x) = if g.val = r then row (ix2 (0 : Fin 1) x) else old (ix2 g x) := by
  unfold updateSlice
  split
  · next hin =>
    have h0 : r ≤ g.val ∧ g.val < r + 1 := hin (0 : Fin 2)
    have hgr : g.val = r := by omega
    rw [if_pos hgr]
    refine congrArg row (funext fun b => Fin.ext ?_)
    match b with
    | ⟨0, _⟩ => show g.val - r = 0; omega
    | ⟨1, _⟩ => show x.val - 0 = x.val; omega
  · next hnin =>
    have hgr : ¬ g.val = r := fun e => hnin (fun a => by
      match a with
      | ⟨0, _⟩ => exact ⟨le_of_eq e.symm, by show g.val < r + 1; omega⟩
      | ⟨1, _⟩ => exact ⟨Nat.zero_le _, by show x.val < 0 + 512; omega⟩)
    rw [if_neg hgr]

/-- The pair's two rows of the column mask: row g counts the offsets landing on column x from corner w_g; nothing of the
    block's earlier contents is left. -/
theorem wmPair_apply (w0 w1 : BitVec 32) (hw0 : w0.toNat < 2 ^ 31) (hw1 : w1.toNat < 2 ^ 31) (old : S2x512.Idx → EReal)
    (g : Fin 2) (x : Fin 512) :
    wmPair (F := Ideal) w0 w1 old (ix2 g x)
      = ∑ j : Fin 64, if lands (if g = 0 then w0 else w1) j x then (1 : EReal) else 0 := by
  unfold wmPair
  rw [updateSlice_row_apply 1, updateSlice_row_apply 0]
  by_cases hg : g = 0
  · subst hg
    rw [if_neg (show ¬ ((0 : Fin 2).val = 1) by decide), if_pos (show (0 : Fin 2).val = 0 from rfl), if_pos rfl]
    exact wmRow_apply w0 hw0 x
  · have hg1 : g.val = 1 := by
      have := g.isLt
      have : g.val ≠ 0 := fun e => hg (Fin.ext e)
      omega
    rw [if_pos hg1, if_neg hg]
    exact wmRow_apply w1 hw1 x

end Cert.KernelIdeal.StagesW

end
-- ==== Proof.KI.PointValue.lean ====
/-
  One grid point's contribution, as sums over the patches of its group.

  A grid point handles a group of 32 patches, patch g with corner words (wh g, ww g) and entries P g. Its four scratch
  arrays are laid out pair by pair: the row placement matrix A (512 x 2048) has the row one-hot of patch g in columns
  64 g .. 64 g + 63; the column-placed matrix B (2048 x 512) has patch g times its column one-hot in rows 64 g .. 64 g + 63;
  the row mask (512 x 32) has in column g the number of offsets of patch g landing on the row, and the column mask
  (32 x 512) in row g the number landing on the column. So A · B at (h, x) is the sum over g and i of a 0/1 row factor
  times the row-i entries of patch g weighted by 0/1 column factors, which is the sum of the entries of the group landing
  on (h, x); and (row mask) · (column mask) at (h, x) is the number of such entries.
-/
import proofs.«425958_j53352083751494_3_alg».proof.Proof.KI.Stages
import proofs.«425958_j53352083751494_3_alg».proof.Proof.KI.StagesH
import proofs.«425958_j53352083751494_3_alg».proof.Proof.KI.StagesW
import proofs.«425958_j53352083751494_3_alg».proof.Proof.Algebra
import proofs.«425958_j53352083751494_3_alg».proof.Proof.Spec

noncomputable section

open scoped BigOperators

namespace Cert.KernelIdeal.PointValue

open Cert.KernelIdeal Cert.KernelIdeal.Stages Cert.Spec Idealize.ShloMosaic Idealize.ShloMosaic.ValueIdx

variable [Cert.KernelIdeal.Facts]

/-! ## Positions in the scratch arrays -/

/-- The first patch of pair p. -/
def ev (p : Fin 16) : Fin 32 := ⟨2 * p.val, by have := p.isLt; omega⟩
/-- The second patch of pair p. -/
def od (p : Fin 16) : Fin 32 := ⟨2 * p.val + 1, by have := p.isLt; omega⟩
/-- The pair a patch belongs to. -/
def half (g : Fin 32) : Fin 16 := ⟨g.val / 2, by have := g.isLt; omega⟩
/-- Which member of its pair a patch is. -/
def par (g : Fin 32) : Fin 2 := ⟨g.val % 2, by omega⟩
/-- The patch whose 64 columns (rows) hold position l of the 2048. -/
def grp (l : Fin 2048) : Fin 32 := ⟨l.val / 64, by have := l.isLt; omega⟩
/-- The offset of position l inside its patch's 64. -/
def off (l : Fin 2048) : Fin 64 := ⟨l.val % 64, by omega⟩
/-- The pair whose 128 columns hold position l. -/
def pairOf (l : Fin 2048) : Fin 16 := ⟨l.val / 128, by have := l.isLt; omega⟩
/-- The column of position l inside its pair's 128. -/
def colOf (l : Fin 2048) : Fin 128 := ⟨l.val % 128, by omega⟩
/-- Position 64 g + i: offset i of patch g. -/
def pos (g : Fin 32) (i : Fin 64) : Fin 2048 := ⟨64 * g.val + i.val, by have := g.isLt; have := i.isLt; omega⟩

theorem grp_pos (g : Fin 32) (i : Fin 64) : grp (pos g i) = g :=
  Fin.ext (by have := g.isLt; have := i.isLt; show (64 * g.val + i.val) / 64 = g.val; omega)
theorem off_pos (g : Fin 32) (i : Fin 64) : off (pos g i) = i :=
  Fin.ext (by have := g.isLt; have := i.isLt; show (64 * g.val + i.val) % 64 = i.val; omega)

/-- A sum over the 2048 positions is the sum over the 32 patches of the sum over their 64 offsets. -/
theorem sum_positions (f : Fin 2048 → EReal) : (∑ l : Fin 2048, f l) = ∑ g : Fin 32, ∑ i : Fin 64, f (pos g i) := by
  rw [← Fintype.sum_prod_type' (f := fun (g : Fin 32) (i : Fin 64) => f (pos g i))]
  refine (Fintype.sum_equiv (finProdFinEquiv : Fin 32 × Fin 64 ≃ Fin (32 * 64)) _ (fun l : Fin (32 * 64) => f l)
    fun q => ?_).symm
  congr 1
  apply Fin.ext
  show 64 * q.1.val + q.2.val = q.2.val + 64 * q.1.val
  omega

/-! ## The four scratch arrays as functions of an index -/

section
variable (wh ww : Fin 32 → BitVec 32) (P : Fin 32 → (S1x1x64x64.Idx → EReal)) (olds : Fin 16 → (S2x512.Idx → EReal))

/-- The row placement matrix: pair p's block (R_{wh 2p} | R_{wh (2p+1)}) in columns 128 p .. 128 p + 127. -/
def aScrOf : S512x2048.Idx → EReal := fun y =>
  aPair (F := Ideal) (wh (ev (pairOf (y 1)))) (wh (od (pairOf (y 1)))) (ix2 (y 0) (colOf (y 1)))

/-- The column-placed matrix: patch g times its column one-hot in rows 64 g .. 64 g + 63. -/
def bScrOf : S2048x512.Idx → EReal := fun y =>
  placedW (F := Ideal) (ww (grp (y 0))) (P (grp (y 0))) (ix2 (off (y 0)) (y 1))

/-- The row mask: pair p's two columns in columns 2 p, 2 p + 1. -/
def hMaskOf : S512x32.Idx → EReal := fun y =>
  hmPair (F := Ideal) (wh (ev (half (y 1)))) (wh (od (half (y 1)))) (ix2 (y 0) (par (y 1)))

/-- The column mask: pair p's two rows, written over whatever block `olds p` was there, in rows 2 p, 2 p + 1. -/
def wMaskOf : S32x512.Idx → EReal := fun y =>
  wmPair (F := Ideal) (ww (ev (half (y 0)))) (ww (od (half (y 0)))) (olds (half (y 0))) (ix2 (par (y 0)) (y 1))

variable (hwh : ∀ g, (wh g).toNat < 2 ^ 31) (hww : ∀ g, (ww g).toNat < 2 ^ 31)
include hwh

/-- THE ROW PLACEMENT MATRIX AT (h, 64 g + i): 1 when offset i of patch g lands on row h, else 0. -/
theorem aScrOf_apply (h : Fin 512) (g : Fin 32) (i : Fin 64) :
    aScrOf wh (ix2 h (pos g i)) = if lands (wh g) i h then (1 : EReal) else 0 := by
  have hg := g.isLt
  have hi := i.isLt
  show aPair (F := Ideal) (wh (ev (pairOf (pos g i)))) (wh (od (pairOf (pos g i)))) (ix2 h (colOf (pos g i))) = _
  by_cases he : g.val % 2 = 0
  · have e1 : ev (pairOf (pos g i)) = g := Fin.ext (by show 2 * ((64 * g.val + i.val) / 128) = g.val; omega)
    have e2 : colOf (pos g i) = (⟨i.val, by omega⟩ : Fin 128) :=
      Fin.ext (by show (64 * g.val + i.val) % 128 = i.val; omega)
    rw [e1, e2]
    exact StagesH.aPair_apply_left _ _ (hwh _) (hwh _) h i
  · have e1 : od (pairOf (pos g i)) = g := Fin.ext (by show 2 * ((64 * g.val + i.val) / 128) + 1 = g.val; omega)
    have e2 : colOf (pos g i) = (⟨64 + i.val, by omega⟩ : Fin 128) :=
      Fin.ext (by show (64 * g.val + i.val) % 128 = 64 + i.val; omega)
    rw [e1, e2]
    exact StagesH.aPair_apply_right _ _ (hwh _) (hwh _) h i

/-- THE ROW MASK AT (h, g): the number of offsets of patch g landing on row h. -/
theorem hMaskOf_apply (h : Fin 512) (g : Fin 32) :
    hMaskOf wh (ix2 h g) = ∑ i : Fin 64, if lands (wh g) i h then (1 : EReal) else 0 := by
  have hg := g.isLt
  show hmPair (F := Ideal) (wh (ev (half g))) (wh (od (half g))) (ix2 h (par g)) = _
  rw [StagesH.hmPair_apply _ _ (hwh _) (hwh _)]
  have e : (if par g = 0 then wh (ev (half g)) else wh (od (half g))) = wh g := by
    by_cases he : g.val % 2 = 0
    · have e0 : par g = 0 := Fin.ext he
      have e1 : ev (half g) = g := Fin.ext (by show 2 * (g.val / 2) = g.val; omega)
      rw [if_pos e0, e1]
    · have e0 : ¬ par g = 0 := fun e => he (congrArg Fin.val e)
      have e1 : od (half g) = g := Fin.ext (by show 2 * (g.val / 2) + 1 = g.val; omega)
      rw [if_neg e0, e1]
  rw [e]

omit hwh
include hww

/-- THE COLUMN-PLACED MATRIX AT (64 g + i, x): row i of patch g, each entry weighted by "its column lands on x". -/
theorem bScrOf_apply (g : Fin 32) (i : Fin 64) (x : Fin 512) :
    bScrOf ww P (ix2 (pos g i) x)
      = ∑ j : Fin 64, P g (ix4 (0 : Fin 1) (0 : Fin 1) i j) * (if lands (ww g) j x then (1 : EReal) else 0) := by
  show placedW (F := Ideal) (ww (grp (pos g i))) (P (grp (pos g i))) (ix2 (off (pos g i)) x) = _
  rw [grp_pos, off_pos]
  exact StagesW.placedW_apply _ (hww _) _ i x

/-- THE COLUMN MASK AT (g, x): the number of offsets of patch g landing on column x. -/
theorem wMaskOf_apply (g : Fin 32) (x : Fin 512) :
    wMaskOf ww olds (ix2 g x) = ∑ j : Fin 64, if lands (ww g) j x then (1 : EReal) else 0 := by
  have hg := g.isLt
  show wmPair (F := Ideal) (ww (ev (half g))) (ww (od (half g))) (olds (half g)) (ix2 (par g) x) = _
  rw [StagesW.wmPair_apply _ _ (hww _) (hww _)]
  have e : (if par g = 0 then ww (ev (half g)) else ww (od (half g))) = ww g := by
    by_cases he : g.val % 2 = 0
    · have e0 : par g = 0 := Fin.ext he
      have e1 : ev (half g) = g := Fin.ext (by show 2 * (g.val / 2) = g.val; omega)
      rw [if_pos e0, e1]
    · have e0 : ¬ par g = 0 := fun e => he (congrArg Fin.val e)
      have e1 : od (half g) = g := Fin.ext (by show 2 * (g.val / 2) + 1 = g.val; omega)
      rw [if_neg e0, e1]
  rw [e]

include hwh

/-- THE POINT'S VALUE ACCUMULATOR AT (h, x): what it held plus the entries of the group's patches landing on (h, x). -/
theorem point_placed (acc : S512x512.Idx → EReal) (h x : Fin 512) :
    accPlaced (F := Ideal) (aScrOf wh) (bScrOf ww P) acc (ix2 h x)
      = acc (ix2 h x) + ∑ g : Fin 32, ∑ i : Fin 64, ∑ j : Fin 64,
          if lands (wh g) i h ∧ lands (ww g) j x then P g (ix4 (0 : Fin 1) (0 : Fin 1) i j) else 0 := by
  rw [StagesH.accPlaced_apply, sum_positions]
  congr 1
  refine (Finset.sum_congr rfl fun g _ => Finset.sum_congr rfl fun i _ => ?_).trans
    (Cert.Algebra.group_placed wh ww (fun g i j => P g (ix4 (0 : Fin 1) (0 : Fin 1) i j)) h x)
  rw [aScrOf_apply wh hwh h g i, bScrOf_apply ww P hww g i x]

/-- THE POINT'S COUNT CONTRIBUTION AT (h, x): the number of entries of the group's patches landing on (h, x). -/
theorem point_count (h x : Fin 512) :
    cntContrib (F := Ideal) (hMaskOf wh) (wMaskOf ww olds) (ix2 h x)
      = ∑ g : Fin 32, ∑ i : Fin 64, ∑ j : Fin 64,
          if lands (wh g) i h ∧ lands (ww g) j x then (1 : EReal) else 0 := by
  rw [StagesH.cntContrib_apply]
  refine (Finset.sum_congr rfl fun g _ => ?_).trans (Cert.Algebra.group_count wh ww h x)
  rw [hMaskOf_apply wh hwh h g, wMaskOf_apply ww olds hww g x]

end

end Cert.KernelIdeal.PointValue

end
-- ==== Proof.KI.HostPrefix.lean ====
/-
  What the region finds, and what a grid point reads of it.

  Before the region the host reshapes the patch array [16, 512, 1, 64, 64] to [16, 512, 64, 64] and splits the corner
  table [16, 512, 2] into its two columns, each reshaped to [16, 512]. Read entry by entry: the reshaped patches at
  (b, k, i, j) are the patches at (b, k, 0, i, j), and column 0 / 1 of the table at (b, k) is the table at (b, k, 0 / 1).
  At grid point (b, kk) the patch window's block is [1, 32, 64, 64] at block index (b, kk, 0, 0): its entry (0, g, i, j)
  is patch 32 kk + g of batch b at (i, j). The body reads the corner words of patches 32 kk + 2 r and 32 kk + 2 r + 1
  of batch b from the two tables, one word at a time.
-/
import proofs.«425958_j53352083751494_3_alg».proof.Proof.KI.Common
import proofs.«425958_j53352083751494_3_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arrays the host lines wrote -/

/-- Column 0 of the corner table, as the region finds it. -/
theorem V_main_v2 (c : Dev nD) (b : Fin 16) (k : Fin 512) :
    (V m c main_v2 : S16x512.Idx → Elt F .i32) (ix2 b k)
      = (m ((c : Thread nD τ).loc main_arg1) : S16x512x2.Idx → Elt F .i32) (ix3 b k (0 : Fin 2)) := by
  have e : (V m c main_v2 : S16x512.Idx → Elt F .i32)
      = shapeCast S16x512 (extractStridedSlice S16x512x1 ![0, 0, 0]
          (m ((c : Thread nD τ).loc main_arg1) : S16x512x2.Idx → Elt F .i32) slices_S16x512x2_S16x512x1_0_0_0)
          shapeCasts_S16x512x1_S16x512 := by
    dsimp only [V, hostOps0]; after_results; rfl
  rw [e, shapeCast_apply _ _ (ix2 b k) (ix3 b k (0 : Fin 1)) (by
      rw [Shape.rowMajor_val_three, Shape.rowMajor_val_two]
      show (b.val * 512 + k.val) * 1 + 0 = b.val * 512 + k.val
      omega),
    extractStridedSlice_apply _ _ _ (ix3 b k (0 : Fin 1)) (ix3 b k (0 : Fin 2)) (fun a => by
      match a with
      | ⟨0, _⟩ => show b.val = 0 + b.val; omega
      | ⟨1, _⟩ => show k.val = 0 + k.val; omega
      | ⟨2, _⟩ => rfl)]

/-- Column 1 of the corner table, as the region finds it. -/
theorem V_main_v4 (c : Dev nD) (b : Fin 16) (k : Fin 512) :
    (V m c main_v4 : S16x512.Idx → Elt F .i32) (ix2 b k)
      = (m ((c : Thread nD τ).loc main_arg1) : S16x512x2.Idx → Elt F .i32) (ix3 b k (1 : Fin 2)) := by
  have e : (V m c main_v4 : S16x512.Idx → Elt F .i32)
      = shapeCast S16x512 (extractStridedSlice S16x512x1 ![0, 0, 1]
          (m ((c : Thread nD τ).loc main_arg1) : S16x512x2.Idx → Elt F .i32) slices_S16x512x2_S16x512x1_0_0_1)
          shapeCasts_S16x512x1_S16x512 := by
    dsimp only [V, hostOps0]; after_results; rfl
  rw [e, shapeCast_apply _ _ (ix2 b k) (ix3 b k (0 : Fin 1)) (by
      rw [Shape.rowMajor_val_three, Shape.rowMajor_val_two]
      show (b.val * 512 + k.val) * 1 + 0 = b.val * 512 + k.val
      omega),
    extractStridedSlice_apply _ _ _ (ix3 b k (0 : Fin 1)) (ix3 b k (1 : Fin 2)) (fun a => by
      match a with
      | ⟨0, _⟩ => show b.val = 0 + b.val; omega
      | ⟨1, _⟩ => show k.val = 0 + k.val; omega
      | ⟨2, _⟩ => rfl)]

/-- The patches with the unit axis dropped, as the region finds them. -/
theorem V_main_v0 (c : Dev nD) (b : Fin 16) (k : Fin 512) (i j : Fin 64) :
    (V m c main_v0 : S16x512x64x64.Idx → Elt F .f32) (ix4 b k i j)
      = (m ((c : Thread nD τ).loc main_arg0) : S16x512x1x64x64.Idx → Elt F .f32) (ix5 b k (0 : Fin 1) i j) := by
  have e : (V m c main_v0 : S16x512x64x64.Idx → Elt F .f32)
      = shapeCast S16x512x64x64 (m ((c : Thread nD τ).loc main_arg0) : S16x512x1x64x64.Idx → Elt F .f32)
          shapeCasts_S16x512x1x64x64_S16x512x64x64 := by
    dsimp only [V, hostOps0]; after_results; rfl
  rw [e, shapeCast_apply _ _ (ix4 b k i j) (ix5 b k (0 : Fin 1) i j) (by
      rw [Shape.rowMajor_val_five, Shape.rowMajor_val_four]
      show ((((b.val * 512 + k.val) * 1 + 0) * 64 + i.val) * 64 + j.val) = ((b.val * 512 + k.val) * 64 + i.val) * 64 + j.val
      omega)]

/-! ## The patch window's block at a grid point -/

/-- The patch window's block index at grid point (b, kk) is (b, kk, 0, 0). -/
theorem transform0_apply (i : grid0.Coords) :
    cc0_transform_0 i 0 = (i 0).val ∧ cc0_transform_0 i 1 = (i 1).val ∧ cc0_transform_0 i 2 = 0 ∧ cc0_transform_0 i 3 = 0 := by
  have h0 : (i 0).val < 16 := (i 0).isLt
  have h1 : (i 1).val < 16 := (i 1).isLt
  refine ⟨?_, ?_, rfl, rfl⟩
  · show (BitVec.ofNat 32 (i 0).val).toNat = (i 0).val
    rw [BitVec.toNat_ofNat]; omega
  · show (BitVec.ofNat 32 (i 1).val).toNat = (i 1).val
    rw [BitVec.toNat_ofNat]; omega

/-- Entry (0, g, i, j) of the block at grid point (b, kk) is patch 32 kk + g of batch b at (i, j). -/
theorem iblk0_apply (c : Dev nD) (t : Fin (cfgM m).N) (g : Fin 32) (i j : Fin 64) :
    (iblk m c 0 t : S1x32x64x64.Idx → Elt F .f32) (ix4 (0 : Fin 1) g i j)
      = (V m c main_v0 : S16x512x64x64.Idx → Elt F .f32)
          (ix4 (n0 := 16) ((grid0.coords t) 0) (n1 := 512) ⟨32 * ((grid0.coords t) 1).val + g.val, by
            have h1 : ((grid0.coords t) 1).val < 16 := ((grid0.coords t) 1).isLt
            have := g.isLt
            omega⟩ i j) := by
  obtain ⟨e0, e1, e2, e3⟩ := transform0_apply (grid0.coords t)
  unfold iblk
  show V m c main_v0 _ = V m c main_v0 _
  congr 1
  funext a
  apply Fin.ext
  match a with
  | ⟨0, _⟩ =>
    show cc0_transform_0 (grid0.coords t) 0 * 1 + 1 * 0 = ((grid0.coords t) 0).val
    rw [e0]; omega
  | ⟨1, _⟩ =>
    show cc0_transform_0 (grid0.coords t) 1 * 32 + 1 * g.val = 32 * ((grid0.coords t) 1).val + g.val
    rw [e1]; omega
  | ⟨2, _⟩ =>
    show cc0_transform_0 (grid0.coords t) 2 * 64 + 1 * i.val = i.val
    rw [e2]; omega
  | ⟨3, _⟩ =>
    show cc0_transform_0 (grid0.coords t) 3 * 64 + 1 * j.val = j.val
    rw [e3]; omega

/-! ## The corner words the body loads -/

/-- The one index of a 1 x 1 rectangle at offsets (b, k) of a [16, 512] table is (b, k). -/
theorem unit_idx_first (off : Fin 2 → Nat) (b : Fin 16) (k : Fin 512) (hb : off 0 = b.val) (hk : off 1 = k.val)
    (inb : ∀ a, off a + S1x1.size a ≤ S16x512.size a) (hp : 0 < S1x1.numel) :
    (Rect.unit (s := S16x512) off S1x1.size inb).toLoadRect.idx (Shape.Idx.first hp) = ix2 b k := by
  funext a
  apply Fin.ext
  match a with
  | ⟨0, _⟩ => show off 0 + 1 * 0 = b.val; omega
  | ⟨1, _⟩ => show off 1 + 1 * 0 = k.val; omega

/-- The row corner of patch 32 kk + 2 r of batch b: the word the body loads from the first table at its first offsets. -/
theorem word_read1_0 (c : Dev nD) (i : grid0.Coords) (r : Fin 16) (cst : BitVec 32) (hcst : cst = BitVec.ofNat 32 (2 * r.val))
    (inb : ∀ a, k0_off1 i cst a + S1x1.size a ≤ S16x512.size a) (hp : 0 < S1x1.numel) (xt : TbBuf0 (F := F) c tbM0_0) :
    tbM0_0.view.readAt (Elt F) (Rect.unit (s := S16x512) (k0_off1 i cst) S1x1.size inb).toLoadRect xt (Shape.Idx.first hp)
      = (xt : S16x512.Idx → Elt F .i32) (ix2 (n0 := 16) (i 0) (n1 := 512) ⟨32 * (i 1).val + 2 * r.val, by
          have h1 : (i 1).val < 16 := (i 1).isLt
          have := r.isLt
          omega⟩) := by
  subst hcst
  exact congrArg (xt : S16x512.Idx → Elt F .i32)
    (unit_idx_first _ _ _ (by rw [k0_off1_eq]; rfl) (by rw [k0_off1_eq]; rfl) inb hp)

/-- The column corner of patch 32 kk + 2 r of batch b: the same offsets in the second table. -/
theorem word_read1_1 (c : Dev nD) (i : grid0.Coords) (r : Fin 16) (cst : BitVec 32) (hcst : cst = BitVec.ofNat 32 (2 * r.val))
    (inb : ∀ a, k0_off1 i cst a + S1x1.size a ≤ S16x512.size a) (hp : 0 < S1x1.numel) (xt : TbBuf0 (F := F) c tbM0_1) :
    tbM0_1.view.readAt (Elt F) (Rect.unit (s := S16x512) (k0_off1 i cst) S1x1.size inb).toLoadRect xt (Shape.Idx.first hp)
      = (xt : S16x512.Idx → Elt F .i32) (ix2 (n0 := 16) (i 0) (n1 := 512) ⟨32 * (i 1).val + 2 * r.val, by
          have h1 : (i 1).val < 16 := (i 1).isLt
          have := r.isLt
          omega⟩) := by
  subst hcst
  exact congrArg (xt : S16x512.Idx → Elt F .i32)
    (unit_idx_first _ _ _ (by rw [k0_off1_eq]; rfl) (by rw [k0_off1_eq]; rfl) inb hp)

/-- The row corner of patch 32 kk + 2 r + 1 of batch b: the word at the second offsets of the first table. -/
theorem word_read2_0 (c : Dev nD) (i : grid0.Coords) (r : Fin 16) (cst : BitVec 32) (hcst : cst = BitVec.ofNat 32 (2 * r.val))
    (inb : ∀ a, k0_off2 i cst a + S1x1.size a ≤ S16x512.size a) (hp : 0 < S1x1.numel) (xt : TbBuf0 (F := F) c tbM0_0) :
    tbM0_0.view.readAt (Elt F) (Rect.unit (s := S16x512) (k0_off2 i cst) S1x1.size inb).toLoadRect xt (Shape.Idx.first hp)
      = (xt : S16x512.Idx → Elt F .i32) (ix2 (n0 := 16) (i 0) (n1 := 512) ⟨32 * (i 1).val + 2 * r.val + 1, by
          have h1 : (i 1).val < 16 := (i 1).isLt
          have := r.isLt
          omega⟩) := by
  subst hcst
  exact congrArg (xt : S16x512.Idx → Elt F .i32)
    (unit_idx_first _ _ _ (by rw [k0_off2_eq]; rfl) (by rw [k0_off2_eq]; rfl) inb hp)

/-- The column corner of patch 32 kk + 2 r + 1 of batch b: the same offsets in the second table. -/
theorem word_read2_1 (c : Dev nD) (i : grid0.Coords) (r : Fin 16) (cst : BitVec 32) (hcst : cst = BitVec.ofNat 32 (2 * r.val))
    (inb : ∀ a, k0_off2 i cst a + S1x1.size a ≤ S16x512.size a) (hp : 0 < S1x1.numel) (xt : TbBuf0 (F := F) c tbM0_1) :
    tbM0_1.view.readAt (Elt F) (Rect.unit (s := S16x512) (k0_off2 i cst) S1x1.size inb).toLoadRect xt (Shape.Idx.first hp)
      = (xt : S16x512.Idx → Elt F .i32) (ix2 (n0 := 16) (i 0) (n1 := 512) ⟨32 * (i 1).val + 2 * r.val + 1, by
          have h1 : (i 1).val < 16 := (i 1).isLt
          have := r.isLt
          omega⟩) := by
  subst hcst
  exact congrArg (xt : S16x512.Idx → Elt F .i32)
    (unit_idx_first _ _ _ (by rw [k0_off2_eq]; rfl) (by rw [k0_off2_eq]; rfl) inb hp)

end Cert.KernelIdeal.Hand

end
-- ==== Proof.KI.PointWords.lean ====
/-
  The corner words of a grid point's group.

  At grid point (b, kk) patch g of the group is patch 32 kk + g of batch b: its row corner is the first table's word at
  (b, 32 kk + g) and its column corner the second table's word there.
-/
import proofs.«425958_j53352083751494_3_alg».proof.Proof.KI.HostPrefix

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-- Position 32 kk + g of the 512 patches of a batch: patch g of group kk. -/
def patchIx (i : grid0.Coords) (g : Fin 32) : Fin 512 :=
  ⟨32 * (i 1).val + g.val, by
    have h1 : (i 1).val < 16 := (i 1).isLt
    have := g.isLt
    omega⟩

/-- The row corner word of patch g of the group of grid point i. -/
def whOf (c : Dev nD) (i : grid0.Coords) (xt0 : TbBuf0 (F := F) c tbM0_0) (g : Fin 32) : Elt F .i32 :=
  (xt0 : S16x512.Idx → Elt F .i32) (ix2 (n0 := 16) (i 0) (n1 := 512) (patchIx i g))

/-- The column corner word of patch g of the group of grid point i. -/
def wwOf (c : Dev nD) (i : grid0.Coords) (xt1 : TbBuf0 (F := F) c tbM0_1) (g : Fin 32) : Elt F .i32 :=
  (xt1 : S16x512.Idx → Elt F .i32) (ix2 (n0 := 16) (i 0) (n1 := 512) (patchIx i g))

end Cert.KernelIdeal.Hand

end
-- ==== Proof.KI.PieceValue.lean ====
/-
  One grid point's update of the value accumulator, and the canvas block the last point of a batch writes: the parts
  common to the three control cases.

  A point's run leaves in the value accumulator one update term: the product of the two scratch matrices added to a
  third operand (the reset value at the first group of a batch, what the accumulator held otherwise). The row
  placement scratch was filled by sixteen stores, one 512 x 128 block per pair of patches; the column-placed scratch
  by thirty-two stores, one 64 x 512 block per patch. Each stored block is, whatever names its parts carry, the
  pair's two row one-hots side by side, respectively the patch times its column one-hot; and the words and the patch
  it is computed from are the group's corner words and patches. So the two scratch matrices read whole are the
  matrices of the point's arithmetic, and the update at (h, x) adds the entries of the group's patches landing on
  (h, x). The canvas block is, cell by cell, value over max(count, 1) of the two accumulators just updated.
-/
import proofs.«425958_j53352083751494_3_alg».proof.Proof.KI.PointValue
import proofs.«425958_j53352083751494_3_alg».proof.Proof.KI.PointWords
import Idealize.ShloMosaic.Lib.Pipeline.Value

set_option maxRecDepth 16384

noncomputable section

open scoped BigOperators

namespace Cert.KernelIdeal.Hand

open Cert.KernelIdeal Cert.KernelIdeal.Gen Cert.KernelIdeal.Stages Cert.KernelIdeal.PointValue Cert.Spec
open Idealize.ShloMosaic Idealize.ShloMosaic.TcCoe Idealize.ShloMosaic.Tactic Idealize.ShloMosaic.ValueIdx

variable [Cert.KernelIdeal.Facts]

/-- Patch g of the group: the 64 x 64 block the body loads of the staged window, as extended reals. -/
def POf (x0 : Vec Ideal S1x32x64x64 .f32) (g : Fin 32) : S1x1x64x64.Idx → EReal :=
  fun y => (x0 : S1x32x64x64.Idx → EReal) (ix4 (0 : Fin 1) g (y 2) (y 3))

/-! ## Each pair's block of the row placement matrix, whatever names its parts were given -/

section Payloads
variable {F : FTy → Type} [FloatOps F]

theorem payA0 (w0 w1 : Elt F .i32) : k0_pay7 w0 w1 = aPair w0 w1 := rfl
theorem payA1 (w0 w1 : Elt F .i32) : k0_pay19 iotaH iotaI w1 (k0_pay17 iotaH iotaI w0) = aPair w0 w1 := rfl
theorem payA2 (w0 w1 : Elt F .i32) : k0_pay32 iotaH iotaI w0 w1 = aPair w0 w1 := rfl
theorem payA3 (w0 w1 : Elt F .i32) : k0_pay44 iotaH iotaI w0 w1 = aPair w0 w1 := rfl
theorem payA4 (w0 w1 : Elt F .i32) : k0_pay56 iotaH iotaI w0 w1 = aPair w0 w1 := rfl
theorem payA5 (w0 w1 : Elt F .i32) : k0_pay71 (k0_pay67 iotaH iotaI w0) (k0_pay68 iotaH) (k0_pay69 iotaI w1) = aPair w0 w1 := rfl
theorem payA6 (w0 w1 : Elt F .i32) : k0_pay84 iotaH iotaI w0 w1 = aPair w0 w1 := rfl
theorem payA7 (w0 w1 : Elt F .i32) : k0_pay96 iotaH iotaI w0 w1 = aPair w0 w1 := rfl
theorem payA8 (w0 w1 : Elt F .i32) : k0_pay109 iotaH iotaI w0 w1 = aPair w0 w1 := rfl
theorem payA9 (w0 w1 : Elt F .i32) : k0_pay124 (k0_pay121 iotaH iotaI w0) (k0_pay123 iotaH iotaI w1) = aPair w0 w1 := rfl
theorem payA10 (w0 w1 : Elt F .i32) : k0_pay137 iotaH iotaI w1 (k0_pay134 iotaI w0) = aPair w0 w1 := rfl
theorem payA11 (w0 w1 : Elt F .i32) : k0_pay150 iotaH iotaI w0 w1 = aPair w0 w1 := rfl
theorem payA12 (w0 w1 : Elt F .i32) : k0_pay162 iotaH iotaI w0 w1 = aPair w0 w1 := rfl
theorem payA13 (w0 w1 : Elt F .i32) : k0_pay176 (k0_pay175 iotaH iotaI w0 w1) = aPair w0 w1 := rfl
theorem payA14 (w0 w1 : Elt F .i32) : k0_pay188 iotaH iotaI w1 (k0_pay185 iotaH iotaI w0) = aPair w0 w1 := rfl
theorem payA15 (w0 w1 : Elt F .i32) : k0_pay201 iotaH iotaI w0 w1 = aPair w0 w1 := rfl

/-! ## Each patch's block of the column-placed matrix -/

theorem payB0 (w : Elt F .i32) (p : Vec F S1x1x64x64 .f32) : k0_pay11 iotaJ iotaW w p = placedW w p := rfl
theorem payB1 (w : Elt F .i32) (p : Vec F S1x1x64x64 .f32) : k0_pay13 (k0_pay12 iotaJ iotaW w p) = placedW w p := rfl
theorem payB2 (w : Elt F .i32) (p : Vec F S1x1x64x64 .f32) : k0_pay26 (k0_pay22 iotaJ iotaW w) (k0_pay25 p) = placedW w p := rfl
theorem payB3 (w : Elt F .i32) (p : Vec F S1x1x64x64 .f32) : k0_pay27 (k0_pay24 iotaJ iotaW w) p = placedW w p := rfl
theorem payB4 (w : Elt F .i32) (p : Vec F S1x1x64x64 .f32) : k0_pay38 (k0_pay35 iotaJ iotaW w) p = placedW w p := rfl
theorem payB5 (w : Elt F .i32) (p : Vec F S1x1x64x64 .f32) : k0_pay39 (k0_pay36 iotaJ iotaW w) p = placedW w p := rfl
theorem payB6 (w : Elt F .i32) (p : Vec F S1x1x64x64 .f32) : k0_pay48 iotaJ iotaW w p = placedW w p := rfl
theorem payB7 (w : Elt F .i32) (p : Vec F S1x1x64x64 .f32) : k0_pay49 iotaJ iotaW w p = placedW w p := rfl
theorem payB8 (w : Elt F .i32) (p : Vec F S1x1x64x64 .f32) : k0_pay61 iotaJ iotaW w p = placedW w p := rfl
theorem payB9 (w : Elt F .i32) (p : Vec F S1x1x64x64 .f32) : k0_pay63 (k0_pay62 iotaJ iotaW w p) = placedW w p := rfl
theorem payB10 (w : Elt F .i32) (p : Vec F S1x1x64x64 .f32) : k0_pay78 (k0_pay77 iotaJ iotaW w p) = placedW w p := rfl
theorem payB11 (w : Elt F .i32) (p : Vec F S1x1x64x64 .f32) : k0_pay79 (k0_pay75 iotaJ iotaW w) (k0_pay76 p) = placedW w p := rfl
theorem payB12 (w : Elt F .i32) (p : Vec F S1x1x64x64 .f32) : k0_pay90 (k0_pay87 iotaJ iotaW w) p = placedW w p := rfl
theorem payB13 (w : Elt F .i32) (p : Vec F S1x1x64x64 .f32) : k0_pay91 (k0_pay89 iotaJ iotaW w) p = placedW w p := rfl
theorem payB14 (w : Elt F .i32) (p : Vec F S1x1x64x64 .f32) : k0_pay102 (k0_pay98 iotaW) (k0_pay99 iotaJ w) p = placedW w p := rfl
theorem payB15 (w : Elt F .i32) (p : Vec F S1x1x64x64 .f32) : k0_pay103 iotaJ iotaW w p = placedW w p := rfl
theorem payB16 (w : Elt F .i32) (p : Vec F S1x1x64x64 .f32) : k0_pay115 iotaJ iotaW w p = placedW w p := rfl
theorem payB17 (w : Elt F .i32) (p : Vec F S1x1x64x64 .f32) : k0_pay116 iotaJ iotaW w p = placedW w p := rfl
theorem payB18 (w : Elt F .i32) (p : Vec F S1x1x64x64 .f32) : k0_pay130 (k0_pay129 iotaJ iotaW w p) = placedW w p := rfl
theorem payB19 (w : Elt F .i32) (p : Vec F S1x1x64x64 .f32) : k0_pay131 (k0_pay128 iotaJ iotaW w p) = placedW w p := rfl
theorem payB20 (w : Elt F .i32) (p : Vec F S1x1x64x64 .f32) : k0_pay144 (k0_pay140 iotaJ iotaW w) (k0_pay143 p) = placedW w p := rfl
theorem payB21 (w : Elt F .i32) (p : Vec F S1x1x64x64 .f32) : k0_pay145 (k0_pay142 iotaJ iotaW w) p = placedW w p := rfl
theorem payB22 (w : Elt F .i32) (p : Vec F S1x1x64x64 .f32) : k0_pay155 (k0_pay153 iotaJ iotaW w) p = placedW w p := rfl
theorem payB23 (w : Elt F .i32) (p : Vec F S1x1x64x64 .f32) : k0_pay156 iotaJ iotaW w p = placedW w p := rfl
theorem payB24 (w : Elt F .i32) (p : Vec F S1x1x64x64 .f32) : k0_pay167 iotaJ iotaW w p = placedW w p := rfl
theorem payB25 (w : Elt F .i32) (p : Vec F S1x1x64x64 .f32) : k0_pay168 iotaJ iotaW w p = placedW w p := rfl
theorem payB26 (w : Elt F .i32) (p : Vec F S1x1x64x64 .f32) : k0_pay181 iotaJ iotaW w p = placedW w p := rfl
theorem payB27 (w : Elt F .i32) (p : Vec F S1x1x64x64 .f32) : k0_pay182 (k0_pay180 iotaJ iotaW w p) = placedW w p := rfl
theorem payB28 (w : Elt F .i32) (p : Vec F S1x1x64x64 .f32) : k0_pay195 (k0_pay191 iotaJ iotaW w) (k0_pay194 p) = placedW w p := rfl
theorem payB29 (w : Elt F .i32) (p : Vec F S1x1x64x64 .f32) : k0_pay196 (k0_pay193 iotaJ iotaW w) p = placedW w p := rfl
theorem payB30 (w : Elt F .i32) (p : Vec F S1x1x64x64 .f32) : k0_pay208 (k0_pay204 iotaJ iotaW w) p = placedW w p := rfl
theorem payB31 (w : Elt F .i32) (p : Vec F S1x1x64x64 .f32) : k0_pay209 (k0_pay205 iotaW) (k0_pay206 iotaJ w) p = placedW w p := rfl

/-- The point's value update: what the accumulator held plus (row placement) · (column-placed). -/
theorem payAcc (a : Vec F S512x2048 .bf16) (b : Vec F S2048x512 .bf16) (acc : Vec F S512x512 .f32) :
    k0_pay212 a b acc = accPlaced a b acc :=
  shapeCast_self _ _

end Payloads

/-! ## The corner words the body loads are the group's words -/

section Words
variable {F : FTy → Type} [FloatOps F]

theorem wordE0 (c : Dev nD) (i : grid0.Coords) (r : Fin 16) (hp : 0 < S1x1.numel) (xt : TbBuf0 (F := F) c tbM0_0) :
    tbM0_0.view.readAt (Elt F) (Rect.unit (s := S16x512) (k0_off1 i (BitVec.ofNat 32 (2 * r.val))) S1x1.size (k0_off1_inb i r)).toLoadRect xt
        (Shape.Idx.first hp)
      = whOf c i xt (ev r) :=
  word_read1_0 c i r _ rfl _ hp xt

theorem wordE1 (c : Dev nD) (i : grid0.Coords) (r : Fin 16) (hp : 0 < S1x1.numel) (xt : TbBuf0 (F := F) c tbM0_1) :
    tbM0_1.view.readAt (Elt F) (Rect.unit (s := S16x512) (k0_off1 i (BitVec.ofNat 32 (2 * r.val))) S1x1.size (k0_off1_inb i r)).toLoadRect xt
        (Shape.Idx.first hp)
      = wwOf c i xt (ev r) :=
  word_read1_1 c i r _ rfl _ hp xt

theorem wordO0 (c : Dev nD) (i : grid0.Coords) (r : Fin 16) (hp : 0 < S1x1.numel) (xt : TbBuf0 (F := F) c tbM0_0) :
    tbM0_0.view.readAt (Elt F) (Rect.unit (s := S16x512) (k0_off2 i (BitVec.ofNat 32 (2 * r.val))) S1x1.size (k0_off2_inb i r)).toLoadRect xt
        (Shape.Idx.first hp)
      = whOf c i xt (od r) :=
  word_read2_0 c i r _ rfl _ hp xt

theorem wordO1 (c : Dev nD) (i : grid0.Coords) (r : Fin 16) (hp : 0 < S1x1.numel) (xt : TbBuf0 (F := F) c tbM0_1) :
    tbM0_1.view.readAt (Elt F) (Rect.unit (s := S16x512) (k0_off2 i (BitVec.ofNat 32 (2 * r.val))) S1x1.size (k0_off2_inb i r)).toLoadRect xt
        (Shape.Idx.first hp)
      = wwOf c i xt (od r) :=
  word_read2_1 c i r _ rfl _ hp xt

end Words

/-! ## A scratch array filled block by block, read whole -/

/-- Blocks whose payloads all are the matching block of one function G, covering the array: the array read whole is G. -/
theorem readCov_eq_of_pieces {sig : RefSig} {κ : Kind} {sp : Space} {S : Shape} {e : EltTy} {Val : EltTy → Type} [∀ e, Nonempty (Val e)]
    (v : View sig κ sp S e) (G : S.Idx → Val e) (L : List (View.Piece Val S e))
    (hL : ∀ p ∈ L, ∀ x : p.1.shape.Idx, p.2 x = G (p.1.emb x)) (hcov : ∀ y : S.Idx, ∃ p ∈ L, y ∈ p.1.set)
    {off : Fin S.rank → ℕ} (hz : off = fun _ => 0) (inb : ∀ a, off a + S.size a ≤ S.size a) :
    v.readCov L (Rect.unit off S.size inb).toLoadRect = G := by
  rw [View.readCov_eq_canon_ld v L _ hcov, View.ld_unit_zero hz inb]
  funext y
  exact View.canon_apply_of_pieces G L hL y (hcov y)

theorem forall_mem_cons' {α : Type} {P : α → Prop} {a : α} {l : List α} (h : P a) (hl : ∀ x ∈ l, P x) : ∀ x ∈ a :: l, P x :=
  List.forall_mem_cons.mpr ⟨h, hl⟩

theorem forall_mem_nil' {α : Type} {P : α → Prop} : ∀ x ∈ ([] : List α), P x := fun _ h => absurd h List.not_mem_nil

theorem zeros2 : (![0, 0] : Fin 2 → ℕ) = fun _ => 0 := by funext a; fin_cases a <;> rfl

/-- Pair k's block sits in columns 128 k .. 128 k + 127 of the row placement matrix. -/
theorem aPiece_ok (wh : Fin 32 → BitVec 32) (k : ℕ) (hk : k < 16) (off : Fin 2 → ℕ) (hoff : off = ![0, 128 * k])
    (inb : ∀ a, off a + S512x128.size a ≤ S512x2048.size a)
    (pay : S512x128.Idx → EReal) (hpay : pay = aPair (F := Ideal) (wh (ev ⟨k, hk⟩)) (wh (od ⟨k, hk⟩)))
    (x : (Rect.unit (s := S512x2048) off S512x128.size inb).shape.Idx) :
    pay x = aScrOf wh ((Rect.unit (s := S512x2048) off S512x128.size inb).emb x) := by
  subst hoff hpay
  have h1 : (x 1).val < 128 := (x 1).isLt
  have e1 : pairOf ((Rect.unit (s := S512x2048) ![0, 128 * k] S512x128.size inb).emb x 1) = ⟨k, hk⟩ :=
    Fin.ext (by show (128 * k + 1 * (x 1).val) / 128 = k; omega)
  have e2 : colOf ((Rect.unit (s := S512x2048) ![0, 128 * k] S512x128.size inb).emb x 1) = x 1 :=
    Fin.ext (by show (128 * k + 1 * (x 1).val) % 128 = (x 1).val; omega)
  show _ = aPair (F := Ideal) _ _ (ix2 _ _)
  rw [e1, e2]
  congr 1
  funext a
  apply Fin.ext
  match a with
  | ⟨0, _⟩ => show (x 0).val = 0 + 1 * (x 0).val; omega
  | ⟨1, _⟩ => rfl

/-- Patch g's block sits in rows 64 g .. 64 g + 63 of the column-placed matrix. -/
theorem bPiece_ok (ww : Fin 32 → BitVec 32) (P : Fin 32 → (S1x1x64x64.Idx → EReal)) (g : ℕ) (hg : g < 32) (off : Fin 2 → ℕ) (hoff : off = ![64 * g, 0])
    (inb : ∀ a, off a + S64x512.size a ≤ S2048x512.size a)
    (pay : S64x512.Idx → EReal) (hpay : pay = placedW (F := Ideal) (ww ⟨g, hg⟩) (P ⟨g, hg⟩))
    (x : (Rect.unit (s := S2048x512) off S64x512.size inb).shape.Idx) :
    pay x = bScrOf ww P ((Rect.unit (s := S2048x512) off S64x512.size inb).emb x) := by
  subst hoff hpay
  have h0 : (x 0).val < 64 := (x 0).isLt
  have e1 : grp ((Rect.unit (s := S2048x512) ![64 * g, 0] S64x512.size inb).emb x 0) = ⟨g, hg⟩ :=
    Fin.ext (by show (64 * g + 1 * (x 0).val) / 64 = g; omega)
  have e2 : off ((Rect.unit (s := S2048x512) ![64 * g, 0] S64x512.size inb).emb x 0) = x 0 :=
    Fin.ext (by show (64 * g + 1 * (x 0).val) % 64 = (x 0).val; omega)
  show _ = placedW (F := Ideal) _ _ (ix2 _ _)
  rw [e1, e2]
  congr 1
  funext a
  apply Fin.ext
  match a with
  | ⟨0, _⟩ => rfl
  | ⟨1, _⟩ => show (x 1).val = 0 + 1 * (x 1).val; omega

theorem zeros4 : (![0, 0, 0, 0] : Fin 4 → ℕ) = fun _ => 0 := by funext a; fin_cases a <;> rfl

/-- The reset value of an accumulator is the all-zero word's extended real, everywhere. -/
theorem pay3_apply (y : S512x512.Idx) : k0_pay3 (F := Ideal) y = Ideal.ofBits .f32 0x00000000#32 := by
  unfold k0_pay3
  rw [shapeCast_self]
  rfl

/-- The canvas block the last point of a batch writes: value over max(count, 1), cell by cell. -/
theorem pay2_apply (a b : S512x512.Idx → EReal) (h x : Fin 512) :
    k0_pay2 (F := Ideal) a b (ix4 (0 : Fin 1) (0 : Fin 1) h x)
      = Ideal.div (a (ix2 h x)) (max (b (ix2 h x)) (Ideal.ofBits .f32 0x3F800000#32)) := by
  unfold k0_pay2
  refine (shapeCast_apply _ shapeCasts_S512x512_S1x1x512x512 (ix4 (0 : Fin 1) (0 : Fin 1) h x) (ix2 h x) (by
    rw [Shape.rowMajor_val_four, Shape.rowMajor_val_two]
    show h.val * 512 + x.val = ((0 * 1 + 0) * 512 + h.val) * 512 + x.val
    omega)).trans ?_
  rfl

/-- The group's patch g, as the body loads it from the staged window. -/
theorem patch_read (arg4 : Memref sig .tc .vmem S1x32x64x64 .f32) (harg4 : arg4.IsWhole) (x0 : Vec Ideal S1x32x64x64 .f32)
    (g : ℕ) (hg : g < 32) (off : Fin 4 → ℕ) (hoff : off = ![0, g, 0, 0]) (inb : ∀ a, off a + S1x1x64x64.size a ≤ S1x32x64x64.size a) :
    View.readAt (Elt Ideal) arg4.view (Rect.unit (s := S1x32x64x64) off S1x1x64x64.size inb).toLoadRect (harg4.unread x0)
      = POf x0 ⟨g, hg⟩ := by
  subst hoff
  rw [View.readAt_eq_ld, harg4.read_unread]
  funext y
  show (x0 : S1x32x64x64.Idx → EReal) _ = (x0 : S1x32x64x64.Idx → EReal) _
  congr 1
  funext a
  apply Fin.ext
  have y0 : (y 0).val < 1 := (y 0).isLt
  have y1 : (y 1).val < 1 := (y 1).isLt
  match a with
  | ⟨0, _⟩ => show 0 + 1 * (y 0).val = 0; omega
  | ⟨1, _⟩ => show g + 1 * (y 1).val = g; omega
  | ⟨2, _⟩ => show 0 + 1 * (y 2).val = (y 2).val; omega
  | ⟨3, _⟩ => show 0 + 1 * (y 3).val = (y 3).val; omega

/-- THE POINT'S UPDATE OF THE VALUE ACCUMULATOR, over any two scratch arrays filled block by block with the group's
    row one-hots and column-placed patches. -/
theorem upd_abs {κ8 κ9 : Kind} {sp8 sp9 : Space} (v8 : View sig κ8 sp8 S512x2048 .bf16) (v9 : View sig κ9 sp9 S2048x512 .bf16)
    (wh ww : Fin 32 → BitVec 32) (P : Fin 32 → (S1x1x64x64.Idx → EReal))
    (LA : List (View.Piece (Elt Ideal) S512x2048 .bf16)) (LB : List (View.Piece (Elt Ideal) S2048x512 .bf16))
    (hLA : ∀ p ∈ LA, ∀ x : p.1.shape.Idx, p.2 x = aScrOf wh (p.1.emb x)) (hcovA : ∀ y : S512x2048.Idx, ∃ p ∈ LA, y ∈ p.1.set)
    (hLB : ∀ p ∈ LB, ∀ x : p.1.shape.Idx, p.2 x = bScrOf ww P (p.1.emb x)) (hcovB : ∀ y : S2048x512.Idx, ∃ p ∈ LB, y ∈ p.1.set)
    {off8 : Fin 2 → ℕ} (hz8 : off8 = fun _ => 0) (inb8 : ∀ a, off8 a + S512x2048.size a ≤ S512x2048.size a)
    {off9 : Fin 2 → ℕ} (hz9 : off9 = fun _ => 0) (inb9 : ∀ a, off9 a + S2048x512.size a ≤ S2048x512.size a)
    (acc : S512x512.Idx → EReal) (hwh : ∀ g, (wh g).toNat < 2 ^ 31) (hww : ∀ g, (ww g).toNat < 2 ^ 31) (h x : Fin 512) :
    k0_pay212 (F := Ideal) (v8.readCov LA (Rect.unit off8 S512x2048.size inb8).toLoadRect)
        (v9.readCov LB (Rect.unit off9 S2048x512.size inb9).toLoadRect) acc (ix2 h x)
      = acc (ix2 h x) + ∑ g : Fin 32, ∑ i : Fin 64, ∑ j : Fin 64,
          if lands (wh g) i h ∧ lands (ww g) j x then P g (ix4 (0 : Fin 1) (0 : Fin 1) i j) else 0 := by
  rw [payAcc, readCov_eq_of_pieces v8 (aScrOf wh) LA hLA hcovA hz8 inb8,
    readCov_eq_of_pieces v9 (bScrOf ww P) LB hLB hcovB hz9 inb9]
  exact point_placed wh ww P hwh hww acc h x

/-- The canvas block written from the two accumulators just updated: cell by cell, value over max(count, 1), whatever the
    two updates were. -/
theorem canvas_abs {κ6 κ7 : Kind} {sp6 sp7 : Space}
    (v6 : View sig κ6 sp6 S512x512 .f32) (v7 : View sig κ7 sp7 S512x512 .f32) (w0 w1 : S512x512.Idx → EReal)
    {offO : Fin 4 → ℕ} (hzO : offO = fun _ => 0) (inbO : ∀ a, offO a + S1x1x512x512.size a ≤ S1x1x512x512.size a)
    {off6 : Fin 2 → ℕ} (hz6 : off6 = fun _ => 0) (inb6 : ∀ a, off6 a + S512x512.size a ≤ S512x512.size a)
    {off7 : Fin 2 → ℕ} (hz7 : off7 = fun _ => 0) (inb7 : ∀ a, off7 a + S512x512.size a ≤ S512x512.size a)
    (h x : Fin 512) :
    View.canon [(⟨Rect.unit offO S1x1x512x512.size inbO,
        k0_pay2 (F := Ideal)
          (v6.readCov [(⟨Rect.unit off6 S512x512.size inb6, w0⟩ : View.Piece (Elt Ideal) S512x512 .f32)] (Rect.unit off6 S512x512.size inb6).toLoadRect)
          (v7.readCov [(⟨Rect.unit off7 S512x512.size inb7, w1⟩ : View.Piece (Elt Ideal) S512x512 .f32)] (Rect.unit off7 S512x512.size inb7).toLoadRect)⟩ :
        View.Piece (Elt Ideal) S1x1x512x512 .f32)] (ix4 (0 : Fin 1) (0 : Fin 1) h x)
      = Ideal.div (View.canon [(⟨Rect.unit off6 S512x512.size inb6, w0⟩ : View.Piece (Elt Ideal) S512x512 .f32)] (ix2 h x))
          (max (View.canon [(⟨Rect.unit off7 S512x512.size inb7, w1⟩ : View.Piece (Elt Ideal) S512x512 .f32)] (ix2 h x))
            (Ideal.ofBits .f32 0x3F800000#32)) := by
  rw [View.canon_unit_zero (S := S1x1x512x512) hzO, View.readCov_unit_zero (S := S512x512) v6 hz6,
    View.readCov_unit_zero (S := S512x512) v7 hz7, View.canon_unit_zero (S := S512x512) hz6,
    View.canon_unit_zero (S := S512x512) hz7]
  exact pay2_apply w0 w1 h x

/-! ## The blocks of a run, one after the other

In a goal whose context names the point (c, i), the tables' contents xt0 and xt1, the staged patches x0 and their
window arg4 with harg4: the stored block of pair k is the pair's block of the row placement matrix of the group's row
corner words, and the stored block of patch g is the patch's block of the column-placed matrix of the group's column
corner words and patches. -/

set_option hygiene false in
macro "a_blk " k:num p:ident : tactic =>
  `(tactic| refine forall_mem_cons' (aPiece_ok _ $k (by omega) _ rfl (by decide) _ (($p _ _).trans (congrArg₂ (aPair (F := Ideal)) (wordE0 c i ⟨$k, by omega⟩ (by decide) xt0) (wordO0 c i ⟨$k, by omega⟩ (by decide) xt0)))) ?_)

set_option hygiene false in
macro "b_blk " g:num r:num w:ident p:ident : tactic =>
  `(tactic| refine forall_mem_cons' (bPiece_ok _ _ $g (by omega) _ rfl (by decide) _ (($p _ _).trans (congrArg₂ (placedW (F := Ideal)) ($w c i ⟨$r, by omega⟩ (by decide) xt1) (patch_read arg4 harg4 x0 $g (by omega) _ rfl (by decide))))) ?_)

/-- The sixteen blocks of the row placement scratch, last stored first. -/
macro "a_blocks" : tactic =>
  `(tactic| (
      a_blk 15 payA15; a_blk 14 payA14; a_blk 13 payA13; a_blk 12 payA12; a_blk 11 payA11; a_blk 10 payA10
      a_blk 9 payA9; a_blk 8 payA8; a_blk 7 payA7; a_blk 6 payA6; a_blk 5 payA5; a_blk 4 payA4; a_blk 3 payA3
      a_blk 2 payA2; a_blk 1 payA1; a_blk 0 payA0
      exact forall_mem_nil'))

/-- The thirty-two blocks of the column-placed scratch, last stored first. -/
macro "b_blocks" : tactic =>
  `(tactic| (
      b_blk 31 15 wordO1 payB31; b_blk 30 15 wordE1 payB30; b_blk 29 14 wordO1 payB29; b_blk 28 14 wordE1 payB28
      b_blk 27 13 wordO1 payB27; b_blk 26 13 wordE1 payB26; b_blk 25 12 wordO1 payB25; b_blk 24 12 wordE1 payB24
      b_blk 23 11 wordO1 payB23; b_blk 22 11 wordE1 payB22; b_blk 21 10 wordO1 payB21; b_blk 20 10 wordE1 payB20
      b_blk 19 9 wordO1 payB19; b_blk 18 9 wordE1 payB18; b_blk 17 8 wordO1 payB17; b_blk 16 8 wordE1 payB16
      b_blk 15 7 wordO1 payB15; b_blk 14 7 wordE1 payB14; b_blk 13 6 wordO1 payB13; b_blk 12 6 wordE1 payB12
      b_blk 11 5 wordO1 payB11; b_blk 10 5 wordE1 payB10; b_blk 9 4 wordO1 payB9; b_blk 8 4 wordE1 payB8
      b_blk 7 3 wordO1 payB7; b_blk 6 3 wordE1 payB6; b_blk 5 2 wordO1 payB5; b_blk 4 2 wordE1 payB4
      b_blk 3 1 wordO1 payB3; b_blk 2 1 wordE1 payB2; b_blk 1 0 wordO1 payB1; b_blk 0 0 wordE1 payB0
      exact forall_mem_nil'))

end Cert.KernelIdeal.Hand

end
-- ==== Proof.KI.PieceValueA.lean ====
/-
  The value accumulator after a point of a batch's first group (k = 0): it was reset, so it holds the all-zero word's
  extended real plus the entries of the group's patches landing on each cell.
-/
import proofs.«425958_j53352083751494_3_alg».proof.Proof.KI.RunA
import proofs.«425958_j53352083751494_3_alg».proof.Proof.KI.PieceValue

set_option maxRecDepth 16384

noncomputable section

open scoped BigOperators

namespace Cert.KernelIdeal.Hand

open Cert.KernelIdeal Cert.KernelIdeal.Gen Cert.KernelIdeal.Stages Cert.KernelIdeal.PointValue Cert.Spec
open Idealize.ShloMosaic Idealize.ShloMosaic.TcCoe Idealize.ShloMosaic.Tactic Idealize.ShloMosaic.ValueIdx

variable [Cert.KernelIdeal.Facts]

/-- THE VALUE ACCUMULATOR AFTER A FIRST POINT at (h, x): the zero word plus the group's landing entries. -/
theorem valueA (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : cond0_0 i) (hc1 : ¬cond0_1 i)
    (x0 : Vec Ideal S1x32x64x64 .f32) (xt0 : TbBuf0 (F := Ideal) c tbM0_0) (xt1 : TbBuf0 (F := Ideal) c tbM0_1) (xw : Vec Ideal S32x512 .bf16)
    (hwh : ∀ g, (whOf c i xt0 g : BitVec 32).toNat < 2 ^ 31) (hww : ∀ g, (wwOf c i xt1 g : BitVec 32).toNat < 2 ^ 31) (h x : Fin 512) :
    (VS0_0.read (Elt Ideal) (VS0_0.writes (Elt Ideal) VS0_0.junk (kernelRun0_A (F := Ideal) c i arg4 harg4 arg5 harg5 arg6 harg6 arg7 harg7 arg8 harg8 arg9 harg9 arg10 harg10 arg11 harg11 hc0 hc1 x0 xt0 xt1 xw).1) : S512x512.Idx → EReal) (ix2 h x)
      = Ideal.ofBits .f32 0x00000000#32 + ∑ g : Fin 32, ∑ i' : Fin 64, ∑ j : Fin 64,
          if lands (whOf c i xt0 g) i' h ∧ lands (wwOf c i xt1 g) j x then POf x0 g (ix4 (0 : Fin 1) (0 : Fin 1) i' j) else 0 := by
  rw [View.read_writes_junk_eq_canon]
  unfold kernelRun0_A
  dsimp only
  sl_unfold_words
  rw [View.canon_cons_unit_zero (S := S512x512) zeros2]
  refine (upd_abs arg8.view arg9.view (whOf c i xt0) (wwOf c i xt1) (POf x0) _ _ ?hLA ?hcovA ?hLB ?hcovB zeros2 (by decide) zeros2 (by decide) _ hwh hww h x).trans ?_
  case hLA => a_blocks
  case hcovA => exact View.cover_of_tiledL _ S512x128.size (by sl_kernel_rfl)
  case hLB => b_blocks
  case hcovB => exact View.cover_of_tiledL _ S64x512.size (by sl_kernel_rfl)
  congr 1
  rw [View.readCov_unit_zero (S := S512x512) _ zeros2]
  exact pay3_apply _

end Cert.KernelIdeal.Hand

end
-- ==== Proof.KI.PieceValueB.lean ====
/-
  The value accumulator after a point that is neither the first nor the last of its batch (0 < k < 15): what it held
  plus the entries of the group's patches landing on each cell.
-/
import proofs.«425958_j53352083751494_3_alg».proof.Proof.KI.RunB
import proofs.«425958_j53352083751494_3_alg».proof.Proof.KI.PieceValue

set_option maxRecDepth 16384

noncomputable section

open scoped BigOperators

namespace Cert.KernelIdeal.Hand

open Cert.KernelIdeal Cert.KernelIdeal.Gen Cert.KernelIdeal.Stages Cert.KernelIdeal.PointValue Cert.Spec
open Idealize.ShloMosaic Idealize.ShloMosaic.TcCoe Idealize.ShloMosaic.Tactic Idealize.ShloMosaic.ValueIdx

variable [Cert.KernelIdeal.Facts]

/-- THE VALUE ACCUMULATOR AFTER A MIDDLE POINT at (h, x): what it held plus the group's landing entries. -/
theorem valueB (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : ¬cond0_1 i)
    (x0 : Vec Ideal S1x32x64x64 .f32) (xt0 : TbBuf0 (F := Ideal) c tbM0_0) (xt1 : TbBuf0 (F := Ideal) c tbM0_1) (xs0 xs1 : Vec Ideal S512x512 .f32) (xw : Vec Ideal S32x512 .bf16)
    (hwh : ∀ g, (whOf c i xt0 g : BitVec 32).toNat < 2 ^ 31) (hww : ∀ g, (wwOf c i xt1 g : BitVec 32).toNat < 2 ^ 31) (h x : Fin 512) :
    (VS0_0.read (Elt Ideal) (VS0_0.writes (Elt Ideal) VS0_0.junk (kernelRun0_B (F := Ideal) c i arg4 harg4 arg5 harg5 arg6 harg6 arg7 harg7 arg8 harg8 arg9 harg9 arg10 harg10 arg11 harg11 hc0 hc1 x0 xt0 xt1 xs0 xs1 xw).1) : S512x512.Idx → EReal) (ix2 h x)
      = (xs0 : S512x512.Idx → EReal) (ix2 h x) + ∑ g : Fin 32, ∑ i' : Fin 64, ∑ j : Fin 64,
          if lands (whOf c i xt0 g) i' h ∧ lands (wwOf c i xt1 g) j x then POf x0 g (ix4 (0 : Fin 1) (0 : Fin 1) i' j) else 0 := by
  rw [View.read_writes_junk_eq_canon]
  unfold kernelRun0_B
  dsimp only
  sl_unfold_words
  rw [View.canon_unit_zero (S := S512x512) zeros2]
  refine (upd_abs arg8.view arg9.view (whOf c i xt0) (wwOf c i xt1) (POf x0) _ _ ?hLA ?hcovA ?hLB ?hcovB zeros2 (by decide) zeros2 (by decide) _ hwh hww h x).trans ?_
  case hLA => a_blocks
  case hcovA => exact View.cover_of_tiledL _ S512x128.size (by sl_kernel_rfl)
  case hLB => b_blocks
  case hcovB => exact View.cover_of_tiledL _ S64x512.size (by sl_kernel_rfl)
  congr 1
  rw [View.readAt_eq_ld, harg6.read_unread, View.ld_unit_zero zeros2]

end Cert.KernelIdeal.Hand

end
-- ==== Proof.KI.PieceValueC.lean ====
/-
  The last point of a batch (k = 15): the value accumulator holds what it held plus the entries of the group's patches
  landing on each cell, and the canvas block written is, cell by cell, the value accumulator over max(count accumulator, 1),
  both as this point leaves them.
-/
import proofs.«425958_j53352083751494_3_alg».proof.Proof.KI.RunC
import proofs.«425958_j53352083751494_3_alg».proof.Proof.KI.PieceValue

set_option maxRecDepth 16384

noncomputable section

open scoped BigOperators

namespace Cert.KernelIdeal.Hand

open Cert.KernelIdeal Cert.KernelIdeal.Gen Cert.KernelIdeal.Stages Cert.KernelIdeal.PointValue Cert.Spec
open Idealize.ShloMosaic Idealize.ShloMosaic.TcCoe Idealize.ShloMosaic.Tactic Idealize.ShloMosaic.ValueIdx

variable [Cert.KernelIdeal.Facts]

/-- THE VALUE ACCUMULATOR AFTER A LAST POINT at (h, x): what it held plus the group's landing entries. -/
theorem valueC (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : cond0_1 i)
    (x0 : Vec Ideal S1x32x64x64 .f32) (xt0 : TbBuf0 (F := Ideal) c tbM0_0) (xt1 : TbBuf0 (F := Ideal) c tbM0_1) (xs0 xs1 : Vec Ideal S512x512 .f32) (xw : Vec Ideal S32x512 .bf16)
    (hwh : ∀ g, (whOf c i xt0 g : BitVec 32).toNat < 2 ^ 31) (hww : ∀ g, (wwOf c i xt1 g : BitVec 32).toNat < 2 ^ 31) (h x : Fin 512) :
    (VS0_0.read (Elt Ideal) (VS0_0.writes (Elt Ideal) VS0_0.junk (kernelRun0_C (F := Ideal) c i arg4 harg4 arg5 harg5 arg6 harg6 arg7 harg7 arg8 harg8 arg9 harg9 arg10 harg10 arg11 harg11 hc0 hc1 x0 xt0 xt1 xs0 xs1 xw).2.1) : S512x512.Idx → EReal) (ix2 h x)
      = (xs0 : S512x512.Idx → EReal) (ix2 h x) + ∑ g : Fin 32, ∑ i' : Fin 64, ∑ j : Fin 64,
          if lands (whOf c i xt0 g) i' h ∧ lands (wwOf c i xt1 g) j x then POf x0 g (ix4 (0 : Fin 1) (0 : Fin 1) i' j) else 0 := by
  rw [View.read_writes_junk_eq_canon]
  unfold kernelRun0_C
  dsimp only
  sl_unfold_words
  rw [View.canon_unit_zero (S := S512x512) zeros2]
  refine (upd_abs arg8.view arg9.view (whOf c i xt0) (wwOf c i xt1) (POf x0) _ _ ?hLA ?hcovA ?hLB ?hcovB zeros2 (by decide) zeros2 (by decide) _ hwh hww h x).trans ?_
  case hLA => a_blocks
  case hcovA => exact View.cover_of_tiledL _ S512x128.size (by sl_kernel_rfl)
  case hLB => b_blocks
  case hcovB => exact View.cover_of_tiledL _ S64x512.size (by sl_kernel_rfl)
  congr 1
  rw [View.readAt_eq_ld, harg6.read_unread, View.ld_unit_zero zeros2]

/-- THE CANVAS BLOCK A LAST POINT WRITES at (0, 0, h, x): value over max(count, 1) of the accumulators as the point leaves them. -/
theorem canvasC (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : cond0_1 i)
    (x0 : Vec Ideal S1x32x64x64 .f32) (xt0 : TbBuf0 (F := Ideal) c tbM0_0) (xt1 : TbBuf0 (F := Ideal) c tbM0_1) (xs0 xs1 : Vec Ideal S512x512 .f32) (xw : Vec Ideal S32x512 .bf16)
    (h x : Fin 512) :
    (VO0_1.read (Elt Ideal) (VO0_1.writes (Elt Ideal) VO0_1.junk (kernelRun0_C (F := Ideal) c i arg4 harg4 arg5 harg5 arg6 harg6 arg7 harg7 arg8 harg8 arg9 harg9 arg10 harg10 arg11 harg11 hc0 hc1 x0 xt0 xt1 xs0 xs1 xw).1) : S1x1x512x512.Idx → EReal) (ix4 (0 : Fin 1) (0 : Fin 1) h x)
      = Ideal.div
          ((VS0_0.read (Elt Ideal) (VS0_0.writes (Elt Ideal) VS0_0.junk (kernelRun0_C (F := Ideal) c i arg4 harg4 arg5 harg5 arg6 harg6 arg7 harg7 arg8 harg8 arg9 harg9 arg10 harg10 arg11 harg11 hc0 hc1 x0 xt0 xt1 xs0 xs1 xw).2.1) : S512x512.Idx → EReal) (ix2 h x))
          (max ((VS0_1.read (Elt Ideal) (VS0_1.writes (Elt Ideal) VS0_1.junk (kernelRun0_C (F := Ideal) c i arg4 harg4 arg5 harg5 arg6 harg6 arg7 harg7 arg8 harg8 arg9 harg9 arg10 harg10 arg11 harg11 hc0 hc1 x0 xt0 xt1 xs0 xs1 xw).2.2.1) : S512x512.Idx → EReal) (ix2 h x))
            (Ideal.ofBits .f32 0x3F800000#32)) := by
  rw [View.read_writes_junk_eq_canon, View.read_writes_junk_eq_canon, View.read_writes_junk_eq_canon]
  unfold kernelRun0_C
  dsimp only
  sl_unfold_words
  exact canvas_abs arg6.view arg7.view _ _ zeros4 (by decide) zeros2 (by decide) zeros2 (by decide) h x

end Cert.KernelIdeal.Hand

end
-- ==== Proof.KI.PieceCount.lean ====
/-
  What a grid point leaves in the count accumulator.

  A point's count store is (what the accumulator held) + (row mask) · (column mask). The row mask (512 x 32) is read
  back from sixteen stores, pair r's two columns at columns 2 r, 2 r + 1; the column mask (32 x 512) from thirty-two
  stores, pair r's first row into the 2 x 512 block at rows 2 r, 2 r + 1 as found, then its second row into that block
  read back. Read pair by pair from the last store down, each mask is the function of the index that the point's
  arithmetic names (the row mask and the column mask over the corner words of the point's group); so the store at (h, x)
  is what the accumulator held there plus the number of entries of the group's patches landing on (h, x). At a batch's
  first point the accumulator was reset to zero just before; at the other points it holds what the point found.
-/
import proofs.«425958_j53352083751494_3_alg».proof.Proof.KI.RunA
import proofs.«425958_j53352083751494_3_alg».proof.Proof.KI.RunB
import proofs.«425958_j53352083751494_3_alg».proof.Proof.KI.RunC
import proofs.«425958_j53352083751494_3_alg».proof.Proof.KI.PointValue
import proofs.«425958_j53352083751494_3_alg».proof.Proof.KI.PointWords

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.Tactic Idealize.ShloMosaic.ValueIdx
open Cert.KernelIdeal.Stages Cert.KernelIdeal.PointValue

namespace Count

variable [Cert.KernelIdeal.Facts]

/-! ## Reading a list of stores block by block -/

theorem hz2 : (![0, 0] : Fin 2 → Nat) = fun _ => 0 := funext fun a => by fin_cases a <;> rfl

section Blocks
variable {s : Shape} {e : EltTy} {Val : EltTy → Type} [∀ e, Nonempty (Val e)]

/-- The stores are blocks along axis ax, each whole on every other axis, the block written last lying furthest along.
    If the last store writes coordinates [o, o + W) of that axis with values of G, and below o the earlier stores leave G,
    then below o + W the whole list leaves G. -/
theorem canon_block_step (G : s.Idx → Val e) (ax : Fin s.rank) (o W : ℕ) {off size : Fin s.rank → ℕ}
    (inb : ∀ a, off a + size a ≤ s.size a) (w : (Rect.unit off size inb).shape.Idx → Val e) (L : List (View.Piece Val s e))
    (hoff : off ax = o) (hsz : size ax = W) (hfull : ∀ a, a ≠ ax → off a = 0 ∧ size a = s.size a)
    (hw : ∀ x, w x = G ((Rect.unit off size inb).emb x))
    (IH : ∀ y : s.Idx, (y ax).val < o → View.canon L y = G y) :
    ∀ y : s.Idx, (y ax).val < o + W → View.canon ((⟨Rect.unit off size inb, w⟩ : View.Piece Val s e) :: L) y = G y := by
  intro y hy
  by_cases hlt : (y ax).val < o
  · rw [View.canon_cons_of_not_mem _ _ (by
      show y ∉ (Rect.unit off size inb).set
      rw [Rect.mem_set_unit]
      intro hall
      have := (hall ax).1
      omega)]
    exact IH y hlt
  · have hmem : y ∈ (Rect.unit off size inb).set := by
      rw [Rect.mem_set_unit]
      intro a
      by_cases ha : a = ax
      · subst ha
        constructor <;> omega
      · obtain ⟨h0, h1⟩ := hfull a ha
        rw [h0, h1]
        exact ⟨Nat.zero_le _, by have := (y a).isLt; omega⟩
    obtain ⟨x, rfl⟩ := (Rect.unit off size inb).exists_idx_of_mem hmem
    rw [show (Rect.unit off size inb).idx x = (Rect.unit off size inb).emb x from rfl, View.canon_cons_emb]
    exact hw x

/-- The same when the block was stored twice: the later store hides the earlier one. -/
theorem canon_block_step2 (G : s.Idx → Val e) (ax : Fin s.rank) (o W : ℕ) {off size : Fin s.rank → ℕ}
    (inb : ∀ a, off a + size a ≤ s.size a) (w w0 : (Rect.unit off size inb).shape.Idx → Val e) (L : List (View.Piece Val s e))
    (hoff : off ax = o) (hsz : size ax = W) (hfull : ∀ a, a ≠ ax → off a = 0 ∧ size a = s.size a)
    (hw : ∀ x, w x = G ((Rect.unit off size inb).emb x))
    (IH : ∀ y : s.Idx, (y ax).val < o → View.canon L y = G y) :
    ∀ y : s.Idx, (y ax).val < o + W →
      View.canon ((⟨Rect.unit off size inb, w⟩ : View.Piece Val s e) :: (⟨Rect.unit off size inb, w0⟩ : View.Piece Val s e) :: L) y = G y :=
  canon_block_step G ax o W inb w _ hoff hsz hfull hw fun y hlt => by
    rw [View.canon_cons_of_not_mem _ _ (by
      show y ∉ (Rect.unit off size inb).set
      rw [Rect.mem_set_unit]
      intro hall
      have := (hall ax).1
      omega)]
    exact IH y hlt

end Blocks

/-! ## The corner words the body loads are the group's words -/

section Words
variable {F : FTy → Type} [FloatOps F]

theorem patchIx_ev (i : grid0.Coords) (r : Fin 16) (h : 32 * (i 1).val + 2 * r.val < 512) :
    (⟨32 * (i 1).val + 2 * r.val, h⟩ : Fin 512) = patchIx i (ev r) := Fin.ext rfl

theorem patchIx_od (i : grid0.Coords) (r : Fin 16) (h : 32 * (i 1).val + 2 * r.val + 1 < 512) :
    (⟨32 * (i 1).val + 2 * r.val + 1, h⟩ : Fin 512) = patchIx i (od r) :=
  Fin.ext (by show 32 * (i 1).val + 2 * r.val + 1 = 32 * (i 1).val + (2 * r.val + 1); omega)

/-- The first word loaded from the row table for pair r is the row corner of the pair's first patch. -/
theorem word1_0 (c : Dev nD) (i : grid0.Coords) (r : Fin 16) (cst : BitVec 32) (hcst : cst = BitVec.ofNat 32 (2 * r.val))
    (inb : ∀ a, k0_off1 i cst a + S1x1.size a ≤ S16x512.size a) (hp : 0 < S1x1.numel) (xt : TbBuf0 (F := F) c tbM0_0) :
    tbM0_0.view.readAt (Elt F) (Rect.unit (s := S16x512) (k0_off1 i cst) S1x1.size inb).toLoadRect xt (Shape.Idx.first hp)
      = whOf c i xt (ev r) :=
  (word_read1_0 c i r cst hcst inb hp xt).trans
    (congrArg (fun k => (xt : S16x512.Idx → Elt F .i32) (ix2 (n0 := 16) (i 0) (n1 := 512) k)) (patchIx_ev i r _))

/-- The second word loaded from the row table for pair r is the row corner of the pair's second patch. -/
theorem word2_0 (c : Dev nD) (i : grid0.Coords) (r : Fin 16) (cst : BitVec 32) (hcst : cst = BitVec.ofNat 32 (2 * r.val))
    (inb : ∀ a, k0_off2 i cst a + S1x1.size a ≤ S16x512.size a) (hp : 0 < S1x1.numel) (xt : TbBuf0 (F := F) c tbM0_0) :
    tbM0_0.view.readAt (Elt F) (Rect.unit (s := S16x512) (k0_off2 i cst) S1x1.size inb).toLoadRect xt (Shape.Idx.first hp)
      = whOf c i xt (od r) :=
  (word_read2_0 c i r cst hcst inb hp xt).trans
    (congrArg (fun k => (xt : S16x512.Idx → Elt F .i32) (ix2 (n0 := 16) (i 0) (n1 := 512) k)) (patchIx_od i r _))

/-- The first word loaded from the column table for pair r is the column corner of the pair's first patch. -/
theorem word1_1 (c : Dev nD) (i : grid0.Coords) (r : Fin 16) (cst : BitVec 32) (hcst : cst = BitVec.ofNat 32 (2 * r.val))
    (inb : ∀ a, k0_off1 i cst a + S1x1.size a ≤ S16x512.size a) (hp : 0 < S1x1.numel) (xt : TbBuf0 (F := F) c tbM0_1) :
    tbM0_1.view.readAt (Elt F) (Rect.unit (s := S16x512) (k0_off1 i cst) S1x1.size inb).toLoadRect xt (Shape.Idx.first hp)
      = wwOf c i xt (ev r) :=
  (word_read1_1 c i r cst hcst inb hp xt).trans
    (congrArg (fun k => (xt : S16x512.Idx → Elt F .i32) (ix2 (n0 := 16) (i 0) (n1 := 512) k)) (patchIx_ev i r _))

/-- The second word loaded from the column table for pair r is the column corner of the pair's second patch. -/
theorem word2_1 (c : Dev nD) (i : grid0.Coords) (r : Fin 16) (cst : BitVec 32) (hcst : cst = BitVec.ofNat 32 (2 * r.val))
    (inb : ∀ a, k0_off2 i cst a + S1x1.size a ≤ S16x512.size a) (hp : 0 < S1x1.numel) (xt : TbBuf0 (F := F) c tbM0_1) :
    tbM0_1.view.readAt (Elt F) (Rect.unit (s := S16x512) (k0_off2 i cst) S1x1.size inb).toLoadRect xt (Shape.Idx.first hp)
      = wwOf c i xt (od r) :=
  (word_read2_1 c i r cst hcst inb hp xt).trans
    (congrArg (fun k => (xt : S16x512.Idx → Elt F .i32) (ix2 (n0 := 16) (i 0) (n1 := 512) k)) (patchIx_od i r _))

end Words

/-! ## A pair's block of each mask, at the block's place in the mask -/

/-- Pair r's two columns of the row mask are columns 2 r, 2 r + 1 of the row mask. -/
theorem hm_piece (wh : Fin 32 → BitVec 32) (r : Fin 16) {off : Fin 2 → ℕ} (inb : ∀ a, off a + S512x2.size a ≤ S512x32.size a)
    (hoff : off = ![0, 2 * r.val]) (x : (Rect.unit (s := S512x32) off S512x2.size inb).shape.Idx) :
    hmPair (F := Ideal) (wh (ev r)) (wh (od r)) x = hMaskOf wh ((Rect.unit (s := S512x32) off S512x2.size inb).emb x) := by
  subst hoff
  have hx1 : (x 1).val < 2 := (x 1).isLt
  have hr := r.isLt
  have h1 : half ((Rect.unit (s := S512x32) ![0, 2 * r.val] S512x2.size inb).emb x 1) = r :=
    Fin.ext (by show (2 * r.val + 1 * (x 1).val) / 2 = r.val; omega)
  have h2 : ix2 (n0 := 512) (n1 := 2) ((Rect.unit (s := S512x32) ![0, 2 * r.val] S512x2.size inb).emb x 0)
      (par ((Rect.unit (s := S512x32) ![0, 2 * r.val] S512x2.size inb).emb x 1)) = x :=
    funext fun a => Fin.ext (by
      match a with
      | ⟨0, _⟩ => show 0 + 1 * (x 0).val = (x 0).val; omega
      | ⟨1, _⟩ => show (2 * r.val + 1 * (x 1).val) % 2 = (x 1).val; omega)
  show _ = hmPair (F := Ideal) (wh (ev (half ((Rect.unit (s := S512x32) ![0, 2 * r.val] S512x2.size inb).emb x 1))))
    (wh (od (half ((Rect.unit (s := S512x32) ![0, 2 * r.val] S512x2.size inb).emb x 1))))
    (ix2 (n0 := 512) (n1 := 2) ((Rect.unit (s := S512x32) ![0, 2 * r.val] S512x2.size inb).emb x 0)
      (par ((Rect.unit (s := S512x32) ![0, 2 * r.val] S512x2.size inb).emb x 1)))
  rw [h1]
  exact (congrArg (hmPair (F := Ideal) (wh (ev r)) (wh (od r))) h2).symm

/-- Pair r's two rows of the column mask are rows 2 r, 2 r + 1 of the column mask, whatever the block held before. -/
theorem wm_piece (ww : Fin 32 → BitVec 32) (hww : ∀ g, (ww g).toNat < 2 ^ 31) (olds : Fin 16 → (S2x512.Idx → EReal)) (r : Fin 16)
    {off : Fin 2 → ℕ} (inb : ∀ a, off a + S2x512.size a ≤ S32x512.size a) (hoff : off = ![2 * r.val, 0])
    (old : S2x512.Idx → EReal) (x : (Rect.unit (s := S32x512) off S2x512.size inb).shape.Idx) :
    wmPair (F := Ideal) (ww (ev r)) (ww (od r)) old x = wMaskOf ww olds ((Rect.unit (s := S32x512) off S2x512.size inb).emb x) := by
  subst hoff
  have hx0 : (x 0).val < 2 := (x 0).isLt
  have hx1 : (x 1).val < 512 := (x 1).isLt
  have hr := r.isLt
  have h1 : half ((Rect.unit (s := S32x512) ![2 * r.val, 0] S2x512.size inb).emb x 0) = r :=
    Fin.ext (by show (2 * r.val + 1 * (x 0).val) / 2 = r.val; omega)
  have hidx : ix2 (n0 := 2) (n1 := 512) (par ((Rect.unit (s := S32x512) ![2 * r.val, 0] S2x512.size inb).emb x 0))
      ((Rect.unit (s := S32x512) ![2 * r.val, 0] S2x512.size inb).emb x 1)
      = ix2 (⟨(x 0).val, hx0⟩ : Fin 2) (⟨(x 1).val, hx1⟩ : Fin 512) :=
    funext fun a => Fin.ext (by
      match a with
      | ⟨0, _⟩ => show (2 * r.val + 1 * (x 0).val) % 2 = (x 0).val; omega
      | ⟨1, _⟩ => show 0 + 1 * (x 1).val = (x 1).val; omega)
  have hx : x = ix2 (⟨(x 0).val, hx0⟩ : Fin 2) (⟨(x 1).val, hx1⟩ : Fin 512) :=
    funext fun a => Fin.ext (by
      match a with
      | ⟨0, _⟩ => rfl
      | ⟨1, _⟩ => rfl)
  show _ = wmPair (F := Ideal) (ww (ev (half ((Rect.unit (s := S32x512) ![2 * r.val, 0] S2x512.size inb).emb x 0))))
    (ww (od (half ((Rect.unit (s := S32x512) ![2 * r.val, 0] S2x512.size inb).emb x 0))))
    (olds (half ((Rect.unit (s := S32x512) ![2 * r.val, 0] S2x512.size inb).emb x 0)))
    (ix2 (n0 := 2) (n1 := 512) (par ((Rect.unit (s := S32x512) ![2 * r.val, 0] S2x512.size inb).emb x 0))
      ((Rect.unit (s := S32x512) ![2 * r.val, 0] S2x512.size inb).emb x 1))
  rw [h1]
  refine ((congrArg (wmPair (F := Ideal) (ww (ev r)) (ww (od r)) old) hx).trans ?_).trans
    (congrArg (wmPair (F := Ideal) (ww (ev r)) (ww (od r)) (olds r)) hidx).symm
  rw [StagesW.wmPair_apply _ _ (hww _) (hww _), StagesW.wmPair_apply _ _ (hww _) (hww _)]

/-! ## One pair's store after the other -/

/-- The row mask after pair r's store: columns below 2 r + 2 hold the row mask if those below 2 r did. -/
theorem hm_step (wh : Fin 32 → BitVec 32) (r : ℕ) (hr : r < 16) {off : Fin 2 → ℕ} (inb : ∀ a, off a + S512x2.size a ≤ S512x32.size a)
    (w : (Rect.unit (s := S512x32) off S512x2.size inb).shape.Idx → Elt Ideal .bf16) (L : List (View.Piece (Elt Ideal) S512x32 .bf16))
    (hoff : off = ![0, 2 * r]) (hw : w = hmPair (F := Ideal) (wh (ev ⟨r, hr⟩)) (wh (od ⟨r, hr⟩)))
    (IH : ∀ y : S512x32.Idx, (y 1).val < 2 * r → View.canon L y = hMaskOf wh y) :
    ∀ y : S512x32.Idx, (y 1).val < 2 * r + 2 →
      View.canon ((⟨Rect.unit (s := S512x32) off S512x2.size inb, w⟩ : View.Piece (Elt Ideal) S512x32 .bf16) :: L) y = hMaskOf wh y :=
  canon_block_step (hMaskOf wh) (1 : Fin 2) (2 * r) 2 inb w L (by rw [hoff]; rfl) rfl (fun a ha => by
      match a, ha with
      | ⟨0, _⟩, _ => exact ⟨by rw [hoff]; rfl, rfl⟩
      | ⟨1, _⟩, ha => exact absurd rfl ha) (fun x => (congrFun hw x).trans (hm_piece wh ⟨r, hr⟩ inb hoff x)) IH

/-- The column mask after pair r's two stores (the first row into the block as found, the second into the block read
    back): rows below 2 r + 2 hold the column mask if those below 2 r did. -/
theorem wm_step (ww : Fin 32 → BitVec 32) (hww : ∀ g, (ww g).toNat < 2 ^ 31) (olds : Fin 16 → (S2x512.Idx → EReal)) (r : ℕ) (hr : r < 16)
    {sig : RefSig} {κ : Kind} {sp : Space} (v : View sig κ sp S32x512 .bf16)
    {off : Fin 2 → ℕ} (inb : ∀ a, off a + S2x512.size a ≤ S32x512.size a)
    (OLD : S2x512.Idx → Elt Ideal .bf16) (R0 R1 : S1x512.Idx → Elt Ideal .bf16)
    (sl0 : S2x512.Slices ![0, 0] S1x512) (sl1 : S2x512.Slices ![1, 0] S1x512)
    (L : List (View.Piece (Elt Ideal) S32x512 .bf16))
    (hoff : off = ![2 * r, 0]) (hR0 : R0 = wmRow (F := Ideal) (ww (ev ⟨r, hr⟩))) (hR1 : R1 = wmRow (F := Ideal) (ww (od ⟨r, hr⟩)))
    (IH : ∀ y : S32x512.Idx, (y 0).val < 2 * r → View.canon L y = wMaskOf ww olds y) :
    ∀ y : S32x512.Idx, (y 0).val < 2 * r + 2 →
      View.canon ((⟨Rect.unit (s := S32x512) off S2x512.size inb,
          updateSlice (v.readCov ((⟨Rect.unit (s := S32x512) off S2x512.size inb, updateSlice OLD R0 ![0, 0] sl0⟩ : View.Piece (Elt Ideal) S32x512 .bf16) :: L)
            (Rect.unit (s := S32x512) off S2x512.size inb).toLoadRect) R1 ![1, 0] sl1⟩ : View.Piece (Elt Ideal) S32x512 .bf16)
        :: (⟨Rect.unit (s := S32x512) off S2x512.size inb, updateSlice OLD R0 ![0, 0] sl0⟩ : View.Piece (Elt Ideal) S32x512 .bf16) :: L) y
        = wMaskOf ww olds y := by
  rw [View.readCov_cons_toLoadRect]
  subst hR0 hR1
  exact canon_block_step2 (wMaskOf ww olds) (0 : Fin 2) (2 * r) 2 inb _ _ L (by rw [hoff]; rfl) rfl (fun a ha => by
      match a, ha with
      | ⟨0, _⟩, ha => exact absurd rfl ha
      | ⟨1, _⟩, _ => exact ⟨by rw [hoff]; rfl, rfl⟩) (fun x => wm_piece ww hww olds ⟨r, hr⟩ inb hoff OLD x) IH

/-! ## The count store's payload -/

/-- The count piece's payload is a function of the two masks and of what the accumulator held. -/
theorem cnt_pay_congr {a a' : Vec Ideal S512x32 .bf16} {b b' : Vec Ideal S32x512 .bf16} {acc acc' : Vec Ideal S512x512 .f32}
    (ha : a = a') (hb : b = b') (hacc : acc = acc') (y : S512x512.Idx) :
    k0_pay1 (F := Ideal) (k0_pay213 a b) acc y = k0_pay1 (F := Ideal) (k0_pay213 a' b') acc' y := by
  subst ha hb hacc; rfl

/-- The payload at (h, x): what the accumulator held plus the group's count. -/
theorem cnt_pay_apply (wh ww : Fin 32 → BitVec 32) (olds : Fin 16 → (S2x512.Idx → EReal))
    (hwh : ∀ g, (wh g).toNat < 2 ^ 31) (hww : ∀ g, (ww g).toNat < 2 ^ 31) (acc : Vec Ideal S512x512 .f32) (h x : Fin 512) :
    k0_pay1 (F := Ideal) (k0_pay213 (hMaskOf wh) (wMaskOf ww olds)) acc (ix2 h x)
      = acc (ix2 h x) + ∑ g : Fin 32, ∑ i : Fin 64, ∑ j : Fin 64,
          if lands (wh g) i h ∧ lands (ww g) j x then (1 : EReal) else 0 := by
  have e : k0_pay1 (F := Ideal) (k0_pay213 (hMaskOf wh) (wMaskOf ww olds)) acc
      = addf acc (cntContrib (F := Ideal) (hMaskOf wh) (wMaskOf ww olds)) := by
    unfold k0_pay1 k0_pay213 cntContrib
    dsimp only
    rw [shapeCast_self]
  rw [e, addf_apply, point_count wh ww olds hwh hww h x]

end Count

open Count

variable [Cert.KernelIdeal.Facts]

/-! ## A point's count accumulator -/

/-- Pair r's store into the row mask. -/
local macro "hm_pair " c:term:max i:term:max r:num cst:term:max : tactic =>
  `(tactic| refine hm_step _ $r (by decide) _ _ _ rfl
      (by rw [word1_0 $c $i ⟨$r, by decide⟩ $cst rfl, word2_0 $c $i ⟨$r, by decide⟩ $cst rfl]; rfl) ?_)

/-- Pair r's two stores into the column mask. -/
local macro "wm_pair " c:term:max i:term:max hww:term:max r:num cst:term:max : tactic =>
  `(tactic| refine wm_step _ $hww _ $r (by decide) _ _ _ _ _ _ _ _ rfl
      (by rw [word1_1 $c $i ⟨$r, by decide⟩ $cst rfl]; rfl)
      (by rw [word2_1 $c $i ⟨$r, by decide⟩ $cst rfl]; rfl) ?_)

set_option maxHeartbeats 1600000 in
/-- THE FIRST POINT OF A BATCH: the count accumulator is reset, then the group's count is added. -/
theorem countA (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : cond0_0 i) (hc1 : ¬cond0_1 i)
    (x0 : Vec Ideal S1x32x64x64 .f32) (xt0 : TbBuf0 (F := Ideal) c tbM0_0) (xt1 : TbBuf0 (F := Ideal) c tbM0_1) (xw : Vec Ideal S32x512 .bf16)
    (hwh : ∀ g, (whOf c i xt0 g : BitVec 32).toNat < 2 ^ 31) (hww : ∀ g, (wwOf c i xt1 g : BitVec 32).toNat < 2 ^ 31) (h x : Fin 512) :
    (VS0_1.read (Elt Ideal) (VS0_1.writes (Elt Ideal) VS0_1.junk (kernelRun0_A (F := Ideal) c i arg4 harg4 arg5 harg5 arg6 harg6 arg7 harg7 arg8 harg8 arg9 harg9 arg10 harg10 arg11 harg11 hc0 hc1 x0 xt0 xt1 xw).2.1) : S512x512.Idx → EReal) (ix2 h x)
      = Ideal.ofBits .f32 0x00000000#32 + ∑ g : Fin 32, ∑ i' : Fin 64, ∑ j : Fin 64,
          if lands (whOf c i xt0 g) i' h ∧ lands (wwOf c i xt1 g) j x then (1 : EReal) else 0 := by
  rw [View.read_writes_junk_eq_canon]
  unfold kernelRun0_A
  dsimp only
  sl_unfold_run_names
  dsimp only
  rw [View.canon_cons_unit_zero (S := S512x512) hz2]
  refine (cnt_pay_congr (?hm : _ = hMaskOf (whOf c i xt0)) (?wm : _ = wMaskOf (wwOf c i xt1) (fun _ _ => 0))
    (?acc : _ = k0_pay4 (F := Ideal)) (ix2 h x)).trans ?fin
  case acc => exact View.readCov_unit_zero (S := S512x512) _ hz2 _ _
  case hm =>
    refine ((View.readCov_eq_canon' _ _ _).trans (View.ld_unit_zero (S := S512x32) hz2 _ _)).trans (funext fun y => ?_)
    refine (?keyH : ∀ y : S512x32.Idx, (y 1).val < 2 * 15 + 2 → View.canon (Val := Elt Ideal) (e := .bf16) _ y = hMaskOf (whOf c i xt0) y) y
      (show (y 1).val < 32 from (y 1).isLt)
    hm_pair c i 15 30#32
    hm_pair c i 14 28#32
    hm_pair c i 13 26#32
    hm_pair c i 12 24#32
    hm_pair c i 11 22#32
    hm_pair c i 10 20#32
    hm_pair c i 9 18#32
    hm_pair c i 8 16#32
    hm_pair c i 7 14#32
    hm_pair c i 6 12#32
    hm_pair c i 5 10#32
    hm_pair c i 4 8#32
    hm_pair c i 3 6#32
    hm_pair c i 2 4#32
    hm_pair c i 1 2#32
    hm_pair c i 0 0#32
    exact fun y hy => absurd hy (Nat.not_lt_zero _)
  case wm =>
    refine ((View.readCov_eq_canon' _ _ _).trans (View.ld_unit_zero (S := S32x512) hz2 _ _)).trans (funext fun y => ?_)
    refine (?keyW : ∀ y : S32x512.Idx, (y 0).val < 2 * 15 + 2 → View.canon (Val := Elt Ideal) (e := .bf16) _ y = wMaskOf (wwOf c i xt1) (fun _ _ => 0) y) y
      (show (y 0).val < 32 from (y 0).isLt)
    wm_pair c i hww 15 30#32
    wm_pair c i hww 14 28#32
    wm_pair c i hww 13 26#32
    wm_pair c i hww 12 24#32
    wm_pair c i hww 11 22#32
    wm_pair c i hww 10 20#32
    wm_pair c i hww 9 18#32
    wm_pair c i hww 8 16#32
    wm_pair c i hww 7 14#32
    wm_pair c i hww 6 12#32
    wm_pair c i hww 5 10#32
    wm_pair c i hww 4 8#32
    wm_pair c i hww 3 6#32
    wm_pair c i hww 2 4#32
    wm_pair c i hww 1 2#32
    wm_pair c i hww 0 0#32
    exact fun y hy => absurd hy (Nat.not_lt_zero _)
  case fin =>
    rw [cnt_pay_apply (whOf c i xt0) (wwOf c i xt1) (fun _ _ => 0) hwh hww]
    rfl

set_option maxHeartbeats 1600000 in
/-- A MIDDLE POINT OF A BATCH: the group's count is added to what the count accumulator held. -/
theorem countB (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : ¬cond0_1 i)
    (x0 : Vec Ideal S1x32x64x64 .f32) (xt0 : TbBuf0 (F := Ideal) c tbM0_0) (xt1 : TbBuf0 (F := Ideal) c tbM0_1) (xs0 xs1 : Vec Ideal S512x512 .f32) (xw : Vec Ideal S32x512 .bf16)
    (hwh : ∀ g, (whOf c i xt0 g : BitVec 32).toNat < 2 ^ 31) (hww : ∀ g, (wwOf c i xt1 g : BitVec 32).toNat < 2 ^ 31) (h x : Fin 512) :
    (VS0_1.read (Elt Ideal) (VS0_1.writes (Elt Ideal) VS0_1.junk (kernelRun0_B (F := Ideal) c i arg4 harg4 arg5 harg5 arg6 harg6 arg7 harg7 arg8 harg8 arg9 harg9 arg10 harg10 arg11 harg11 hc0 hc1 x0 xt0 xt1 xs0 xs1 xw).2.1) : S512x512.Idx → EReal) (ix2 h x)
      = (xs1 : S512x512.Idx → EReal) (ix2 h x) + ∑ g : Fin 32, ∑ i' : Fin 64, ∑ j : Fin 64,
          if lands (whOf c i xt0 g) i' h ∧ lands (wwOf c i xt1 g) j x then (1 : EReal) else 0 := by
  rw [View.read_writes_junk_eq_canon]
  unfold kernelRun0_B
  dsimp only
  sl_unfold_run_names
  dsimp only
  rw [View.canon_cons_unit_zero (S := S512x512) hz2]
  refine (cnt_pay_congr (?hm : _ = hMaskOf (whOf c i xt0)) (?wm : _ = wMaskOf (wwOf c i xt1) (fun _ _ => 0))
    (?acc : _ = xs1) (ix2 h x)).trans ?fin
  case acc =>
    simp only [View.readAt_eq_ld, harg7.read_unread, View.ld_unit_zero (S := S512x512) hz2]
  case hm =>
    refine ((View.readCov_eq_canon' _ _ _).trans (View.ld_unit_zero (S := S512x32) hz2 _ _)).trans (funext fun y => ?_)
    refine (?keyH : ∀ y : S512x32.Idx, (y 1).val < 2 * 15 + 2 → View.canon (Val := Elt Ideal) (e := .bf16) _ y = hMaskOf (whOf c i xt0) y) y
      (show (y 1).val < 32 from (y 1).isLt)
    hm_pair c i 15 30#32
    hm_pair c i 14 28#32
    hm_pair c i 13 26#32
    hm_pair c i 12 24#32
    hm_pair c i 11 22#32
    hm_pair c i 10 20#32
    hm_pair c i 9 18#32
    hm_pair c i 8 16#32
    hm_pair c i 7 14#32
    hm_pair c i 6 12#32
    hm_pair c i 5 10#32
    hm_pair c i 4 8#32
    hm_pair c i 3 6#32
    hm_pair c i 2 4#32
    hm_pair c i 1 2#32
    hm_pair c i 0 0#32
    exact fun y hy => absurd hy (Nat.not_lt_zero _)
  case wm =>
    refine ((View.readCov_eq_canon' _ _ _).trans (View.ld_unit_zero (S := S32x512) hz2 _ _)).trans (funext fun y => ?_)
    refine (?keyW : ∀ y : S32x512.Idx, (y 0).val < 2 * 15 + 2 → View.canon (Val := Elt Ideal) (e := .bf16) _ y = wMaskOf (wwOf c i xt1) (fun _ _ => 0) y) y
      (show (y 0).val < 32 from (y 0).isLt)
    wm_pair c i hww 15 30#32
    wm_pair c i hww 14 28#32
    wm_pair c i hww 13 26#32
    wm_pair c i hww 12 24#32
    wm_pair c i hww 11 22#32
    wm_pair c i hww 10 20#32
    wm_pair c i hww 9 18#32
    wm_pair c i hww 8 16#32
    wm_pair c i hww 7 14#32
    wm_pair c i hww 6 12#32
    wm_pair c i hww 5 10#32
    wm_pair c i hww 4 8#32
    wm_pair c i hww 3 6#32
    wm_pair c i hww 2 4#32
    wm_pair c i hww 1 2#32
    wm_pair c i hww 0 0#32
    exact fun y hy => absurd hy (Nat.not_lt_zero _)
  case fin =>
    exact cnt_pay_apply (whOf c i xt0) (wwOf c i xt1) (fun _ _ => 0) hwh hww xs1 h x

set_option maxHeartbeats 1600000 in
/-- THE LAST POINT OF A BATCH: the group's count is added to what the count accumulator held. -/
theorem countC (c : Dev nD) (i : grid0.Coords)
    (arg4 : Memref sig .tc .vmem S1x32x64x64 .f32) (harg4 : arg4.IsWhole) (arg5 : Memref sig .tc .vmem S1x1x512x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x2048 .bf16) (harg8 : arg8.IsWhole) (arg9 : Memref sig .tc .vmem S2048x512 .bf16) (harg9 : arg9.IsWhole)
    (arg10 : Memref sig .tc .vmem S512x32 .bf16) (harg10 : arg10.IsWhole) (arg11 : Memref sig .tc .vmem S32x512 .bf16) (harg11 : arg11.IsWhole)
    (hc0 : ¬cond0_0 i) (hc1 : cond0_1 i)
    (x0 : Vec Ideal S1x32x64x64 .f32) (xt0 : TbBuf0 (F := Ideal) c tbM0_0) (xt1 : TbBuf0 (F := Ideal) c tbM0_1) (xs0 xs1 : Vec Ideal S512x512 .f32) (xw : Vec Ideal S32x512 .bf16)
    (hwh : ∀ g, (whOf c i xt0 g : BitVec 32).toNat < 2 ^ 31) (hww : ∀ g, (wwOf c i xt1 g : BitVec 32).toNat < 2 ^ 31) (h x : Fin 512) :
    (VS0_1.read (Elt Ideal) (VS0_1.writes (Elt Ideal) VS0_1.junk (kernelRun0_C (F := Ideal) c i arg4 harg4 arg5 harg5 arg6 harg6 arg7 harg7 arg8 harg8 arg9 harg9 arg10 harg10 arg11 harg11 hc0 hc1 x0 xt0 xt1 xs0 xs1 xw).2.2.1) : S512x512.Idx → EReal) (ix2 h x)
      = (xs1 : S512x512.Idx → EReal) (ix2 h x) + ∑ g : Fin 32, ∑ i' : Fin 64, ∑ j : Fin 64,
          if lands (whOf c i xt0 g) i' h ∧ lands (wwOf c i xt1 g) j x then (1 : EReal) else 0 := by
  rw [View.read_writes_junk_eq_canon]
  unfold kernelRun0_C
  dsimp only
  sl_unfold_run_names
  dsimp only
  rw [View.canon_cons_unit_zero (S := S512x512) hz2]
  refine (cnt_pay_congr (?hm : _ = hMaskOf (whOf c i xt0)) (?wm : _ = wMaskOf (wwOf c i xt1) (fun _ _ => 0))
    (?acc : _ = xs1) (ix2 h x)).trans ?fin
  case acc =>
    simp only [View.readAt_eq_ld, harg7.read_unread, View.ld_unit_zero (S := S512x512) hz2]
  case hm =>
    refine ((View.readCov_eq_canon' _ _ _).trans (View.ld_unit_zero (S := S512x32) hz2 _ _)).trans (funext fun y => ?_)
    refine (?keyH : ∀ y : S512x32.Idx, (y 1).val < 2 * 15 + 2 → View.canon (Val := Elt Ideal) (e := .bf16) _ y = hMaskOf (whOf c i xt0) y) y
      (show (y 1).val < 32 from (y 1).isLt)
    hm_pair c i 15 30#32
    hm_pair c i 14 28#32
    hm_pair c i 13 26#32
    hm_pair c i 12 24#32
    hm_pair c i 11 22#32
    hm_pair c i 10 20#32
    hm_pair c i 9 18#32
    hm_pair c i 8 16#32
    hm_pair c i 7 14#32
    hm_pair c i 6 12#32
    hm_pair c i 5 10#32
    hm_pair c i 4 8#32
    hm_pair c i 3 6#32
    hm_pair c i 2 4#32
    hm_pair c i 1 2#32
    hm_pair c i 0 0#32
    exact fun y hy => absurd hy (Nat.not_lt_zero _)
  case wm =>
    refine ((View.readCov_eq_canon' _ _ _).trans (View.ld_unit_zero (S := S32x512) hz2 _ _)).trans (funext fun y => ?_)
    refine (?keyW : ∀ y : S32x512.Idx, (y 0).val < 2 * 15 + 2 → View.canon (Val := Elt Ideal) (e := .bf16) _ y = wMaskOf (wwOf c i xt1) (fun _ _ => 0) y) y
      (show (y 0).val < 32 from (y 0).isLt)
    wm_pair c i hww 15 30#32
    wm_pair c i hww 14 28#32
    wm_pair c i hww 13 26#32
    wm_pair c i hww 12 24#32
    wm_pair c i hww 11 22#32
    wm_pair c i hww 10 20#32
    wm_pair c i hww 9 18#32
    wm_pair c i hww 8 16#32
    wm_pair c i hww 7 14#32
    wm_pair c i hww 6 12#32
    wm_pair c i hww 5 10#32
    wm_pair c i hww 4 8#32
    wm_pair c i hww 3 6#32
    wm_pair c i hww 2 4#32
    wm_pair c i hww 1 2#32
    wm_pair c i hww 0 0#32
    exact fun y hy => absurd hy (Nat.not_lt_zero _)
  case fin =>
    exact cnt_pay_apply (whOf c i xt0) (wwOf c i xt1) (fun _ _ => 0) hwh hww xs1 h x

end Cert.KernelIdeal.Hand

end
-- ==== Proof.KI.Accum.lean ====
/-
  The canvas of a batch, accumulated group by group.

  The 512 patches of a batch are 16 groups of 32. The entries landing on a cell from the patches below 32 n are the
  partial sum "up to n"; it is zero at n = 0, grows at each step by the landing entries of the patches of group n
  (patch 32 n + g for g below 32), and at n = 16 is the whole sum "placed". The same holds for the number of landing
  entries and "count". Extended-real addition is commutative and associative, so splitting off one group needs no
  finiteness.
-/
import proofs.«425958_j53352083751494_3_alg».proof.Proof.Spec
import proofs.«425958_j53352083751494_3_alg».proof.Proof.Algebra
import Idealize.ShloMosaic.PureOps.Ideal
import Idealize.ShloMosaic.PureOps.Ideal.Laws
import Mathlib.Algebra.BigOperators.Group.Finset.Basic

noncomputable section

open scoped BigOperators

namespace Cert.Accum

open Cert.Spec Idealize.ShloMosaic Idealize.ShloMosaic.ValueIdx

section
variable (patch : SPatch.Idx → EReal) (coords : SCoord.Idx → BitVec 32) (b : Fin 16)

/-- The entries landing on (h, x) from the patches of the first n groups. -/
def placedUpTo (n : ℕ) (h x : Fin 512) : EReal :=
  ∑ k ∈ Finset.univ.filter (fun k : Fin 512 => k.val < 32 * n), ∑ i : Fin 64, ∑ j : Fin 64,
    if hit coords b k i j h x then patch (ix5 b k (0 : Fin 1) i j) else 0

/-- The number of entries landing on (h, x) from the patches of the first n groups. -/
def countUpTo (n : ℕ) (h x : Fin 512) : EReal :=
  ∑ k ∈ Finset.univ.filter (fun k : Fin 512 => k.val < 32 * n), ∑ i : Fin 64, ∑ j : Fin 64,
    if hit coords b k i j h x then (1 : EReal) else 0

variable (h x : Fin 512)

/-- No group yet: nothing placed. -/
theorem placedUpTo_zero : placedUpTo patch coords b 0 h x = 0 := by
  unfold placedUpTo
  rw [Finset.filter_false_of_mem (fun k _ => by omega), Finset.sum_empty]

/-- No group yet: nothing counted. -/
theorem countUpTo_zero : countUpTo coords b 0 h x = 0 := by
  unfold countUpTo
  rw [Finset.filter_false_of_mem (fun k _ => by omega), Finset.sum_empty]

/-- The first n + 1 groups are the first n and group n. -/
theorem groups_succ (n : ℕ) (hn : n < 16) :
    Finset.univ.filter (fun k' : Fin 16 => k'.val < n + 1)
      = insert (⟨n, hn⟩ : Fin 16) (Finset.univ.filter (fun k' : Fin 16 => k'.val < n)) := by
  ext k'
  simp only [Finset.mem_filter, Finset.mem_univ, true_and, Finset.mem_insert, Fin.ext_iff]
  omega

/-- Splitting group n off a sum over the patches below 32 (n + 1). -/
theorem upTo_succ (f : Fin 512 → EReal) (n : ℕ) (hn : n < 16) :
    (∑ k ∈ Finset.univ.filter (fun k : Fin 512 => k.val < 32 * (n + 1)), f k)
      = (∑ k ∈ Finset.univ.filter (fun k : Fin 512 => k.val < 32 * n), f k)
        + ∑ g : Fin 32, f ⟨32 * n + g.val, by omega⟩ := by
  rw [← Cert.Algebra.regroup_upto f (n + 1) (by omega), ← Cert.Algebra.regroup_upto f n (by omega), groups_succ n hn,
    Finset.sum_insert (by simp), add_comm]

/-- One more group: its patches' landing entries are added. -/
theorem placedUpTo_succ (n : ℕ) (hn : n < 16) :
    placedUpTo patch coords b (n + 1) h x = placedUpTo patch coords b n h x
      + ∑ g : Fin 32, ∑ i : Fin 64, ∑ j : Fin 64,
          if lands (coords (ix3 b ⟨32 * n + g.val, by omega⟩ (0 : Fin 2))) i h
              ∧ lands (coords (ix3 b ⟨32 * n + g.val, by omega⟩ (1 : Fin 2))) j x
          then patch (ix5 b ⟨32 * n + g.val, by omega⟩ (0 : Fin 1) i j) else 0 := by
  unfold placedUpTo
  rw [upTo_succ (fun k => ∑ i : Fin 64, ∑ j : Fin 64,
    if hit coords b k i j h x then patch (ix5 b k (0 : Fin 1) i j) else 0) n hn]
  congr 1

/-- One more group: the number of its patches' landing entries is added. -/
theorem countUpTo_succ (n : ℕ) (hn : n < 16) :
    countUpTo coords b (n + 1) h x = countUpTo coords b n h x
      + ∑ g : Fin 32, ∑ i : Fin 64, ∑ j : Fin 64,
          if lands (coords (ix3 b ⟨32 * n + g.val, by omega⟩ (0 : Fin 2))) i h
              ∧ lands (coords (ix3 b ⟨32 * n + g.val, by omega⟩ (1 : Fin 2))) j x
          then (1 : EReal) else 0 := by
  unfold countUpTo
  rw [upTo_succ (fun k => ∑ i : Fin 64, ∑ j : Fin 64,
    if hit coords b k i j h x then (1 : EReal) else 0) n hn]
  congr 1

/-- All sixteen groups: every patch of the batch. -/
theorem placedUpTo_full : placedUpTo patch coords b 16 h x = placed patch coords b h x := by
  unfold placedUpTo placed
  rw [Finset.filter_true_of_mem (fun k _ => by have := k.isLt; omega)]

/-- All sixteen groups: every patch of the batch. -/
theorem countUpTo_full : countUpTo coords b 16 h x = count coords b h x := by
  unfold countUpTo count
  rw [Finset.filter_true_of_mem (fun k _ => by have := k.isLt; omega)]

end

/-- The normalised canvas from the sums over all sixteen groups. -/
theorem G_eq (patch : SPatch.Idx → EReal) (coords : SCoord.Idx → BitVec 32) (y : SOut.Idx) :
    G patch coords y = Ideal.div (placedUpTo patch coords (y 0) 16 (y 2) (y 3))
      (max (countUpTo coords (y 0) 16 (y 2) (y 3)) (Ideal.ofBits .f32 0x3F800000#32)) := by
  have e1 := placedUpTo_full patch coords (y 0) (y 2) (y 3)
  have e2 := countUpTo_full coords (y 0) (y 2) (y 3)
  rw [e1, e2]
  rfl

/-- The word a reset writes is the extended real zero. -/
theorem zero_word : Ideal.ofBits .f32 0x00000000#32 = (0 : EReal) := Ideal.ofBits_zero_f32

end Cert.Accum

end
-- ==== Proof.KI.AccInduct.lean ====
/-
  The two running sums over a batch's sixteen groups, as a recurrence.

  Position n = 16 b + k of a 16 x 16 walk handles group k of batch b. A running sum that is set to zero plus the
  group's landing entries when k = 0, and to its value at position n - 1 plus the group's landing entries when
  0 < k, holds at position n the landing entries of groups 0 .. k of batch b: the partial sum "up to k + 1". At the
  batch's last position (k = 15) this is the whole sum over the batch's 512 patches. The same holds for the number
  of landing entries. Each step adds one group on the right, exactly as the partial sums grow, so no rearrangement
  of extended-real sums (and no finiteness) is needed.
-/
import proofs.«425958_j53352083751494_3_alg».proof.Proof.KI.Accum

noncomputable section

open scoped BigOperators

namespace Cert.AccInduct

open Cert.Spec Cert.Accum Idealize.ShloMosaic Idealize.ShloMosaic.ValueIdx

section
variable (patch : SPatch.Idx → EReal) (coords : SCoord.Idx → BitVec 32)

/-- The entries of group k of batch b (patches 32 k + g, g below 32) landing on (h, x). -/
def contribP (b : Fin 16) (k : ℕ) (hk : k < 16) (h x : Fin 512) : EReal :=
  ∑ g : Fin 32, ∑ i : Fin 64, ∑ j : Fin 64,
    if lands (coords (ix3 b ⟨32 * k + g.val, by omega⟩ (0 : Fin 2))) i h
        ∧ lands (coords (ix3 b ⟨32 * k + g.val, by omega⟩ (1 : Fin 2))) j x
    then patch (ix5 b ⟨32 * k + g.val, by omega⟩ (0 : Fin 1) i j) else 0

/-- The number of entries of group k of batch b landing on (h, x). -/
def contribC (b : Fin 16) (k : ℕ) (hk : k < 16) (h x : Fin 512) : EReal :=
  ∑ g : Fin 32, ∑ i : Fin 64, ∑ j : Fin 64,
    if lands (coords (ix3 b ⟨32 * k + g.val, by omega⟩ (0 : Fin 2))) i h
        ∧ lands (coords (ix3 b ⟨32 * k + g.val, by omega⟩ (1 : Fin 2))) j x
    then (1 : EReal) else 0

/-- One more group, in terms of the group's contribution. -/
theorem placedUpTo_succ' (b : Fin 16) (k : ℕ) (hk : k < 16) (h x : Fin 512) :
    placedUpTo patch coords b (k + 1) h x
      = placedUpTo patch coords b k h x + contribP patch coords b k hk h x :=
  placedUpTo_succ patch coords b h x k hk

/-- One more group, in terms of the group's contribution. -/
theorem countUpTo_succ' (b : Fin 16) (k : ℕ) (hk : k < 16) (h x : Fin 512) :
    countUpTo coords b (k + 1) h x
      = countUpTo coords b k h x + contribC coords b k hk h x :=
  countUpTo_succ coords b h x k hk

/-- A running sum reset at each batch's first group and grown by one group per position holds, at position n,
the landing entries of the groups 0 .. n % 16 of batch n / 16. -/
theorem placed_of_rec (a : ℕ → Fin 512 → Fin 512 → EReal)
    (hreset : ∀ n (hn : n < 256), n % 16 = 0 → ∀ h x,
      a n h x = 0 + contribP patch coords ⟨n / 16, by omega⟩ 0 (by omega) h x)
    (hstep : ∀ n (hn : n < 256), n % 16 ≠ 0 → ∀ h x,
      a n h x = a (n - 1) h x
        + contribP patch coords ⟨n / 16, by omega⟩ (n % 16) (by omega) h x) :
    ∀ n (hn : n < 256), ∀ h x,
      a n h x = placedUpTo patch coords ⟨n / 16, by omega⟩ (n % 16 + 1) h x := by
  intro n
  induction n using Nat.strong_induction_on with
  | _ n ih =>
    intro hn h x
    by_cases h0 : n % 16 = 0
    · -- first group of its batch: zero plus the group is the partial sum up to 1
      have e : placedUpTo patch coords ⟨n / 16, by omega⟩ (n % 16 + 1) h x
          = placedUpTo patch coords ⟨n / 16, by omega⟩ (0 + 1) h x := by rw [h0]
      rw [hreset n hn h0 h x, e, placedUpTo_succ' patch coords _ 0 (by omega) h x, placedUpTo_zero]
    · -- a later group: the previous position is in the same batch, one group earlier
      have eb : (⟨(n - 1) / 16, by omega⟩ : Fin 16) = ⟨n / 16, by omega⟩ := Fin.ext (by simp only; omega)
      have ek : (n - 1) % 16 + 1 = n % 16 := by omega
      rw [hstep n hn h0 h x, ih (n - 1) (by omega) (by omega) h x,
        placedUpTo_succ' patch coords _ (n % 16) (by omega) h x, eb, ek]

/-- The same with the reset value written as the all-zero word's extended real. -/
theorem placed_of_rec_word (a : ℕ → Fin 512 → Fin 512 → EReal)
    (hreset : ∀ n (hn : n < 256), n % 16 = 0 → ∀ h x,
      a n h x = Ideal.ofBits .f32 0x00000000#32
        + contribP patch coords ⟨n / 16, by omega⟩ 0 (by omega) h x)
    (hstep : ∀ n (hn : n < 256), n % 16 ≠ 0 → ∀ h x,
      a n h x = a (n - 1) h x
        + contribP patch coords ⟨n / 16, by omega⟩ (n % 16) (by omega) h x) :
    ∀ n (hn : n < 256), ∀ h x,
      a n h x = placedUpTo patch coords ⟨n / 16, by omega⟩ (n % 16 + 1) h x :=
  placed_of_rec patch coords a
    (fun n hn h0 h x => by rw [hreset n hn h0 h x, zero_word]) hstep

/-- The count's running sum likewise. -/
theorem count_of_rec (a : ℕ → Fin 512 → Fin 512 → EReal)
    (hreset : ∀ n (hn : n < 256), n % 16 = 0 → ∀ h x,
      a n h x = 0 + contribC coords ⟨n / 16, by omega⟩ 0 (by omega) h x)
    (hstep : ∀ n (hn : n < 256), n % 16 ≠ 0 → ∀ h x,
      a n h x = a (n - 1) h x
        + contribC coords ⟨n / 16, by omega⟩ (n % 16) (by omega) h x) :
    ∀ n (hn : n < 256), ∀ h x,
      a n h x = countUpTo coords ⟨n / 16, by omega⟩ (n % 16 + 1) h x := by
  intro n
  induction n using Nat.strong_induction_on with
  | _ n ih =>
    intro hn h x
    by_cases h0 : n % 16 = 0
    · have e : countUpTo coords ⟨n / 16, by omega⟩ (n % 16 + 1) h x
          = countUpTo coords ⟨n / 16, by omega⟩ (0 + 1) h x := by rw [h0]
      rw [hreset n hn h0 h x, e, countUpTo_succ' coords _ 0 (by omega) h x, countUpTo_zero]
    · have eb : (⟨(n - 1) / 16, by omega⟩ : Fin 16) = ⟨n / 16, by omega⟩ := Fin.ext (by simp only; omega)
      have ek : (n - 1) % 16 + 1 = n % 16 := by omega
      rw [hstep n hn h0 h x, ih (n - 1) (by omega) (by omega) h x,
        countUpTo_succ' coords _ (n % 16) (by omega) h x, eb, ek]

/-- The same with the reset value written as the all-zero word's extended real. -/
theorem count_of_rec_word (a : ℕ → Fin 512 → Fin 512 → EReal)
    (hreset : ∀ n (hn : n < 256), n % 16 = 0 → ∀ h x,
      a n h x = Ideal.ofBits .f32 0x00000000#32
        + contribC coords ⟨n / 16, by omega⟩ 0 (by omega) h x)
    (hstep : ∀ n (hn : n < 256), n % 16 ≠ 0 → ∀ h x,
      a n h x = a (n - 1) h x
        + contribC coords ⟨n / 16, by omega⟩ (n % 16) (by omega) h x) :
    ∀ n (hn : n < 256), ∀ h x,
      a n h x = countUpTo coords ⟨n / 16, by omega⟩ (n % 16 + 1) h x :=
  count_of_rec coords a
    (fun n hn h0 h x => by rw [hreset n hn h0 h x, zero_word]) hstep

/-- Position 16 b + k holds the partial sum of batch b up to group k + 1. -/
theorem placed_at (a : ℕ → Fin 512 → Fin 512 → EReal)
    (hrec : ∀ n (hn : n < 256), ∀ h x,
      a n h x = placedUpTo patch coords ⟨n / 16, by omega⟩ (n % 16 + 1) h x)
    (b : Fin 16) (k : ℕ) (hk : k < 16) (h x : Fin 512) :
    a (16 * b.val + k) h x = placedUpTo patch coords b (k + 1) h x := by
  have hn : 16 * b.val + k < 256 := by omega
  have eb : (⟨(16 * b.val + k) / 16, by omega⟩ : Fin 16) = b := Fin.ext (by simp only; omega)
  have ek : (16 * b.val + k) % 16 + 1 = k + 1 := by omega
  rw [hrec _ hn h x, eb, ek]

/-- Position 16 b + k holds the partial count of batch b up to group k + 1. -/
theorem count_at (a : ℕ → Fin 512 → Fin 512 → EReal)
    (hrec : ∀ n (hn : n < 256), ∀ h x,
      a n h x = countUpTo coords ⟨n / 16, by omega⟩ (n % 16 + 1) h x)
    (b : Fin 16) (k : ℕ) (hk : k < 16) (h x : Fin 512) :
    a (16 * b.val + k) h x = countUpTo coords b (k + 1) h x := by
  have hn : 16 * b.val + k < 256 := by omega
  have eb : (⟨(16 * b.val + k) / 16, by omega⟩ : Fin 16) = b := Fin.ext (by simp only; omega)
  have ek : (16 * b.val + k) % 16 + 1 = k + 1 := by omega
  rw [hrec _ hn h x, eb, ek]

/-- At a batch's last position the running sum is the batch's whole sum. -/
theorem placed_last (a : ℕ → Fin 512 → Fin 512 → EReal)
    (hreset : ∀ n (hn : n < 256), n % 16 = 0 → ∀ h x,
      a n h x = 0 + contribP patch coords ⟨n / 16, by omega⟩ 0 (by omega) h x)
    (hstep : ∀ n (hn : n < 256), n % 16 ≠ 0 → ∀ h x,
      a n h x = a (n - 1) h x
        + contribP patch coords ⟨n / 16, by omega⟩ (n % 16) (by omega) h x)
    (b : Fin 16) (h x : Fin 512) :
    a (16 * b.val + 15) h x = placed patch coords b h x := by
  rw [placed_at patch coords a (placed_of_rec patch coords a hreset hstep) b 15 (by omega) h x,
    placedUpTo_full]

/-- The same with the reset value written as the all-zero word's extended real. -/
theorem placed_last_word (a : ℕ → Fin 512 → Fin 512 → EReal)
    (hreset : ∀ n (hn : n < 256), n % 16 = 0 → ∀ h x,
      a n h x = Ideal.ofBits .f32 0x00000000#32
        + contribP patch coords ⟨n / 16, by omega⟩ 0 (by omega) h x)
    (hstep : ∀ n (hn : n < 256), n % 16 ≠ 0 → ∀ h x,
      a n h x = a (n - 1) h x
        + contribP patch coords ⟨n / 16, by omega⟩ (n % 16) (by omega) h x)
    (b : Fin 16) (h x : Fin 512) :
    a (16 * b.val + 15) h x = placed patch coords b h x := by
  rw [placed_at patch coords a (placed_of_rec_word patch coords a hreset hstep) b 15 (by omega) h x,
    placedUpTo_full]

/-- At a batch's last position the running count is the batch's whole count. -/
theorem count_last (a : ℕ → Fin 512 → Fin 512 → EReal)
    (hreset : ∀ n (hn : n < 256), n % 16 = 0 → ∀ h x,
      a n h x = 0 + contribC coords ⟨n / 16, by omega⟩ 0 (by omega) h x)
    (hstep : ∀ n (hn : n < 256), n % 16 ≠ 0 → ∀ h x,
      a n h x = a (n - 1) h x
        + contribC coords ⟨n / 16, by omega⟩ (n % 16) (by omega) h x)
    (b : Fin 16) (h x : Fin 512) :
    a (16 * b.val + 15) h x = count coords b h x := by
  rw [count_at coords a (count_of_rec coords a hreset hstep) b 15 (by omega) h x, countUpTo_full]

/-- The same with the reset value written as the all-zero word's extended real. -/
theorem count_last_word (a : ℕ → Fin 512 → Fin 512 → EReal)
    (hreset : ∀ n (hn : n < 256), n % 16 = 0 → ∀ h x,
      a n h x = Ideal.ofBits .f32 0x00000000#32
        + contribC coords ⟨n / 16, by omega⟩ 0 (by omega) h x)
    (hstep : ∀ n (hn : n < 256), n % 16 ≠ 0 → ∀ h x,
      a n h x = a (n - 1) h x
        + contribC coords ⟨n / 16, by omega⟩ (n % 16) (by omega) h x)
    (b : Fin 16) (h x : Fin 512) :
    a (16 * b.val + 15) h x = count coords b h x := by
  rw [count_at coords a (count_of_rec_word coords a hreset hstep) b 15 (by omega) h x, countUpTo_full]

end

end Cert.AccInduct

end
-- ==== Proof.KI.Value.lean ====
/-
  The idealised kernel's result is the normalised canvas.

  Position n = 16 b + k of the grid handles group k of batch b. By the three cases' runs the value accumulator after
  position n is, at every cell, the zero word plus the group's landing entries when k = 0 and what position n - 1 left
  plus the group's landing entries otherwise; the group's landing entries, read through the corner tables and the patch
  window's block, are those of patches 32 k + g of batch b in the argument arrays. So after position n the accumulator
  holds the landing entries of groups 0 .. k, and after a batch's last position all of them; likewise the count. The
  last position writes placed / max(count, 1) into the batch's canvas block, which is what the result array holds for
  that batch after the run: the normalised canvas.
-/
import proofs.«425958_j53352083751494_3_alg».proof.Proof.KI.Frame
import proofs.«425958_j53352083751494_3_alg».proof.Proof.KI.Flush
import proofs.«425958_j53352083751494_3_alg».proof.Proof.KI.PieceValue
import proofs.«425958_j53352083751494_3_alg».proof.Proof.KI.PieceValueA
import proofs.«425958_j53352083751494_3_alg».proof.Proof.KI.PieceValueB
import proofs.«425958_j53352083751494_3_alg».proof.Proof.KI.PieceValueC
import proofs.«425958_j53352083751494_3_alg».proof.Proof.KI.PieceCount
import proofs.«425958_j53352083751494_3_alg».proof.Proof.KI.AccInduct

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat Cfg Window)

variable [Cert.KernelIdeal.Facts]
variable (m : (ℓ : Loc nD τ sig) → Buf (Elt Ideal) ℓ) (ρ : Dev nD → PrngReg)

/-- The patch values the program was launched with. -/
abbrev patchOf (c : Dev nD) : SPatch.Idx → EReal := m ((c : Thread nD τ).loc main_arg0)
/-- The corner table the program was launched with. -/
abbrev coordsOf (c : Dev nD) : SCoord.Idx → BitVec 32 := m ((c : Thread nD τ).loc main_arg1)

/-- Grid position t is batch t / 16, group t % 16. -/
theorem coords_split : ∀ t : Fin grid0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

theorem N256 : (cfgM m).N = 256 := N_0
theorem t_lt (t : Fin (cfgM m).N) : t.val < 256 := lt_of_lt_of_eq t.isLt (N256 m)

/-- The first table is column 0 of the corner table. -/
theorem tbl0_apply (c : Dev nD) (b : Fin 16) (k : Fin 512) :
    (tbl m 0 : S16x512.Idx → BitVec 32) (ix2 b k) = coordsOf m c (ix3 b k (0 : Fin 2)) := by
  obtain rfl : c = 0 := Subsingleton.elim _ _
  exact V_main_v2 m 0 b k

/-- The second table is column 1 of the corner table. -/
theorem tbl1_apply (c : Dev nD) (b : Fin 16) (k : Fin 512) :
    (tbl m 1 : S16x512.Idx → BitVec 32) (ix2 b k) = coordsOf m c (ix3 b k (1 : Fin 2)) := by
  obtain rfl : c = 0 := Subsingleton.elim _ _
  exact V_main_v4 m 0 b k

section point
variable (c : Dev nD) (t : Fin (cfgM m).N)

/-- The batch of grid position t. -/
def bOf : Fin 16 := ⟨t.val / 16, by have := t_lt m t; omega⟩
theorem kOf_lt : t.val % 16 < 16 := Nat.mod_lt _ (by decide)

theorem coords0_eq : (grid0.coords t) 0 = bOf m t := Fin.ext (coords_split t).1
theorem patchIx_eq (g : Fin 32) : patchIx (grid0.coords t) g = ⟨32 * (t.val % 16) + g.val, by have := g.isLt; have := kOf_lt m t; omega⟩ :=
  Fin.ext (by
    show 32 * ((grid0.coords t) 1).val + g.val = 32 * (t.val % 16) + g.val
    rw [(coords_split t).2])

/-- The row corner the point reads for patch g is the table's entry for patch 32 k + g of the batch. -/
theorem whOf_eq (g : Fin 32) :
    (whOf c (grid0.coords t) (tbl m 0) g : BitVec 32)
      = coordsOf m c (ix3 (bOf m t) ⟨32 * (t.val % 16) + g.val, by have := g.isLt; have := kOf_lt m t; omega⟩ (0 : Fin 2)) := by
  unfold whOf
  rw [coords0_eq, patchIx_eq]
  exact tbl0_apply m c _ _

/-- The column corner likewise. -/
theorem wwOf_eq (g : Fin 32) :
    (wwOf c (grid0.coords t) (tbl m 1) g : BitVec 32)
      = coordsOf m c (ix3 (bOf m t) ⟨32 * (t.val % 16) + g.val, by have := g.isLt; have := kOf_lt m t; omega⟩ (1 : Fin 2)) := by
  unfold wwOf
  rw [coords0_eq, patchIx_eq]
  exact tbl1_apply m c _ _

/-- Entry (i, j) of patch g of the point's block is entry (i, j) of patch 32 k + g of the batch. -/
theorem POf_eq (g : Fin 32) (i j : Fin 64) :
    POf (iblk m c 0 t) g (ix4 (0 : Fin 1) (0 : Fin 1) i j)
      = patchOf m c (ix5 (bOf m t) ⟨32 * (t.val % 16) + g.val, by have := g.isLt; have := kOf_lt m t; omega⟩ (0 : Fin 1) i j) := by
  show (iblk m c 0 t : S1x32x64x64.Idx → EReal) (ix4 (0 : Fin 1) g i j) = _
  have e1 : ((grid0.coords t) 0 : Fin 16) = bOf m t := coords0_eq m t
  have e2 : patchIx (grid0.coords t) g = ⟨32 * (t.val % 16) + g.val, by have := g.isLt; have := kOf_lt m t; omega⟩ := patchIx_eq m t g
  refine (iblk0_apply m c t g i j).trans ((V_main_v0 m c ((grid0.coords t) 0) (patchIx (grid0.coords t) g) i j).trans ?_)
  rw [e1, e2]

variable (hnn : ∀ x, (coordsOf m c x).toNat < 2 ^ 31)
include hnn

theorem hwh (g : Fin 32) : (whOf c (grid0.coords t) (tbl m 0) g : BitVec 32).toNat < 2 ^ 31 := by rw [whOf_eq]; exact hnn _
theorem hww (g : Fin 32) : (wwOf c (grid0.coords t) (tbl m 1) g : BitVec 32).toNat < 2 ^ 31 := by rw [wwOf_eq]; exact hnn _

omit hnn

/-- The point's landing entries, read through the tables and the block, are the group's of the argument arrays. -/
theorem sumP_eq (h x : Fin 512) :
    (∑ g : Fin 32, ∑ i' : Fin 64, ∑ j : Fin 64,
        if lands (whOf c (grid0.coords t) (tbl m 0) g) i' h ∧ lands (wwOf c (grid0.coords t) (tbl m 1) g) j x
        then POf (iblk m c 0 t) g (ix4 (0 : Fin 1) (0 : Fin 1) i' j) else 0)
      = Cert.AccInduct.contribP (patchOf m c) (coordsOf m c) (bOf m t) (t.val % 16) (kOf_lt m t) h x := by
  unfold Cert.AccInduct.contribP
  refine Finset.sum_congr rfl fun g _ => Finset.sum_congr rfl fun i' _ => Finset.sum_congr rfl fun j _ => ?_
  rw [whOf_eq, wwOf_eq, POf_eq]

/-- The point's number of landing entries likewise. -/
theorem sumC_eq (h x : Fin 512) :
    (∑ g : Fin 32, ∑ i' : Fin 64, ∑ j : Fin 64,
        if lands (whOf c (grid0.coords t) (tbl m 0) g) i' h ∧ lands (wwOf c (grid0.coords t) (tbl m 1) g) j x
        then (1 : EReal) else 0)
      = Cert.AccInduct.contribC (coordsOf m c) (bOf m t) (t.val % 16) (kOf_lt m t) h x := by
  unfold Cert.AccInduct.contribC
  refine Finset.sum_congr rfl fun g _ => Finset.sum_congr rfl fun i' _ => Finset.sum_congr rfl fun j _ => ?_
  rw [whOf_eq, wwOf_eq]

end point

end Cert.KernelIdeal.Hand

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat Cfg Window)

variable [Cert.KernelIdeal.Facts]
variable (m : (ℓ : Loc nD τ sig) → Buf (Elt Ideal) ℓ) (ρ : Dev nD → PrngReg)

/-- A group's contribution depends on the group's number only through its value. -/
theorem contribP_congr (patch : SPatch.Idx → EReal) (coords : SCoord.Idx → BitVec 32) (b : Fin 16) (k k' : ℕ) (hk : k < 16) (hk' : k' < 16)
    (e : k = k') (h x : Fin 512) : Cert.AccInduct.contribP patch coords b k hk h x = Cert.AccInduct.contribP patch coords b k' hk' h x := by
  subst e; rfl
theorem contribC_congr (coords : SCoord.Idx → BitVec 32) (b : Fin 16) (k k' : ℕ) (hk : k < 16) (hk' : k' < 16)
    (e : k = k') (h x : Fin 512) : Cert.AccInduct.contribC coords b k hk h x = Cert.AccInduct.contribC coords b k' hk' h x := by
  subst e; rfl

section accumulators
variable (c : Dev nD) (hnn : ∀ x, (coordsOf m c x).toNat < 2 ^ 31)

/-- The value accumulator after position n, cell by cell (zero beyond the grid, where nothing is claimed). -/
def acc0 (n : ℕ) (h x : Fin 512) : EReal :=
  if hn : n < (cfgM m).N then ((outsAt0 m c n hn).2.1 : S512x512.Idx → EReal) (ix2 h x) else 0
/-- The count accumulator after position n, cell by cell. -/
def acc1 (n : ℕ) (h x : Fin 512) : EReal :=
  if hn : n < (cfgM m).N then ((outsAt0 m c n hn).2.2 : S512x512.Idx → EReal) (ix2 h x) else 0

theorem acc0_at (t : Fin (cfgM m).N) (h x : Fin 512) : acc0 m c t.val h x = ((outsAt0 m c t.val t.isLt).2.1 : S512x512.Idx → EReal) (ix2 h x) := dif_pos t.isLt
theorem acc1_at (t : Fin (cfgM m).N) (h x : Fin 512) : acc1 m c t.val h x = ((outsAt0 m c t.val t.isLt).2.2 : S512x512.Idx → EReal) (ix2 h x) := dif_pos t.isLt
theorem acc0_prev (t : Fin (cfgM m).N) (h x : Fin 512) :
    acc0 m c (t.val - 1) h x = ((outsAt0 m c (t.val - 1) (Nat.lt_of_le_of_lt (Nat.sub_le _ _) t.isLt)).2.1 : S512x512.Idx → EReal) (ix2 h x) :=
  dif_pos (Nat.lt_of_le_of_lt (Nat.sub_le _ _) t.isLt)
theorem acc1_prev (t : Fin (cfgM m).N) (h x : Fin 512) :
    acc1 m c (t.val - 1) h x = ((outsAt0 m c (t.val - 1) (Nat.lt_of_le_of_lt (Nat.sub_le _ _) t.isLt)).2.2 : S512x512.Idx → EReal) (ix2 h x) :=
  dif_pos (Nat.lt_of_le_of_lt (Nat.sub_le _ _) t.isLt)

include hnn

/-- At a batch's first position the value accumulator is the zero word plus the group's landing entries. -/
theorem acc0_reset (t : Fin (cfgM m).N) (h0 : t.val % 16 = 0) (h x : Fin 512) :
    acc0 m c t.val h x = Ideal.ofBits .f32 0x00000000#32
      + Cert.AccInduct.contribP (patchOf m c) (coordsOf m c) (bOf m t) (t.val % 16) (kOf_lt m t) h x := by
  have h1 : ¬ t.val % 16 = 15 := by omega
  rw [acc0_at, outsAt0_A m c t h0 h1]; dsimp only
  unfold sout0_A_0
  rw [← sumP_eq m c t h x]
  exact valueA c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h' => h1 ((hcond0_1 t).mp h')) (iblk m c 0 t) (tbl m 0) (tbl m 1) wIdle (hwh m c t hnn) (hww m c t hnn) h x

/-- At a later position it is what the position before left plus the group's landing entries. -/
theorem acc0_step (t : Fin (cfgM m).N) (h0 : ¬ t.val % 16 = 0) (h x : Fin 512) :
    acc0 m c t.val h x = acc0 m c (t.val - 1) h x
      + Cert.AccInduct.contribP (patchOf m c) (coordsOf m c) (bOf m t) (t.val % 16) (kOf_lt m t) h x := by
  rw [acc0_at, acc0_prev, ← sumP_eq m c t h x]
  by_cases h1 : t.val % 16 = 15
  · rw [outsAt0_C m c t h0 h1]; dsimp only
    unfold sout0_C_0
    exact valueC c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h' => h0 ((hcond0_0 t).mp h')) ((hcond0_1 t).mpr h1) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle (hwh m c t hnn) (hww m c t hnn) h x
  · rw [outsAt0_B m c t h0 h1]; dsimp only
    unfold sout0_B_0
    exact valueB c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h' => h0 ((hcond0_0 t).mp h')) (fun h' => h1 ((hcond0_1 t).mp h')) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle (hwh m c t hnn) (hww m c t hnn) h x

/-- The count accumulator at a batch's first position. -/
theorem acc1_reset (t : Fin (cfgM m).N) (h0 : t.val % 16 = 0) (h x : Fin 512) :
    acc1 m c t.val h x = Ideal.ofBits .f32 0x00000000#32
      + Cert.AccInduct.contribC (coordsOf m c) (bOf m t) (t.val % 16) (kOf_lt m t) h x := by
  have h1 : ¬ t.val % 16 = 15 := by omega
  rw [acc1_at, outsAt0_A m c t h0 h1]; dsimp only
  unfold sout0_A_1
  rw [← sumC_eq m c t h x]
  exact countA c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h' => h1 ((hcond0_1 t).mp h')) (iblk m c 0 t) (tbl m 0) (tbl m 1) wIdle (hwh m c t hnn) (hww m c t hnn) h x

/-- The count accumulator at a later position. -/
theorem acc1_step (t : Fin (cfgM m).N) (h0 : ¬ t.val % 16 = 0) (h x : Fin 512) :
    acc1 m c t.val h x = acc1 m c (t.val - 1) h x
      + Cert.AccInduct.contribC (coordsOf m c) (bOf m t) (t.val % 16) (kOf_lt m t) h x := by
  rw [acc1_at, acc1_prev, ← sumC_eq m c t h x]
  by_cases h1 : t.val % 16 = 15
  · rw [outsAt0_C m c t h0 h1]; dsimp only
    unfold sout0_C_1
    exact countC c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h' => h0 ((hcond0_0 t).mp h')) ((hcond0_1 t).mpr h1) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle (hwh m c t hnn) (hww m c t hnn) h x
  · rw [outsAt0_B m c t h0 h1]; dsimp only
    unfold sout0_B_1
    exact countB c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h' => h0 ((hcond0_0 t).mp h')) (fun h' => h1 ((hcond0_1 t).mp h')) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle (hwh m c t hnn) (hww m c t hnn) h x

/-- After a batch's last position the value accumulator holds every landing entry of the batch. -/
theorem acc0_last (b : Fin 16) (h x : Fin 512) :
    acc0 m c (16 * b.val + 15) h x = placed (patchOf m c) (coordsOf m c) b h x :=
  Cert.AccInduct.placed_last_word (patchOf m c) (coordsOf m c) (acc0 m c)
    (fun n hn h0 h x => by
      have e := acc0_reset m c hnn ⟨n, by rw [N256]; exact hn⟩ h0 h x
      rw [e]; exact congrArg _ (contribP_congr _ _ _ _ _ _ _ h0 h x))
    (fun n hn h0 h x => acc0_step m c hnn ⟨n, by rw [N256]; exact hn⟩ h0 h x) b h x

/-- After a batch's last position the count accumulator holds the number of landing entries of the batch. -/
theorem acc1_last (b : Fin 16) (h x : Fin 512) :
    acc1 m c (16 * b.val + 15) h x = count (coordsOf m c) b h x :=
  Cert.AccInduct.count_last_word (coordsOf m c) (acc1 m c)
    (fun n hn h0 h x => by
      have e := acc1_reset m c hnn ⟨n, by rw [N256]; exact hn⟩ h0 h x
      rw [e]; exact congrArg _ (contribC_congr _ _ _ _ _ _ h0 h x))
    (fun n hn h0 h x => acc1_step m c hnn ⟨n, by rw [N256]; exact hn⟩ h0 h x) b h x

/-- The canvas block a batch's last position leaves is the batch's normalised canvas. -/
theorem canvas_last (b : Fin 16) (h x : Fin 512) :
    ((outsAt0 m c (16 * b.val + 15) (lastPt_lt m b)).1 : S1x1x512x512.Idx → EReal) (ix4 (0 : Fin 1) (0 : Fin 1) h x)
      = G (patchOf m c) (coordsOf m c) (ix4 b (0 : Fin 1) h x) := by
  let t : Fin (cfgM m).N := ⟨16 * b.val + 15, lastPt_lt m b⟩
  have h0 : ¬ t.val % 16 = 0 := by show ¬ (16 * b.val + 15) % 16 = 0; omega
  have h1 : t.val % 16 = 15 := by show (16 * b.val + 15) % 16 = 15; omega
  have e0 := acc0_last m c hnn b h x
  have e1 := acc1_last m c hnn b h x
  rw [show 16 * b.val + 15 = t.val from rfl, acc0_at, outsAt0_C m c t h0 h1] at e0
  rw [show 16 * b.val + 15 = t.val from rfl, acc1_at, outsAt0_C m c t h0 h1] at e1
  dsimp only at e0 e1
  unfold sout0_C_0 at e0
  unfold sout0_C_1 at e1
  show ((outsAt0 m c t.val t.isLt).1 : S1x1x512x512.Idx → EReal) (ix4 (0 : Fin 1) (0 : Fin 1) h x) = _
  rw [outsAt0_C m c t h0 h1]; dsimp only
  unfold out0_C_1
  rw [canvasC c (grid0.coords t) (ms0_0 m t) (hs0_0 m t) (ms0_1 m t) (hs0_1 m t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h' => h0 ((hcond0_0 t).mp h')) ((hcond0_1 t).mpr h1) (iblk m c 0 t) (tbl m 0) (tbl m 1) (outsAt0 m c (t.val - 1) (Nat.lt_of_le_of_lt (Nat.sub_le _ _) t.isLt)).2.1 (outsAt0 m c (t.val - 1) (Nat.lt_of_le_of_lt (Nat.sub_le _ _) t.isLt)).2.2 wIdle h x, e0, e1]
  rfl

end accumulators

/-- THE KERNEL'S RUN: from any memory whose corner words are all below 2^31, every execution of the idealised kernel
    terminates with the result array at the normalised canvas of the launch contents of the two arguments, and the
    arguments unchanged. -/
theorem run_G (hnn : ∀ (c : Dev nD) (x : SCoord.Idx), (coordsOf m c x).toNat < 2 ^ 31) :
    θ_run (defs (F := Ideal)) (onTc (τ := τ) (main (F := Ideal))) ⟨m, fun _ => 0, ρ⟩ (fun r => ∀ c : Dev nD,
      r.2.mem ((c.tc : Thread nD τ).loc main_v5) = G (patchOf m c) (coordsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨(hr c).1.trans (funext fun (y : SOut.Idx) => by
      obtain ⟨b, z, h, x, rfl⟩ : ∃ (b : Fin 16) (z : Fin 1) (h x : Fin 512), y = ix4 b z h x := ⟨y 0, y 1, y 2, y 3, eq_ix4 y⟩
      obtain rfl : z = 0 := Subsingleton.elim _ _
      exact (result_eq m c b h x).trans (canvas_last m c (hnn c) b h x)), (hr c).2⟩)
    (run_result m ρ)

end Cert.KernelIdeal.Hand

end
-- ==== Proof.RefWords.lean ====
/-
  Index words of the scatter, read as canvas coordinates.

  The reference turns every index word into a coordinate the way jnp does: a word that is negative when read as a
  signed number gets the axis' extent added once (so -1 means the last cell), and the scatter then drops an update
  whose coordinate is still outside the axis. For a corner word c below 2^31 and an offset i below 64 the sum c + i
  does not wrap as an unsigned number. If it is below 2^31 it is its own signed reading, nothing is added, and the
  update lands on h exactly when c + i = h. If it is 2^31 or more it reads negative, and adding 512 leaves it
  negative (it stays between 2^31 and 2^32), so the update is dropped; nor is c + i a canvas coordinate then.
-/
import Idealize.ShloMosaic.PureOps.Ideal

namespace Cert.RefValue

open Idealize.ShloMosaic

/-- A negative index counted from the end of an axis of extent `n`: `w + n` when `w` reads negative, else `w`. -/
def wrapNeg (n w : BitVec 32) : BitVec 32 := Scalar.select (IntOp.cmpi .slt w 0#32) (IntOp.addi w n) w

/-- A word below 2^31 reads nonnegative and is left alone. -/
theorem wrapNeg_of_lt (n w : BitVec 32) (h : w.toNat < 2 ^ 31) : wrapNeg n w = w := by
  unfold wrapNeg Scalar.select IntOp.cmpi
  have hs : w.slt 0#32 = false := by
    simp only [BitVec.slt, BitVec.toInt_eq_toNat_cond, decide_eq_false_iff_not]
    simp only [BitVec.toNat_ofNat]
    omega
  simp [hs]

/-- A word of 2^31 or more reads negative and gets the extent added. -/
theorem wrapNeg_of_ge (n w : BitVec 32) (h : 2 ^ 31 ≤ w.toNat) : wrapNeg n w = w + n := by
  unfold wrapNeg Scalar.select IntOp.cmpi IntOp.addi
  have hw := w.isLt
  have hs : w.slt 0#32 = true := by
    simp only [BitVec.slt, BitVec.toInt_eq_toNat_cond, decide_eq_true_eq]
    simp only [BitVec.toNat_ofNat]
    omega
  simp [hs]

/-- The corner word plus an offset below 64, as an unsigned number: no wrap. -/
theorem toNat_add_offset (c : BitVec 32) (hc : c.toNat < 2 ^ 31) (i : Fin 64) :
    (IntOp.addi c (BitVec.ofNat 32 i.val)).toNat = c.toNat + i.val := by
  unfold IntOp.addi
  have hi := i.isLt
  rw [BitVec.toNat_add, BitVec.toNat_ofNat]
  omega

/-- THE ROW (OR COLUMN) TEST: the wrapped word of corner `c` plus offset `i`, read signed, is the coordinate `h` of an
    axis of extent 512 exactly when `c + i = h` as natural numbers. -/
theorem wrapNeg_toInt_eq_iff (c : BitVec 32) (hc : c.toNat < 2 ^ 31) (i : Fin 64) (h : Fin 512) :
    (wrapNeg 512#32 (IntOp.addi c (BitVec.ofNat 32 i.val))).toInt = (h.val : Int) ↔ c.toNat + i.val = h.val := by
  have hs := toNat_add_offset c hc i
  have hi := i.isLt
  have hh := h.isLt
  by_cases hlt : c.toNat + i.val < 2 ^ 31
  · rw [wrapNeg_of_lt _ _ (by omega), BitVec.toInt_eq_toNat_cond, hs]
    omega
  · rw [wrapNeg_of_ge _ _ (by omega), BitVec.toInt_eq_toNat_cond, BitVec.toNat_add, hs]
    simp only [BitVec.toNat_ofNat]
    omega

/-- The batch index word of `b < 16` is nonnegative: the wrap leaves it alone, and it reads `b`. -/
theorem wrapNeg_batch_toInt (b : Fin 16) : (wrapNeg 16#32 (BitVec.ofNat 32 b.val)).toInt = (b.val : Int) := by
  have hb := b.isLt
  have hn : (BitVec.ofNat 32 b.val).toNat = b.val := by rw [BitVec.toNat_ofNat]; omega
  rw [wrapNeg_of_lt _ _ (by omega), BitVec.toInt_eq_toNat_cond, hn]
  omega

end Cert.RefValue
-- ==== Proof.RefScatter.lean ====
/-
  A scatter-add of single points into a 16 x 512 x 512 canvas, read at a canvas cell.

  The updates are a 16 x 512 x 64 x 64 array and every update carries its own three index words (batch, row, column),
  stored along a last axis of extent 3 of the index array. All three canvas axes are "inserted": an update is one
  point, its window has no extent, so its canvas position is just its three words read as signed integers. The update
  lands on a cell exactly when the three words, read signed, are the cell's coordinates; an update with a word outside
  its axis lands nowhere. At the extended reals the scattered canvas is therefore the old cell plus the sum, over all
  updates (b, k, i, j), of the update if its words name the cell and of zero otherwise.

  Also here: the index array is the concatenation of three 16 x 512 x 64 x 64 x 1 arrays along the last axis, and
  column c of the concatenation is the c-th array.
-/
import Idealize.ShloMosaic.PureOps.Ideal
import Idealize.ShloMosaic.Lib.ValueIdx
import Idealize.ShloMosaic.Lib.Pipeline.Value

noncomputable section

open scoped BigOperators

namespace Cert.RefValue

open Idealize.ShloMosaic Idealize.ShloMosaic.ValueIdx

/-! ## Sums over a rank-4 index set -/

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A fourfold sum whose terms vanish unless the first coordinate is `b'` is the threefold sum at `b'`. -/
theorem sum_first_eq {M : Type*} [AddCommMonoid M] {n0 n1 n2 n3 : Nat} (b' : Fin n0)
    (P : Fin n0 → Fin n1 → Fin n2 → Fin n3 → Prop) [∀ b k i j, Decidable (P b k i j)]
    [∀ b k i j, Decidable (b = b' ∧ P b k i j)] (f : Fin n0 → Fin n1 → Fin n2 → Fin n3 → M) :
    (∑ b : Fin n0, ∑ k : Fin n1, ∑ i : Fin n2, ∑ j : Fin n3, if b = b' ∧ P b k i j then f b k i j else 0)
      = ∑ k : Fin n1, ∑ i : Fin n2, ∑ j : Fin n3, if P b' k i j then f b' k i j else 0 := by
  rw [Finset.sum_eq_single b']
  · refine Finset.sum_congr rfl fun k _ => Finset.sum_congr rfl fun i _ => Finset.sum_congr rfl fun j _ => ?_
    exact if_congr (and_iff_right rfl) rfl rfl
  · intro b _ hb
    exact Finset.sum_eq_zero fun k _ => Finset.sum_eq_zero fun i _ => Finset.sum_eq_zero fun j _ =>
      if_neg fun h => hb h.1
  · intro h
    exact absurd (Finset.mem_univ b') h

/-! ## The point scatter -/

abbrev SCanvas : Shape := ⟨3, ![16, 512, 512]⟩
abbrev SWords : Shape := ⟨5, ![16, 512, 64, 64, 3]⟩
abbrev SWord1 : Shape := ⟨5, ![16, 512, 64, 64, 1]⟩
abbrev SUpd : Shape := ⟨4, ![16, 512, 64, 64]⟩

/-- The dimension numbers of the point scatter: no window axes, all three canvas axes inserted and named by the three
    index words in order, the words along axis 4 of the index array. -/
abbrev pointDims (wf : ScatterDims.WF SCanvas SWords SUpd [] [0, 1, 2] [0, 1, 2] 4) : ScatterDims SCanvas SWords SUpd where
  updateWindowDims := []
  insertedWindowDims := [0, 1, 2]
  scatterDimsToOperandDims := [0, 1, 2]
  indexVectorDim := 4
  wf := wf

section
variable (wf : ScatterDims.WF SCanvas SWords SUpd [] [0, 1, 2] [0, 1, 2] 4) (idx : IVec SWords 32)
  (b : Fin 16) (k : Fin 512) (i j : Fin 64)

/-- On canvas axis 0 the start of update (b, k, i, j) is its first word read signed. -/
theorem pointDims_start0 : (pointDims wf).start (ix4 b k i j) idx (0 : Fin 3) = (idx (ix5 b k i j 0)).toInt := by
  unfold ScatterDims.start
  have hmem : (0 : Fin 3) ∈ (pointDims wf).scatterDimsToOperandDims := by
    show (0 : Fin 3) ∈ ([0, 1, 2] : List (Fin 3))
    decide
  rw [dif_pos hmem]
  have hsi : (pointDims wf).siIdx (ix4 b k i j) ⟨List.idxOf (0 : Fin 3) (pointDims wf).scatterDimsToOperandDims,
      List.idxOf_lt_length_iff.2 hmem⟩ = ix5 b k i j 0 := by
    funext a; refine Fin.ext ?_
    match a with
    | ⟨0, _⟩ => rfl
    | ⟨1, _⟩ => rfl
    | ⟨2, _⟩ => rfl
    | ⟨3, _⟩ => rfl
    | ⟨4, _⟩ => rfl
  rw [hsi]

/-- On canvas axis 1 the start is the second word read signed. -/
theorem pointDims_start1 : (pointDims wf).start (ix4 b k i j) idx (1 : Fin 3) = (idx (ix5 b k i j 1)).toInt := by
  unfold ScatterDims.start
  have hmem : (1 : Fin 3) ∈ (pointDims wf).scatterDimsToOperandDims := by
    show (1 : Fin 3) ∈ ([0, 1, 2] : List (Fin 3))
    decide
  rw [dif_pos hmem]
  have hsi : (pointDims wf).siIdx (ix4 b k i j) ⟨List.idxOf (1 : Fin 3) (pointDims wf).scatterDimsToOperandDims,
      List.idxOf_lt_length_iff.2 hmem⟩ = ix5 b k i j 1 := by
    funext a; refine Fin.ext ?_
    match a with
    | ⟨0, _⟩ => rfl
    | ⟨1, _⟩ => rfl
    | ⟨2, _⟩ => rfl
    | ⟨3, _⟩ => rfl
    | ⟨4, _⟩ => rfl
  rw [hsi]

/-- On canvas axis 2 the start is the third word read signed. -/
theorem pointDims_start2 : (pointDims wf).start (ix4 b k i j) idx (2 : Fin 3) = (idx (ix5 b k i j 2)).toInt := by
  unfold ScatterDims.start
  have hmem : (2 : Fin 3) ∈ (pointDims wf).scatterDimsToOperandDims := by
    show (2 : Fin 3) ∈ ([0, 1, 2] : List (Fin 3))
    decide
  rw [dif_pos hmem]
  have hsi : (pointDims wf).siIdx (ix4 b k i j) ⟨List.idxOf (2 : Fin 3) (pointDims wf).scatterDimsToOperandDims,
      List.idxOf_lt_length_iff.2 hmem⟩ = ix5 b k i j 2 := by
    funext a; refine Fin.ext ?_
    match a with
    | ⟨0, _⟩ => rfl
    | ⟨1, _⟩ => rfl
    | ⟨2, _⟩ => rfl
    | ⟨3, _⟩ => rfl
    | ⟨4, _⟩ => rfl
  rw [hsi]

/-- On every canvas axis the start is the word of that axis read signed. -/
theorem pointDims_start (a : Fin 3) : (pointDims wf).start (ix4 b k i j) idx a = (idx (ix5 b k i j a)).toInt := by
  match a with
  | ⟨0, _⟩ => exact pointDims_start0 wf idx b k i j
  | ⟨1, _⟩ => exact pointDims_start1 wf idx b k i j
  | ⟨2, _⟩ => exact pointDims_start2 wf idx b k i j

/-- A point has no window: the window coordinate is 0 on every canvas axis (all three are inserted). -/
theorem pointDims_window (a : Fin 3) : (pointDims wf).window (ix4 b k i j) a = 0 := by
  unfold ScatterDims.window
  rw [dif_neg]
  show a ∉ SCanvas.kept [0, 1, 2]
  have : SCanvas.kept [0, 1, 2] = [] := by decide
  rw [this]
  exact List.not_mem_nil

/-- THE LANDING TEST: update (b, k, i, j) lands on cell `y` exactly when its three words, read signed, are `y`'s
    coordinates. -/
theorem pointDims_resultIdx_iff (y : SCanvas.Idx) :
    (pointDims wf).resultIdx? (ix4 b k i j) idx = some y ↔
      ∀ a : Fin 3, (idx (ix5 b k i j a)).toInt = ((y a).val : Int) := by
  have hsum : ∀ a : Fin 3, (pointDims wf).start (ix4 b k i j) idx a + ((pointDims wf).window (ix4 b k i j) a : Nat)
      = (idx (ix5 b k i j a)).toInt := by
    intro a
    rw [pointDims_start wf idx b k i j a, pointDims_window wf b k i j a]
    simp
  unfold ScatterDims.resultIdx?
  constructor
  · intro h a
    split at h
    · rename_i hin
      have h2 := congrArg Fin.val (congrFun (Option.some.inj h) a)
      have h3 := (hin a).1
      change ((pointDims wf).start (ix4 b k i j) idx a + ((pointDims wf).window (ix4 b k i j) a : Nat)).toNat = (y a).val at h2
      rw [hsum a] at h2 h3
      omega
    · exact absurd h (by simp)
  · intro hv
    have hin : ∀ a, 0 ≤ (pointDims wf).start (ix4 b k i j) idx a + ((pointDims wf).window (ix4 b k i j) a : Nat)
        ∧ (pointDims wf).start (ix4 b k i j) idx a + ((pointDims wf).window (ix4 b k i j) a : Nat) < (SCanvas.size a : Nat) := by
      intro a
      rw [hsum a, hv a]
      have := (y a).isLt
      omega
    rw [dif_pos hin]
    congr 1
    funext a
    refine Fin.ext ?_
    show ((pointDims wf).start (ix4 b k i j) idx a + ((pointDims wf).window (ix4 b k i j) a : Nat)).toNat = (y a).val
    rw [hsum a, hv a]
    simp

end

/-- THE POINT SCATTER-ADD READ AT A CELL (at the extended reals): the old cell plus, over all updates (b, k, i, j), the
    update if its three words name the cell, zero otherwise. -/
theorem hostScatterAdd_point_apply (wf : ScatterDims.WF SCanvas SWords SUpd [] [0, 1, 2] [0, 1, 2] 4)
    (x : SCanvas.Idx → EReal) (idx : IVec SWords 32) (upd : SUpd.Idx → EReal) (y : SCanvas.Idx) :
    Ideal.hostScatterAdd (pointDims wf) x idx upd y
      = x y + ∑ b : Fin 16, ∑ k : Fin 512, ∑ i : Fin 64, ∑ j : Fin 64,
          if (∀ a : Fin 3, (idx (ix5 b k i j a)).toInt = ((y a).val : Int)) then upd (ix4 b k i j) else 0 := by
  unfold Ideal.hostScatterAdd
  congr 1
  rw [Finset.sum_filter, sum_idx4]
  refine Finset.sum_congr rfl fun b _ => Finset.sum_congr rfl fun k _ => Finset.sum_congr rfl fun i _ =>
    Finset.sum_congr rfl fun j _ => ?_
  exact if_congr (pointDims_resultIdx_iff wf idx b k i j y) rfl rfl

/-! ## The index array: three columns laid side by side -/

section
variable {α : Type} (p0 p1 p2 : SWord1.Idx → α)
  (h : Shape.Concatenates [SWord1, SWord1, SWord1] SWords 4) (b : Fin 16) (k : Fin 512) (i j : Fin 64)

/-- Column 0 of the concatenation is the first array. -/
theorem concat3_col0 :
    concatenate SWords 4 [⟨SWord1, p0⟩, ⟨SWord1, p1⟩, ⟨SWord1, p2⟩] h (ix5 b k i j 0) = p0 (ix5 b k i j 0) := by
  refine concatenate_apply_piece (t := SWords) (4 : Fin 5) [⟨SWord1, p0⟩, ⟨SWord1, p1⟩, ⟨SWord1, p2⟩] h _ 0 (by show (0 : Nat) < 3; omega) SWord1 p0 rfl rfl 0 rfl (ix5 b k i j 0) ?_ rfl
  intro a _
  match a with
  | ⟨0, _⟩ => rfl
  | ⟨1, _⟩ => rfl
  | ⟨2, _⟩ => rfl
  | ⟨3, _⟩ => rfl
  | ⟨4, _⟩ => rfl

/-- Column 1 of the concatenation is the second array. -/
theorem concat3_col1 :
    concatenate SWords 4 [⟨SWord1, p0⟩, ⟨SWord1, p1⟩, ⟨SWord1, p2⟩] h (ix5 b k i j 1) = p1 (ix5 b k i j 0) := by
  refine concatenate_apply_piece (t := SWords) (4 : Fin 5) [⟨SWord1, p0⟩, ⟨SWord1, p1⟩, ⟨SWord1, p2⟩] h _ 1 (by show (1 : Nat) < 3; omega) SWord1 p1 rfl rfl 1 rfl (ix5 b k i j 0) ?_ rfl
  intro a ha
  match a, ha with
  | ⟨0, _⟩, _ => rfl
  | ⟨1, _⟩, _ => rfl
  | ⟨2, _⟩, _ => rfl
  | ⟨3, _⟩, _ => rfl
  | ⟨4, _⟩, ha => exact absurd rfl ha

/-- Column 2 of the concatenation is the third array. -/
theorem concat3_col2 :
    concatenate SWords 4 [⟨SWord1, p0⟩, ⟨SWord1, p1⟩, ⟨SWord1, p2⟩] h (ix5 b k i j 2) = p2 (ix5 b k i j 0) := by
  refine concatenate_apply_piece (t := SWords) (4 : Fin 5) [⟨SWord1, p0⟩, ⟨SWord1, p1⟩, ⟨SWord1, p2⟩] h _ 2 (by show (2 : Nat) < 3; omega) SWord1 p2 rfl rfl 2 rfl (ix5 b k i j 0) ?_ rfl
  intro a ha
  match a, ha with
  | ⟨0, _⟩, _ => rfl
  | ⟨1, _⟩, _ => rfl
  | ⟨2, _⟩, _ => rfl
  | ⟨3, _⟩, _ => rfl
  | ⟨4, _⟩, ha => exact absurd rfl ha

end

end Cert.RefValue

end
-- ==== Proof.RefIndices.lean ====
/-
  The three index words of every update, read off the reference's index arrays.

  Update (b, k, i, j) carries the batch word b (an iota along the batch axis), the row word c_h + i and the column word
  c_w + j, where c_h, c_w are the two corner words of patch k of batch b and i, j run over an iota of 64; each word is
  then wrapped once by its axis' extent if it reads negative. The program builds these arrays twice, once for the
  scatter of the patch values and once for the scatter of the ones; the two copies are the same operations under
  other names, and both are read here.
-/
import proofs.«425958_j53352083751494_3_alg».proof.Proof.Gen.ReferenceIdeal.Read
import proofs.«425958_j53352083751494_3_alg».proof.Proof.RefWords
import proofs.«425958_j53352083751494_3_alg».proof.Proof.RefScatter

noncomputable section

namespace Cert.RefValue

open Idealize.ShloMosaic Idealize.ShloMosaic.ValueIdx Cert.ReferenceIdeal Cert.ReferenceIdeal.Read

/-- The corner table as the reference program holds it. -/
abbrev Corners : Type := (⟨S16x512x2, .i32⟩ : BufTy).Contents (Elt Ideal)

section
variable (x1 : Corners) (b : Fin 16) (k : Fin 512) (i j : Fin 64)

/-- The batch index array at update (b, k, i, j) is the word of b. -/
theorem v19_at : val_main_v19 (F := Ideal) (ix4 b k i j) = BitVec.ofNat 32 b.val := by
  rw [val_main_v19_apply, val_main_v18_apply, val_main_v17_apply]

/-- The row index array before the wrap: the row corner of patch k plus the offset i. -/
theorem v15_at : val_main_v15 (F := Ideal) x1 (ix4 b k i j) = IntOp.addi (x1 (ix3 b k 0)) (BitVec.ofNat 32 i.val) := by
  rw [val_main_v15_apply, val_main_v7_apply, val_main_v5_apply, val_main_v3_apply, val_main_v2_apply, val_main_v1_apply,
    val_main_v6_apply, val_main_v4_apply, val_main_v0_apply]
  have hidx : idx_main_v1 (idx_main_v2 (idx_main_v3 (idx_main_v5 (idx_main_v15 (ix4 b k i j))))) = ix3 b k 0 := by
    have hb := b.isLt
    have hk := k.isLt
    funext a; refine Fin.ext ?_
    match a with
    | ⟨0, _⟩ => show (b.val * 512 + k.val) / 512 = b.val; omega
    | ⟨1, _⟩ => show (b.val * 512 + k.val) / 1 % 512 = k.val; omega
    | ⟨2, _⟩ => rfl
  rw [hidx]

/-- The column index array before the wrap: the column corner of patch k plus the offset j. -/
theorem v16_at : val_main_v16 (F := Ideal) x1 (ix4 b k i j) = IntOp.addi (x1 (ix3 b k 1)) (BitVec.ofNat 32 j.val) := by
  rw [val_main_v16_apply, val_main_v14_apply, val_main_v12_apply, val_main_v10_apply, val_main_v9_apply, val_main_v8_apply,
    val_main_v13_apply, val_main_v11_apply, val_main_v0_apply]
  have hidx : idx_main_v8 (idx_main_v9 (idx_main_v10 (idx_main_v12 (idx_main_v16 (ix4 b k i j))))) = ix3 b k 1 := by
    have hb := b.isLt
    have hk := k.isLt
    funext a; refine Fin.ext ?_
    match a with
    | ⟨0, _⟩ => show (b.val * 512 + k.val) / 512 = b.val; omega
    | ⟨1, _⟩ => show (b.val * 512 + k.val) / 1 % 512 = k.val; omega
    | ⟨2, _⟩ => rfl
  rw [hidx]

/-! ### The wrapped words, first copy (the scatter of the patch values) -/

/-- The wrapped batch word. -/
theorem v26_at : val_main_v26 (F := Ideal) (ix4 b k i j) = wrapNeg 16#32 (BitVec.ofNat 32 b.val) := by
  rw [val_main_v26_apply, val_main_v23_apply, val_main_v25_apply, val_main_v22_apply, val_main_v24_apply,
    val_main_c_apply, val_main_c_0_apply, v19_at]
  rfl

/-- The wrapped row word. -/
theorem v31_at : val_main_v31 (F := Ideal) x1 (ix4 b k i j) = wrapNeg 512#32 (IntOp.addi (x1 (ix3 b k 0)) (BitVec.ofNat 32 i.val)) := by
  rw [val_main_v31_apply, val_main_v28_apply, val_main_v30_apply, val_main_v27_apply, val_main_v29_apply,
    val_main_c_1_apply, val_main_c_2_apply, v15_at]
  rfl

/-- The wrapped column word. -/
theorem v36_at : val_main_v36 (F := Ideal) x1 (ix4 b k i j) = wrapNeg 512#32 (IntOp.addi (x1 (ix3 b k 1)) (BitVec.ofNat 32 j.val)) := by
  rw [val_main_v36_apply, val_main_v33_apply, val_main_v35_apply, val_main_v32_apply, val_main_v34_apply,
    val_main_c_3_apply, val_main_c_4_apply, v16_at]
  rfl

/-! ### The wrapped words, second copy (the scatter of the ones) -/

/-- The wrapped batch word. -/
theorem v48_at : val_main_v48 (F := Ideal) (ix4 b k i j) = wrapNeg 16#32 (BitVec.ofNat 32 b.val) := by
  rw [val_main_v48_apply, val_main_v45_apply, val_main_v47_apply, val_main_v44_apply, val_main_v46_apply,
    val_main_c_7_apply, val_main_c_8_apply, v19_at]
  rfl

/-- The wrapped row word. -/
theorem v53_at : val_main_v53 (F := Ideal) x1 (ix4 b k i j) = wrapNeg 512#32 (IntOp.addi (x1 (ix3 b k 0)) (BitVec.ofNat 32 i.val)) := by
  rw [val_main_v53_apply, val_main_v50_apply, val_main_v52_apply, val_main_v49_apply, val_main_v51_apply,
    val_main_c_9_apply, val_main_c_10_apply, v15_at]
  rfl

/-- The wrapped column word. -/
theorem v58_at : val_main_v58 (F := Ideal) x1 (ix4 b k i j) = wrapNeg 512#32 (IntOp.addi (x1 (ix3 b k 1)) (BitVec.ofNat 32 j.val)) := by
  rw [val_main_v58_apply, val_main_v55_apply, val_main_v57_apply, val_main_v54_apply, val_main_v56_apply,
    val_main_c_11_apply, val_main_c_12_apply, v16_at]
  rfl

/-! ### The columns of the two index arrays -/

/-- Word 0 of an update of the first scatter: its batch. -/
theorem v40_col0 : val_main_v40 (F := Ideal) x1 (ix5 b k i j 0) = wrapNeg 16#32 (BitVec.ofNat 32 b.val) := by
  unfold val_main_v40
  refine (concat3_col0 _ _ _ _ b k i j).trans ?_
  rw [val_main_v37_apply]
  have hidx : idx_main_v37 (ix5 b k i j (0 : Fin 1)) = ix4 b k i j := by
    funext a
    match a with
    | ⟨0, _⟩ => rfl
    | ⟨1, _⟩ => rfl
    | ⟨2, _⟩ => rfl
    | ⟨3, _⟩ => rfl
  rw [hidx]
  exact v26_at b k i j

/-- Word 1 of an update of the first scatter: its row. -/
theorem v40_col1 : val_main_v40 (F := Ideal) x1 (ix5 b k i j 1) = wrapNeg 512#32 (IntOp.addi (x1 (ix3 b k 0)) (BitVec.ofNat 32 i.val)) := by
  unfold val_main_v40
  refine (concat3_col1 _ _ _ _ b k i j).trans ?_
  rw [val_main_v38_apply]
  have hidx : idx_main_v38 (ix5 b k i j (0 : Fin 1)) = ix4 b k i j := by
    funext a
    match a with
    | ⟨0, _⟩ => rfl
    | ⟨1, _⟩ => rfl
    | ⟨2, _⟩ => rfl
    | ⟨3, _⟩ => rfl
  rw [hidx]
  exact v31_at x1 b k i j

/-- Word 2 of an update of the first scatter: its column. -/
theorem v40_col2 : val_main_v40 (F := Ideal) x1 (ix5 b k i j 2) = wrapNeg 512#32 (IntOp.addi (x1 (ix3 b k 1)) (BitVec.ofNat 32 j.val)) := by
  unfold val_main_v40
  refine (concat3_col2 _ _ _ _ b k i j).trans ?_
  rw [val_main_v39_apply]
  have hidx : idx_main_v39 (ix5 b k i j (0 : Fin 1)) = ix4 b k i j := by
    funext a
    match a with
    | ⟨0, _⟩ => rfl
    | ⟨1, _⟩ => rfl
    | ⟨2, _⟩ => rfl
    | ⟨3, _⟩ => rfl
  rw [hidx]
  exact v36_at x1 b k i j

/-- Word 0 of an update of the second scatter: its batch. -/
theorem v62_col0 : val_main_v62 (F := Ideal) x1 (ix5 b k i j 0) = wrapNeg 16#32 (BitVec.ofNat 32 b.val) := by
  unfold val_main_v62
  refine (concat3_col0 _ _ _ _ b k i j).trans ?_
  rw [val_main_v59_apply]
  have hidx : idx_main_v59 (ix5 b k i j (0 : Fin 1)) = ix4 b k i j := by
    funext a
    match a with
    | ⟨0, _⟩ => rfl
    | ⟨1, _⟩ => rfl
    | ⟨2, _⟩ => rfl
    | ⟨3, _⟩ => rfl
  rw [hidx]
  exact v48_at b k i j

/-- Word 1 of an update of the second scatter: its row. -/
theorem v62_col1 : val_main_v62 (F := Ideal) x1 (ix5 b k i j 1) = wrapNeg 512#32 (IntOp.addi (x1 (ix3 b k 0)) (BitVec.ofNat 32 i.val)) := by
  unfold val_main_v62
  refine (concat3_col1 _ _ _ _ b k i j).trans ?_
  rw [val_main_v60_apply]
  have hidx : idx_main_v60 (ix5 b k i j (0 : Fin 1)) = ix4 b k i j := by
    funext a
    match a with
    | ⟨0, _⟩ => rfl
    | ⟨1, _⟩ => rfl
    | ⟨2, _⟩ => rfl
    | ⟨3, _⟩ => rfl
  rw [hidx]
  exact v53_at x1 b k i j

/-- Word 2 of an update of the second scatter: its column. -/
theorem v62_col2 : val_main_v62 (F := Ideal) x1 (ix5 b k i j 2) = wrapNeg 512#32 (IntOp.addi (x1 (ix3 b k 1)) (BitVec.ofNat 32 j.val)) := by
  unfold val_main_v62
  refine (concat3_col2 _ _ _ _ b k i j).trans ?_
  rw [val_main_v61_apply]
  have hidx : idx_main_v61 (ix5 b k i j (0 : Fin 1)) = ix4 b k i j := by
    funext a
    match a with
    | ⟨0, _⟩ => rfl
    | ⟨1, _⟩ => rfl
    | ⟨2, _⟩ => rfl
    | ⟨3, _⟩ => rfl
  rw [hidx]
  exact v58_at x1 b k i j

end

end Cert.RefValue

end
-- ==== Proof.RefResult.lean ====
/-
  The reference program computes the normalised canvas.

  The first scatter starts from a canvas of zeros and adds every patch entry at the cell its three index words name;
  by the row and column tests an entry (b, k, i, j) names cell (b', h, w) exactly when b = b' and the entry lands on
  (h, w) in the sense of the specification, so the scattered canvas at (b', h, w) is the sum "placed" of the entries
  landing there (the sum over the batch index collapses to b'). The second scatter does the same with the constant one
  in place of the entries and gives "count". The program then divides the first canvas by the larger of the second and
  1.0, cell by cell, and inserts a unit axis: that is G.
-/
import proofs.«425958_j53352083751494_3_alg».proof.Proof.Spec
import proofs.«425958_j53352083751494_3_alg».proof.Proof.RefIndices
import Idealize.ShloMosaic.Lib.IdealHost
import Idealize.ShloMosaic.PureOps.Ideal.Laws

noncomputable section

open scoped BigOperators

namespace Cert.RefValue

open Idealize.ShloMosaic Idealize.ShloMosaic.ValueIdx Cert.ReferenceIdeal Cert.ReferenceIdeal.Read

/-- An update's three words name the cell (b', h, w) exactly when its batch is b' and it lands on row h and column w. -/
theorem words_name_iff (idx : IVec SWords 32) (coords : Cert.Spec.SCoord.Idx → BitVec 32)
    (hnn : ∀ x, (coords x).toNat < 2 ^ 31) (b : Fin 16) (k : Fin 512) (i j : Fin 64)
    (h0 : idx (ix5 b k i j 0) = wrapNeg 16#32 (BitVec.ofNat 32 b.val))
    (h1 : idx (ix5 b k i j 1) = wrapNeg 512#32 (IntOp.addi (coords (ix3 b k 0)) (BitVec.ofNat 32 i.val)))
    (h2 : idx (ix5 b k i j 2) = wrapNeg 512#32 (IntOp.addi (coords (ix3 b k 1)) (BitVec.ofNat 32 j.val)))
    (b' : Fin 16) (h w : Fin 512) :
    (∀ a : Fin 3, (idx (ix5 b k i j a)).toInt = (((ix3 b' h w : SCanvas.Idx) a).val : Int)) ↔
      b = b' ∧ Cert.Spec.hit coords b k i j h w := by
  constructor
  · intro hx
    have e0 : (idx (ix5 b k i j 0)).toInt = (b'.val : Int) := hx 0
    have e1 : (idx (ix5 b k i j 1)).toInt = (h.val : Int) := hx 1
    have e2 : (idx (ix5 b k i j 2)).toInt = (w.val : Int) := hx 2
    rw [h0, wrapNeg_batch_toInt] at e0
    rw [h1] at e1
    rw [h2] at e2
    refine ⟨Fin.ext (by exact_mod_cast e0), ?_⟩
    unfold Cert.Spec.hit Cert.Spec.lands
    exact ⟨(wrapNeg_toInt_eq_iff _ (hnn _) i h).mp e1, (wrapNeg_toInt_eq_iff _ (hnn _) j w).mp e2⟩
  · rintro ⟨hb, hh⟩ a
    unfold Cert.Spec.hit Cert.Spec.lands at hh
    match a with
    | ⟨0, _⟩ =>
      show (idx (ix5 b k i j 0)).toInt = (b'.val : Int)
      rw [h0, wrapNeg_batch_toInt, hb]
    | ⟨1, _⟩ =>
      show (idx (ix5 b k i j 1)).toInt = (h.val : Int)
      rw [h1]
      exact (wrapNeg_toInt_eq_iff _ (hnn _) i h).mpr hh.1
    | ⟨2, _⟩ =>
      show (idx (ix5 b k i j 2)).toInt = (w.val : Int)
      rw [h2]
      exact (wrapNeg_toInt_eq_iff _ (hnn _) j w).mpr hh.2

/-- The patch values as the scatter's updates: update (b, k, i, j) is entry (i, j) of patch k of batch b. -/
theorem v20_at (patch : Cert.Spec.SPatch.Idx → EReal) (b : Fin 16) (k : Fin 512) (i j : Fin 64) :
    val_main_v20 (F := Ideal) patch (ix4 b k i j) = patch (ix5 b k (0 : Fin 1) i j) := by
  rw [val_main_v20_apply]
  congr 1
  have hb := b.isLt
  have hk := k.isLt
  have hi := i.isLt
  have hj := j.isLt
  funext a; refine Fin.ext ?_
  match a with
  | ⟨0, _⟩ => show (((b.val * 512 + k.val) * 64 + i.val) * 64 + j.val) / 2097152 = b.val; omega
  | ⟨1, _⟩ => show (((b.val * 512 + k.val) * 64 + i.val) * 64 + j.val) / 4096 % 512 = k.val; omega
  | ⟨2, _⟩ => rfl
  | ⟨3, _⟩ => show (((b.val * 512 + k.val) * 64 + i.val) * 64 + j.val) / 64 % 64 = i.val; omega
  | ⟨4, _⟩ => show (((b.val * 512 + k.val) * 64 + i.val) * 64 + j.val) % 64 = j.val; omega

/-- The updates of the second scatter are all the extended real one. -/
theorem v43_at (y : S16x512x64x64.Idx) : val_main_v43 (F := Ideal) y = 1 := by
  rw [val_main_v43_apply, val_main_cst_6_apply]
  exact Ideal.ofBits_one_f32

/-- THE FIRST SCATTER IS "placed". -/
theorem v41_eq (patch : Cert.Spec.SPatch.Idx → EReal) (coords : Cert.Spec.SCoord.Idx → BitVec 32)
    (hnn : ∀ x, (coords x).toNat < 2 ^ 31) (b' : Fin 16) (h w : Fin 512) :
    val_main_v41 (F := Ideal) patch coords (ix3 b' h w) = Cert.Spec.placed patch coords b' h w := by
  have hwf : ScatterDims.WF SCanvas SWords SUpd [] [0, 1, 2] [0, 1, 2] 4 :=
    Facts₀.scatter_S16x512x512_S16x512x64x64x3_S16x512x64x64_n_012_012_4_wf
  have hread : val_main_v41 (F := Ideal) patch coords (ix3 b' h w)
      = Ideal.hostScatterAdd (pointDims hwf) (val_main_v21 (F := Ideal)) (val_main_v40 (F := Ideal) coords)
          (val_main_v20 (F := Ideal) patch) (ix3 b' h w) := rfl
  have hzero : val_main_v21 (F := Ideal) (ix3 b' h w) = 0 := by
    rw [val_main_v21_apply, val_main_cst_apply]
    exact Ideal.ofBits_zero_f32
  rw [hread, hostScatterAdd_point_apply, hzero, zero_add]
  refine (Finset.sum_congr rfl fun b _ => Finset.sum_congr rfl fun k _ => Finset.sum_congr rfl fun i _ =>
    Finset.sum_congr rfl fun j _ =>
      (if_congr (words_name_iff (val_main_v40 (F := Ideal) coords) coords hnn b k i j
          (v40_col0 coords b k i j) (v40_col1 coords b k i j) (v40_col2 coords b k i j) b' h w)
        (v20_at patch b k i j) rfl)).trans ?_
  exact sum_first_eq b' (fun b k i j => Cert.Spec.hit coords b k i j h w)
    (fun b k i j => patch (ix5 b k (0 : Fin 1) i j))

/-- THE SECOND SCATTER IS "count". -/
theorem v63_eq (coords : Cert.Spec.SCoord.Idx → BitVec 32)
    (hnn : ∀ x, (coords x).toNat < 2 ^ 31) (b' : Fin 16) (h w : Fin 512) :
    val_main_v63 (F := Ideal) coords (ix3 b' h w) = Cert.Spec.count coords b' h w := by
  have hwf : ScatterDims.WF SCanvas SWords SUpd [] [0, 1, 2] [0, 1, 2] 4 :=
    Facts₀.scatter_S16x512x512_S16x512x64x64x3_S16x512x64x64_n_012_012_4_wf
  have hread : val_main_v63 (F := Ideal) coords (ix3 b' h w)
      = Ideal.hostScatterAdd (pointDims hwf) (val_main_v42 (F := Ideal)) (val_main_v62 (F := Ideal) coords)
          (val_main_v43 (F := Ideal)) (ix3 b' h w) := rfl
  have hzero : val_main_v42 (F := Ideal) (ix3 b' h w) = 0 := by
    rw [val_main_v42_apply, val_main_cst_5_apply]
    exact Ideal.ofBits_zero_f32
  rw [hread, hostScatterAdd_point_apply, hzero, zero_add]
  refine (Finset.sum_congr rfl fun b _ => Finset.sum_congr rfl fun k _ => Finset.sum_congr rfl fun i _ =>
    Finset.sum_congr rfl fun j _ =>
      (if_congr (words_name_iff (val_main_v62 (F := Ideal) coords) coords hnn b k i j
          (v62_col0 coords b k i j) (v62_col1 coords b k i j) (v62_col2 coords b k i j) b' h w)
        (v43_at (ix4 b k i j)) rfl)).trans ?_
  exact sum_first_eq b' (fun b k i j => Cert.Spec.hit coords b k i j h w)
    (fun _ _ _ _ => (1 : EReal))

/-- THE RESULT: the reference's last stage is the normalised canvas of the specification. -/
theorem result_eq (patch : Cert.Spec.SPatch.Idx → EReal) (coords : Cert.Spec.SCoord.Idx → BitVec 32)
    (hnn : ∀ x, (coords x).toNat < 2 ^ 31) :
    val_main_v67 (F := Ideal) patch coords = Cert.Spec.G patch coords := by
  funext y
  obtain ⟨p, o, q, r, rfl⟩ : ∃ (p : Fin 16) (o : Fin 1) (q r : Fin 512), y = ix4 p o q r :=
    ⟨y 0, y 1, y 2, y 3, eq_ix4 y⟩
  have hidx : idx_main_v67 (ix4 p o q r) = ix3 p q r := by
    funext a
    match a with
    | ⟨0, _⟩ => rfl
    | ⟨1, _⟩ => rfl
    | ⟨2, _⟩ => rfl
  rw [val_main_v67_apply, val_main_v66_apply, val_main_v65_apply, val_main_v64_apply, val_main_cst_13_apply, hidx,
    v41_eq patch coords hnn p q r, v63_eq coords hnn p q r]
  rfl

end Cert.RefValue

end
-- ==== Proof.RefValue.lean ====
/-
  The reference program's run, stated with the specification's canvas.

  Every execution of the reference program ends with its result buffer holding the program's composed term of the two
  argument arrays and with the arguments unchanged. That term is the normalised canvas G of the patch values and the
  corner table as soon as every corner word is below 2^31, which is how the run is restated here; dropping the result
  leaves the frame claim.
-/
import proofs.«425958_j53352083751494_3_alg».proof.Defs
import proofs.«425958_j53352083751494_3_alg».proof.Proof.Gen.Pre_finite_inputs
import proofs.«425958_j53352083751494_3_alg».proof.Proof.RefResult

noncomputable section

namespace Cert.RefValue

open Idealize.ShloMosaic Idealize.SL.Sem Cert.ReferenceIdeal

/-- THE REFERENCE'S RUN: from any memory whose corner words are all below 2^31, every execution terminates with the
    result buffer at the normalised canvas of the launch contents of the two arguments, and the arguments unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg)
    (hnn : ∀ (c : Dev Cert.ReferenceIdeal.nD) (x : Cert.Spec.SCoord.Idx),
      ((m' ((c.tc : Thread Cert.ReferenceIdeal.nD Cert.ReferenceIdeal.τ).loc Cert.ReferenceIdeal.main_arg1) :
        Cert.Spec.SCoord.Idx → BitVec 32) x).toNat < 2 ^ 31) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v67)
          = Cert.Spec.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)) :=
  (θ_run Cert.ReferenceIdeal.defs _ _).mono
    (fun _ h c => ⟨((h c).1.trans (Cert.ReferenceIdeal.Read.val_main_v67_eq m' c)).trans
        (result_eq _ _ (hnn c)), (h c).2⟩)
    (Cert.ReferenceIdeal.Value.run (F := Ideal) m' ρ')

/-- THE REFERENCE'S FRAME: its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

end Cert.RefValue

end
-- ==== Proof.PreDecode.lean ====
/-
  The integer half of the precondition, read back.

  The precondition is the conjunction of two "all" tests, each a reduction by "and" of a table of bits down to one bit:
  the first over |patch| < +inf, the second over the signed comparison coords >= 0. When the conjunction is the bit 1,
  the second reduction is 1, so every bit of the comparison table is 1, so every corner word is non-negative as a signed
  32-bit integer. A non-negative signed word has its sign bit clear, which is to say its unsigned value is below 2^31.
-/
import proofs.«425958_j53352083751494_3_alg».proof.Pre_finite_inputs
import proofs.«425958_j53352083751494_3_alg».proof.Proof.Gen.Pre_finite_inputs
import Idealize.ShloMosaic.Lib.ReduceAll
import Idealize.ShloMosaic.Lib.ValueIdx

namespace Cert.PreDecode

open Idealize.ShloMosaic

/-- The rank-0 shape has exactly one index. -/
instance : Subsingleton Cert.Pre_finite_inputs.S_.Idx := ⟨fun _ _ => funext fun d => d.elim0⟩

/-- A 32-bit word that compares signed-greater-or-equal to zero has an unsigned value below 2^31. -/
theorem toNat_lt_of_sge_zero (a : BitVec 32) (h : IntOp.cmpi .sge a 0#32 = 1#1) : a.toNat < 2 ^ 31 := by
  rw [IntOp.cmpi_sge] at h
  have h0 : (0#32 : BitVec 32).toInt = 0 := by decide
  rw [h0, BitVec.toInt_eq_toNat_cond] at h
  split at h
  · omega
  · have := a.isLt
    omega

/-- Under the precondition every corner word is below 2^31. -/
theorem coords_nonneg [Cert.Pre_finite_inputs.Facts] {F : FTy → Type} [FloatOps F]
    (patch : FVec F Cert.Pre_finite_inputs.S16x512x1x64x64 .f32) (coords : IVec Cert.Pre_finite_inputs.S16x512x2 32)
    (h : Cert.Pre_finite_inputs.fn (F := F) patch coords = (fun _ => 1#1)) : ∀ x, (coords x).toNat < 2 ^ 31 := by
  intro x
  have h0 := congrFun h ValueIdx.ix0
  dsimp only [Cert.Pre_finite_inputs.fn, andi] at h0
  have h1 := (IntOp.andi_eq_one.1 h0).2
  have h2 := Host.reduce_andi_all _ _ _ _ _ h1 x
  exact toNat_lt_of_sge_zero (coords x) h2

end Cert.PreDecode
-- ==== Proof.Preserves.lean ====
/-
  The idealised kernel differs from the printed kernel only where a value is narrowed from f32 to bf16 and widened back.
  Over the extended reals that round trip is the identity, and on words it is the rounding through bf16, element by
  element: both hold by unfolding, at either of the two shapes the kernel narrows (512 x 64 and 64 x 512). The claim
  lists one such statement per narrowing in the kernel, 64 in all, alternating two of the first shape and two of the
  second.
-/
import proofs.«425958_j53352083751494_3_alg».proof.Defs

namespace Cert.Preserves

open Idealize.ShloMosaic

/-- The round trip through bf16 at shape 512 x 64. -/
theorem narrow_512x64 : IdealRules.truncf_extf.Statement Cert.KernelIdeal.S512x64 .f32 .bf16 :=
  IdealRules.truncf_extf.statement _ _ _

/-- The round trip through bf16 at shape 64 x 512. -/
theorem narrow_64x512 : IdealRules.truncf_extf.Statement Cert.KernelIdeal.S64x512 .f32 .bf16 :=
  IdealRules.truncf_extf.statement _ _ _

/-- Every narrowing of the kernel is one of the two above. -/
theorem preserves : Cert.preserves_Kernel_KernelIdeal := by
  have a := narrow_512x64
  have b := narrow_64x512
  exact ⟨a, a, b, b,
    a, a, b, b,
    a, a, b, b,
    a, a, b, b,
    a, a, b, b,
    a, a, b, b,
    a, a, b, b,
    a, a, b, b,
    a, a, b, b,
    a, a, b, b,
    a, a, b, b,
    a, a, b, b,
    a, a, b, b,
    a, a, b, b,
    a, a, b, b,
    a, a, b, b⟩

end Cert.Preserves
-- ==== Proof.lean ====
/-
  The patch-placement kernel against its reference, over the extended reals.

  Both programs compute, for every batch b and canvas cell (h, w), the sum of the patch entries landing on the cell
  divided by max(number of landing entries, 1): the reference by a scatter-add of each patch at its corner, the kernel
  by one-hot placement matrices multiplied group by group into two accumulators. A patch row at offset i from corner
  word ch lands on row h exactly when ch + i = h; the two programs agree on this for corners that are non-negative as
  signed integers (for a negative corner the reference's scatter wraps the index and the kernel's comparison drops it),
  which is why the precondition asks the corners to be non-negative; rows at or beyond 512 are dropped by both.
  The three frames: each program terminates on every input without a fault and leaves its arguments unchanged (no
  precondition is needed for that). The idealised kernel differs from the printed one only by round trips through
  bf16, which are the identity on the extended reals.
-/
import proofs.«425958_j53352083751494_3_alg».proof.Defs
import proofs.«425958_j53352083751494_3_alg».proof.Proof.Gen.Kernel
import proofs.«425958_j53352083751494_3_alg».proof.Proof.Gen.KernelIdeal
import proofs.«425958_j53352083751494_3_alg».proof.Proof.Gen.ReferenceIdeal
import proofs.«425958_j53352083751494_3_alg».proof.Proof.Gen.Pre_finite_inputs
import proofs.«425958_j53352083751494_3_alg».proof.Proof.K.Frame
import proofs.«425958_j53352083751494_3_alg».proof.Proof.KI.Frame
import proofs.«425958_j53352083751494_3_alg».proof.Proof.KI.Value
import proofs.«425958_j53352083751494_3_alg».proof.Proof.RefValue
import proofs.«425958_j53352083751494_3_alg».proof.Proof.PreDecode
import proofs.«425958_j53352083751494_3_alg».proof.Proof.Preserves

noncomputable section

namespace Cert.Proof

open Idealize.ShloMosaic Idealize.SL.Sem

/-- Equal results: both runs end at the normalised canvas of the shared arguments. -/
theorem algebraic [hKI : Cert.KernelIdeal.Facts] [hRI : Cert.ReferenceIdeal.Facts] [hP : Cert.Pre_finite_inputs.Facts] :
    Cert.algebraic_KernelIdeal_ReferenceIdeal (hKernelIdeal := hKI) (hReferenceIdeal := hRI) (hPre_finite_inputs := hP) :=
  fun m g m' g' hpre hagree =>
    ⟨fun c => Cert.Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Hand.run_G m g (fun c x => Cert.PreDecode.coords_nonneg _ _ (hpre c) x),
      (θ_run Cert.ReferenceIdeal.defs _ _).mono
        (fun _ h c => ⟨by rw [(h c).1, (hagree c).1, (hagree c).2], (h c).2⟩)
        (Cert.RefValue.run_G m' g' (fun c x => by rw [(hagree c).2]; exact Cert.PreDecode.coords_nonneg _ _ (hpre c) x))⟩

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.RefValue.frame_ri,
    Cert.Preserves.preserves,
    algebraic⟩

end Cert.Proof

end
